-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v169)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v169) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v304) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S50000 : Shape := ⟨1, ![50000]⟩
abbrev S10000 : Shape := ⟨1, ![10000]⟩
abbrev S200000 : Shape := ⟨1, ![200000]⟩
abbrev S50000x64 : Shape := ⟨2, ![50000, 64]⟩
abbrev S10000x64 : Shape := ⟨2, ![10000, 64]⟩
abbrev S64x128 : Shape := ⟨2, ![64, 128]⟩
abbrev S128 : Shape := ⟨1, ![128]⟩
abbrev S128x128 : Shape := ⟨2, ![128, 128]⟩
abbrev S2x4x128x128 : Shape := ⟨4, ![2, 4, 128, 128]⟩
abbrev S2x4x128 : Shape := ⟨3, ![2, 4, 128]⟩
abbrev S128x1 : Shape := ⟨2, ![128, 1]⟩
abbrev S1 : Shape := ⟨1, ![1]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S10000x64 : S_.BroadcastsInDim S10000x64 (![] : Fin 0 → Fin S10000x64.rank)
  reducesTo_S10000x64_S_d0_1 : S10000x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2x4x128x128 : S_.BroadcastsInDim S2x4x128x128 (![] : Fin 0 → Fin S2x4x128x128.rank)
  reducesTo_S2x4x128x128_S_d0_1_2_3 : S2x4x128x128.ReducesTo [0, 1, 2, 3] S_
  bcast_S_S2x4x128 : S_.BroadcastsInDim S2x4x128 (![] : Fin 0 → Fin S2x4x128.rank)
  reducesTo_S2x4x128_S_d0_1_2 : S2x4x128.ReducesTo [0, 1, 2] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S50000 : S_.BroadcastsInDim S50000 (![] : Fin 0 → Fin S50000.rank)
  reducesTo_S50000_S_d0 : S50000.ReducesTo [0] S_
  bcast_S_S10000 : S_.BroadcastsInDim S10000 (![] : Fin 0 → Fin S10000.rank)
  reducesTo_S10000_S_d0 : S10000.ReducesTo [0] S_
  bcast_S_S200000 : S_.BroadcastsInDim S200000 (![] : Fin 0 → Fin S200000.rank)
  reducesTo_S200000_S_d0 : S200000.ReducesTo [0] S_

variable [Facts]

def fn_part7 {F : FTy → Type} [FloatOps F] (main_v113 : IVec S_ 1) (main_v118 : IVec S200000 1) : IVec S_ 1 :=
  let main_c_47 : IVec S_ 1 := constantI S_ 1 1#1
  let main_v119 : IVec S_ 1 := (fun x v => Host.reduce IntOp.andi x v reducesTo_S200000_S_d0 h_S_) main_v118 main_c_47
  let main_v120 : IVec S_ 1 := andi main_v113 main_v119
  main_v120

def fn_part6 {F : FTy → Type} [FloatOps F] (main_arg4 : IVec S200000 32) (main_arg5 : IVec S200000 32) (main_arg6 : IVec S200000 32) (main_v99 : IVec S_ 1) (main_v101 : IVec S200000 1) : IVec S_ 1 :=
  let main_c_40 : IVec S_ 32 := constantI S_ 32 200000#32
  let main_v102 : IVec S200000 32 := broadcastInDim S200000 ![] bcast_S_S200000 main_c_40
  let main_v103 : IVec S200000 1 := cmpi .slt main_arg4 main_v102
  let main_v104 : IVec S200000 1 := andi main_v101 main_v103
  let main_c_41 : IVec S_ 1 := constantI S_ 1 1#1
  let main_v105 : IVec S_ 1 := (fun x v => Host.reduce IntOp.andi x v reducesTo_S200000_S_d0 h_S_) main_v104 main_c_41
  let main_v106 : IVec S_ 1 := andi main_v99 main_v105
  let main_c_42 : IVec S_ 32 := constantI S_ 32 4294957296#32
  let main_v107 : IVec S200000 32 := broadcastInDim S200000 ![] bcast_S_S200000 main_c_42
  let main_v108 : IVec S200000 1 := cmpi .sge main_arg5 main_v107
  let main_c_43 : IVec S_ 32 := constantI S_ 32 10000#32
  let main_v109 : IVec S200000 32 := broadcastInDim S200000 ![] bcast_S_S200000 main_c_43
  let main_v110 : IVec S200000 1 := cmpi .slt main_arg5 main_v109
  let main_v111 : IVec S200000 1 := andi main_v108 main_v110
  let main_c_44 : IVec S_ 1 := constantI S_ 1 1#1
  let main_v112 : IVec S_ 1 := (fun x v => Host.reduce IntOp.andi x v reducesTo_S200000_S_d0 h_S_) main_v111 main_c_44
  let main_v113 : IVec S_ 1 := andi main_v106 main_v112
  let main_c_45 : IVec S_ 32 := constantI S_ 32 4294767296#32
  let main_v114 : IVec S200000 32 := broadcastInDim S200000 ![] bcast_S_S200000 main_c_45
  let main_v115 : IVec S200000 1 := cmpi .sge main_arg6 main_v114
  let main_c_46 : IVec S_ 32 := constantI S_ 32 200000#32
  let main_v116 : IVec S200000 32 := broadcastInDim S200000 ![] bcast_S_S200000 main_c_46
  let main_v117 : IVec S200000 1 := cmpi .slt main_arg6 main_v116
  let main_v118 : IVec S200000 1 := andi main_v115 main_v117
  fn_part7 (F := F) main_v113 main_v118

def fn_part5 {F : FTy → Type} [FloatOps F] (main_arg2 : IVec S10000 32) (main_arg3 : IVec S200000 32) (main_arg4 : IVec S200000 32) (main_arg5 : IVec S200000 32) (main_arg6 : IVec S200000 32) (main_v78 : IVec S_ 1) (main_v84 : IVec S_ 1) : IVec S_ 1 :=
  let main_v85 : IVec S_ 1 := andi main_v78 main_v84
  let main_c_33 : IVec S_ 32 := constantI S_ 32 4294957296#32
  let main_v86 : IVec S10000 32 := broadcastInDim S10000 ![] bcast_S_S10000 main_c_33
  let main_v87 : IVec S10000 1 := cmpi .sge main_arg2 main_v86
  let main_c_34 : IVec S_ 32 := constantI S_ 32 10000#32
  let main_v88 : IVec S10000 32 := broadcastInDim S10000 ![] bcast_S_S10000 main_c_34
  let main_v89 : IVec S10000 1 := cmpi .slt main_arg2 main_v88
  let main_v90 : IVec S10000 1 := andi main_v87 main_v89
  let main_c_35 : IVec S_ 1 := constantI S_ 1 1#1
  let main_v91 : IVec S_ 1 := (fun x v => Host.reduce IntOp.andi x v reducesTo_S10000_S_d0 h_S_) main_v90 main_c_35
  let main_v92 : IVec S_ 1 := andi main_v85 main_v91
  let main_c_36 : IVec S_ 32 := constantI S_ 32 4294917296#32
  let main_v93 : IVec S200000 32 := broadcastInDim S200000 ![] bcast_S_S200000 main_c_36
  let main_v94 : IVec S200000 1 := cmpi .sge main_arg3 main_v93
  let main_c_37 : IVec S_ 32 := constantI S_ 32 50000#32
  let main_v95 : IVec S200000 32 := broadcastInDim S200000 ![] bcast_S_S200000 main_c_37
  let main_v96 : IVec S200000 1 := cmpi .slt main_arg3 main_v95
  let main_v97 : IVec S200000 1 := andi main_v94 main_v96
  let main_c_38 : IVec S_ 1 := constantI S_ 1 1#1
  let main_v98 : IVec S_ 1 := (fun x v => Host.reduce IntOp.andi x v reducesTo_S200000_S_d0 h_S_) main_v97 main_c_38
  let main_v99 : IVec S_ 1 := andi main_v92 main_v98
  let main_c_39 : IVec S_ 32 := constantI S_ 32 4294767296#32
  let main_v100 : IVec S200000 32 := broadcastInDim S200000 ![] bcast_S_S200000 main_c_39
  let main_v101 : IVec S200000 1 := cmpi .sge main_arg4 main_v100
  fn_part6 (F := F) main_arg4 main_arg5 main_arg6 main_v99 main_v101

def fn_part4 {F : FTy → Type} [FloatOps F] (main_arg1 : IVec S50000 32) (main_arg2 : IVec S10000 32) (main_arg3 : IVec S200000 32) (main_arg4 : IVec S200000 32) (main_arg5 : IVec S200000 32) (main_arg6 : IVec S200000 32) (main_arg20 : FVec F S128x1 .f32) (main_arg21 : FVec F S1 .f32) (main_v63 : IVec S_ 1) (main_v67 : IVec S_ 1) : IVec S_ 1 :=
  let main_v68 : IVec S_ 1 := andi main_v63 main_v67
  let main_v69 : FVec F S128x1 .f32 := Host.absf main_arg20
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S1 .f32 := Host.absf main_arg21
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_c_30 : IVec S_ 32 := constantI S_ 32 4294917296#32
  let main_v79 : IVec S50000 32 := broadcastInDim S50000 ![] bcast_S_S50000 main_c_30
  let main_v80 : IVec S50000 1 := cmpi .sge main_arg1 main_v79
  let main_c_31 : IVec S_ 32 := constantI S_ 32 50000#32
  let main_v81 : IVec S50000 32 := broadcastInDim S50000 ![] bcast_S_S50000 main_c_31
  let main_v82 : IVec S50000 1 := cmpi .slt main_arg1 main_v81
  let main_v83 : IVec S50000 1 := andi main_v80 main_v82
  let main_c_32 : IVec S_ 1 := constantI S_ 1 1#1
  let main_v84 : IVec S_ 1 := (fun x v => Host.reduce IntOp.andi x v reducesTo_S50000_S_d0 h_S_) main_v83 main_c_32
  fn_part5 (F := F) main_arg2 main_arg3 main_arg4 main_arg5 main_arg6 main_v78 main_v84

def fn_part3 {F : FTy → Type} [FloatOps F] (main_arg1 : IVec S50000 32) (main_arg2 : IVec S10000 32) (main_arg3 : IVec S200000 32) (main_arg4 : IVec S200000 32) (main_arg5 : IVec S200000 32) (main_arg6 : IVec S200000 32) (main_arg17 : FVec F S2x4x128x128 .f32) (main_arg18 : FVec F S128x128 .f32) (main_arg19 : FVec F S128 .f32) (main_arg20 : FVec F S128x1 .f32) (main_arg21 : FVec F S1 .f32) (main_v48 : IVec S_ 1) (main_v49 : FVec F S2x4x128 .f32) (main_v50 : FVec F S2x4x128 .f32) : IVec S_ 1 :=
  let main_v51 : IVec S2x4x128 1 := cmpf .olt main_v49 main_v50
  let main_c_19 : IVec S_ 1 := constantI S_ 1 1#1
  let main_v52 : IVec S_ 1 := (fun x v => Host.reduce IntOp.andi x v reducesTo_S2x4x128_S_d0_1_2 h_S_) main_v51 main_c_19
  let main_v53 : IVec S_ 1 := andi main_v48 main_v52
  let main_v54 : FVec F S2x4x128x128 .f32 := Host.absf main_arg17
  let main_cst_20 : FVec F S_ .f32 := constant S_ .f32 0x7F800000#32
  let main_v55 : FVec F S2x4x128x128 .f32 := broadcastInDim S2x4x128x128 ![] bcast_S_S2x4x128x128 main_cst_20
  let main_v56 : IVec S2x4x128x128 1 := cmpf .olt main_v54 main_v55
  let main_c_21 : IVec S_ 1 := constantI S_ 1 1#1
  let main_v57 : IVec S_ 1 := (fun x v => Host.reduce IntOp.andi x v reducesTo_S2x4x128x128_S_d0_1_2_3 h_S_) main_v56 main_c_21
  let main_v58 : IVec S_ 1 := andi main_v53 main_v57
  let main_v59 : FVec F S128x128 .f32 := Host.absf main_arg18
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg19
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg2 main_arg3 main_arg4 main_arg5 main_arg6 main_arg20 main_arg21 main_v63 main_v67

def fn_part2 {F : FTy → Type} [FloatOps F] (main_arg1 : IVec S50000 32) (main_arg2 : IVec S10000 32) (main_arg3 : IVec S200000 32) (main_arg4 : IVec S200000 32) (main_arg5 : IVec S200000 32) (main_arg6 : IVec S200000 32) (main_arg13 : FVec F S128x128 .f32) (main_arg14 : FVec F S128 .f32) (main_arg15 : FVec F S2x4x128x128 .f32) (main_arg16 : FVec F S2x4x128 .f32) (main_arg17 : FVec F S2x4x128x128 .f32) (main_arg18 : FVec F S128x128 .f32) (main_arg19 : FVec F S128 .f32) (main_arg20 : FVec F S128x1 .f32) (main_arg21 : FVec F S1 .f32) (main_v33 : IVec S_ 1) : IVec S_ 1 :=
  let main_v34 : FVec F S128x128 .f32 := Host.absf main_arg13
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg14
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S2x4x128x128 .f32 := Host.absf main_arg15
  let main_cst_16 : FVec F S_ .f32 := constant S_ .f32 0x7F800000#32
  let main_v45 : FVec F S2x4x128x128 .f32 := broadcastInDim S2x4x128x128 ![] bcast_S_S2x4x128x128 main_cst_16
  let main_v46 : IVec S2x4x128x128 1 := cmpf .olt main_v44 main_v45
  let main_c_17 : IVec S_ 1 := constantI S_ 1 1#1
  let main_v47 : IVec S_ 1 := (fun x v => Host.reduce IntOp.andi x v reducesTo_S2x4x128x128_S_d0_1_2_3 h_S_) main_v46 main_c_17
  let main_v48 : IVec S_ 1 := andi main_v43 main_v47
  let main_v49 : FVec F S2x4x128 .f32 := Host.absf main_arg16
  let main_cst_18 : FVec F S_ .f32 := constant S_ .f32 0x7F800000#32
  let main_v50 : FVec F S2x4x128 .f32 := broadcastInDim S2x4x128 ![] bcast_S_S2x4x128 main_cst_18
  fn_part3 (F := F) main_arg1 main_arg2 main_arg3 main_arg4 main_arg5 main_arg6 main_arg17 main_arg18 main_arg19 main_arg20 main_arg21 main_v48 main_v49 main_v50

def fn_part1 {F : FTy → Type} [FloatOps F] (main_arg1 : IVec S50000 32) (main_arg2 : IVec S10000 32) (main_arg3 : IVec S200000 32) (main_arg4 : IVec S200000 32) (main_arg5 : IVec S200000 32) (main_arg6 : IVec S200000 32) (main_arg10 : FVec F S128 .f32) (main_arg11 : FVec F S64x128 .f32) (main_arg12 : FVec F S128 .f32) (main_arg13 : FVec F S128x128 .f32) (main_arg14 : FVec F S128 .f32) (main_arg15 : FVec F S2x4x128x128 .f32) (main_arg16 : FVec F S2x4x128 .f32) (main_arg17 : FVec F S2x4x128x128 .f32) (main_arg18 : FVec F S128x128 .f32) (main_arg19 : FVec F S128 .f32) (main_arg20 : FVec F S128x1 .f32) (main_arg21 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg10
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128 .f32 := Host.absf main_arg11
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg12
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg2 main_arg3 main_arg4 main_arg5 main_arg6 main_arg13 main_arg14 main_arg15 main_arg16 main_arg17 main_arg18 main_arg19 main_arg20 main_arg21 main_v33

def fn {F : FTy → Type} [FloatOps F] (main_arg0 : FVec F S200000x128 .f32) (main_arg1 : IVec S50000 32) (main_arg2 : IVec S10000 32) (main_arg3 : IVec S200000 32) (main_arg4 : IVec S200000 32) (main_arg5 : IVec S200000 32) (main_arg6 : IVec S200000 32) (main_arg7 : FVec F S50000x64 .f32) (main_arg8 : FVec F S10000x64 .f32) (main_arg9 : FVec F S64x128 .f32) (main_arg10 : FVec F S128 .f32) (main_arg11 : FVec F S64x128 .f32) (main_arg12 : FVec F S128 .f32) (main_arg13 : FVec F S128x128 .f32) (main_arg14 : FVec F S128 .f32) (main_arg15 : FVec F S2x4x128x128 .f32) (main_arg16 : FVec F S2x4x128 .f32) (main_arg17 : FVec F S2x4x128x128 .f32) (main_arg18 : FVec F S128x128 .f32) (main_arg19 : FVec F S128 .f32) (main_arg20 : FVec F S128x1 .f32) (main_arg21 : FVec F S1 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S50000x64 .f32 := Host.absf main_arg7
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S10000x64 .f32 := Host.absf main_arg8
  let main_cst_2 : FVec F S_ .f32 := constant S_ .f32 0x7F800000#32
  let main_v10 : FVec F S10000x64 .f32 := broadcastInDim S10000x64 ![] bcast_S_S10000x64 main_cst_2
  let main_v11 : IVec S10000x64 1 := cmpf .olt main_v9 main_v10
  let main_c_3 : IVec S_ 1 := constantI S_ 1 1#1
  let main_v12 : IVec S_ 1 := (fun x v => Host.reduce IntOp.andi x v reducesTo_S10000x64_S_d0_1 h_S_) main_v11 main_c_3
  let main_v13 : IVec S_ 1 := andi main_v8 main_v12
  let main_v14 : FVec F S64x128 .f32 := Host.absf main_arg9
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg1 main_arg2 main_arg3 main_arg4 main_arg5 main_arg6 main_arg10 main_arg11 main_arg12 main_arg13 main_arg14 main_arg15 main_arg16 main_arg17 main_arg18 main_arg19 main_arg20 main_arg21 main_v13 main_v16
-- ==== Kernel.lean ====
abbrev S200000x128 : Shape := ⟨2, ![200000, 128]⟩
abbrev S50000 : Shape := ⟨1, ![50000]⟩
abbrev S10000 : Shape := ⟨1, ![10000]⟩
abbrev S200000 : Shape := ⟨1, ![200000]⟩
abbrev S50000x64 : Shape := ⟨2, ![50000, 64]⟩
abbrev S10000x64 : Shape := ⟨2, ![10000, 64]⟩
abbrev S64x128 : Shape := ⟨2, ![64, 128]⟩
abbrev S128 : Shape := ⟨1, ![128]⟩
abbrev S128x128 : Shape := ⟨2, ![128, 128]⟩
abbrev S2x4x128x128 : Shape := ⟨4, ![2, 4, 128, 128]⟩
abbrev S2x4x128 : Shape := ⟨3, ![2, 4, 128]⟩
abbrev S128x1 : Shape := ⟨2, ![128, 1]⟩
abbrev S1 : Shape := ⟨1, ![1]⟩
abbrev S1x128 : Shape := ⟨2, ![1, 128]⟩
abbrev S5000x128 : Shape := ⟨2, ![5000, 128]⟩
abbrev S_ : Shape := ⟨0, ![]⟩
abbrev S50000x1 : Shape := ⟨2, ![50000, 1]⟩
abbrev S1x1 : Shape := ⟨2, ![1, 1]⟩
abbrev S50000x128 : Shape := ⟨2, ![50000, 128]⟩
abbrev S5000x64 : Shape := ⟨2, ![5000, 64]⟩
abbrev S10000x1 : Shape := ⟨2, ![10000, 1]⟩
abbrev S10000x128 : Shape := ⟨2, ![10000, 128]⟩
abbrev S200000x1 : Shape := ⟨2, ![200000, 1]⟩
abbrev S1x4x128x128 : Shape := ⟨4, ![1, 4, 128, 128]⟩
abbrev S4x128x128 : Shape := ⟨3, ![4, 128, 128]⟩
abbrev S1x4x128 : Shape := ⟨3, ![1, 4, 128]⟩
abbrev S4x128 : Shape := ⟨2, ![4, 128]⟩
abbrev S1x128x128 : Shape := ⟨3, ![1, 128, 128]⟩
abbrev S5000x1 : Shape := ⟨2, ![5000, 1]⟩

abbrev nBuf : Space → Nat
  | .hbm => 433
  | .vmem => 90
  | .smem => 0
  | _ => 0

abbrev hbmTy0_0 (i : Nat) : BufTy := match i % 128 with
  | 0 => ⟨S200000x128, .f32⟩
  | 1 => ⟨S50000, .i32⟩
  | 2 => ⟨S10000, .i32⟩
  | 3 => ⟨S200000, .i32⟩
  | 4 => ⟨S200000, .i32⟩
  | 5 => ⟨S200000, .i32⟩
  | 6 => ⟨S200000, .i32⟩
  | 7 => ⟨S50000x64, .f32⟩
  | 8 => ⟨S10000x64, .f32⟩
  | 9 => ⟨S64x128, .f32⟩
  | 10 => ⟨S128, .f32⟩
  | 11 => ⟨S64x128, .f32⟩
  | 12 => ⟨S128, .f32⟩
  | 13 => ⟨S128x128, .f32⟩
  | 14 => ⟨S128, .f32⟩
  | 15 => ⟨S2x4x128x128, .f32⟩
  | 16 => ⟨S2x4x128, .f32⟩
  | 17 => ⟨S2x4x128x128, .f32⟩
  | 18 => ⟨S128x128, .f32⟩
  | 19 => ⟨S128, .f32⟩
  | 20 => ⟨S128x1, .f32⟩
  | 21 => ⟨S1, .f32⟩
  | 22 => ⟨S1x128, .f32⟩
  | 23 => ⟨S200000x128, .f32⟩
  | 24 => ⟨S_, .i32⟩
  | 25 => ⟨S50000, .i32⟩
  | 26 => ⟨S50000, .i1⟩
  | 27 => ⟨S_, .i32⟩
  | 28 => ⟨S50000, .i32⟩
  | 29 => ⟨S50000, .i32⟩
  | 30 => ⟨S50000, .i32⟩
  | 31 => ⟨S50000x1, .i32⟩
  | 32 => ⟨S1, .i32⟩
  | 33 => ⟨S_, .i32⟩
  | 34 => ⟨S50000x1, .i32⟩
  | 35 => ⟨S50000x1, .i1⟩
  | 36 => ⟨S1x1, .i32⟩
  | 37 => ⟨S50000x1, .i32⟩
  | 38 => ⟨S50000x1, .i1⟩
  | 39 => ⟨S50000x1, .i1⟩
  | 40 => ⟨S_, .i1⟩
  | 41 => ⟨S50000, .i1⟩
  | 42 => ⟨S50000x64, .f32⟩
  | 43 => ⟨S50000x64, .i1⟩
  | 44 => ⟨S_, .f32⟩
  | 45 => ⟨S50000x64, .f32⟩
  | 46 => ⟨S50000x64, .f32⟩
  | 47 => ⟨S1x128, .f32⟩
  | 48 => ⟨S50000x128, .f32⟩
  | 49 => ⟨S_, .i32⟩
  | 50 => ⟨S10000, .i32⟩
  | 51 => ⟨S10000, .i1⟩
  | 52 => ⟨S_, .i32⟩
  | 53 => ⟨S10000, .i32⟩
  | 54 => ⟨S10000, .i32⟩
  | 55 => ⟨S10000, .i32⟩
  | 56 => ⟨S10000x1, .i32⟩
  | 57 => ⟨S1, .i32⟩
  | 58 => ⟨S_, .i32⟩
  | 59 => ⟨S10000x1, .i32⟩
  | 60 => ⟨S10000x1, .i1⟩
  | 61 => ⟨S1x1, .i32⟩
  | 62 => ⟨S10000x1, .i32⟩
  | 63 => ⟨S10000x1, .i1⟩
  | 64 => ⟨S10000x1, .i1⟩
  | 65 => ⟨S_, .i1⟩
  | 66 => ⟨S10000, .i1⟩
  | 67 => ⟨S10000x64, .f32⟩
  | 68 => ⟨S10000x64, .i1⟩
  | 69 => ⟨S_, .f32⟩
  | 70 => ⟨S10000x64, .f32⟩
  | 71 => ⟨S10000x64, .f32⟩
  | 72 => ⟨S1x128, .f32⟩
  | 73 => ⟨S10000x128, .f32⟩
  | 74 => ⟨S_, .f32⟩
  | 75 => ⟨S200000, .f32⟩
  | 76 => ⟨S_, .f32⟩
  | 77 => ⟨S200000, .f32⟩
  | 78 => ⟨S200000x1, .i32⟩
  | 79 => ⟨S200000, .f32⟩
  | 80 => ⟨S_, .f32⟩
  | 81 => ⟨S200000, .f32⟩
  | 82 => ⟨S200000x1, .i32⟩
  | 83 => ⟨S200000, .f32⟩
  | 84 => ⟨S_, .f32⟩
  | 85 => ⟨S50000, .f32⟩
  | 86 => ⟨S200000x1, .i32⟩
  | 87 => ⟨S50000, .f32⟩
  | 88 => ⟨S_, .f32⟩
  | 89 => ⟨S10000, .f32⟩
  | 90 => ⟨S200000x1, .i32⟩
  | 91 => ⟨S10000, .f32⟩
  | 92 => ⟨S_, .f32⟩
  | 93 => ⟨S200000, .f32⟩
  | 94 => ⟨S200000, .f32⟩
  | 95 => ⟨S_, .f32⟩
  | 96 => ⟨S200000, .f32⟩
  | 97 => ⟨S200000, .f32⟩
  | 98 => ⟨S200000x1, .f32⟩
  | 99 => ⟨S_, .f32⟩
  | 100 => ⟨S200000, .f32⟩
  | 101 => ⟨S200000, .f32⟩
  | 102 => ⟨S_, .f32⟩
  | 103 => ⟨S200000, .f32⟩
  | 104 => ⟨S200000, .f32⟩
  | 105 => ⟨S200000x1, .f32⟩
  | 106 => ⟨S_, .f32⟩
  | 107 => ⟨S50000, .f32⟩
  | 108 => ⟨S50000, .f32⟩
  | 109 => ⟨S_, .f32⟩
  | 110 => ⟨S50000, .f32⟩
  | 111 => ⟨S50000, .f32⟩
  | 112 => ⟨S50000x1, .f32⟩
  | 113 => ⟨S_, .f32⟩
  | 114 => ⟨S10000, .f32⟩
  | 115 => ⟨S10000, .f32⟩
  | 116 => ⟨S_, .f32⟩
  | 117 => ⟨S10000, .f32⟩
  | 118 => ⟨S10000, .f32⟩
  | 119 => ⟨S10000x1, .f32⟩
  | 120 => ⟨S1x4x128x128, .f32⟩
  | 121 => ⟨S4x128x128, .f32⟩
  | 122 => ⟨S1x4x128, .f32⟩
  | 123 => ⟨S4x128, .f32⟩
  | 124 => ⟨S1x4x128x128, .f32⟩
  | 125 => ⟨S4x128x128, .f32⟩
  | 126 => ⟨S_, .i32⟩
  | 127 => ⟨S200000, .i32⟩
  | _ => ⟨S200000x128, .f32⟩

abbrev hbmTy0_1 (i : Nat) : BufTy := match i % 128 with
  | 0 => ⟨S200000, .i1⟩
  | 1 => ⟨S_, .i32⟩
  | 2 => ⟨S200000, .i32⟩
  | 3 => ⟨S200000, .i32⟩
  | 4 => ⟨S200000, .i32⟩
  | 5 => ⟨S200000x1, .i32⟩
  | 6 => ⟨S1, .i32⟩
  | 7 => ⟨S_, .i32⟩
  | 8 => ⟨S200000x1, .i32⟩
  | 9 => ⟨S200000x1, .i1⟩
  | 10 => ⟨S1x1, .i32⟩
  | 11 => ⟨S200000x1, .i32⟩
  | 12 => ⟨S200000x1, .i1⟩
  | 13 => ⟨S200000x1, .i1⟩
  | 14 => ⟨S_, .i1⟩
  | 15 => ⟨S200000, .i1⟩
  | 16 => ⟨S200000x128, .f32⟩
  | 17 => ⟨S200000x128, .i1⟩
  | 18 => ⟨S_, .f32⟩
  | 19 => ⟨S200000x128, .f32⟩
  | 20 => ⟨S200000x128, .f32⟩
  | 21 => ⟨S_, .i32⟩
  | 22 => ⟨S200000, .i32⟩
  | 23 => ⟨S200000, .i1⟩
  | 24 => ⟨S_, .i32⟩
  | 25 => ⟨S200000, .i32⟩
  | 26 => ⟨S200000, .i32⟩
  | 27 => ⟨S200000, .i32⟩
  | 28 => ⟨S200000x1, .i32⟩
  | 29 => ⟨S1, .i32⟩
  | 30 => ⟨S_, .i32⟩
  | 31 => ⟨S200000x1, .i32⟩
  | 32 => ⟨S200000x1, .i1⟩
  | 33 => ⟨S1x1, .i32⟩
  | 34 => ⟨S200000x1, .i32⟩
  | 35 => ⟨S200000x1, .i1⟩
  | 36 => ⟨S200000x1, .i1⟩
  | 37 => ⟨S_, .i1⟩
  | 38 => ⟨S200000, .i1⟩
  | 39 => ⟨S200000x128, .f32⟩
  | 40 => ⟨S200000x128, .i1⟩
  | 41 => ⟨S_, .f32⟩
  | 42 => ⟨S200000x128, .f32⟩
  | 43 => ⟨S200000x128, .f32⟩
  | 44 => ⟨S_, .i32⟩
  | 45 => ⟨S200000, .i32⟩
  | 46 => ⟨S200000, .i1⟩
  | 47 => ⟨S_, .i32⟩
  | 48 => ⟨S200000, .i32⟩
  | 49 => ⟨S200000, .i32⟩
  | 50 => ⟨S200000, .i32⟩
  | 51 => ⟨S200000x1, .i32⟩
  | 52 => ⟨S1, .i32⟩
  | 53 => ⟨S_, .i32⟩
  | 54 => ⟨S200000x1, .i32⟩
  | 55 => ⟨S200000x1, .i1⟩
  | 56 => ⟨S1x1, .i32⟩
  | 57 => ⟨S200000x1, .i32⟩
  | 58 => ⟨S200000x1, .i1⟩
  | 59 => ⟨S200000x1, .i1⟩
  | 60 => ⟨S_, .i1⟩
  | 61 => ⟨S200000, .i1⟩
  | 62 => ⟨S200000x128, .f32⟩
  | 63 => ⟨S200000x128, .i1⟩
  | 64 => ⟨S_, .f32⟩
  | 65 => ⟨S200000x128, .f32⟩
  | 66 => ⟨S200000x128, .f32⟩
  | 67 => ⟨S_, .i32⟩
  | 68 => ⟨S200000, .i32⟩
  | 69 => ⟨S200000, .i1⟩
  | 70 => ⟨S_, .i32⟩
  | 71 => ⟨S200000, .i32⟩
  | 72 => ⟨S200000, .i32⟩
  | 73 => ⟨S200000, .i32⟩
  | 74 => ⟨S200000x1, .i32⟩
  | 75 => ⟨S1, .i32⟩
  | 76 => ⟨S_, .i32⟩
  | 77 => ⟨S200000x1, .i32⟩
  | 78 => ⟨S200000x1, .i1⟩
  | 79 => ⟨S1x1, .i32⟩
  | 80 => ⟨S200000x1, .i32⟩
  | 81 => ⟨S200000x1, .i1⟩
  | 82 => ⟨S200000x1, .i1⟩
  | 83 => ⟨S_, .i1⟩
  | 84 => ⟨S200000, .i1⟩
  | 85 => ⟨S200000x128, .f32⟩
  | 86 => ⟨S200000x128, .i1⟩
  | 87 => ⟨S_, .f32⟩
  | 88 => ⟨S200000x128, .f32⟩
  | 89 => ⟨S200000x128, .f32⟩
  | 90 => ⟨S_, .f32⟩
  | 91 => ⟨S200000x128, .f32⟩
  | 92 => ⟨S200000x1, .i32⟩
  | 93 => ⟨S200000x128, .f32⟩
  | 94 => ⟨S200000x128, .f32⟩
  | 95 => ⟨S200000x128, .f32⟩
  | 96 => ⟨S_, .f32⟩
  | 97 => ⟨S200000x128, .f32⟩
  | 98 => ⟨S200000x1, .i32⟩
  | 99 => ⟨S200000x128, .f32⟩
  | 100 => ⟨S200000x128, .f32⟩
  | 101 => ⟨S200000x128, .f32⟩
  | 102 => ⟨S_, .f32⟩
  | 103 => ⟨S50000x128, .f32⟩
  | 104 => ⟨S200000x1, .i32⟩
  | 105 => ⟨S50000x128, .f32⟩
  | 106 => ⟨S50000x128, .f32⟩
  | 107 => ⟨S50000x128, .f32⟩
  | 108 => ⟨S_, .f32⟩
  | 109 => ⟨S10000x128, .f32⟩
  | 110 => ⟨S200000x1, .i32⟩
  | 111 => ⟨S10000x128, .f32⟩
  | 112 => ⟨S10000x128, .f32⟩
  | 113 => ⟨S10000x128, .f32⟩
  | 114 => ⟨S1x128x128, .f32⟩
  | 115 => ⟨S128x128, .f32⟩
  | 116 => ⟨S1x128x128, .f32⟩
  | 117 => ⟨S128x128, .f32⟩
  | 118 => ⟨S128x128, .f32⟩
  | 119 => ⟨S1x128, .f32⟩
  | 120 => ⟨S128, .f32⟩
  | 121 => ⟨S1x128, .f32⟩
  | 122 => ⟨S128, .f32⟩
  | 123 => ⟨S128, .f32⟩
  | 124 => ⟨S1x128x128, .f32⟩
  | 125 => ⟨S128x128, .f32⟩
  | 126 => ⟨S1x128x128, .f32⟩
  | 127 => ⟨S128x128, .f32⟩
  | _ => ⟨S200000x128, .f32⟩

abbrev hbmTy0_2 (i : Nat) : BufTy := match i % 128 with
  | 0 => ⟨S1x128, .f32⟩
  | 1 => ⟨S200000x128, .f32⟩
  | 2 => ⟨S1x128x128, .f32⟩
  | 3 => ⟨S128x128, .f32⟩
  | 4 => ⟨S1x128x128, .f32⟩
  | 5 => ⟨S128x128, .f32⟩
  | 6 => ⟨S1x128, .f32⟩
  | 7 => ⟨S128, .f32⟩
  | 8 => ⟨S1x128, .f32⟩
  | 9 => ⟨S50000x128, .f32⟩
  | 10 => ⟨S1x128x128, .f32⟩
  | 11 => ⟨S128x128, .f32⟩
  | 12 => ⟨S1x128x128, .f32⟩
  | 13 => ⟨S128x128, .f32⟩
  | 14 => ⟨S1x128, .f32⟩
  | 15 => ⟨S128, .f32⟩
  | 16 => ⟨S1x128, .f32⟩
  | 17 => ⟨S10000x128, .f32⟩
  | 18 => ⟨S1x4x128x128, .f32⟩
  | 19 => ⟨S4x128x128, .f32⟩
  | 20 => ⟨S1x4x128, .f32⟩
  | 21 => ⟨S4x128, .f32⟩
  | 22 => ⟨S1x4x128x128, .f32⟩
  | 23 => ⟨S4x128x128, .f32⟩
  | 24 => ⟨S_, .i32⟩
  | 25 => ⟨S200000, .i32⟩
  | 26 => ⟨S200000, .i1⟩
  | 27 => ⟨S_, .i32⟩
  | 28 => ⟨S200000, .i32⟩
  | 29 => ⟨S200000, .i32⟩
  | 30 => ⟨S200000, .i32⟩
  | 31 => ⟨S200000x1, .i32⟩
  | 32 => ⟨S1, .i32⟩
  | 33 => ⟨S_, .i32⟩
  | 34 => ⟨S200000x1, .i32⟩
  | 35 => ⟨S200000x1, .i1⟩
  | 36 => ⟨S1x1, .i32⟩
  | 37 => ⟨S200000x1, .i32⟩
  | 38 => ⟨S200000x1, .i1⟩
  | 39 => ⟨S200000x1, .i1⟩
  | 40 => ⟨S_, .i1⟩
  | 41 => ⟨S200000, .i1⟩
  | 42 => ⟨S200000x128, .f32⟩
  | 43 => ⟨S200000x128, .i1⟩
  | 44 => ⟨S_, .f32⟩
  | 45 => ⟨S200000x128, .f32⟩
  | 46 => ⟨S200000x128, .f32⟩
  | 47 => ⟨S_, .i32⟩
  | 48 => ⟨S200000, .i32⟩
  | 49 => ⟨S200000, .i1⟩
  | 50 => ⟨S_, .i32⟩
  | 51 => ⟨S200000, .i32⟩
  | 52 => ⟨S200000, .i32⟩
  | 53 => ⟨S200000, .i32⟩
  | 54 => ⟨S200000x1, .i32⟩
  | 55 => ⟨S1, .i32⟩
  | 56 => ⟨S_, .i32⟩
  | 57 => ⟨S200000x1, .i32⟩
  | 58 => ⟨S200000x1, .i1⟩
  | 59 => ⟨S1x1, .i32⟩
  | 60 => ⟨S200000x1, .i32⟩
  | 61 => ⟨S200000x1, .i1⟩
  | 62 => ⟨S200000x1, .i1⟩
  | 63 => ⟨S_, .i1⟩
  | 64 => ⟨S200000, .i1⟩
  | 65 => ⟨S200000x128, .f32⟩
  | 66 => ⟨S200000x128, .i1⟩
  | 67 => ⟨S_, .f32⟩
  | 68 => ⟨S200000x128, .f32⟩
  | 69 => ⟨S200000x128, .f32⟩
  | 70 => ⟨S_, .i32⟩
  | 71 => ⟨S200000, .i32⟩
  | 72 => ⟨S200000, .i1⟩
  | 73 => ⟨S_, .i32⟩
  | 74 => ⟨S200000, .i32⟩
  | 75 => ⟨S200000, .i32⟩
  | 76 => ⟨S200000, .i32⟩
  | 77 => ⟨S200000x1, .i32⟩
  | 78 => ⟨S1, .i32⟩
  | 79 => ⟨S_, .i32⟩
  | 80 => ⟨S200000x1, .i32⟩
  | 81 => ⟨S200000x1, .i1⟩
  | 82 => ⟨S1x1, .i32⟩
  | 83 => ⟨S200000x1, .i32⟩
  | 84 => ⟨S200000x1, .i1⟩
  | 85 => ⟨S200000x1, .i1⟩
  | 86 => ⟨S_, .i1⟩
  | 87 => ⟨S200000, .i1⟩
  | 88 => ⟨S200000x128, .f32⟩
  | 89 => ⟨S200000x128, .i1⟩
  | 90 => ⟨S_, .f32⟩
  | 91 => ⟨S200000x128, .f32⟩
  | 92 => ⟨S200000x128, .f32⟩
  | 93 => ⟨S_, .i32⟩
  | 94 => ⟨S200000, .i32⟩
  | 95 => ⟨S200000, .i1⟩
  | 96 => ⟨S_, .i32⟩
  | 97 => ⟨S200000, .i32⟩
  | 98 => ⟨S200000, .i32⟩
  | 99 => ⟨S200000, .i32⟩
  | 100 => ⟨S200000x1, .i32⟩
  | 101 => ⟨S1, .i32⟩
  | 102 => ⟨S_, .i32⟩
  | 103 => ⟨S200000x1, .i32⟩
  | 104 => ⟨S200000x1, .i1⟩
  | 105 => ⟨S1x1, .i32⟩
  | 106 => ⟨S200000x1, .i32⟩
  | 107 => ⟨S200000x1, .i1⟩
  | 108 => ⟨S200000x1, .i1⟩
  | 109 => ⟨S_, .i1⟩
  | 110 => ⟨S200000, .i1⟩
  | 111 => ⟨S200000x128, .f32⟩
  | 112 => ⟨S200000x128, .i1⟩
  | 113 => ⟨S_, .f32⟩
  | 114 => ⟨S200000x128, .f32⟩
  | 115 => ⟨S200000x128, .f32⟩
  | 116 => ⟨S_, .f32⟩
  | 117 => ⟨S200000x128, .f32⟩
  | 118 => ⟨S200000x1, .i32⟩
  | 119 => ⟨S200000x128, .f32⟩
  | 120 => ⟨S200000x128, .f32⟩
  | 121 => ⟨S200000x128, .f32⟩
  | 122 => ⟨S_, .f32⟩
  | 123 => ⟨S200000x128, .f32⟩
  | 124 => ⟨S200000x1, .i32⟩
  | 125 => ⟨S200000x128, .f32⟩
  | 126 => ⟨S200000x128, .f32⟩
  | 127 => ⟨S200000x128, .f32⟩
  | _ => ⟨S200000x128, .f32⟩

abbrev hbmTy0_3 (i : Nat) : BufTy := match i % 128 with
  | 0 => ⟨S_, .f32⟩
  | 1 => ⟨S50000x128, .f32⟩
  | 2 => ⟨S200000x1, .i32⟩
  | 3 => ⟨S50000x128, .f32⟩
  | 4 => ⟨S50000x128, .f32⟩
  | 5 => ⟨S50000x128, .f32⟩
  | 6 => ⟨S_, .f32⟩
  | 7 => ⟨S10000x128, .f32⟩
  | 8 => ⟨S200000x1, .i32⟩
  | 9 => ⟨S10000x128, .f32⟩
  | 10 => ⟨S10000x128, .f32⟩
  | 11 => ⟨S10000x128, .f32⟩
  | 12 => ⟨S1x128x128, .f32⟩
  | 13 => ⟨S128x128, .f32⟩
  | 14 => ⟨S1x128x128, .f32⟩
  | 15 => ⟨S128x128, .f32⟩
  | 16 => ⟨S128x128, .f32⟩
  | 17 => ⟨S1x128, .f32⟩
  | 18 => ⟨S128, .f32⟩
  | 19 => ⟨S1x128, .f32⟩
  | 20 => ⟨S128, .f32⟩
  | 21 => ⟨S128, .f32⟩
  | 22 => ⟨S1x128x128, .f32⟩
  | 23 => ⟨S128x128, .f32⟩
  | 24 => ⟨S1x128x128, .f32⟩
  | 25 => ⟨S128x128, .f32⟩
  | 26 => ⟨S1x128, .f32⟩
  | 27 => ⟨S200000x128, .f32⟩
  | 28 => ⟨S1x128x128, .f32⟩
  | 29 => ⟨S128x128, .f32⟩
  | 30 => ⟨S1x128x128, .f32⟩
  | 31 => ⟨S128x128, .f32⟩
  | 32 => ⟨S1x128, .f32⟩
  | 33 => ⟨S128, .f32⟩
  | 34 => ⟨S1x128, .f32⟩
  | 35 => ⟨S50000x128, .f32⟩
  | 36 => ⟨S1x128x128, .f32⟩
  | 37 => ⟨S128x128, .f32⟩
  | 38 => ⟨S1x128x128, .f32⟩
  | 39 => ⟨S128x128, .f32⟩
  | 40 => ⟨S1x128, .f32⟩
  | 41 => ⟨S128, .f32⟩
  | 42 => ⟨S1x128, .f32⟩
  | 43 => ⟨S10000x128, .f32⟩
  | 44 => ⟨S1x128, .f32⟩
  | 45 => ⟨S200000x128, .f32⟩
  | 46 => ⟨S1x1, .f32⟩
  | 47 => ⟨S200000x1, .f32⟩
  | 48 => ⟨S200000, .f32⟩
  | _ => ⟨S200000x128, .f32⟩

abbrev hbmTy (i : Nat) : BufTy := match i / 128 with
  | 0 => hbmTy0_0 i
  | 1 => hbmTy0_1 i
  | 2 => hbmTy0_2 i
  | 3 => hbmTy0_3 i
  | _ => ⟨S200000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x64, .f32⟩
  | .local _ .vmem, ⟨7, _⟩ => ⟨S5000x64, .f32⟩
  | .local _ .vmem, ⟨8, _⟩ => ⟨S64x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x64, .f32⟩
  | .local _ .vmem, ⟨13, _⟩ => ⟨S5000x64, .f32⟩
  | .local _ .vmem, ⟨14, _⟩ => ⟨S64x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S128x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S5000x128, .f32⟩
  | .local _ .vmem, ⟨34, _⟩ => ⟨S5000x128, .f32⟩
  | .local _ .vmem, ⟨35, _⟩ => ⟨S128x128, .f32⟩
  | .local _ .vmem, ⟨36, _⟩ => ⟨S1x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S128x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S128x128, .f32⟩
  | .local _ .vmem, ⟨51, _⟩ => ⟨S5000x128, .f32⟩
  | .local _ .vmem, ⟨52, _⟩ => ⟨S5000x128, .f32⟩
  | .local _ .vmem, ⟨53, _⟩ => ⟨S128x128, .f32⟩
  | .local _ .vmem, ⟨54, _⟩ => ⟨S5000x128, .f32⟩
  | .local _ .vmem, ⟨55, _⟩ => ⟨S5000x128, .f32⟩
  | .local _ .vmem, ⟨56, _⟩ => ⟨S128x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S128x128, .f32⟩
  | .local _ .vmem, ⟨63, _⟩ => ⟨S5000x128, .f32⟩
  | .local _ .vmem, ⟨64, _⟩ => ⟨S5000x128, .f32⟩
  | .local _ .vmem, ⟨65, _⟩ => ⟨S128x128, .f32⟩
  | .local _ .vmem, ⟨66, _⟩ => ⟨S1x128, .f32⟩
  | .local _ .vmem, ⟨67, _⟩ => ⟨S5000x128, .f32⟩
  | .local _ .vmem, ⟨68, _⟩ => ⟨S5000x128, .f32⟩
  | .local _ .vmem, ⟨69, _⟩ => ⟨S5000x128, .f32⟩
  | .local _ .vmem, ⟨70, _⟩ => ⟨S5000x128, .f32⟩
  | .local _ .vmem, ⟨71, _⟩ => ⟨S128x128, .f32⟩
  | .local _ .vmem, ⟨72, _⟩ => ⟨S5000x128, .f32⟩
  | .local _ .vmem, ⟨73, _⟩ => ⟨S5000x128, .f32⟩
  | .local _ .vmem, ⟨74, _⟩ => ⟨S128x128, .f32⟩
  | .local _ .vmem, ⟨75, _⟩ => ⟨S1x128, .f32⟩
  | .local _ .vmem, ⟨76, _⟩ => ⟨S5000x128, .f32⟩
  | .local _ .vmem, ⟨77, _⟩ => ⟨S5000x128, .f32⟩
  | .local _ .vmem, ⟨78, _⟩ => ⟨S5000x128, .f32⟩
  | .local _ .vmem, ⟨79, _⟩ => ⟨S5000x128, .f32⟩
  | .local _ .vmem, ⟨80, _⟩ => ⟨S128x128, .f32⟩
  | .local _ .vmem, ⟨81, _⟩ => ⟨S1x128, .f32⟩
  | .local _ .vmem, ⟨82, _⟩ => ⟨S5000x128, .f32⟩
  | .local _ .vmem, ⟨83, _⟩ => ⟨S5000x128, .f32⟩
  | .local _ .vmem, ⟨84, _⟩ => ⟨S5000x128, .f32⟩
  | .local _ .vmem, ⟨85, _⟩ => ⟨S5000x128, .f32⟩
  | .local _ .vmem, ⟨86, _⟩ => ⟨S128x1, .f32⟩
  | .local _ .vmem, ⟨87, _⟩ => ⟨S1x1, .f32⟩
  | .local _ .vmem, ⟨88, _⟩ => ⟨S5000x1, .f32⟩
  | .local _ .vmem, ⟨89, _⟩ => ⟨S5000x1, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v2 : Ref sig .tc := ⟨.hbm, 46, rfl⟩
abbrev main_v3 : Ref sig .tc := ⟨.hbm, 47, rfl⟩
abbrev main_v4 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v5 : Ref sig .tc := ⟨.hbm, 71, rfl⟩
abbrev main_v6 : Ref sig .tc := ⟨.hbm, 72, rfl⟩
abbrev main_v7 : Ref sig .tc := ⟨.hbm, 73, rfl⟩
abbrev main_cst : Ref sig .tc := ⟨.hbm, 74, rfl⟩
abbrev main_v8 : Ref sig .tc := ⟨.hbm, 75, rfl⟩
abbrev main_cst_0 : Ref sig .tc := ⟨.hbm, 76, rfl⟩
abbrev main_v9 : Ref sig .tc := ⟨.hbm, 77, rfl⟩
abbrev main_v10 : Ref sig .tc := ⟨.hbm, 78, rfl⟩
abbrev main_v11 : Ref sig .tc := ⟨.hbm, 79, rfl⟩
abbrev main_cst_1 : Ref sig .tc := ⟨.hbm, 80, rfl⟩
abbrev main_v12 : Ref sig .tc := ⟨.hbm, 81, rfl⟩
abbrev main_v13 : Ref sig .tc := ⟨.hbm, 82, rfl⟩
abbrev main_v14 : Ref sig .tc := ⟨.hbm, 83, rfl⟩
abbrev main_cst_2 : Ref sig .tc := ⟨.hbm, 84, rfl⟩
abbrev main_v15 : Ref sig .tc := ⟨.hbm, 85, rfl⟩
abbrev main_v16 : Ref sig .tc := ⟨.hbm, 86, rfl⟩
abbrev main_v17 : Ref sig .tc := ⟨.hbm, 87, rfl⟩
abbrev main_cst_3 : Ref sig .tc := ⟨.hbm, 88, rfl⟩
abbrev main_v18 : Ref sig .tc := ⟨.hbm, 89, rfl⟩
abbrev main_v19 : Ref sig .tc := ⟨.hbm, 90, rfl⟩
abbrev main_v20 : Ref sig .tc := ⟨.hbm, 91, rfl⟩
abbrev main_cst_4 : Ref sig .tc := ⟨.hbm, 92, rfl⟩
abbrev main_v21 : Ref sig .tc := ⟨.hbm, 93, rfl⟩
abbrev main_v22 : Ref sig .tc := ⟨.hbm, 94, rfl⟩
abbrev main_cst_5 : Ref sig .tc := ⟨.hbm, 95, rfl⟩
abbrev main_v23 : Ref sig .tc := ⟨.hbm, 96, rfl⟩
abbrev main_v24 : Ref sig .tc := ⟨.hbm, 97, rfl⟩
abbrev main_v25 : Ref sig .tc := ⟨.hbm, 98, rfl⟩
abbrev main_cst_6 : Ref sig .tc := ⟨.hbm, 99, rfl⟩
abbrev main_v26 : Ref sig .tc := ⟨.hbm, 100, rfl⟩
abbrev main_v27 : Ref sig .tc := ⟨.hbm, 101, rfl⟩
abbrev main_cst_7 : Ref sig .tc := ⟨.hbm, 102, rfl⟩
abbrev main_v28 : Ref sig .tc := ⟨.hbm, 103, rfl⟩
abbrev main_v29 : Ref sig .tc := ⟨.hbm, 104, rfl⟩
abbrev main_v30 : Ref sig .tc := ⟨.hbm, 105, rfl⟩
abbrev main_cst_8 : Ref sig .tc := ⟨.hbm, 106, rfl⟩
abbrev main_v31 : Ref sig .tc := ⟨.hbm, 107, rfl⟩
abbrev main_v32 : Ref sig .tc := ⟨.hbm, 108, rfl⟩
abbrev main_cst_9 : Ref sig .tc := ⟨.hbm, 109, rfl⟩
abbrev main_v33 : Ref sig .tc := ⟨.hbm, 110, rfl⟩
abbrev main_v34 : Ref sig .tc := ⟨.hbm, 111, rfl⟩
abbrev main_v35 : Ref sig .tc := ⟨.hbm, 112, rfl⟩
abbrev main_cst_10 : Ref sig .tc := ⟨.hbm, 113, rfl⟩
abbrev main_v36 : Ref sig .tc := ⟨.hbm, 114, rfl⟩
abbrev main_v37 : Ref sig .tc := ⟨.hbm, 115, rfl⟩
abbrev main_cst_11 : Ref sig .tc := ⟨.hbm, 116, rfl⟩
abbrev main_v38 : Ref sig .tc := ⟨.hbm, 117, rfl⟩
abbrev main_v39 : Ref sig .tc := ⟨.hbm, 118, rfl⟩
abbrev main_v40 : Ref sig .tc := ⟨.hbm, 119, rfl⟩
abbrev main_v41 : Ref sig .tc := ⟨.hbm, 120, rfl⟩
abbrev main_v42 : Ref sig .tc := ⟨.hbm, 121, rfl⟩
abbrev main_v43 : Ref sig .tc := ⟨.hbm, 122, rfl⟩
abbrev main_v44 : Ref sig .tc := ⟨.hbm, 123, rfl⟩
abbrev main_v45 : Ref sig .tc := ⟨.hbm, 124, rfl⟩
abbrev main_v46 : Ref sig .tc := ⟨.hbm, 125, rfl⟩
abbrev main_call2_c : Ref sig .tc := ⟨.hbm, 126, rfl⟩
abbrev main_call2_v0 : Ref sig .tc := ⟨.hbm, 127, rfl⟩
abbrev main_call2_v1 : Ref sig .tc := ⟨.hbm, 128, rfl⟩
abbrev main_call2_c_0 : Ref sig .tc := ⟨.hbm, 129, rfl⟩
abbrev main_call2_v2 : Ref sig .tc := ⟨.hbm, 130, rfl⟩
abbrev main_call2_v3 : Ref sig .tc := ⟨.hbm, 131, rfl⟩
abbrev main_call2_v4 : Ref sig .tc := ⟨.hbm, 132, rfl⟩
abbrev main_call2_v5 : Ref sig .tc := ⟨.hbm, 133, rfl⟩
abbrev main_call2_c_1 : Ref sig .tc := ⟨.hbm, 134, rfl⟩
abbrev main_call2_c_2 : Ref sig .tc := ⟨.hbm, 135, rfl⟩
abbrev main_call2_v6 : Ref sig .tc := ⟨.hbm, 136, rfl⟩
abbrev main_call2_v7 : Ref sig .tc := ⟨.hbm, 137, rfl⟩
abbrev main_call2_v8 : Ref sig .tc := ⟨.hbm, 138, rfl⟩
abbrev main_call2_v9 : Ref sig .tc := ⟨.hbm, 139, rfl⟩
abbrev main_call2_v10 : Ref sig .tc := ⟨.hbm, 140, rfl⟩
abbrev main_call2_v11 : Ref sig .tc := ⟨.hbm, 141, rfl⟩
abbrev main_call2_c_3 : Ref sig .tc := ⟨.hbm, 142, rfl⟩
abbrev main_call2_v12 : Ref sig .tc := ⟨.hbm, 143, rfl⟩
abbrev main_call2_v13 : Ref sig .tc := ⟨.hbm, 144, rfl⟩
abbrev main_call2_v14 : Ref sig .tc := ⟨.hbm, 145, rfl⟩
abbrev main_call2_cst : Ref sig .tc := ⟨.hbm, 146, rfl⟩
abbrev main_call2_v15 : Ref sig .tc := ⟨.hbm, 147, rfl⟩
abbrev main_v47 : Ref sig .tc := ⟨.hbm, 148, rfl⟩
abbrev main_call3_c : Ref sig .tc := ⟨.hbm, 149, rfl⟩
abbrev main_call3_v0 : Ref sig .tc := ⟨.hbm, 150, rfl⟩
abbrev main_call3_v1 : Ref sig .tc := ⟨.hbm, 151, rfl⟩
abbrev main_call3_c_0 : Ref sig .tc := ⟨.hbm, 152, rfl⟩
abbrev main_call3_v2 : Ref sig .tc := ⟨.hbm, 153, rfl⟩
abbrev main_call3_v3 : Ref sig .tc := ⟨.hbm, 154, rfl⟩
abbrev main_call3_v4 : Ref sig .tc := ⟨.hbm, 155, rfl⟩
abbrev main_call3_v5 : Ref sig .tc := ⟨.hbm, 156, rfl⟩
abbrev main_call3_c_1 : Ref sig .tc := ⟨.hbm, 157, rfl⟩
abbrev main_call3_c_2 : Ref sig .tc := ⟨.hbm, 158, rfl⟩
abbrev main_call3_v6 : Ref sig .tc := ⟨.hbm, 159, rfl⟩
abbrev main_call3_v7 : Ref sig .tc := ⟨.hbm, 160, rfl⟩
abbrev main_call3_v8 : Ref sig .tc := ⟨.hbm, 161, rfl⟩
abbrev main_call3_v9 : Ref sig .tc := ⟨.hbm, 162, rfl⟩
abbrev main_call3_v10 : Ref sig .tc := ⟨.hbm, 163, rfl⟩
abbrev main_call3_v11 : Ref sig .tc := ⟨.hbm, 164, rfl⟩
abbrev main_call3_c_3 : Ref sig .tc := ⟨.hbm, 165, rfl⟩
abbrev main_call3_v12 : Ref sig .tc := ⟨.hbm, 166, rfl⟩
abbrev main_call3_v13 : Ref sig .tc := ⟨.hbm, 167, rfl⟩
abbrev main_call3_v14 : Ref sig .tc := ⟨.hbm, 168, rfl⟩
abbrev main_call3_cst : Ref sig .tc := ⟨.hbm, 169, rfl⟩
abbrev main_call3_v15 : Ref sig .tc := ⟨.hbm, 170, rfl⟩
abbrev main_v48 : Ref sig .tc := ⟨.hbm, 171, rfl⟩
abbrev main_call4_c : Ref sig .tc := ⟨.hbm, 172, rfl⟩
abbrev main_call4_v0 : Ref sig .tc := ⟨.hbm, 173, rfl⟩
abbrev main_call4_v1 : Ref sig .tc := ⟨.hbm, 174, rfl⟩
abbrev main_call4_c_0 : Ref sig .tc := ⟨.hbm, 175, rfl⟩
abbrev main_call4_v2 : Ref sig .tc := ⟨.hbm, 176, rfl⟩
abbrev main_call4_v3 : Ref sig .tc := ⟨.hbm, 177, rfl⟩
abbrev main_call4_v4 : Ref sig .tc := ⟨.hbm, 178, rfl⟩
abbrev main_call4_v5 : Ref sig .tc := ⟨.hbm, 179, rfl⟩
abbrev main_call4_c_1 : Ref sig .tc := ⟨.hbm, 180, rfl⟩
abbrev main_call4_c_2 : Ref sig .tc := ⟨.hbm, 181, rfl⟩
abbrev main_call4_v6 : Ref sig .tc := ⟨.hbm, 182, rfl⟩
abbrev main_call4_v7 : Ref sig .tc := ⟨.hbm, 183, rfl⟩
abbrev main_call4_v8 : Ref sig .tc := ⟨.hbm, 184, rfl⟩
abbrev main_call4_v9 : Ref sig .tc := ⟨.hbm, 185, rfl⟩
abbrev main_call4_v10 : Ref sig .tc := ⟨.hbm, 186, rfl⟩
abbrev main_call4_v11 : Ref sig .tc := ⟨.hbm, 187, rfl⟩
abbrev main_call4_c_3 : Ref sig .tc := ⟨.hbm, 188, rfl⟩
abbrev main_call4_v12 : Ref sig .tc := ⟨.hbm, 189, rfl⟩
abbrev main_call4_v13 : Ref sig .tc := ⟨.hbm, 190, rfl⟩
abbrev main_call4_v14 : Ref sig .tc := ⟨.hbm, 191, rfl⟩
abbrev main_call4_cst : Ref sig .tc := ⟨.hbm, 192, rfl⟩
abbrev main_call4_v15 : Ref sig .tc := ⟨.hbm, 193, rfl⟩
abbrev main_v49 : Ref sig .tc := ⟨.hbm, 194, rfl⟩
abbrev main_call5_c : Ref sig .tc := ⟨.hbm, 195, rfl⟩
abbrev main_call5_v0 : Ref sig .tc := ⟨.hbm, 196, rfl⟩
abbrev main_call5_v1 : Ref sig .tc := ⟨.hbm, 197, rfl⟩
abbrev main_call5_c_0 : Ref sig .tc := ⟨.hbm, 198, rfl⟩
abbrev main_call5_v2 : Ref sig .tc := ⟨.hbm, 199, rfl⟩
abbrev main_call5_v3 : Ref sig .tc := ⟨.hbm, 200, rfl⟩
abbrev main_call5_v4 : Ref sig .tc := ⟨.hbm, 201, rfl⟩
abbrev main_call5_v5 : Ref sig .tc := ⟨.hbm, 202, rfl⟩
abbrev main_call5_c_1 : Ref sig .tc := ⟨.hbm, 203, rfl⟩
abbrev main_call5_c_2 : Ref sig .tc := ⟨.hbm, 204, rfl⟩
abbrev main_call5_v6 : Ref sig .tc := ⟨.hbm, 205, rfl⟩
abbrev main_call5_v7 : Ref sig .tc := ⟨.hbm, 206, rfl⟩
abbrev main_call5_v8 : Ref sig .tc := ⟨.hbm, 207, rfl⟩
abbrev main_call5_v9 : Ref sig .tc := ⟨.hbm, 208, rfl⟩
abbrev main_call5_v10 : Ref sig .tc := ⟨.hbm, 209, rfl⟩
abbrev main_call5_v11 : Ref sig .tc := ⟨.hbm, 210, rfl⟩
abbrev main_call5_c_3 : Ref sig .tc := ⟨.hbm, 211, rfl⟩
abbrev main_call5_v12 : Ref sig .tc := ⟨.hbm, 212, rfl⟩
abbrev main_call5_v13 : Ref sig .tc := ⟨.hbm, 213, rfl⟩
abbrev main_call5_v14 : Ref sig .tc := ⟨.hbm, 214, rfl⟩
abbrev main_call5_cst : Ref sig .tc := ⟨.hbm, 215, rfl⟩
abbrev main_call5_v15 : Ref sig .tc := ⟨.hbm, 216, rfl⟩
abbrev main_v50 : Ref sig .tc := ⟨.hbm, 217, rfl⟩
abbrev main_cst_12 : Ref sig .tc := ⟨.hbm, 218, rfl⟩
abbrev main_v51 : Ref sig .tc := ⟨.hbm, 219, rfl⟩
abbrev main_v52 : Ref sig .tc := ⟨.hbm, 220, rfl⟩
abbrev main_v53 : Ref sig .tc := ⟨.hbm, 221, rfl⟩
abbrev main_v54 : Ref sig .tc := ⟨.hbm, 222, rfl⟩
abbrev main_v55 : Ref sig .tc := ⟨.hbm, 223, rfl⟩
abbrev main_cst_13 : Ref sig .tc := ⟨.hbm, 224, rfl⟩
abbrev main_v56 : Ref sig .tc := ⟨.hbm, 225, rfl⟩
abbrev main_v57 : Ref sig .tc := ⟨.hbm, 226, rfl⟩
abbrev main_v58 : Ref sig .tc := ⟨.hbm, 227, rfl⟩
abbrev main_v59 : Ref sig .tc := ⟨.hbm, 228, rfl⟩
abbrev main_v60 : Ref sig .tc := ⟨.hbm, 229, rfl⟩
abbrev main_cst_14 : Ref sig .tc := ⟨.hbm, 230, rfl⟩
abbrev main_v61 : Ref sig .tc := ⟨.hbm, 231, rfl⟩
abbrev main_v62 : Ref sig .tc := ⟨.hbm, 232, rfl⟩
abbrev main_v63 : Ref sig .tc := ⟨.hbm, 233, rfl⟩
abbrev main_v64 : Ref sig .tc := ⟨.hbm, 234, rfl⟩
abbrev main_v65 : Ref sig .tc := ⟨.hbm, 235, rfl⟩
abbrev main_cst_15 : Ref sig .tc := ⟨.hbm, 236, rfl⟩
abbrev main_v66 : Ref sig .tc := ⟨.hbm, 237, rfl⟩
abbrev main_v67 : Ref sig .tc := ⟨.hbm, 238, rfl⟩
abbrev main_v68 : Ref sig .tc := ⟨.hbm, 239, rfl⟩
abbrev main_v69 : Ref sig .tc := ⟨.hbm, 240, rfl⟩
abbrev main_v70 : Ref sig .tc := ⟨.hbm, 241, rfl⟩
abbrev main_v71 : Ref sig .tc := ⟨.hbm, 242, rfl⟩
abbrev main_v72 : Ref sig .tc := ⟨.hbm, 243, rfl⟩
abbrev main_v73 : Ref sig .tc := ⟨.hbm, 244, rfl⟩
abbrev main_v74 : Ref sig .tc := ⟨.hbm, 245, rfl⟩
abbrev main_v75 : Ref sig .tc := ⟨.hbm, 246, rfl⟩
abbrev main_v76 : Ref sig .tc := ⟨.hbm, 247, rfl⟩
abbrev main_v77 : Ref sig .tc := ⟨.hbm, 248, rfl⟩
abbrev main_v78 : Ref sig .tc := ⟨.hbm, 249, rfl⟩
abbrev main_v79 : Ref sig .tc := ⟨.hbm, 250, rfl⟩
abbrev main_v80 : Ref sig .tc := ⟨.hbm, 251, rfl⟩
abbrev main_v81 : Ref sig .tc := ⟨.hbm, 252, rfl⟩
abbrev main_v82 : Ref sig .tc := ⟨.hbm, 253, rfl⟩
abbrev main_v83 : Ref sig .tc := ⟨.hbm, 254, rfl⟩
abbrev main_v84 : Ref sig .tc := ⟨.hbm, 255, rfl⟩
abbrev main_v85 : Ref sig .tc := ⟨.hbm, 256, rfl⟩
abbrev main_v86 : Ref sig .tc := ⟨.hbm, 257, rfl⟩
abbrev main_v87 : Ref sig .tc := ⟨.hbm, 258, rfl⟩
abbrev main_v88 : Ref sig .tc := ⟨.hbm, 259, rfl⟩
abbrev main_v89 : Ref sig .tc := ⟨.hbm, 260, rfl⟩
abbrev main_v90 : Ref sig .tc := ⟨.hbm, 261, rfl⟩
abbrev main_v91 : Ref sig .tc := ⟨.hbm, 262, rfl⟩
abbrev main_v92 : Ref sig .tc := ⟨.hbm, 263, rfl⟩
abbrev main_v93 : Ref sig .tc := ⟨.hbm, 264, rfl⟩
abbrev main_v94 : Ref sig .tc := ⟨.hbm, 265, rfl⟩
abbrev main_v95 : Ref sig .tc := ⟨.hbm, 266, rfl⟩
abbrev main_v96 : Ref sig .tc := ⟨.hbm, 267, rfl⟩
abbrev main_v97 : Ref sig .tc := ⟨.hbm, 268, rfl⟩
abbrev main_v98 : Ref sig .tc := ⟨.hbm, 269, rfl⟩
abbrev main_v99 : Ref sig .tc := ⟨.hbm, 270, rfl⟩
abbrev main_v100 : Ref sig .tc := ⟨.hbm, 271, rfl⟩
abbrev main_v101 : Ref sig .tc := ⟨.hbm, 272, rfl⟩
abbrev main_v102 : Ref sig .tc := ⟨.hbm, 273, rfl⟩
abbrev main_v103 : Ref sig .tc := ⟨.hbm, 274, rfl⟩
abbrev main_v104 : Ref sig .tc := ⟨.hbm, 275, rfl⟩
abbrev main_v105 : Ref sig .tc := ⟨.hbm, 276, rfl⟩
abbrev main_v106 : Ref sig .tc := ⟨.hbm, 277, rfl⟩
abbrev main_v107 : Ref sig .tc := ⟨.hbm, 278, rfl⟩
abbrev main_v108 : Ref sig .tc := ⟨.hbm, 279, rfl⟩
abbrev main_call6_c : Ref sig .tc := ⟨.hbm, 280, rfl⟩
abbrev main_call6_v0 : Ref sig .tc := ⟨.hbm, 281, rfl⟩
abbrev main_call6_v1 : Ref sig .tc := ⟨.hbm, 282, rfl⟩
abbrev main_call6_c_0 : Ref sig .tc := ⟨.hbm, 283, rfl⟩
abbrev main_call6_v2 : Ref sig .tc := ⟨.hbm, 284, rfl⟩
abbrev main_call6_v3 : Ref sig .tc := ⟨.hbm, 285, rfl⟩
abbrev main_call6_v4 : Ref sig .tc := ⟨.hbm, 286, rfl⟩
abbrev main_call6_v5 : Ref sig .tc := ⟨.hbm, 287, rfl⟩
abbrev main_call6_c_1 : Ref sig .tc := ⟨.hbm, 288, rfl⟩
abbrev main_call6_c_2 : Ref sig .tc := ⟨.hbm, 289, rfl⟩
abbrev main_call6_v6 : Ref sig .tc := ⟨.hbm, 290, rfl⟩
abbrev main_call6_v7 : Ref sig .tc := ⟨.hbm, 291, rfl⟩
abbrev main_call6_v8 : Ref sig .tc := ⟨.hbm, 292, rfl⟩
abbrev main_call6_v9 : Ref sig .tc := ⟨.hbm, 293, rfl⟩
abbrev main_call6_v10 : Ref sig .tc := ⟨.hbm, 294, rfl⟩
abbrev main_call6_v11 : Ref sig .tc := ⟨.hbm, 295, rfl⟩
abbrev main_call6_c_3 : Ref sig .tc := ⟨.hbm, 296, rfl⟩
abbrev main_call6_v12 : Ref sig .tc := ⟨.hbm, 297, rfl⟩
abbrev main_call6_v13 : Ref sig .tc := ⟨.hbm, 298, rfl⟩
abbrev main_call6_v14 : Ref sig .tc := ⟨.hbm, 299, rfl⟩
abbrev main_call6_cst : Ref sig .tc := ⟨.hbm, 300, rfl⟩
abbrev main_call6_v15 : Ref sig .tc := ⟨.hbm, 301, rfl⟩
abbrev main_v109 : Ref sig .tc := ⟨.hbm, 302, rfl⟩
abbrev main_call7_c : Ref sig .tc := ⟨.hbm, 303, rfl⟩
abbrev main_call7_v0 : Ref sig .tc := ⟨.hbm, 304, rfl⟩
abbrev main_call7_v1 : Ref sig .tc := ⟨.hbm, 305, rfl⟩
abbrev main_call7_c_0 : Ref sig .tc := ⟨.hbm, 306, rfl⟩
abbrev main_call7_v2 : Ref sig .tc := ⟨.hbm, 307, rfl⟩
abbrev main_call7_v3 : Ref sig .tc := ⟨.hbm, 308, rfl⟩
abbrev main_call7_v4 : Ref sig .tc := ⟨.hbm, 309, rfl⟩
abbrev main_call7_v5 : Ref sig .tc := ⟨.hbm, 310, rfl⟩
abbrev main_call7_c_1 : Ref sig .tc := ⟨.hbm, 311, rfl⟩
abbrev main_call7_c_2 : Ref sig .tc := ⟨.hbm, 312, rfl⟩
abbrev main_call7_v6 : Ref sig .tc := ⟨.hbm, 313, rfl⟩
abbrev main_call7_v7 : Ref sig .tc := ⟨.hbm, 314, rfl⟩
abbrev main_call7_v8 : Ref sig .tc := ⟨.hbm, 315, rfl⟩
abbrev main_call7_v9 : Ref sig .tc := ⟨.hbm, 316, rfl⟩
abbrev main_call7_v10 : Ref sig .tc := ⟨.hbm, 317, rfl⟩
abbrev main_call7_v11 : Ref sig .tc := ⟨.hbm, 318, rfl⟩
abbrev main_call7_c_3 : Ref sig .tc := ⟨.hbm, 319, rfl⟩
abbrev main_call7_v12 : Ref sig .tc := ⟨.hbm, 320, rfl⟩
abbrev main_call7_v13 : Ref sig .tc := ⟨.hbm, 321, rfl⟩
abbrev main_call7_v14 : Ref sig .tc := ⟨.hbm, 322, rfl⟩
abbrev main_call7_cst : Ref sig .tc := ⟨.hbm, 323, rfl⟩
abbrev main_call7_v15 : Ref sig .tc := ⟨.hbm, 324, rfl⟩
abbrev main_v110 : Ref sig .tc := ⟨.hbm, 325, rfl⟩
abbrev main_call8_c : Ref sig .tc := ⟨.hbm, 326, rfl⟩
abbrev main_call8_v0 : Ref sig .tc := ⟨.hbm, 327, rfl⟩
abbrev main_call8_v1 : Ref sig .tc := ⟨.hbm, 328, rfl⟩
abbrev main_call8_c_0 : Ref sig .tc := ⟨.hbm, 329, rfl⟩
abbrev main_call8_v2 : Ref sig .tc := ⟨.hbm, 330, rfl⟩
abbrev main_call8_v3 : Ref sig .tc := ⟨.hbm, 331, rfl⟩
abbrev main_call8_v4 : Ref sig .tc := ⟨.hbm, 332, rfl⟩
abbrev main_call8_v5 : Ref sig .tc := ⟨.hbm, 333, rfl⟩
abbrev main_call8_c_1 : Ref sig .tc := ⟨.hbm, 334, rfl⟩
abbrev main_call8_c_2 : Ref sig .tc := ⟨.hbm, 335, rfl⟩
abbrev main_call8_v6 : Ref sig .tc := ⟨.hbm, 336, rfl⟩
abbrev main_call8_v7 : Ref sig .tc := ⟨.hbm, 337, rfl⟩
abbrev main_call8_v8 : Ref sig .tc := ⟨.hbm, 338, rfl⟩
abbrev main_call8_v9 : Ref sig .tc := ⟨.hbm, 339, rfl⟩
abbrev main_call8_v10 : Ref sig .tc := ⟨.hbm, 340, rfl⟩
abbrev main_call8_v11 : Ref sig .tc := ⟨.hbm, 341, rfl⟩
abbrev main_call8_c_3 : Ref sig .tc := ⟨.hbm, 342, rfl⟩
abbrev main_call8_v12 : Ref sig .tc := ⟨.hbm, 343, rfl⟩
abbrev main_call8_v13 : Ref sig .tc := ⟨.hbm, 344, rfl⟩
abbrev main_call8_v14 : Ref sig .tc := ⟨.hbm, 345, rfl⟩
abbrev main_call8_cst : Ref sig .tc := ⟨.hbm, 346, rfl⟩
abbrev main_call8_v15 : Ref sig .tc := ⟨.hbm, 347, rfl⟩
abbrev main_v111 : Ref sig .tc := ⟨.hbm, 348, rfl⟩
abbrev main_call9_c : Ref sig .tc := ⟨.hbm, 349, rfl⟩
abbrev main_call9_v0 : Ref sig .tc := ⟨.hbm, 350, rfl⟩
abbrev main_call9_v1 : Ref sig .tc := ⟨.hbm, 351, rfl⟩
abbrev main_call9_c_0 : Ref sig .tc := ⟨.hbm, 352, rfl⟩
abbrev main_call9_v2 : Ref sig .tc := ⟨.hbm, 353, rfl⟩
abbrev main_call9_v3 : Ref sig .tc := ⟨.hbm, 354, rfl⟩
abbrev main_call9_v4 : Ref sig .tc := ⟨.hbm, 355, rfl⟩
abbrev main_call9_v5 : Ref sig .tc := ⟨.hbm, 356, rfl⟩
abbrev main_call9_c_1 : Ref sig .tc := ⟨.hbm, 357, rfl⟩
abbrev main_call9_c_2 : Ref sig .tc := ⟨.hbm, 358, rfl⟩
abbrev main_call9_v6 : Ref sig .tc := ⟨.hbm, 359, rfl⟩
abbrev main_call9_v7 : Ref sig .tc := ⟨.hbm, 360, rfl⟩
abbrev main_call9_v8 : Ref sig .tc := ⟨.hbm, 361, rfl⟩
abbrev main_call9_v9 : Ref sig .tc := ⟨.hbm, 362, rfl⟩
abbrev main_call9_v10 : Ref sig .tc := ⟨.hbm, 363, rfl⟩
abbrev main_call9_v11 : Ref sig .tc := ⟨.hbm, 364, rfl⟩
abbrev main_call9_c_3 : Ref sig .tc := ⟨.hbm, 365, rfl⟩
abbrev main_call9_v12 : Ref sig .tc := ⟨.hbm, 366, rfl⟩
abbrev main_call9_v13 : Ref sig .tc := ⟨.hbm, 367, rfl⟩
abbrev main_call9_v14 : Ref sig .tc := ⟨.hbm, 368, rfl⟩
abbrev main_call9_cst : Ref sig .tc := ⟨.hbm, 369, rfl⟩
abbrev main_call9_v15 : Ref sig .tc := ⟨.hbm, 370, rfl⟩
abbrev main_v112 : Ref sig .tc := ⟨.hbm, 371, rfl⟩
abbrev main_cst_16 : Ref sig .tc := ⟨.hbm, 372, rfl⟩
abbrev main_v113 : Ref sig .tc := ⟨.hbm, 373, rfl⟩
abbrev main_v114 : Ref sig .tc := ⟨.hbm, 374, rfl⟩
abbrev main_v115 : Ref sig .tc := ⟨.hbm, 375, rfl⟩
abbrev main_v116 : Ref sig .tc := ⟨.hbm, 376, rfl⟩
abbrev main_v117 : Ref sig .tc := ⟨.hbm, 377, rfl⟩
abbrev main_cst_17 : Ref sig .tc := ⟨.hbm, 378, rfl⟩
abbrev main_v118 : Ref sig .tc := ⟨.hbm, 379, rfl⟩
abbrev main_v119 : Ref sig .tc := ⟨.hbm, 380, rfl⟩
abbrev main_v120 : Ref sig .tc := ⟨.hbm, 381, rfl⟩
abbrev main_v121 : Ref sig .tc := ⟨.hbm, 382, rfl⟩
abbrev main_v122 : Ref sig .tc := ⟨.hbm, 383, rfl⟩
abbrev main_cst_18 : Ref sig .tc := ⟨.hbm, 384, rfl⟩
abbrev main_v123 : Ref sig .tc := ⟨.hbm, 385, rfl⟩
abbrev main_v124 : Ref sig .tc := ⟨.hbm, 386, rfl⟩
abbrev main_v125 : Ref sig .tc := ⟨.hbm, 387, rfl⟩
abbrev main_v126 : Ref sig .tc := ⟨.hbm, 388, rfl⟩
abbrev main_v127 : Ref sig .tc := ⟨.hbm, 389, rfl⟩
abbrev main_cst_19 : Ref sig .tc := ⟨.hbm, 390, rfl⟩
abbrev main_v128 : Ref sig .tc := ⟨.hbm, 391, rfl⟩
abbrev main_v129 : Ref sig .tc := ⟨.hbm, 392, rfl⟩
abbrev main_v130 : Ref sig .tc := ⟨.hbm, 393, rfl⟩
abbrev main_v131 : Ref sig .tc := ⟨.hbm, 394, rfl⟩
abbrev main_v132 : Ref sig .tc := ⟨.hbm, 395, rfl⟩
abbrev main_v133 : Ref sig .tc := ⟨.hbm, 396, rfl⟩
abbrev main_v134 : Ref sig .tc := ⟨.hbm, 397, rfl⟩
abbrev main_v135 : Ref sig .tc := ⟨.hbm, 398, rfl⟩
abbrev main_v136 : Ref sig .tc := ⟨.hbm, 399, rfl⟩
abbrev main_v137 : Ref sig .tc := ⟨.hbm, 400, rfl⟩
abbrev main_v138 : Ref sig .tc := ⟨.hbm, 401, rfl⟩
abbrev main_v139 : Ref sig .tc := ⟨.hbm, 402, rfl⟩
abbrev main_v140 : Ref sig .tc := ⟨.hbm, 403, rfl⟩
abbrev main_v141 : Ref sig .tc := ⟨.hbm, 404, rfl⟩
abbrev main_v142 : Ref sig .tc := ⟨.hbm, 405, rfl⟩
abbrev main_v143 : Ref sig .tc := ⟨.hbm, 406, rfl⟩
abbrev main_v144 : Ref sig .tc := ⟨.hbm, 407, rfl⟩
abbrev main_v145 : Ref sig .tc := ⟨.hbm, 408, rfl⟩
abbrev main_v146 : Ref sig .tc := ⟨.hbm, 409, rfl⟩
abbrev main_v147 : Ref sig .tc := ⟨.hbm, 410, rfl⟩
abbrev main_v148 : Ref sig .tc := ⟨.hbm, 411, rfl⟩
abbrev main_v149 : Ref sig .tc := ⟨.hbm, 412, rfl⟩
abbrev main_v150 : Ref sig .tc := ⟨.hbm, 413, rfl⟩
abbrev main_v151 : Ref sig .tc := ⟨.hbm, 414, rfl⟩
abbrev main_v152 : Ref sig .tc := ⟨.hbm, 415, rfl⟩
abbrev main_v153 : Ref sig .tc := ⟨.hbm, 416, rfl⟩
abbrev main_v154 : Ref sig .tc := ⟨.hbm, 417, rfl⟩
abbrev main_v155 : Ref sig .tc := ⟨.hbm, 418, rfl⟩
abbrev main_v156 : Ref sig .tc := ⟨.hbm, 419, rfl⟩
abbrev main_v157 : Ref sig .tc := ⟨.hbm, 420, rfl⟩
abbrev main_v158 : Ref sig .tc := ⟨.hbm, 421, rfl⟩
abbrev main_v159 : Ref sig .tc := ⟨.hbm, 422, rfl⟩
abbrev main_v160 : Ref sig .tc := ⟨.hbm, 423, rfl⟩
abbrev main_v161 : Ref sig .tc := ⟨.hbm, 424, rfl⟩
abbrev main_v162 : Ref sig .tc := ⟨.hbm, 425, rfl⟩
abbrev main_v163 : Ref sig .tc := ⟨.hbm, 426, rfl⟩
abbrev main_v164 : Ref sig .tc := ⟨.hbm, 427, rfl⟩
abbrev main_v165 : Ref sig .tc := ⟨.hbm, 428, rfl⟩
abbrev main_v166 : Ref sig .tc := ⟨.hbm, 429, rfl⟩
abbrev main_v167 : Ref sig .tc := ⟨.hbm, 430, rfl⟩
abbrev main_v168 : Ref sig .tc := ⟨.hbm, 431, rfl⟩
abbrev main_v169 : Ref sig .tc := ⟨.hbm, 432, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg4_1 : Ref sig .tc := ⟨.vmem, 25, rfl⟩
abbrev cc3_stg5_0 : Ref sig .tc := ⟨.vmem, 26, rfl⟩
abbrev cc3_stg6_0 : Ref sig .tc := ⟨.vmem, 27, rfl⟩
abbrev cc3_stg7_0 : Ref sig .tc := ⟨.vmem, 28, rfl⟩
abbrev cc3_stg7_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg5_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg2_0 : Ref sig .tc := ⟨.vmem, 42, rfl⟩
abbrev cc5_stg2_1 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg2_1 : Ref sig .tc := ⟨.vmem, 52, rfl⟩
abbrev cc6_stg3_0 : Ref sig .tc := ⟨.vmem, 53, rfl⟩
abbrev cc6_stg4_0 : Ref sig .tc := ⟨.vmem, 54, rfl⟩
abbrev cc6_stg4_1 : Ref sig .tc := ⟨.vmem, 55, rfl⟩
abbrev cc6_stg5_0 : Ref sig .tc := ⟨.vmem, 56, rfl⟩
abbrev cc6_stg6_0 : Ref sig .tc := ⟨.vmem, 57, rfl⟩
abbrev cc6_stg7_0 : Ref sig .tc := ⟨.vmem, 58, rfl⟩
abbrev cc6_stg7_1 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg2_0 : Ref sig .tc := ⟨.vmem, 63, rfl⟩
abbrev cc7_stg2_1 : Ref sig .tc := ⟨.vmem, 64, rfl⟩
abbrev cc7_stg3_0 : Ref sig .tc := ⟨.vmem, 65, rfl⟩
abbrev cc7_stg4_0 : Ref sig .tc := ⟨.vmem, 66, rfl⟩
abbrev cc7_stg5_0 : Ref sig .tc := ⟨.vmem, 67, rfl⟩
abbrev cc7_stg5_1 : Ref sig .tc := ⟨.vmem, 68, rfl⟩
abbrev cc8_stg0_0 : Ref sig .tc := ⟨.vmem, 69, rfl⟩
abbrev cc8_stg0_1 : Ref sig .tc := ⟨.vmem, 70, rfl⟩
abbrev cc8_stg1_0 : Ref sig .tc := ⟨.vmem, 71, rfl⟩
abbrev cc8_stg2_0 : Ref sig .tc := ⟨.vmem, 72, rfl⟩
abbrev cc8_stg2_1 : Ref sig .tc := ⟨.vmem, 73, rfl⟩
abbrev cc8_stg3_0 : Ref sig .tc := ⟨.vmem, 74, rfl⟩
abbrev cc8_stg4_0 : Ref sig .tc := ⟨.vmem, 75, rfl⟩
abbrev cc8_stg5_0 : Ref sig .tc := ⟨.vmem, 76, rfl⟩
abbrev cc8_stg5_1 : Ref sig .tc := ⟨.vmem, 77, rfl⟩
abbrev cc9_stg0_0 : Ref sig .tc := ⟨.vmem, 78, rfl⟩
abbrev cc9_stg0_1 : Ref sig .tc := ⟨.vmem, 79, rfl⟩
abbrev cc9_stg1_0 : Ref sig .tc := ⟨.vmem, 80, rfl⟩
abbrev cc9_stg2_0 : Ref sig .tc := ⟨.vmem, 81, rfl⟩
abbrev cc9_stg3_0 : Ref sig .tc := ⟨.vmem, 82, rfl⟩
abbrev cc9_stg3_1 : Ref sig .tc := ⟨.vmem, 83, rfl⟩
abbrev cc10_stg0_0 : Ref sig .tc := ⟨.vmem, 84, rfl⟩
abbrev cc10_stg0_1 : Ref sig .tc := ⟨.vmem, 85, rfl⟩
abbrev cc10_stg1_0 : Ref sig .tc := ⟨.vmem, 86, rfl⟩
abbrev cc10_stg2_0 : Ref sig .tc := ⟨.vmem, 87, rfl⟩
abbrev cc10_stg3_0 : Ref sig .tc := ⟨.vmem, 88, rfl⟩
abbrev cc10_stg3_1 : Ref sig .tc := ⟨.vmem, 89, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc3_sem3_0 : DmaSem sig := 23
abbrev cc3_sem4_0 : DmaSem sig := 24
abbrev cc3_sem4_1 : DmaSem sig := 25
abbrev cc3_sem5_0 : DmaSem sig := 26
abbrev cc3_sem6_0 : DmaSem sig := 27
abbrev cc3_sem7_0 : DmaSem sig := 28
abbrev cc3_sem7_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34
abbrev cc4_sem3_0 : DmaSem sig := 35
abbrev cc4_sem4_0 : DmaSem sig := 36
abbrev cc4_sem5_0 : DmaSem sig := 37
abbrev cc4_sem5_1 : DmaSem sig := 38
abbrev cc5_sem0_0 : DmaSem sig := 39
abbrev cc5_sem0_1 : DmaSem sig := 40
abbrev cc5_sem1_0 : DmaSem sig := 41
abbrev cc5_sem2_0 : DmaSem sig := 42
abbrev cc5_sem2_1 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem2_1 : DmaSem sig := 52
abbrev cc6_sem3_0 : DmaSem sig := 53
abbrev cc6_sem4_0 : DmaSem sig := 54
abbrev cc6_sem4_1 : DmaSem sig := 55
abbrev cc6_sem5_0 : DmaSem sig := 56
abbrev cc6_sem6_0 : DmaSem sig := 57
abbrev cc6_sem7_0 : DmaSem sig := 58
abbrev cc6_sem7_1 : DmaSem sig := 59
abbrev cc7_sem0_0 : DmaSem sig := 60
abbrev cc7_sem0_1 : DmaSem sig := 61
abbrev cc7_sem1_0 : DmaSem sig := 62
abbrev cc7_sem2_0 : DmaSem sig := 63
abbrev cc7_sem2_1 : DmaSem sig := 64
abbrev cc7_sem3_0 : DmaSem sig := 65
abbrev cc7_sem4_0 : DmaSem sig := 66
abbrev cc7_sem5_0 : DmaSem sig := 67
abbrev cc7_sem5_1 : DmaSem sig := 68
abbrev cc8_sem0_0 : DmaSem sig := 69
abbrev cc8_sem0_1 : DmaSem sig := 70
abbrev cc8_sem1_0 : DmaSem sig := 71
abbrev cc8_sem2_0 : DmaSem sig := 72
abbrev cc8_sem2_1 : DmaSem sig := 73
abbrev cc8_sem3_0 : DmaSem sig := 74
abbrev cc8_sem4_0 : DmaSem sig := 75
abbrev cc8_sem5_0 : DmaSem sig := 76
abbrev cc8_sem5_1 : DmaSem sig := 77
abbrev cc9_sem0_0 : DmaSem sig := 78
abbrev cc9_sem0_1 : DmaSem sig := 79
abbrev cc9_sem1_0 : DmaSem sig := 80
abbrev cc9_sem2_0 : DmaSem sig := 81
abbrev cc9_sem3_0 : DmaSem sig := 82
abbrev cc9_sem3_1 : DmaSem sig := 83
abbrev cc10_sem0_0 : DmaSem sig := 84
abbrev cc10_sem0_1 : DmaSem sig := 85
abbrev cc10_sem1_0 : DmaSem sig := 86
abbrev cc10_sem2_0 : DmaSem sig := 87
abbrev cc10_sem3_0 : DmaSem sig := 88
abbrev cc10_sem3_1 : DmaSem sig := 89

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![2], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![40], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S5000x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![2], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S128x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![40], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![40], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x1 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x1 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S5000x1 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S50000_d1 : S50000x1.ReducesTo [1] S50000
  h_S_ : 0 < S_.numel
  bcast_S50000_S50000x64_0 : S50000.BroadcastsInDim S50000x64 (![0] : Fin 1 → Fin S50000x64.rank)
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  bcast_S_S10000 : S_.BroadcastsInDim S10000 (![] : Fin 0 → Fin S10000.rank)
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S1x1_S10000x1_0_1 : S1x1.BroadcastsInDim S10000x1 (![0, 1] : Fin 2 → Fin S10000x1.rank)
  reducesTo_S10000x1_S10000_d1 : S10000x1.ReducesTo [1] S10000
  bcast_S10000_S10000x64_0 : S10000.BroadcastsInDim S10000x64 (![0] : Fin 1 → Fin S10000x64.rank)
  bcast_S_S10000x64 : S_.BroadcastsInDim S10000x64 (![] : Fin 0 → Fin S10000x64.rank)
  bcast_S_S200000 : S_.BroadcastsInDim S200000 (![] : Fin 0 → Fin S200000.rank)
  bcast_S200000_S200000x1_0 : S200000.BroadcastsInDim S200000x1 (![0] : Fin 1 → Fin S200000x1.rank)
  slices_S2x4x128x128_S1x4x128x128_0_0_0_0 : S2x4x128x128.Slices ![0, 0, 0, 0] S1x4x128x128
  shapeCasts_S1x4x128x128_S4x128x128 : S1x4x128x128.ShapeCasts S4x128x128
  slices_S2x4x128_S1x4x128_0_0_0 : S2x4x128.Slices ![0, 0, 0] S1x4x128
  shapeCasts_S1x4x128_S4x128 : S1x4x128.ShapeCasts S4x128
  bcast_S_S200000x1 : S_.BroadcastsInDim S200000x1 (![] : Fin 0 → Fin S200000x1.rank)
  bcast_S1x1_S200000x1_0_1 : S1x1.BroadcastsInDim S200000x1 (![0, 1] : Fin 2 → Fin S200000x1.rank)
  reducesTo_S200000x1_S200000_d1 : S200000x1.ReducesTo [1] S200000
  bcast_S200000_S200000x128_0 : S200000.BroadcastsInDim S200000x128 (![0] : Fin 1 → Fin S200000x128.rank)
  bcast_S_S200000x128 : S_.BroadcastsInDim S200000x128 (![] : Fin 0 → Fin S200000x128.rank)
  bcast_S200000x1_S200000x128_0_1 : S200000x1.BroadcastsInDim S200000x128 (![0, 1] : Fin 2 → Fin S200000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S_S10000x128 : S_.BroadcastsInDim S10000x128 (![] : Fin 0 → Fin S10000x128.rank)
  bcast_S10000x1_S10000x128_0_1 : S10000x1.BroadcastsInDim S10000x128 (![0, 1] : Fin 2 → Fin S10000x128.rank)
  slices_S4x128x128_S1x128x128_0_0_0 : S4x128x128.Slices ![0, 0, 0] S1x128x128
  shapeCasts_S1x128x128_S128x128 : S1x128x128.ShapeCasts S128x128
  slices_S4x128x128_S1x128x128_2_0_0 : S4x128x128.Slices ![2, 0, 0] S1x128x128
  slices_S4x128_S1x128_0_0 : S4x128.Slices ![0, 0] S1x128
  shapeCasts_S1x128_S128 : S1x128.ShapeCasts S128
  slices_S4x128_S1x128_2_0 : S4x128.Slices ![2, 0] S1x128
  shapeCasts_S5000x128_S5000x128 : S5000x128.ShapeCasts S5000x128
  shapeCasts_S128x128_S128x128 : S128x128.ShapeCasts S128x128
  slices_S4x128x128_S1x128x128_1_0_0 : S4x128x128.Slices ![1, 0, 0] S1x128x128
  slices_S4x128_S1x128_1_0 : S4x128.Slices ![1, 0] S1x128
  slices_S4x128x128_S1x128x128_3_0_0 : S4x128x128.Slices ![3, 0, 0] S1x128x128
  slices_S4x128_S1x128_3_0 : S4x128.Slices ![3, 0] S1x128
  slices_S2x4x128x128_S1x4x128x128_1_0_0_0 : S2x4x128x128.Slices ![1, 0, 0, 0] S1x4x128x128
  slices_S2x4x128_S1x4x128_1_0_0 : S2x4x128.Slices ![1, 0, 0] S1x4x128
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S200000x1_S200000 : S200000x1.ShapeCasts S200000
  dot_S5000x128_S128x128_S5000x128_1_0_0_1_n_n_wf : DotDims.WF S5000x128 S128x128 S5000x128 [1] [0] [0] [1] [] []
  gather_S50000x64_S50000x1_S50000x64_1_0_n_n_0_1_164_wf : GatherDims.WF S50000x64 S50000x1 S50000x64 [1] [0] [] [0] [] 1 ![1, 64]
  dot_S5000x64_S64x128_S5000x128_1_0_0_1_n_n_wf : DotDims.WF S5000x64 S64x128 S5000x128 [1] [0] [0] [1] [] []
  gather_S10000x64_S10000x1_S10000x64_1_0_n_n_0_1_164_wf : GatherDims.WF S10000x64 S10000x1 S10000x64 [1] [0] [] [0] [] 1 ![1, 64]
  scatter_S200000_S200000x1_S200000_n_0_0_1_wf : ScatterDims.WF S200000 S200000x1 S200000 [] [0] [0] 1
  scatter_S50000_S200000x1_S200000_n_0_0_1_wf : ScatterDims.WF S50000 S200000x1 S200000 [] [0] [0] 1
  scatter_S10000_S200000x1_S200000_n_0_0_1_wf : ScatterDims.WF S10000 S200000x1 S200000 [] [0] [0] 1
  gather_S50000x128_S200000x1_S200000x128_1_0_n_n_0_1_1128_wf : GatherDims.WF S50000x128 S200000x1 S200000x128 [1] [0] [] [0] [] 1 ![1, 128]
  gather_S10000x128_S200000x1_S200000x128_1_0_n_n_0_1_1128_wf : GatherDims.WF S10000x128 S200000x1 S200000x128 [1] [0] [] [0] [] 1 ![1, 128]
  gather_S200000x128_S200000x1_S200000x128_1_0_n_n_0_1_1128_wf : GatherDims.WF S200000x128 S200000x1 S200000x128 [1] [0] [] [0] [] 1 ![1, 128]
  scatter_S200000x128_S200000x1_S200000x128_1_0_0_1_wf : ScatterDims.WF S200000x128 S200000x1 S200000x128 [1] [0] [0] 1
  scatter_S50000x128_S200000x1_S200000x128_1_0_0_1_wf : ScatterDims.WF S50000x128 S200000x1 S200000x128 [1] [0] [0] 1
  scatter_S10000x128_S200000x1_S200000x128_1_0_0_1_wf : ScatterDims.WF S10000x128 S200000x1 S200000x128 [1] [0] [0] 1
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S200000x128.size a
  hwx0_0 : ∀ i : grid0.Coords, EltTy.bits .f32 = 32 ∨ (Rect.block (s := S200000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S200000x128.size a
  hwx0_3 : ∀ i : grid0.Coords, EltTy.bits .f32 = 32 ∨ (Rect.block (s := S200000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S10000x64.size a
  hwx2_0 : ∀ i : grid2.Coords, EltTy.bits .f32 = 32 ∨ (Rect.block (s := S10000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S10000x128.size a
  hwx2_3 : ∀ i : grid2.Coords, EltTy.bits .f32 = 32 ∨ (Rect.block (s := S10000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S200000x128.size a
  hwx3_0 : ∀ i : grid3.Coords, EltTy.bits .f32 = 32 ∨ (Rect.block (s := S200000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S200000x128.size a
  hwx3_2 : ∀ i : grid3.Coords, EltTy.bits .f32 = 32 ∨ (Rect.block (s := S200000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S200000x128.size a
  hwx3_4 : ∀ i : grid3.Coords, EltTy.bits .f32 = 32 ∨ (Rect.block (s := S200000x128) S5000x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S200000x128.size a
  hwx3_7 : ∀ i : grid3.Coords, EltTy.bits .f32 = 32 ∨ (Rect.block (s := S200000x128) S5000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S10000x128.size a
  hwx5_0 : ∀ i : grid5.Coords, EltTy.bits .f32 = 32 ∨ (Rect.block (s := S10000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S10000x128.size a
  hwx5_2 : ∀ i : grid5.Coords, EltTy.bits .f32 = 32 ∨ (Rect.block (s := S10000x128) S5000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S10000x128.size a
  hwx5_5 : ∀ i : grid5.Coords, EltTy.bits .f32 = 32 ∨ (Rect.block (s := S10000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S200000x128.size a
  hwx6_0 : ∀ i : grid6.Coords, EltTy.bits .f32 = 32 ∨ (Rect.block (s := S200000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S200000x128.size a
  hwx6_2 : ∀ i : grid6.Coords, EltTy.bits .f32 = 32 ∨ (Rect.block (s := S200000x128) S5000x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x128.size a ≤ S200000x128.size a
  hwx6_4 : ∀ i : grid6.Coords, EltTy.bits .f32 = 32 ∨ (Rect.block (s := S200000x128) S5000x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .f32 = 32 ∨ (Rect.block (s := S128x128) S128x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x128.size a ≤ S200000x128.size a
  hwx6_7 : ∀ i : grid6.Coords, EltTy.bits .f32 = 32 ∨ (Rect.block (s := S200000x128) S5000x128.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S50000x128.size a
  hwx7_2 : ∀ i : grid7.Coords, EltTy.bits .f32 = 32 ∨ (Rect.block (s := S50000x128) S5000x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S50000x128.size a
  hwx7_5 : ∀ i : grid7.Coords, EltTy.bits .f32 = 32 ∨ (Rect.block (s := S50000x128) S5000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S10000x128.size a
  hwx8_0 : ∀ i : grid8.Coords, EltTy.bits .f32 = 32 ∨ (Rect.block (s := S10000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S10000x128.size a
  hwx8_2 : ∀ i : grid8.Coords, EltTy.bits .f32 = 32 ∨ (Rect.block (s := S10000x128) S5000x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x128.size a ≤ S128x128.size a
  hwx8_3 : ∀ i : grid8.Coords, EltTy.bits .f32 = 32 ∨ (Rect.block (s := S128x128) S128x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x128.size a ≤ S10000x128.size a
  hwx8_5 : ∀ i : grid8.Coords, EltTy.bits .f32 = 32 ∨ (Rect.block (s := S10000x128) S5000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S200000x128.size a
  hwx9_0 : ∀ i : grid9.Coords, EltTy.bits .f32 = 32 ∨ (Rect.block (s := S200000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x128.size a ≤ S200000x128.size a
  hwx9_3 : ∀ i : grid9.Coords, EltTy.bits .f32 = 32 ∨ (Rect.block (s := S200000x128) S5000x128.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S200000x128.size a
  hwx10_0 : ∀ i : grid10.Coords, EltTy.bits .f32 = 32 ∨ (Rect.block (s := S200000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x1.size a ≤ S128x1.size a
  hwx10_1 : ∀ i : grid10.Coords, EltTy.bits .f32 = 32 ∨ (Rect.block (s := S128x1) S128x1.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x1.size a ≤ S1x1.size a
  hwx10_2 : ∀ i : grid10.Coords, EltTy.bits .f32 = 32 ∨ (Rect.block (s := S1x1) S1x1.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S5000x1.size a ≤ S200000x1.size a
  hwx10_3 : ∀ i : grid10.Coords, EltTy.bits .f32 = 32 ∨ (Rect.block (s := S200000x1) S5000x1.size (cc10_transform_3 i) (hinb10_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x64_S50000x1_S50000x64_1_0_n_n_0_1_164 : GatherDims S50000x64 S50000x1 S50000x64 where
  offsetDims := [1]
  collapsedSliceDims := [0]
  operandBatchingDims := []
  startIndicesBatchingDims := []
  startIndexMap := [0]
  indexVectorDim := 1
  sliceSizes := ![1, 64]
  wf := gather_S50000x64_S50000x1_S50000x64_1_0_n_n_0_1_164_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S10000x64_S10000x1_S10000x64_1_0_n_n_0_1_164 : GatherDims S10000x64 S10000x1 S10000x64 where
  offsetDims := [1]
  collapsedSliceDims := [0]
  operandBatchingDims := []
  startIndicesBatchingDims := []
  startIndexMap := [0]
  indexVectorDim := 1
  sliceSizes := ![1, 64]
  wf := gather_S10000x64_S10000x1_S10000x64_1_0_n_n_0_1_164_wf
def scatter_S200000_S200000x1_S200000_n_0_0_1 : ScatterDims S200000 S200000x1 S200000 where
  updateWindowDims := []
  insertedWindowDims := [0]
  scatterDimsToOperandDims := [0]
  indexVectorDim := 1
  wf := scatter_S200000_S200000x1_S200000_n_0_0_1_wf
def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf
def scatter_S10000_S200000x1_S200000_n_0_0_1 : ScatterDims S10000 S200000x1 S200000 where
  updateWindowDims := []
  insertedWindowDims := [0]
  scatterDimsToOperandDims := [0]
  indexVectorDim := 1
  wf := scatter_S10000_S200000x1_S200000_n_0_0_1_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def gather_S10000x128_S200000x1_S200000x128_1_0_n_n_0_1_1128 : GatherDims S10000x128 S200000x1 S200000x128 where
  offsetDims := [1]
  collapsedSliceDims := [0]
  operandBatchingDims := []
  startIndicesBatchingDims := []
  startIndexMap := [0]
  indexVectorDim := 1
  sliceSizes := ![1, 128]
  wf := gather_S10000x128_S200000x1_S200000x128_1_0_n_n_0_1_1128_wf
def gather_S200000x128_S200000x1_S200000x128_1_0_n_n_0_1_1128 : GatherDims S200000x128 S200000x1 S200000x128 where
  offsetDims := [1]
  collapsedSliceDims := [0]
  operandBatchingDims := []
  startIndicesBatchingDims := []
  startIndexMap := [0]
  indexVectorDim := 1
  sliceSizes := ![1, 128]
  wf := gather_S200000x128_S200000x1_S200000x128_1_0_n_n_0_1_1128_wf
def scatter_S200000x128_S200000x1_S200000x128_1_0_0_1 : ScatterDims S200000x128 S200000x1 S200000x128 where
  updateWindowDims := [1]
  insertedWindowDims := [0]
  scatterDimsToOperandDims := [0]
  indexVectorDim := 1
  wf := scatter_S200000x128_S200000x1_S200000x128_1_0_0_1_wf
def scatter_S50000x128_S200000x1_S200000x128_1_0_0_1 : ScatterDims S50000x128 S200000x1 S200000x128 where
  updateWindowDims := [1]
  insertedWindowDims := [0]
  scatterDimsToOperandDims := [0]
  indexVectorDim := 1
  wf := scatter_S50000x128_S200000x1_S200000x128_1_0_0_1_wf
def scatter_S10000x128_S200000x1_S200000x128_1_0_0_1 : ScatterDims S10000x128 S200000x1 S200000x128 where
  updateWindowDims := [1]
  insertedWindowDims := [0]
  scatterDimsToOperandDims := [0]
  indexVectorDim := 1
  wf := scatter_S10000x128_S200000x1_S200000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg13) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v55) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v82) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v84) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v1) S5000x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v75) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v85) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v86) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v65) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v88) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v4) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v90) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v93) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v94) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v70) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v96) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v7) S5000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v98) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v101) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v102) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v117) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v144) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v122) S5000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v146) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v86) S5000x128.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v137) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v147) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v148) S5000x128.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v127) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v150) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v94) S5000x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v152) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v155) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v156) S5000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v132) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v158) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v102) S5000x128.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v160) S128x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v163) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v164) S5000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v148) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg18) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v165) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v166) S5000x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v166) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg20) S128x1.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v167) S1x1.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v168) S5000x1.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

class Facts : Prop extends Facts₀ where

variable [Facts]
-- ==== ReferenceIdeal.lean ====
abbrev S200000x128 : Shape := ⟨2, ![200000, 128]⟩
abbrev S50000 : Shape := ⟨1, ![50000]⟩
abbrev S10000 : Shape := ⟨1, ![10000]⟩
abbrev S200000 : Shape := ⟨1, ![200000]⟩
abbrev S50000x64 : Shape := ⟨2, ![50000, 64]⟩
abbrev S10000x64 : Shape := ⟨2, ![10000, 64]⟩
abbrev S64x128 : Shape := ⟨2, ![64, 128]⟩
abbrev S128 : Shape := ⟨1, ![128]⟩
abbrev S128x128 : Shape := ⟨2, ![128, 128]⟩
abbrev S2x4x128x128 : Shape := ⟨4, ![2, 4, 128, 128]⟩
abbrev S2x4x128 : Shape := ⟨3, ![2, 4, 128]⟩
abbrev S128x1 : Shape := ⟨2, ![128, 1]⟩
abbrev S1 : Shape := ⟨1, ![1]⟩
abbrev S1x128 : Shape := ⟨2, ![1, 128]⟩
abbrev S_ : Shape := ⟨0, ![]⟩
abbrev S50000x1 : Shape := ⟨2, ![50000, 1]⟩
abbrev S50000x128 : Shape := ⟨2, ![50000, 128]⟩
abbrev S10000x1 : Shape := ⟨2, ![10000, 1]⟩
abbrev S10000x128 : Shape := ⟨2, ![10000, 128]⟩
abbrev S1x4x128x128 : Shape := ⟨4, ![1, 4, 128, 128]⟩
abbrev S4x128x128 : Shape := ⟨3, ![4, 128, 128]⟩
abbrev S1x4x128 : Shape := ⟨3, ![1, 4, 128]⟩
abbrev S4x128 : Shape := ⟨2, ![4, 128]⟩
abbrev S1x128x128 : Shape := ⟨3, ![1, 128, 128]⟩
abbrev S200000x1 : Shape := ⟨2, ![200000, 1]⟩
abbrev S1x1 : Shape := ⟨2, ![1, 1]⟩

abbrev nBuf : Space → Nat
  | .hbm => 395
  | .vmem => 0
  | .smem => 0
  | _ => 0

abbrev hbmTy0_0 (i : Nat) : BufTy := match i % 128 with
  | 0 => ⟨S200000x128, .f32⟩
  | 1 => ⟨S50000, .i32⟩
  | 2 => ⟨S10000, .i32⟩
  | 3 => ⟨S200000, .i32⟩
  | 4 => ⟨S200000, .i32⟩
  | 5 => ⟨S200000, .i32⟩
  | 6 => ⟨S200000, .i32⟩
  | 7 => ⟨S50000x64, .f32⟩
  | 8 => ⟨S10000x64, .f32⟩
  | 9 => ⟨S64x128, .f32⟩
  | 10 => ⟨S128, .f32⟩
  | 11 => ⟨S64x128, .f32⟩
  | 12 => ⟨S128, .f32⟩
  | 13 => ⟨S128x128, .f32⟩
  | 14 => ⟨S128, .f32⟩
  | 15 => ⟨S2x4x128x128, .f32⟩
  | 16 => ⟨S2x4x128, .f32⟩
  | 17 => ⟨S2x4x128x128, .f32⟩
  | 18 => ⟨S128x128, .f32⟩
  | 19 => ⟨S128, .f32⟩
  | 20 => ⟨S128x1, .f32⟩
  | 21 => ⟨S1, .f32⟩
  | 22 => ⟨S200000x128, .f32⟩
  | 23 => ⟨S1x128, .f32⟩
  | 24 => ⟨S200000x128, .f32⟩
  | 25 => ⟨S200000x128, .f32⟩
  | 26 => ⟨S_, .f32⟩
  | 27 => ⟨S200000x128, .f32⟩
  | 28 => ⟨S200000x128, .f32⟩
  | 29 => ⟨S_, .i32⟩
  | 30 => ⟨S50000, .i32⟩
  | 31 => ⟨S50000, .i1⟩
  | 32 => ⟨S_, .i32⟩
  | 33 => ⟨S50000, .i32⟩
  | 34 => ⟨S50000, .i32⟩
  | 35 => ⟨S50000, .i32⟩
  | 36 => ⟨S50000x1, .i32⟩
  | 37 => ⟨S50000x64, .f32⟩
  | 38 => ⟨S50000x128, .f32⟩
  | 39 => ⟨S1x128, .f32⟩
  | 40 => ⟨S50000x128, .f32⟩
  | 41 => ⟨S50000x128, .f32⟩
  | 42 => ⟨S_, .i32⟩
  | 43 => ⟨S10000, .i32⟩
  | 44 => ⟨S10000, .i1⟩
  | 45 => ⟨S_, .i32⟩
  | 46 => ⟨S10000, .i32⟩
  | 47 => ⟨S10000, .i32⟩
  | 48 => ⟨S10000, .i32⟩
  | 49 => ⟨S10000x1, .i32⟩
  | 50 => ⟨S10000x64, .f32⟩
  | 51 => ⟨S10000x128, .f32⟩
  | 52 => ⟨S1x128, .f32⟩
  | 53 => ⟨S10000x128, .f32⟩
  | 54 => ⟨S10000x128, .f32⟩
  | 55 => ⟨S1x4x128x128, .f32⟩
  | 56 => ⟨S4x128x128, .f32⟩
  | 57 => ⟨S1x4x128, .f32⟩
  | 58 => ⟨S4x128, .f32⟩
  | 59 => ⟨S1x4x128x128, .f32⟩
  | 60 => ⟨S4x128x128, .f32⟩
  | 61 => ⟨S1x128x128, .f32⟩
  | 62 => ⟨S128x128, .f32⟩
  | 63 => ⟨S1x128, .f32⟩
  | 64 => ⟨S128, .f32⟩
  | 65 => ⟨S1x128x128, .f32⟩
  | 66 => ⟨S128x128, .f32⟩
  | 67 => ⟨S_, .i32⟩
  | 68 => ⟨S200000, .i32⟩
  | 69 => ⟨S200000, .i1⟩
  | 70 => ⟨S_, .i32⟩
  | 71 => ⟨S200000, .i32⟩
  | 72 => ⟨S200000, .i32⟩
  | 73 => ⟨S200000, .i32⟩
  | 74 => ⟨S200000x1, .i32⟩
  | 75 => ⟨S200000x128, .f32⟩
  | 76 => ⟨S_, .f32⟩
  | 77 => ⟨S200000x128, .f32⟩
  | 78 => ⟨S200000x1, .i32⟩
  | 79 => ⟨S200000x128, .f32⟩
  | 80 => ⟨S_, .f32⟩
  | 81 => ⟨S200000, .f32⟩
  | 82 => ⟨S_, .f32⟩
  | 83 => ⟨S200000, .f32⟩
  | 84 => ⟨S200000x1, .i32⟩
  | 85 => ⟨S200000, .f32⟩
  | 86 => ⟨S_, .f32⟩
  | 87 => ⟨S200000, .f32⟩
  | 88 => ⟨S200000, .f32⟩
  | 89 => ⟨S200000x1, .f32⟩
  | 90 => ⟨S200000x128, .f32⟩
  | 91 => ⟨S200000x128, .f32⟩
  | 92 => ⟨S200000x128, .f32⟩
  | 93 => ⟨S1x128, .f32⟩
  | 94 => ⟨S200000x128, .f32⟩
  | 95 => ⟨S200000x128, .f32⟩
  | 96 => ⟨S200000x128, .f32⟩
  | 97 => ⟨S200000x128, .f32⟩
  | 98 => ⟨S1x128x128, .f32⟩
  | 99 => ⟨S128x128, .f32⟩
  | 100 => ⟨S1x128, .f32⟩
  | 101 => ⟨S128, .f32⟩
  | 102 => ⟨S1x128x128, .f32⟩
  | 103 => ⟨S128x128, .f32⟩
  | 104 => ⟨S_, .i32⟩
  | 105 => ⟨S200000, .i32⟩
  | 106 => ⟨S200000, .i1⟩
  | 107 => ⟨S_, .i32⟩
  | 108 => ⟨S200000, .i32⟩
  | 109 => ⟨S200000, .i32⟩
  | 110 => ⟨S200000, .i32⟩
  | 111 => ⟨S200000x1, .i32⟩
  | 112 => ⟨S200000x128, .f32⟩
  | 113 => ⟨S_, .f32⟩
  | 114 => ⟨S200000x128, .f32⟩
  | 115 => ⟨S200000x1, .i32⟩
  | 116 => ⟨S200000x128, .f32⟩
  | 117 => ⟨S_, .f32⟩
  | 118 => ⟨S200000, .f32⟩
  | 119 => ⟨S_, .f32⟩
  | 120 => ⟨S200000, .f32⟩
  | 121 => ⟨S200000x1, .i32⟩
  | 122 => ⟨S200000, .f32⟩
  | 123 => ⟨S_, .f32⟩
  | 124 => ⟨S200000, .f32⟩
  | 125 => ⟨S200000, .f32⟩
  | 126 => ⟨S200000x1, .f32⟩
  | 127 => ⟨S200000x128, .f32⟩
  | _ => ⟨S200000x128, .f32⟩

abbrev hbmTy0_1 (i : Nat) : BufTy := match i % 128 with
  | 0 => ⟨S200000x128, .f32⟩
  | 1 => ⟨S200000x128, .f32⟩
  | 2 => ⟨S1x128, .f32⟩
  | 3 => ⟨S200000x128, .f32⟩
  | 4 => ⟨S200000x128, .f32⟩
  | 5 => ⟨S200000x128, .f32⟩
  | 6 => ⟨S200000x128, .f32⟩
  | 7 => ⟨S200000x128, .f32⟩
  | 8 => ⟨S1x128x128, .f32⟩
  | 9 => ⟨S128x128, .f32⟩
  | 10 => ⟨S1x128, .f32⟩
  | 11 => ⟨S128, .f32⟩
  | 12 => ⟨S1x128x128, .f32⟩
  | 13 => ⟨S128x128, .f32⟩
  | 14 => ⟨S_, .i32⟩
  | 15 => ⟨S200000, .i32⟩
  | 16 => ⟨S200000, .i1⟩
  | 17 => ⟨S_, .i32⟩
  | 18 => ⟨S200000, .i32⟩
  | 19 => ⟨S200000, .i32⟩
  | 20 => ⟨S200000, .i32⟩
  | 21 => ⟨S200000x1, .i32⟩
  | 22 => ⟨S200000x128, .f32⟩
  | 23 => ⟨S_, .f32⟩
  | 24 => ⟨S50000x128, .f32⟩
  | 25 => ⟨S200000x1, .i32⟩
  | 26 => ⟨S50000x128, .f32⟩
  | 27 => ⟨S_, .f32⟩
  | 28 => ⟨S200000, .f32⟩
  | 29 => ⟨S_, .f32⟩
  | 30 => ⟨S50000, .f32⟩
  | 31 => ⟨S200000x1, .i32⟩
  | 32 => ⟨S50000, .f32⟩
  | 33 => ⟨S_, .f32⟩
  | 34 => ⟨S50000, .f32⟩
  | 35 => ⟨S50000, .f32⟩
  | 36 => ⟨S50000x1, .f32⟩
  | 37 => ⟨S50000x128, .f32⟩
  | 38 => ⟨S50000x128, .f32⟩
  | 39 => ⟨S50000x128, .f32⟩
  | 40 => ⟨S1x128, .f32⟩
  | 41 => ⟨S50000x128, .f32⟩
  | 42 => ⟨S50000x128, .f32⟩
  | 43 => ⟨S50000x128, .f32⟩
  | 44 => ⟨S50000x128, .f32⟩
  | 45 => ⟨S1x128x128, .f32⟩
  | 46 => ⟨S128x128, .f32⟩
  | 47 => ⟨S1x128, .f32⟩
  | 48 => ⟨S128, .f32⟩
  | 49 => ⟨S1x128x128, .f32⟩
  | 50 => ⟨S128x128, .f32⟩
  | 51 => ⟨S_, .i32⟩
  | 52 => ⟨S200000, .i32⟩
  | 53 => ⟨S200000, .i1⟩
  | 54 => ⟨S_, .i32⟩
  | 55 => ⟨S200000, .i32⟩
  | 56 => ⟨S200000, .i32⟩
  | 57 => ⟨S200000, .i32⟩
  | 58 => ⟨S200000x1, .i32⟩
  | 59 => ⟨S200000x128, .f32⟩
  | 60 => ⟨S_, .f32⟩
  | 61 => ⟨S10000x128, .f32⟩
  | 62 => ⟨S200000x1, .i32⟩
  | 63 => ⟨S10000x128, .f32⟩
  | 64 => ⟨S_, .f32⟩
  | 65 => ⟨S200000, .f32⟩
  | 66 => ⟨S_, .f32⟩
  | 67 => ⟨S10000, .f32⟩
  | 68 => ⟨S200000x1, .i32⟩
  | 69 => ⟨S10000, .f32⟩
  | 70 => ⟨S_, .f32⟩
  | 71 => ⟨S10000, .f32⟩
  | 72 => ⟨S10000, .f32⟩
  | 73 => ⟨S10000x1, .f32⟩
  | 74 => ⟨S10000x128, .f32⟩
  | 75 => ⟨S10000x128, .f32⟩
  | 76 => ⟨S10000x128, .f32⟩
  | 77 => ⟨S1x128, .f32⟩
  | 78 => ⟨S10000x128, .f32⟩
  | 79 => ⟨S10000x128, .f32⟩
  | 80 => ⟨S10000x128, .f32⟩
  | 81 => ⟨S10000x128, .f32⟩
  | 82 => ⟨S_, .f32⟩
  | 83 => ⟨S200000x128, .f32⟩
  | 84 => ⟨S200000x128, .f32⟩
  | 85 => ⟨S_, .f32⟩
  | 86 => ⟨S50000x128, .f32⟩
  | 87 => ⟨S50000x128, .f32⟩
  | 88 => ⟨S_, .f32⟩
  | 89 => ⟨S10000x128, .f32⟩
  | 90 => ⟨S10000x128, .f32⟩
  | 91 => ⟨S1x4x128x128, .f32⟩
  | 92 => ⟨S4x128x128, .f32⟩
  | 93 => ⟨S1x4x128, .f32⟩
  | 94 => ⟨S4x128, .f32⟩
  | 95 => ⟨S1x4x128x128, .f32⟩
  | 96 => ⟨S4x128x128, .f32⟩
  | 97 => ⟨S1x128x128, .f32⟩
  | 98 => ⟨S128x128, .f32⟩
  | 99 => ⟨S1x128, .f32⟩
  | 100 => ⟨S128, .f32⟩
  | 101 => ⟨S1x128x128, .f32⟩
  | 102 => ⟨S128x128, .f32⟩
  | 103 => ⟨S_, .i32⟩
  | 104 => ⟨S200000, .i32⟩
  | 105 => ⟨S200000, .i1⟩
  | 106 => ⟨S_, .i32⟩
  | 107 => ⟨S200000, .i32⟩
  | 108 => ⟨S200000, .i32⟩
  | 109 => ⟨S200000, .i32⟩
  | 110 => ⟨S200000x1, .i32⟩
  | 111 => ⟨S200000x128, .f32⟩
  | 112 => ⟨S_, .f32⟩
  | 113 => ⟨S200000x128, .f32⟩
  | 114 => ⟨S200000x1, .i32⟩
  | 115 => ⟨S200000x128, .f32⟩
  | 116 => ⟨S_, .f32⟩
  | 117 => ⟨S200000, .f32⟩
  | 118 => ⟨S_, .f32⟩
  | 119 => ⟨S200000, .f32⟩
  | 120 => ⟨S200000x1, .i32⟩
  | 121 => ⟨S200000, .f32⟩
  | 122 => ⟨S_, .f32⟩
  | 123 => ⟨S200000, .f32⟩
  | 124 => ⟨S200000, .f32⟩
  | 125 => ⟨S200000x1, .f32⟩
  | 126 => ⟨S200000x128, .f32⟩
  | 127 => ⟨S200000x128, .f32⟩
  | _ => ⟨S200000x128, .f32⟩

abbrev hbmTy0_2 (i : Nat) : BufTy := match i % 128 with
  | 0 => ⟨S200000x128, .f32⟩
  | 1 => ⟨S1x128, .f32⟩
  | 2 => ⟨S200000x128, .f32⟩
  | 3 => ⟨S200000x128, .f32⟩
  | 4 => ⟨S200000x128, .f32⟩
  | 5 => ⟨S200000x128, .f32⟩
  | 6 => ⟨S1x128x128, .f32⟩
  | 7 => ⟨S128x128, .f32⟩
  | 8 => ⟨S1x128, .f32⟩
  | 9 => ⟨S128, .f32⟩
  | 10 => ⟨S1x128x128, .f32⟩
  | 11 => ⟨S128x128, .f32⟩
  | 12 => ⟨S_, .i32⟩
  | 13 => ⟨S200000, .i32⟩
  | 14 => ⟨S200000, .i1⟩
  | 15 => ⟨S_, .i32⟩
  | 16 => ⟨S200000, .i32⟩
  | 17 => ⟨S200000, .i32⟩
  | 18 => ⟨S200000, .i32⟩
  | 19 => ⟨S200000x1, .i32⟩
  | 20 => ⟨S200000x128, .f32⟩
  | 21 => ⟨S_, .f32⟩
  | 22 => ⟨S200000x128, .f32⟩
  | 23 => ⟨S200000x1, .i32⟩
  | 24 => ⟨S200000x128, .f32⟩
  | 25 => ⟨S_, .f32⟩
  | 26 => ⟨S200000, .f32⟩
  | 27 => ⟨S_, .f32⟩
  | 28 => ⟨S200000, .f32⟩
  | 29 => ⟨S200000x1, .i32⟩
  | 30 => ⟨S200000, .f32⟩
  | 31 => ⟨S_, .f32⟩
  | 32 => ⟨S200000, .f32⟩
  | 33 => ⟨S200000, .f32⟩
  | 34 => ⟨S200000x1, .f32⟩
  | 35 => ⟨S200000x128, .f32⟩
  | 36 => ⟨S200000x128, .f32⟩
  | 37 => ⟨S200000x128, .f32⟩
  | 38 => ⟨S1x128, .f32⟩
  | 39 => ⟨S200000x128, .f32⟩
  | 40 => ⟨S200000x128, .f32⟩
  | 41 => ⟨S200000x128, .f32⟩
  | 42 => ⟨S200000x128, .f32⟩
  | 43 => ⟨S200000x128, .f32⟩
  | 44 => ⟨S1x128x128, .f32⟩
  | 45 => ⟨S128x128, .f32⟩
  | 46 => ⟨S1x128, .f32⟩
  | 47 => ⟨S128, .f32⟩
  | 48 => ⟨S1x128x128, .f32⟩
  | 49 => ⟨S128x128, .f32⟩
  | 50 => ⟨S_, .i32⟩
  | 51 => ⟨S200000, .i32⟩
  | 52 => ⟨S200000, .i1⟩
  | 53 => ⟨S_, .i32⟩
  | 54 => ⟨S200000, .i32⟩
  | 55 => ⟨S200000, .i32⟩
  | 56 => ⟨S200000, .i32⟩
  | 57 => ⟨S200000x1, .i32⟩
  | 58 => ⟨S200000x128, .f32⟩
  | 59 => ⟨S_, .f32⟩
  | 60 => ⟨S50000x128, .f32⟩
  | 61 => ⟨S200000x1, .i32⟩
  | 62 => ⟨S50000x128, .f32⟩
  | 63 => ⟨S_, .f32⟩
  | 64 => ⟨S200000, .f32⟩
  | 65 => ⟨S_, .f32⟩
  | 66 => ⟨S50000, .f32⟩
  | 67 => ⟨S200000x1, .i32⟩
  | 68 => ⟨S50000, .f32⟩
  | 69 => ⟨S_, .f32⟩
  | 70 => ⟨S50000, .f32⟩
  | 71 => ⟨S50000, .f32⟩
  | 72 => ⟨S50000x1, .f32⟩
  | 73 => ⟨S50000x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S50000x128, .f32⟩
  | 80 => ⟨S50000x128, .f32⟩
  | 81 => ⟨S1x128x128, .f32⟩
  | 82 => ⟨S128x128, .f32⟩
  | 83 => ⟨S1x128, .f32⟩
  | 84 => ⟨S128, .f32⟩
  | 85 => ⟨S1x128x128, .f32⟩
  | 86 => ⟨S128x128, .f32⟩
  | 87 => ⟨S_, .i32⟩
  | 88 => ⟨S200000, .i32⟩
  | 89 => ⟨S200000, .i1⟩
  | 90 => ⟨S_, .i32⟩
  | 91 => ⟨S200000, .i32⟩
  | 92 => ⟨S200000, .i32⟩
  | 93 => ⟨S200000, .i32⟩
  | 94 => ⟨S200000x1, .i32⟩
  | 95 => ⟨S200000x128, .f32⟩
  | 96 => ⟨S_, .f32⟩
  | 97 => ⟨S10000x128, .f32⟩
  | 98 => ⟨S200000x1, .i32⟩
  | 99 => ⟨S10000x128, .f32⟩
  | 100 => ⟨S_, .f32⟩
  | 101 => ⟨S200000, .f32⟩
  | 102 => ⟨S_, .f32⟩
  | 103 => ⟨S10000, .f32⟩
  | 104 => ⟨S200000x1, .i32⟩
  | 105 => ⟨S10000, .f32⟩
  | 106 => ⟨S_, .f32⟩
  | 107 => ⟨S10000, .f32⟩
  | 108 => ⟨S10000, .f32⟩
  | 109 => ⟨S10000x1, .f32⟩
  | 110 => ⟨S10000x128, .f32⟩
  | 111 => ⟨S10000x128, .f32⟩
  | 112 => ⟨S10000x128, .f32⟩
  | 113 => ⟨S1x128, .f32⟩
  | 114 => ⟨S10000x128, .f32⟩
  | 115 => ⟨S10000x128, .f32⟩
  | 116 => ⟨S10000x128, .f32⟩
  | 117 => ⟨S10000x128, .f32⟩
  | 118 => ⟨S_, .f32⟩
  | 119 => ⟨S200000x128, .f32⟩
  | 120 => ⟨S200000x128, .f32⟩
  | 121 => ⟨S_, .f32⟩
  | 122 => ⟨S50000x128, .f32⟩
  | 123 => ⟨S50000x128, .f32⟩
  | 124 => ⟨S_, .f32⟩
  | 125 => ⟨S10000x128, .f32⟩
  | 126 => ⟨S10000x128, .f32⟩
  | 127 => ⟨S200000x128, .f32⟩
  | _ => ⟨S200000x128, .f32⟩

abbrev hbmTy0_3 (i : Nat) : BufTy := match i % 128 with
  | 0 => ⟨S1x128, .f32⟩
  | 1 => ⟨S200000x128, .f32⟩
  | 2 => ⟨S200000x128, .f32⟩
  | 3 => ⟨S_, .f32⟩
  | 4 => ⟨S200000x128, .f32⟩
  | 5 => ⟨S200000x128, .f32⟩
  | 6 => ⟨S200000x1, .f32⟩
  | 7 => ⟨S1x1, .f32⟩
  | 8 => ⟨S200000x1, .f32⟩
  | 9 => ⟨S200000x1, .f32⟩
  | 10 => ⟨S200000, .f32⟩
  | _ => ⟨S200000x128, .f32⟩

abbrev hbmTy (i : Nat) : BufTy := match i / 128 with
  | 0 => hbmTy0_0 i
  | 1 => hbmTy0_1 i
  | 2 => hbmTy0_2 i
  | 3 => hbmTy0_3 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_call0_cst : Ref sig .tc := ⟨.hbm, 26, rfl⟩
abbrev main_call0_v0 : Ref sig .tc := ⟨.hbm, 27, rfl⟩
abbrev main_v4 : Ref sig .tc := ⟨.hbm, 28, rfl⟩
abbrev main_c : Ref sig .tc := ⟨.hbm, 29, rfl⟩
abbrev main_v5 : Ref sig .tc := ⟨.hbm, 30, rfl⟩
abbrev main_v6 : Ref sig .tc := ⟨.hbm, 31, rfl⟩
abbrev main_c_0 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_c_1 : Ref sig .tc := ⟨.hbm, 42, rfl⟩
abbrev main_v16 : Ref sig .tc := ⟨.hbm, 43, rfl⟩
abbrev main_v17 : Ref sig .tc := ⟨.hbm, 44, rfl⟩
abbrev main_c_2 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_3 : Ref sig .tc := ⟨.hbm, 67, rfl⟩
abbrev main_v39 : Ref sig .tc := ⟨.hbm, 68, rfl⟩
abbrev main_v40 : Ref sig .tc := ⟨.hbm, 69, rfl⟩
abbrev main_c_4 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_5 : Ref sig .tc := ⟨.hbm, 80, rfl⟩
abbrev main_v49 : Ref sig .tc := ⟨.hbm, 81, rfl⟩
abbrev main_cst_6 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_7 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_c_8 : Ref sig .tc := ⟨.hbm, 104, rfl⟩
abbrev main_v70 : Ref sig .tc := ⟨.hbm, 105, rfl⟩
abbrev main_v71 : Ref sig .tc := ⟨.hbm, 106, rfl⟩
abbrev main_c_9 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_10 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_11 : Ref sig .tc := ⟨.hbm, 117, rfl⟩
abbrev main_v80 : Ref sig .tc := ⟨.hbm, 118, rfl⟩
abbrev main_cst_12 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_13 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_c_14 : Ref sig .tc := ⟨.hbm, 142, rfl⟩
abbrev main_v102 : Ref sig .tc := ⟨.hbm, 143, rfl⟩
abbrev main_v103 : Ref sig .tc := ⟨.hbm, 144, rfl⟩
abbrev main_c_15 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_16 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_cst_17 : Ref sig .tc := ⟨.hbm, 155, rfl⟩
abbrev main_v112 : Ref sig .tc := ⟨.hbm, 156, rfl⟩
abbrev main_cst_18 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_cst_19 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_c_20 : Ref sig .tc := ⟨.hbm, 179, rfl⟩
abbrev main_v133 : Ref sig .tc := ⟨.hbm, 180, rfl⟩
abbrev main_v134 : Ref sig .tc := ⟨.hbm, 181, rfl⟩
abbrev main_c_21 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_cst_22 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_cst_23 : Ref sig .tc := ⟨.hbm, 192, rfl⟩
abbrev main_v143 : Ref sig .tc := ⟨.hbm, 193, rfl⟩
abbrev main_cst_24 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_cst_25 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_call1_cst : Ref sig .tc := ⟨.hbm, 210, rfl⟩
abbrev main_call1_v0 : Ref sig .tc := ⟨.hbm, 211, rfl⟩
abbrev main_v158 : Ref sig .tc := ⟨.hbm, 212, rfl⟩
abbrev main_call2_cst : Ref sig .tc := ⟨.hbm, 213, rfl⟩
abbrev main_call2_v0 : Ref sig .tc := ⟨.hbm, 214, rfl⟩
abbrev main_v159 : Ref sig .tc := ⟨.hbm, 215, rfl⟩
abbrev main_call3_cst : Ref sig .tc := ⟨.hbm, 216, rfl⟩
abbrev main_call3_v0 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_c_26 : Ref sig .tc := ⟨.hbm, 231, rfl⟩
abbrev main_v173 : Ref sig .tc := ⟨.hbm, 232, rfl⟩
abbrev main_v174 : Ref sig .tc := ⟨.hbm, 233, rfl⟩
abbrev main_c_27 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_cst_28 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_cst_29 : Ref sig .tc := ⟨.hbm, 244, rfl⟩
abbrev main_v183 : Ref sig .tc := ⟨.hbm, 245, rfl⟩
abbrev main_cst_30 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_cst_31 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩
abbrev main_v198 : Ref sig .tc := ⟨.hbm, 262, rfl⟩
abbrev main_v199 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_c_32 : Ref sig .tc := ⟨.hbm, 268, rfl⟩
abbrev main_v204 : Ref sig .tc := ⟨.hbm, 269, rfl⟩
abbrev main_v205 : Ref sig .tc := ⟨.hbm, 270, rfl⟩
abbrev main_c_33 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_v210 : Ref sig .tc := ⟨.hbm, 276, rfl⟩
abbrev main_cst_34 : Ref sig .tc := ⟨.hbm, 277, rfl⟩
abbrev main_v211 : Ref sig .tc := ⟨.hbm, 278, rfl⟩
abbrev main_v212 : Ref sig .tc := ⟨.hbm, 279, rfl⟩
abbrev main_v213 : Ref sig .tc := ⟨.hbm, 280, rfl⟩
abbrev main_cst_35 : Ref sig .tc := ⟨.hbm, 281, rfl⟩
abbrev main_v214 : Ref sig .tc := ⟨.hbm, 282, rfl⟩
abbrev main_cst_36 : Ref sig .tc := ⟨.hbm, 283, rfl⟩
abbrev main_v215 : Ref sig .tc := ⟨.hbm, 284, rfl⟩
abbrev main_v216 : Ref sig .tc := ⟨.hbm, 285, rfl⟩
abbrev main_v217 : Ref sig .tc := ⟨.hbm, 286, rfl⟩
abbrev main_cst_37 : Ref sig .tc := ⟨.hbm, 287, rfl⟩
abbrev main_v218 : Ref sig .tc := ⟨.hbm, 288, rfl⟩
abbrev main_v219 : Ref sig .tc := ⟨.hbm, 289, rfl⟩
abbrev main_v220 : Ref sig .tc := ⟨.hbm, 290, rfl⟩
abbrev main_v221 : Ref sig .tc := ⟨.hbm, 291, rfl⟩
abbrev main_v222 : Ref sig .tc := ⟨.hbm, 292, rfl⟩
abbrev main_v223 : Ref sig .tc := ⟨.hbm, 293, rfl⟩
abbrev main_v224 : Ref sig .tc := ⟨.hbm, 294, rfl⟩
abbrev main_v225 : Ref sig .tc := ⟨.hbm, 295, rfl⟩
abbrev main_v226 : Ref sig .tc := ⟨.hbm, 296, rfl⟩
abbrev main_v227 : Ref sig .tc := ⟨.hbm, 297, rfl⟩
abbrev main_v228 : Ref sig .tc := ⟨.hbm, 298, rfl⟩
abbrev main_v229 : Ref sig .tc := ⟨.hbm, 299, rfl⟩
abbrev main_v230 : Ref sig .tc := ⟨.hbm, 300, rfl⟩
abbrev main_v231 : Ref sig .tc := ⟨.hbm, 301, rfl⟩
abbrev main_v232 : Ref sig .tc := ⟨.hbm, 302, rfl⟩
abbrev main_v233 : Ref sig .tc := ⟨.hbm, 303, rfl⟩
abbrev main_v234 : Ref sig .tc := ⟨.hbm, 304, rfl⟩
abbrev main_v235 : Ref sig .tc := ⟨.hbm, 305, rfl⟩
abbrev main_c_38 : Ref sig .tc := ⟨.hbm, 306, rfl⟩
abbrev main_v236 : Ref sig .tc := ⟨.hbm, 307, rfl⟩
abbrev main_v237 : Ref sig .tc := ⟨.hbm, 308, rfl⟩
abbrev main_c_39 : Ref sig .tc := ⟨.hbm, 309, rfl⟩
abbrev main_v238 : Ref sig .tc := ⟨.hbm, 310, rfl⟩
abbrev main_v239 : Ref sig .tc := ⟨.hbm, 311, rfl⟩
abbrev main_v240 : Ref sig .tc := ⟨.hbm, 312, rfl⟩
abbrev main_v241 : Ref sig .tc := ⟨.hbm, 313, rfl⟩
abbrev main_v242 : Ref sig .tc := ⟨.hbm, 314, rfl⟩
abbrev main_cst_40 : Ref sig .tc := ⟨.hbm, 315, rfl⟩
abbrev main_v243 : Ref sig .tc := ⟨.hbm, 316, rfl⟩
abbrev main_v244 : Ref sig .tc := ⟨.hbm, 317, rfl⟩
abbrev main_v245 : Ref sig .tc := ⟨.hbm, 318, rfl⟩
abbrev main_cst_41 : Ref sig .tc := ⟨.hbm, 319, rfl⟩
abbrev main_v246 : Ref sig .tc := ⟨.hbm, 320, rfl⟩
abbrev main_cst_42 : Ref sig .tc := ⟨.hbm, 321, rfl⟩
abbrev main_v247 : Ref sig .tc := ⟨.hbm, 322, rfl⟩
abbrev main_v248 : Ref sig .tc := ⟨.hbm, 323, rfl⟩
abbrev main_v249 : Ref sig .tc := ⟨.hbm, 324, rfl⟩
abbrev main_cst_43 : Ref sig .tc := ⟨.hbm, 325, rfl⟩
abbrev main_v250 : Ref sig .tc := ⟨.hbm, 326, rfl⟩
abbrev main_v251 : Ref sig .tc := ⟨.hbm, 327, rfl⟩
abbrev main_v252 : Ref sig .tc := ⟨.hbm, 328, rfl⟩
abbrev main_v253 : Ref sig .tc := ⟨.hbm, 329, rfl⟩
abbrev main_v254 : Ref sig .tc := ⟨.hbm, 330, rfl⟩
abbrev main_v255 : Ref sig .tc := ⟨.hbm, 331, rfl⟩
abbrev main_v256 : Ref sig .tc := ⟨.hbm, 332, rfl⟩
abbrev main_v257 : Ref sig .tc := ⟨.hbm, 333, rfl⟩
abbrev main_v258 : Ref sig .tc := ⟨.hbm, 334, rfl⟩
abbrev main_v259 : Ref sig .tc := ⟨.hbm, 335, rfl⟩
abbrev main_v260 : Ref sig .tc := ⟨.hbm, 336, rfl⟩
abbrev main_v261 : Ref sig .tc := ⟨.hbm, 337, rfl⟩
abbrev main_v262 : Ref sig .tc := ⟨.hbm, 338, rfl⟩
abbrev main_v263 : Ref sig .tc := ⟨.hbm, 339, rfl⟩
abbrev main_v264 : Ref sig .tc := ⟨.hbm, 340, rfl⟩
abbrev main_v265 : Ref sig .tc := ⟨.hbm, 341, rfl⟩
abbrev main_v266 : Ref sig .tc := ⟨.hbm, 342, rfl⟩
abbrev main_c_44 : Ref sig .tc := ⟨.hbm, 343, rfl⟩
abbrev main_v267 : Ref sig .tc := ⟨.hbm, 344, rfl⟩
abbrev main_v268 : Ref sig .tc := ⟨.hbm, 345, rfl⟩
abbrev main_c_45 : Ref sig .tc := ⟨.hbm, 346, rfl⟩
abbrev main_v269 : Ref sig .tc := ⟨.hbm, 347, rfl⟩
abbrev main_v270 : Ref sig .tc := ⟨.hbm, 348, rfl⟩
abbrev main_v271 : Ref sig .tc := ⟨.hbm, 349, rfl⟩
abbrev main_v272 : Ref sig .tc := ⟨.hbm, 350, rfl⟩
abbrev main_v273 : Ref sig .tc := ⟨.hbm, 351, rfl⟩
abbrev main_cst_46 : Ref sig .tc := ⟨.hbm, 352, rfl⟩
abbrev main_v274 : Ref sig .tc := ⟨.hbm, 353, rfl⟩
abbrev main_v275 : Ref sig .tc := ⟨.hbm, 354, rfl⟩
abbrev main_v276 : Ref sig .tc := ⟨.hbm, 355, rfl⟩
abbrev main_cst_47 : Ref sig .tc := ⟨.hbm, 356, rfl⟩
abbrev main_v277 : Ref sig .tc := ⟨.hbm, 357, rfl⟩
abbrev main_cst_48 : Ref sig .tc := ⟨.hbm, 358, rfl⟩
abbrev main_v278 : Ref sig .tc := ⟨.hbm, 359, rfl⟩
abbrev main_v279 : Ref sig .tc := ⟨.hbm, 360, rfl⟩
abbrev main_v280 : Ref sig .tc := ⟨.hbm, 361, rfl⟩
abbrev main_cst_49 : Ref sig .tc := ⟨.hbm, 362, rfl⟩
abbrev main_v281 : Ref sig .tc := ⟨.hbm, 363, rfl⟩
abbrev main_v282 : Ref sig .tc := ⟨.hbm, 364, rfl⟩
abbrev main_v283 : Ref sig .tc := ⟨.hbm, 365, rfl⟩
abbrev main_v284 : Ref sig .tc := ⟨.hbm, 366, rfl⟩
abbrev main_v285 : Ref sig .tc := ⟨.hbm, 367, rfl⟩
abbrev main_v286 : Ref sig .tc := ⟨.hbm, 368, rfl⟩
abbrev main_v287 : Ref sig .tc := ⟨.hbm, 369, rfl⟩
abbrev main_v288 : Ref sig .tc := ⟨.hbm, 370, rfl⟩
abbrev main_v289 : Ref sig .tc := ⟨.hbm, 371, rfl⟩
abbrev main_v290 : Ref sig .tc := ⟨.hbm, 372, rfl⟩
abbrev main_v291 : Ref sig .tc := ⟨.hbm, 373, rfl⟩
abbrev main_call4_cst : Ref sig .tc := ⟨.hbm, 374, rfl⟩
abbrev main_call4_v0 : Ref sig .tc := ⟨.hbm, 375, rfl⟩
abbrev main_v292 : Ref sig .tc := ⟨.hbm, 376, rfl⟩
abbrev main_call5_cst : Ref sig .tc := ⟨.hbm, 377, rfl⟩
abbrev main_call5_v0 : Ref sig .tc := ⟨.hbm, 378, rfl⟩
abbrev main_v293 : Ref sig .tc := ⟨.hbm, 379, rfl⟩
abbrev main_call6_cst : Ref sig .tc := ⟨.hbm, 380, rfl⟩
abbrev main_call6_v0 : Ref sig .tc := ⟨.hbm, 381, rfl⟩
abbrev main_v294 : Ref sig .tc := ⟨.hbm, 382, rfl⟩
abbrev main_v295 : Ref sig .tc := ⟨.hbm, 383, rfl⟩
abbrev main_v296 : Ref sig .tc := ⟨.hbm, 384, rfl⟩
abbrev main_v297 : Ref sig .tc := ⟨.hbm, 385, rfl⟩
abbrev main_v298 : Ref sig .tc := ⟨.hbm, 386, rfl⟩
abbrev main_call7_cst : Ref sig .tc := ⟨.hbm, 387, rfl⟩
abbrev main_call7_v0 : Ref sig .tc := ⟨.hbm, 388, rfl⟩
abbrev main_v299 : Ref sig .tc := ⟨.hbm, 389, rfl⟩
abbrev main_v300 : Ref sig .tc := ⟨.hbm, 390, rfl⟩
abbrev main_v301 : Ref sig .tc := ⟨.hbm, 391, rfl⟩
abbrev main_v302 : Ref sig .tc := ⟨.hbm, 392, rfl⟩
abbrev main_v303 : Ref sig .tc := ⟨.hbm, 393, rfl⟩
abbrev main_v304 : Ref sig .tc := ⟨.hbm, 394, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S1x128_S50000x128_0_1 : S1x128.BroadcastsInDim S50000x128 (![0, 1] : Fin 2 → Fin S50000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S1x128_S10000x128_0_1 : S1x128.BroadcastsInDim S10000x128 (![0, 1] : Fin 2 → Fin S10000x128.rank)
  slices_S2x4x128x128_S1x4x128x128_0_0_0_0 : S2x4x128x128.Slices ![0, 0, 0, 0] S1x4x128x128
  shapeCasts_S1x4x128x128_S4x128x128 : S1x4x128x128.ShapeCasts S4x128x128
  slices_S2x4x128_S1x4x128_0_0_0 : S2x4x128.Slices ![0, 0, 0] S1x4x128
  shapeCasts_S1x4x128_S4x128 : S1x4x128.ShapeCasts S4x128
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  slices_S4x128x128_S1x128x128_2_0_0 : S4x128x128.Slices ![2, 0, 0] S1x128x128
  slices_S4x128_S1x128_2_0 : S4x128.Slices ![2, 0] S1x128
  slices_S4x128x128_S1x128x128_1_0_0 : S4x128x128.Slices ![1, 0, 0] S1x128x128
  slices_S4x128_S1x128_1_0 : S4x128.Slices ![1, 0] S1x128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S4x128x128_S1x128x128_3_0_0 : S4x128x128.Slices ![3, 0, 0] S1x128x128
  slices_S4x128_S1x128_3_0 : S4x128.Slices ![3, 0] S1x128
  bcast_S_S10000x128 : S_.BroadcastsInDim S10000x128 (![] : Fin 0 → Fin S10000x128.rank)
  bcast_S10000x1_S10000x128_0_1 : S10000x1.BroadcastsInDim S10000x128 (![0, 1] : Fin 2 → Fin S10000x128.rank)
  slices_S2x4x128x128_S1x4x128x128_1_0_0_0 : S2x4x128x128.Slices ![1, 0, 0, 0] S1x4x128x128
  slices_S2x4x128_S1x4x128_1_0_0 : S2x4x128.Slices ![1, 0, 0] S1x4x128
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  dot_S200000x128_S128x128_S200000x128_1_0_0_1_n_n_wf : DotDims.WF S200000x128 S128x128 S200000x128 [1] [0] [0] [1] [] []
  gather_S50000x64_S50000x1_S50000x64_1_0_n_n_0_1_164_wf : GatherDims.WF S50000x64 S50000x1 S50000x64 [1] [0] [] [0] [] 1 ![1, 64]
  dot_S50000x64_S64x128_S50000x128_1_0_0_1_n_n_wf : DotDims.WF S50000x64 S64x128 S50000x128 [1] [0] [0] [1] [] []
  gather_S10000x64_S10000x1_S10000x64_1_0_n_n_0_1_164_wf : GatherDims.WF S10000x64 S10000x1 S10000x64 [1] [0] [] [0] [] 1 ![1, 64]
  dot_S10000x64_S64x128_S10000x128_1_0_0_1_n_n_wf : DotDims.WF S10000x64 S64x128 S10000x128 [1] [0] [0] [1] [] []
  gather_S50000x128_S200000x1_S200000x128_1_0_n_n_0_1_1128_wf : GatherDims.WF S50000x128 S200000x1 S200000x128 [1] [0] [] [0] [] 1 ![1, 128]
  scatter_S200000x128_S200000x1_S200000x128_1_0_0_1_wf : ScatterDims.WF S200000x128 S200000x1 S200000x128 [1] [0] [0] 1
  scatter_S200000_S200000x1_S200000_n_0_0_1_wf : ScatterDims.WF S200000 S200000x1 S200000 [] [0] [0] 1
  gather_S10000x128_S200000x1_S200000x128_1_0_n_n_0_1_1128_wf : GatherDims.WF S10000x128 S200000x1 S200000x128 [1] [0] [] [0] [] 1 ![1, 128]
  gather_S200000x128_S200000x1_S200000x128_1_0_n_n_0_1_1128_wf : GatherDims.WF S200000x128 S200000x1 S200000x128 [1] [0] [] [0] [] 1 ![1, 128]
  scatter_S50000x128_S200000x1_S200000x128_1_0_0_1_wf : ScatterDims.WF S50000x128 S200000x1 S200000x128 [1] [0] [0] 1
  scatter_S50000_S200000x1_S200000_n_0_0_1_wf : ScatterDims.WF S50000 S200000x1 S200000 [] [0] [0] 1
  dot_S50000x128_S128x128_S50000x128_1_0_0_1_n_n_wf : DotDims.WF S50000x128 S128x128 S50000x128 [1] [0] [0] [1] [] []
  scatter_S10000x128_S200000x1_S200000x128_1_0_0_1_wf : ScatterDims.WF S10000x128 S200000x1 S200000x128 [1] [0] [0] 1
  scatter_S10000_S200000x1_S200000_n_0_0_1_wf : ScatterDims.WF S10000 S200000x1 S200000 [] [0] [0] 1
  dot_S10000x128_S128x128_S10000x128_1_0_0_1_n_n_wf : DotDims.WF S10000x128 S128x128 S10000x128 [1] [0] [0] [1] [] []
  dot_S200000x128_S128x1_S200000x1_1_0_0_1_n_n_wf : DotDims.WF S200000x128 S128x1 S200000x1 [1] [0] [0] [1] [] []

variable [Facts₀]

def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S50000x64_S50000x1_S50000x64_1_0_n_n_0_1_164 : GatherDims S50000x64 S50000x1 S50000x64 where
  offsetDims := [1]
  collapsedSliceDims := [0]
  operandBatchingDims := []
  startIndicesBatchingDims := []
  startIndexMap := [0]
  indexVectorDim := 1
  sliceSizes := ![1, 64]
  wf := gather_S50000x64_S50000x1_S50000x64_1_0_n_n_0_1_164_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S10000x64_S10000x1_S10000x64_1_0_n_n_0_1_164 : GatherDims S10000x64 S10000x1 S10000x64 where
  offsetDims := [1]
  collapsedSliceDims := [0]
  operandBatchingDims := []
  startIndicesBatchingDims := []
  startIndexMap := [0]
  indexVectorDim := 1
  sliceSizes := ![1, 64]
  wf := gather_S10000x64_S10000x1_S10000x64_1_0_n_n_0_1_164_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def scatter_S200000x128_S200000x1_S200000x128_1_0_0_1 : ScatterDims S200000x128 S200000x1 S200000x128 where
  updateWindowDims := [1]
  insertedWindowDims := [0]
  scatterDimsToOperandDims := [0]
  indexVectorDim := 1
  wf := scatter_S200000x128_S200000x1_S200000x128_1_0_0_1_wf
def scatter_S200000_S200000x1_S200000_n_0_0_1 : ScatterDims S200000 S200000x1 S200000 where
  updateWindowDims := []
  insertedWindowDims := [0]
  scatterDimsToOperandDims := [0]
  indexVectorDim := 1
  wf := scatter_S200000_S200000x1_S200000_n_0_0_1_wf
def gather_S10000x128_S200000x1_S200000x128_1_0_n_n_0_1_1128 : GatherDims S10000x128 S200000x1 S200000x128 where
  offsetDims := [1]
  collapsedSliceDims := [0]
  operandBatchingDims := []
  startIndicesBatchingDims := []
  startIndexMap := [0]
  indexVectorDim := 1
  sliceSizes := ![1, 128]
  wf := gather_S10000x128_S200000x1_S200000x128_1_0_n_n_0_1_1128_wf
def gather_S200000x128_S200000x1_S200000x128_1_0_n_n_0_1_1128 : GatherDims S200000x128 S200000x1 S200000x128 where
  offsetDims := [1]
  collapsedSliceDims := [0]
  operandBatchingDims := []
  startIndicesBatchingDims := []
  startIndexMap := [0]
  indexVectorDim := 1
  sliceSizes := ![1, 128]
  wf := gather_S200000x128_S200000x1_S200000x128_1_0_n_n_0_1_1128_wf
def scatter_S50000x128_S200000x1_S200000x128_1_0_0_1 : ScatterDims S50000x128 S200000x1 S200000x128 where
  updateWindowDims := [1]
  insertedWindowDims := [0]
  scatterDimsToOperandDims := [0]
  indexVectorDim := 1
  wf := scatter_S50000x128_S200000x1_S200000x128_1_0_0_1_wf
def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S10000x128_S200000x1_S200000x128_1_0_0_1 : ScatterDims S10000x128 S200000x1 S200000x128 where
  updateWindowDims := [1]
  insertedWindowDims := [0]
  scatterDimsToOperandDims := [0]
  indexVectorDim := 1
  wf := scatter_S10000x128_S200000x1_S200000x128_1_0_0_1_wf
def scatter_S10000_S200000x1_S200000_n_0_0_1 : ScatterDims S10000 S200000x1 S200000 where
  updateWindowDims := []
  insertedWindowDims := [0]
  scatterDimsToOperandDims := [0]
  indexVectorDim := 1
  wf := scatter_S10000_S200000x1_S200000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200000x128_S128x1_S200000x1_1_0_0_1_n_n : DotDims S200000x128 S128x1 S200000x1 where
  lhsContracting := [1]
  rhsContracting := [0]
  lhsNonContracting := [0]
  rhsNonContracting := [1]
  lhsBatch := []
  rhsBatch := []
  wf := dot_S200000x128_S128x1_S200000x1_1_0_0_1_n_n_wf

class Facts : Prop extends Facts₀ where

variable [Facts]
-- ==== Proof.LibTakeFill.lean ====
/-
  A gather that fills out-of-range rows, when no row is out of range. `jnp.take(x, idx, axis=0)` lowers to: wrap a
  negative index by adding the extent `N`; test the wrapped index against `[0, N − 1]`; gather the rows (the start index
  clamped); and select, row by row, the gathered row where the test passed and a fill value where it did not. When every
  index word `i` satisfies `−N ≤ i < N` the wrapped index lies in `[0, N − 1]`, the test passes on every row, and the
  select returns the gathered rows: the fill value is never read.
-/
import Idealize.ShloMosaic.PureOps.Vector
import Idealize.ShloMosaic.PureOps.Contract
import Idealize.ShloMosaic.PureOps.ShapeOps
import Idealize.ShloMosaic.Lib.ValueIdx
import Idealize.ShloMosaic.Lib.Pipeline.Value
import Idealize.ShloMosaic.Lib.ReduceAll

noncomputable section

namespace Cert.LibTakeFill

open Idealize.ShloMosaic Idealize.ShloMosaic.ValueIdx

/-- The rank-0 shape. -/
abbrev Sc : Shape := ⟨0, ![]⟩
/-- A vector of `E` words. -/
abbrev V1 (E : Nat) : Shape := ⟨1, ![E]⟩
/-- A column of `E` words. -/
abbrev Col (E : Nat) : Shape := ⟨2, ![E, 1]⟩
/-- The `1 × 1` shape. -/
abbrev One2 : Shape := ⟨2, ![1, 1]⟩

/-- The index vector after the wrap of its negative words (`i < 0 ↦ i + N`), laid out as a column. -/
abbrev wrapCol {E : Nat} (hb0 : Sc.BroadcastsInDim (V1 E) (![] : Fin 0 → Fin 1))
    (hbc : (V1 E).BroadcastsInDim (Col E) (![0] : Fin 1 → Fin 2)) (Nw : BitVec 32) (idx : IVec (V1 E) 32) : IVec (Col E) 32 :=
  broadcastInDim (Col E) (![0] : Fin 1 → Fin 2) hbc
    (select (cmpi .slt idx (broadcastInDim (V1 E) (![] : Fin 0 → Fin 1) hb0 (constantI Sc 32 0#32)))
      (addi idx (broadcastInDim (V1 E) (![] : Fin 0 → Fin 1) hb0 (constantI Sc 32 Nw))) idx)

/-- The word of a natural number below `2³¹` reads, signed, as that number. -/
theorem toInt_ofNat_small (a : ℕ) (ha : a < 2 ^ 31) : (BitVec.ofNat 32 a).toInt = (a : ℤ) := by
  rw [BitVec.toInt_ofNat']
  exact Int.bmod_eq_of_le_mul_two (by omega) (by omega)

/-- One word: with `−N ≤ i < N`, the wrapped word `i'` (`i + N` when `i < 0`, else `i`) passes both tests
    `i' ≥ 0` and `i' ≤ N − 1` (signed compares on 32-bit words; `N` far below `2³¹`). -/
theorem wrap_word_in_range (N : Nat) (hN0 : 0 < N) (hN : N < 2 ^ 30) (i : BitVec 32)
    (hi : -(N : ℤ) ≤ i.toInt ∧ i.toInt < (N : ℤ)) :
    IntOp.andi
      (IntOp.cmpi .sge (Scalar.select (IntOp.cmpi .slt i 0#32) (IntOp.addi i (BitVec.ofNat 32 N)) i) 0#32)
      (IntOp.cmpi .sle (Scalar.select (IntOp.cmpi .slt i 0#32) (IntOp.addi i (BitVec.ofNat 32 N)) i) (BitVec.ofNat 32 (N - 1)))
      = 1#1 := by
  obtain ⟨h1, h2⟩ := hi
  have hNi : (BitVec.ofNat 32 N).toInt = (N : ℤ) := toInt_ofNat_small N (by omega)
  have hN1 : (BitVec.ofNat 32 (N - 1)).toInt = ((N - 1 : ℕ) : ℤ) := toInt_ofNat_small (N - 1) (by omega)
  have h0 : (0#32).toInt = 0 := BitVec.toInt_zero
  rw [IntOp.andi_eq_one, IntOp.cmpi_sge, IntOp.cmpi_sle, h0, hN1]
  by_cases hneg : i.toInt < 0
  · have hc : IntOp.cmpi .slt i 0#32 = 1#1 := IntOp.cmpi_slt.mpr (by rw [h0]; exact hneg)
    rw [hc, select_one]
    have hsum : (IntOp.addi i (BitVec.ofNat 32 N)).toInt = i.toInt + (N : ℤ) := by
      show (i + BitVec.ofNat 32 N).toInt = _
      rw [BitVec.toInt_add, hNi]
      exact Int.bmod_eq_of_le_mul_two (by omega) (by omega)
    rw [hsum]
    omega
  · have hc : ¬ IntOp.cmpi .slt i 0#32 = 1#1 := fun h => hneg (by have := IntOp.cmpi_slt.mp h; rwa [h0] at this)
    have hsel : Scalar.select (IntOp.cmpi .slt i 0#32) (IntOp.addi i (BitVec.ofNat 32 N)) i = i := if_neg hc
    rw [hsel]
    omega

/-- A broadcast of a vector that is `c` everywhere is `c` everywhere: the result at an index is the operand at some index. -/
theorem broadcastInDim_eq_const {α : Type} {s t : Shape} (dims : Fin s.rank → Fin t.rank) (h : s.BroadcastsInDim t dims)
    (x : s.Idx → α) (c : α) (hx : ∀ k, x k = c) (j : t.Idx) : broadcastInDim t dims h x j = c := hx _

/-- A fold of `and` from the bit `1` over bits that are all `1` is `1`. -/
theorem foldl_andi_ones {ι : Type} (x : ι → BitVec 1) (hx : ∀ n, x n = 1#1) (l : List ι) :
    l.foldl (fun r n => IntOp.andi r (x n)) 1#1 = 1#1 := by
  induction l with
  | nil => rfl
  | cons a l ih =>
    have h1 : IntOp.andi 1#1 (x a) = 1#1 := by rw [hx a]; decide
    simp only [List.foldl_cons, h1]
    exact ih

/-- A reduction by `and`, from an initial value that is `1`, of a vector of ones is all ones. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  unfold Host.reduce
  rw [hinit]
  exact foldl_andi_ones (fun n => x (s.rowMajor.symm n)) (fun n => hx _) _

/-- THE FILLING GATHER IS THE GATHER when every index word lies in `[−N, N)`: the row mask (the reduction by `and`, along
    the unit axis, of the two range tests of the wrapped column) is all ones, so the select keeps `g` everywhere. -/
theorem take_fill_eq {α : Type} {E C : Nat} (N : Nat) (Nw Nm1 : BitVec 32)
    (hb0 : Sc.BroadcastsInDim (V1 E) (![] : Fin 0 → Fin 1)) (hbc : (V1 E).BroadcastsInDim (Col E) (![0] : Fin 1 → Fin 2))
    (hb01 : Sc.BroadcastsInDim (Col E) (![] : Fin 0 → Fin 2)) (hb11 : (V1 1).BroadcastsInDim One2 (![1] : Fin 1 → Fin 2))
    (hb1E : One2.BroadcastsInDim (Col E) (![0, 1] : Fin 2 → Fin 2))
    (hr : (Col E).ReducesTo [1] (V1 E)) (h0 : 0 < Sc.numel)
    (hbEC : (V1 E).BroadcastsInDim (⟨2, ![E, C]⟩ : Shape) (![0] : Fin 1 → Fin 2))
    (hN0 : 0 < N) (hN : N < 2 ^ 30) (hNw : Nw = BitVec.ofNat 32 N) (hNm1 : Nm1 = BitVec.ofNat 32 (N - 1))
    (idx : IVec (V1 E) 32) (hidx : ∀ e : (V1 E).Idx, -(N : ℤ) ≤ (idx e).toInt ∧ (idx e).toInt < (N : ℤ))
    (g fill : (⟨2, ![E, C]⟩ : Shape).Idx → α) :
    select (broadcastInDim (⟨2, ![E, C]⟩ : Shape) (![0] : Fin 1 → Fin 2) hbEC
        (Host.reduce IntOp.andi
          (andi (cmpi .sge (wrapCol hb0 hbc Nw idx) (broadcastInDim (Col E) (![] : Fin 0 → Fin 2) hb01 (constantI Sc 32 0#32)))
            (cmpi .sle (wrapCol hb0 hbc Nw idx)
              (broadcastInDim (Col E) (![0, 1] : Fin 2 → Fin 2) hb1E
                (broadcastInDim One2 (![1] : Fin 1 → Fin 2) hb11 (constantI (V1 1) 32 Nm1)))))
          (constantI Sc 1 1#1) hr h0)) g fill = g := by
  subst hNw hNm1
  funext j
  rw [select_apply]
  have hmask : broadcastInDim (⟨2, ![E, C]⟩ : Shape) (![0] : Fin 1 → Fin 2) hbEC
        (Host.reduce IntOp.andi
          (andi (cmpi .sge (wrapCol hb0 hbc (BitVec.ofNat 32 N) idx) (broadcastInDim (Col E) (![] : Fin 0 → Fin 2) hb01 (constantI Sc 32 0#32)))
            (cmpi .sle (wrapCol hb0 hbc (BitVec.ofNat 32 N) idx)
              (broadcastInDim (Col E) (![0, 1] : Fin 2 → Fin 2) hb1E
                (broadcastInDim One2 (![1] : Fin 1 → Fin 2) hb11 (constantI (V1 1) 32 (BitVec.ofNat 32 (N - 1)))))))
          (constantI Sc 1 1#1) hr h0) j = 1#1 :=
    broadcastInDim_eq_const _ _ _ _
      (fun k => reduce_andi_ones _ _ _ _ (fun i => wrap_word_in_range N hN0 hN (idx _) (hidx _)) (fun _ => rfl) k) j
  rw [hmask, select_one]

end Cert.LibTakeFill

end
-- ==== Proof.Spec.lean ====
/-
  The vocabulary of the value argument, over extended reals and with no program in sight.

  The network is a stack of affine maps with an optional clamp at zero, fed by row gathers and row
  scatter-sums. An affine stage takes up to three (rows × inner) matrices, multiplies each by its own
  (inner × columns) weight, adds the products to a zero start in order, adds one bias row, and clamps at
  zero when asked:  out[p, q] = clamp (((0 + Σₖ x₁[p,k]·w₁[k,q]) + Σₖ x₂[p,k]·w₂[k,q]) + …) + b[0,q]).
  A filling row gather wraps each negative row number by the table height, gathers the (clamped) row, and
  replaces the rows whose wrapped number falls outside the table by a fill value.
-/
import Idealize.ShloMosaic.PureOps.Ideal
import Idealize.ShloMosaic.PureOps.Ideal.Laws
import Idealize.ShloMosaic.PureOps.Contract
import Idealize.ShloMosaic.Lib.ValueIdx
import proofs.«415088_j18769007083672_1_alg».proof.Proof.LibTakeFill

noncomputable section

namespace Cert.Spec

open Idealize.ShloMosaic Idealize.ShloMosaic.ValueIdx Cert.LibTakeFill

/-- A matrix shape. -/
abbrev Mat (M N : Nat) : Shape := ⟨2, ![M, N]⟩

/-- The twenty-two argument arrays, floats as extended reals and row numbers as 32-bit words. -/
structure Inp where
  a0 : (Mat 200000 128).Idx → EReal
  a1 : (V1 50000).Idx → BitVec 32
  a2 : (V1 10000).Idx → BitVec 32
  a3 : (V1 200000).Idx → BitVec 32
  a4 : (V1 200000).Idx → BitVec 32
  a5 : (V1 200000).Idx → BitVec 32
  a6 : (V1 200000).Idx → BitVec 32
  a7 : (Mat 50000 64).Idx → EReal
  a8 : (Mat 10000 64).Idx → EReal
  a9 : (Mat 64 128).Idx → EReal
  a10 : (V1 128).Idx → EReal
  a11 : (Mat 64 128).Idx → EReal
  a12 : (V1 128).Idx → EReal
  a13 : (Mat 128 128).Idx → EReal
  a14 : (V1 128).Idx → EReal
  a15 : (⟨4, ![2, 4, 128, 128]⟩ : Shape).Idx → EReal
  a16 : (⟨3, ![2, 4, 128]⟩ : Shape).Idx → EReal
  a17 : (⟨4, ![2, 4, 128, 128]⟩ : Shape).Idx → EReal
  a18 : (Mat 128 128).Idx → EReal
  a19 : (V1 128).Idx → EReal
  a20 : (Mat 128 1).Idx → EReal
  a21 : (V1 1).Idx → EReal

/-- Row `p` of `x` against column `q` of `w`. -/
def dotAt {M K N : Nat} (x : (Mat M K).Idx → EReal) (w : (Mat K N).Idx → EReal) (p : Fin M) (q : Fin N) : EReal :=
  ∑ k : Fin K, x (ix2 p k) * w (ix2 k q)

/-- The clamp at zero, applied or not. -/
def clampIf (r : Bool) (v : EReal) : EReal := if r then max v 0 else v

/-- One product, a bias row, an optional clamp. -/
def lin1 {M K N : Nat} (r : Bool) (x : (Mat M K).Idx → EReal) (w : (Mat K N).Idx → EReal)
    (b : (Mat 1 N).Idx → EReal) : (Mat M N).Idx → EReal :=
  fun y => clampIf r ((0 + dotAt x w (y 0) (y 1)) + b (ix2 0 (y 1)))

/-- Two products summed in order, a bias row, an optional clamp. -/
def lin2 {M K₁ K₂ N : Nat} (r : Bool) (x₁ : (Mat M K₁).Idx → EReal) (w₁ : (Mat K₁ N).Idx → EReal)
    (x₂ : (Mat M K₂).Idx → EReal) (w₂ : (Mat K₂ N).Idx → EReal)
    (b : (Mat 1 N).Idx → EReal) : (Mat M N).Idx → EReal :=
  fun y => clampIf r (((0 + dotAt x₁ w₁ (y 0) (y 1)) + dotAt x₂ w₂ (y 0) (y 1)) + b (ix2 0 (y 1)))

/-- Three products summed in order, a bias row, an optional clamp. -/
def lin3 {M K₁ K₂ K₃ N : Nat} (r : Bool) (x₁ : (Mat M K₁).Idx → EReal) (w₁ : (Mat K₁ N).Idx → EReal)
    (x₂ : (Mat M K₂).Idx → EReal) (w₂ : (Mat K₂ N).Idx → EReal)
    (x₃ : (Mat M K₃).Idx → EReal) (w₃ : (Mat K₃ N).Idx → EReal)
    (b : (Mat 1 N).Idx → EReal) : (Mat M N).Idx → EReal :=
  fun y => clampIf r ((((0 + dotAt x₁ w₁ (y 0) (y 1)) + dotAt x₂ w₂ (y 0) (y 1)) + dotAt x₃ w₃ (y 0) (y 1))
    + b (ix2 0 (y 1)))

/-- The filling row gather of `E` rows out of an `N × C` table: the wrapped column of row numbers, the gather
    through it, and the fill (the pattern `0x7FC00000`) on the rows whose wrapped number fails either range test. -/
def takeFill {α : Type} {E N C : Nat}
    (hb0 : Sc.BroadcastsInDim (V1 E) (![] : Fin 0 → Fin 1)) (hbc : (V1 E).BroadcastsInDim (Col E) (![0] : Fin 1 → Fin 2))
    (hb01 : Sc.BroadcastsInDim (Col E) (![] : Fin 0 → Fin 2)) (hb11 : (V1 1).BroadcastsInDim One2 (![1] : Fin 1 → Fin 2))
    (hb1E : One2.BroadcastsInDim (Col E) (![0, 1] : Fin 2 → Fin 2))
    (hr : (Col E).ReducesTo [1] (V1 E)) (h0 : 0 < Sc.numel)
    (hbEC : (V1 E).BroadcastsInDim (Mat E C) (![0] : Fin 1 → Fin 2))
    (Nw Nm1 : BitVec 32) (dG : GatherDims (Mat N C) (Col E) (Mat E C))
    (x : (Mat N C).Idx → α) (idx : IVec (V1 E) 32) (fill : (Mat E C).Idx → α) : (Mat E C).Idx → α :=
  select (broadcastInDim (Mat E C) (![0] : Fin 1 → Fin 2) hbEC
      (Host.reduce IntOp.andi
        (andi (cmpi .sge (wrapCol hb0 hbc Nw idx) (broadcastInDim (Col E) (![] : Fin 0 → Fin 2) hb01 (constantI Sc 32 0#32)))
          (cmpi .sle (wrapCol hb0 hbc Nw idx)
            (broadcastInDim (Col E) (![0, 1] : Fin 2 → Fin 2) hb1E
              (broadcastInDim One2 (![1] : Fin 1 → Fin 2) hb11 (constantI (V1 1) 32 Nm1)))))
        (constantI Sc 1 1#1) hr h0))
    (Host.gather dG x (wrapCol hb0 hbc Nw idx)) fill

/-- With every row number in `[−N, N)` nothing is filled: the filling gather is the gather through the wrapped column. -/
theorem takeFill_eq {α : Type} {E N C : Nat}
    (hb0 : Sc.BroadcastsInDim (V1 E) (![] : Fin 0 → Fin 1)) (hbc : (V1 E).BroadcastsInDim (Col E) (![0] : Fin 1 → Fin 2))
    (hb01 : Sc.BroadcastsInDim (Col E) (![] : Fin 0 → Fin 2)) (hb11 : (V1 1).BroadcastsInDim One2 (![1] : Fin 1 → Fin 2))
    (hb1E : One2.BroadcastsInDim (Col E) (![0, 1] : Fin 2 → Fin 2))
    (hr : (Col E).ReducesTo [1] (V1 E)) (h0 : 0 < Sc.numel)
    (hbEC : (V1 E).BroadcastsInDim (Mat E C) (![0] : Fin 1 → Fin 2))
    (Nw Nm1 : BitVec 32) (dG : GatherDims (Mat N C) (Col E) (Mat E C))
    (x : (Mat N C).Idx → α) (idx : IVec (V1 E) 32) (fill : (Mat E C).Idx → α)
    (hN0 : 0 < N) (hN : N < 2 ^ 30) (hNw : Nw = BitVec.ofNat 32 N) (hNm1 : Nm1 = BitVec.ofNat 32 (N - 1))
    (hidx : ∀ e : (V1 E).Idx, -(N : ℤ) ≤ (idx e).toInt ∧ (idx e).toInt < (N : ℤ)) :
    takeFill hb0 hbc hb01 hb11 hb1E hr h0 hbEC Nw Nm1 dG x idx fill = Host.gather dG x (wrapCol hb0 hbc Nw idx) :=
  take_fill_eq N Nw Nm1 hb0 hbc hb01 hb11 hb1E hr h0 hbEC hN0 hN hNw hNm1 idx hidx _ _

end Cert.Spec

end
-- ==== Proof.KSpec.lean ====
/-
  The kernel program's dataflow as pure functions of the twenty-two argument arrays, at the extended reals.

  Encoders:  hTx0 = clamp(tx_x·tx_W + tx_b);  hCard0 = take(card_emb, card_ids)·W + b;  hMerch0 likewise.
  Degrees:   cnt = scatter-sum of ones by each destination column; inv = 1 / max(cnt, 1), kept as a column.
  One layer, from (hTx, hCard, hMerch) and the layer's stacked weights Wl, bl, Wr (four edge types each):
    mean over a destination = scatter-sum(take(source rows, source ids) by destination ids) · inv
    hTx'    = clamp(meanTxCard·Wl[0] + meanTxMerch·Wl[2] + hTx·(Wr[0] + Wr[2]) + (bl[0] + bl[2]))
    hCard'  = clamp(meanCard·Wl[1] + hCard·Wr[1] + bl[1]);   hMerch' = clamp(meanMerch·Wl[3] + hMerch·Wr[3] + bl[3])
  Head:      result = flatten(clamp(hTx2·h1_W + h1_b)·h2_W + h2_b).
  Every affine stage is one of Spec's `lin1 / lin2 / lin3`; every take is Spec's filling gather.
-/
import proofs.«415088_j18769007083672_1_alg».proof.KernelIdeal
import proofs.«415088_j18769007083672_1_alg».proof.Proof.Spec

noncomputable section

namespace Cert.KernelIdeal.KS

open Idealize.ShloMosaic Cert.Spec Cert.KernelIdeal Cert.KernelIdeal.Facts₀ Cert.KernelIdeal.Facts

variable [Facts]

/-- A bias vector laid out as one row. -/
def row128 (b : FVec Ideal S128 .f32) : FVec Ideal S1x128 .f32 := shapeCast S1x128 b shapeCasts_S128_S1x128

/-- The not-a-number fill of a take. -/
abbrev fillOf (s : Shape) (h : S_.BroadcastsInDim s (![] : Fin 0 → Fin s.rank)) : FVec Ideal s .f32 :=
  broadcastInDim s ![] h (constant (F := Ideal) S_ .f32 0x7FC00000#32)

/-- card_emb rows by card_ids. -/
def takeCardEmb (x : FVec Ideal S50000x64 .f32) (idx : IVec S50000 32) : FVec Ideal S50000x64 .f32 :=
  takeFill bcast_S_S50000 bcast_S50000_S50000x1_0 bcast_S_S50000x1 bcast_S1_S1x1_1 bcast_S1x1_S50000x1_0_1
    reducesTo_S50000x1_S50000_d1 h_S_ bcast_S50000_S50000x64_0 50000#32 49999#32
    gather_S50000x64_S50000x1_S50000x64_1_0_n_n_0_1_164 x idx (fillOf S50000x64 bcast_S_S50000x64)

/-- merch_emb rows by merch_ids. -/
def takeMerchEmb (x : FVec Ideal S10000x64 .f32) (idx : IVec S10000 32) : FVec Ideal S10000x64 .f32 :=
  takeFill bcast_S_S10000 bcast_S10000_S10000x1_0 bcast_S_S10000x1 bcast_S1_S1x1_1 bcast_S1x1_S10000x1_0_1
    reducesTo_S10000x1_S10000_d1 h_S_ bcast_S10000_S10000x64_0 10000#32 9999#32
    gather_S10000x64_S10000x1_S10000x64_1_0_n_n_0_1_164 x idx (fillOf S10000x64 bcast_S_S10000x64)

/-- Card rows by an edge list's card ids. -/
def takeCard (x : FVec Ideal S50000x128 .f32) (idx : IVec S200000 32) : FVec Ideal S200000x128 .f32 :=
  takeFill bcast_S_S200000 bcast_S200000_S200000x1_0 bcast_S_S200000x1 bcast_S1_S1x1_1 bcast_S1x1_S200000x1_0_1
    reducesTo_S200000x1_S200000_d1 h_S_ bcast_S200000_S200000x128_0 50000#32 49999#32
    gather_S50000x128_S200000x1_S200000x128_1_0_n_n_0_1_1128 x idx (fillOf S200000x128 bcast_S_S200000x128)

/-- Merchant rows by an edge list's merchant ids. -/
def takeMerch (x : FVec Ideal S10000x128 .f32) (idx : IVec S200000 32) : FVec Ideal S200000x128 .f32 :=
  takeFill bcast_S_S200000 bcast_S200000_S200000x1_0 bcast_S_S200000x1 bcast_S1_S1x1_1 bcast_S1x1_S200000x1_0_1
    reducesTo_S200000x1_S200000_d1 h_S_ bcast_S200000_S200000x128_0 10000#32 9999#32
    gather_S10000x128_S200000x1_S200000x128_1_0_n_n_0_1_1128 x idx (fillOf S200000x128 bcast_S_S200000x128)

/-- Transaction rows by an edge list's transaction ids. -/
def takeTx (x : FVec Ideal S200000x128 .f32) (idx : IVec S200000 32) : FVec Ideal S200000x128 .f32 :=
  takeFill bcast_S_S200000 bcast_S200000_S200000x1_0 bcast_S_S200000x1 bcast_S1_S1x1_1 bcast_S1x1_S200000x1_0_1
    reducesTo_S200000x1_S200000_d1 h_S_ bcast_S200000_S200000x128_0 200000#32 199999#32
    gather_S200000x128_S200000x1_S200000x128_1_0_n_n_0_1_1128 x idx (fillOf S200000x128 bcast_S_S200000x128)

/-- An edge list's ids as a column. -/
abbrev col (idx : IVec S200000 32) : IVec S200000x1 32 := broadcastInDim S200000x1 ![0] bcast_S200000_S200000x1_0 idx

/-- One per edge. -/
abbrev onesE : FVec Ideal S200000 .f32 := broadcastInDim S200000 ![] bcast_S_S200000 (constant (F := Ideal) S_ .f32 0x3F800000#32)

/-! ## Inverse degrees, as columns -/

def invTx (idx : IVec S200000 32) : FVec Ideal S200000x1 .f32 :=
  broadcastInDim S200000x1 ![0] bcast_S200000_S200000x1_0
    (Host.divf (broadcastInDim S200000 ![] bcast_S_S200000 (constant (F := Ideal) S_ .f32 0x3F800000#32))
      (maximumf (Host.scatterAdd scatter_S200000_S200000x1_S200000_n_0_0_1
          (broadcastInDim S200000 ![] bcast_S_S200000 (constant (F := Ideal) S_ .f32 0x00000000#32)) (col idx) onesE)
        (broadcastInDim S200000 ![] bcast_S_S200000 (constant (F := Ideal) S_ .f32 0x3F800000#32))))

def invCard (idx : IVec S200000 32) : FVec Ideal S50000x1 .f32 :=
  broadcastInDim S50000x1 ![0] bcast_S50000_S50000x1_0
    (Host.divf (broadcastInDim S50000 ![] bcast_S_S50000 (constant (F := Ideal) S_ .f32 0x3F800000#32))
      (maximumf (Host.scatterAdd scatter_S50000_S200000x1_S200000_n_0_0_1
          (broadcastInDim S50000 ![] bcast_S_S50000 (constant (F := Ideal) S_ .f32 0x00000000#32)) (col idx) onesE)
        (broadcastInDim S50000 ![] bcast_S_S50000 (constant (F := Ideal) S_ .f32 0x3F800000#32))))

def invMerch (idx : IVec S200000 32) : FVec Ideal S10000x1 .f32 :=
  broadcastInDim S10000x1 ![0] bcast_S10000_S10000x1_0
    (Host.divf (broadcastInDim S10000 ![] bcast_S_S10000 (constant (F := Ideal) S_ .f32 0x3F800000#32))
      (maximumf (Host.scatterAdd scatter_S10000_S200000x1_S200000_n_0_0_1
          (broadcastInDim S10000 ![] bcast_S_S10000 (constant (F := Ideal) S_ .f32 0x00000000#32)) (col idx) onesE)
        (broadcastInDim S10000 ![] bcast_S_S10000 (constant (F := Ideal) S_ .f32 0x3F800000#32))))

/-! ## Means: scatter-sum of gathered rows, times the inverse degree -/

def meanTx (feat : FVec Ideal S200000x128 .f32) (dst : IVec S200000 32) (inv : FVec Ideal S200000x1 .f32) : FVec Ideal S200000x128 .f32 :=
  mulf (Host.scatterAdd scatter_S200000x128_S200000x1_S200000x128_1_0_0_1
      (broadcastInDim S200000x128 ![] bcast_S_S200000x128 (constant (F := Ideal) S_ .f32 0x00000000#32)) (col dst) feat)
    (broadcastInDim S200000x128 ![0, 1] bcast_S200000x1_S200000x128_0_1 inv)

def meanCard (feat : FVec Ideal S200000x128 .f32) (dst : IVec S200000 32) (inv : FVec Ideal S50000x1 .f32) : FVec Ideal S50000x128 .f32 :=
  mulf (Host.scatterAdd scatter_S50000x128_S200000x1_S200000x128_1_0_0_1
      (broadcastInDim S50000x128 ![] bcast_S_S50000x128 (constant (F := Ideal) S_ .f32 0x00000000#32)) (col dst) feat)
    (broadcastInDim S50000x128 ![0, 1] bcast_S50000x1_S50000x128_0_1 inv)

def meanMerch (feat : FVec Ideal S200000x128 .f32) (dst : IVec S200000 32) (inv : FVec Ideal S10000x1 .f32) : FVec Ideal S10000x128 .f32 :=
  mulf (Host.scatterAdd scatter_S10000x128_S200000x1_S200000x128_1_0_0_1
      (broadcastInDim S10000x128 ![] bcast_S_S10000x128 (constant (F := Ideal) S_ .f32 0x00000000#32)) (col dst) feat)
    (broadcastInDim S10000x128 ![0, 1] bcast_S10000x1_S10000x128_0_1 inv)

/-! ## A layer's stacked weights, and one edge type's slice of them -/

def stack0 (w : FVec Ideal S2x4x128x128 .f32) : FVec Ideal S4x128x128 .f32 :=
  shapeCast S4x128x128 (extractStridedSlice S1x4x128x128 ![0, 0, 0, 0] w slices_S2x4x128x128_S1x4x128x128_0_0_0_0) shapeCasts_S1x4x128x128_S4x128x128
def stack1 (w : FVec Ideal S2x4x128x128 .f32) : FVec Ideal S4x128x128 .f32 :=
  shapeCast S4x128x128 (extractStridedSlice S1x4x128x128 ![1, 0, 0, 0] w slices_S2x4x128x128_S1x4x128x128_1_0_0_0) shapeCasts_S1x4x128x128_S4x128x128
def bstack0 (b : FVec Ideal S2x4x128 .f32) : FVec Ideal S4x128 .f32 :=
  shapeCast S4x128 (extractStridedSlice S1x4x128 ![0, 0, 0] b slices_S2x4x128_S1x4x128_0_0_0) shapeCasts_S1x4x128_S4x128
def bstack1 (b : FVec Ideal S2x4x128 .f32) : FVec Ideal S4x128 .f32 :=
  shapeCast S4x128 (extractStridedSlice S1x4x128 ![1, 0, 0] b slices_S2x4x128_S1x4x128_1_0_0) shapeCasts_S1x4x128_S4x128

def w0 (w : FVec Ideal S4x128x128 .f32) : FVec Ideal S128x128 .f32 :=
  shapeCast S128x128 (extractStridedSlice S1x128x128 ![0, 0, 0] w slices_S4x128x128_S1x128x128_0_0_0) shapeCasts_S1x128x128_S128x128
def w1 (w : FVec Ideal S4x128x128 .f32) : FVec Ideal S128x128 .f32 :=
  shapeCast S128x128 (extractStridedSlice S1x128x128 ![1, 0, 0] w slices_S4x128x128_S1x128x128_1_0_0) shapeCasts_S1x128x128_S128x128
def w2 (w : FVec Ideal S4x128x128 .f32) : FVec Ideal S128x128 .f32 :=
  shapeCast S128x128 (extractStridedSlice S1x128x128 ![2, 0, 0] w slices_S4x128x128_S1x128x128_2_0_0) shapeCasts_S1x128x128_S128x128
def w3 (w : FVec Ideal S4x128x128 .f32) : FVec Ideal S128x128 .f32 :=
  shapeCast S128x128 (extractStridedSlice S1x128x128 ![3, 0, 0] w slices_S4x128x128_S1x128x128_3_0_0) shapeCasts_S1x128x128_S128x128
def b0 (b : FVec Ideal S4x128 .f32) : FVec Ideal S128 .f32 :=
  shapeCast S128 (extractStridedSlice S1x128 ![0, 0] b slices_S4x128_S1x128_0_0) shapeCasts_S1x128_S128
def b1 (b : FVec Ideal S4x128 .f32) : FVec Ideal S128 .f32 :=
  shapeCast S128 (extractStridedSlice S1x128 ![1, 0] b slices_S4x128_S1x128_1_0) shapeCasts_S1x128_S128
def b2 (b : FVec Ideal S4x128 .f32) : FVec Ideal S128 .f32 :=
  shapeCast S128 (extractStridedSlice S1x128 ![2, 0] b slices_S4x128_S1x128_2_0) shapeCasts_S1x128_S128
def b3 (b : FVec Ideal S4x128 .f32) : FVec Ideal S128 .f32 :=
  shapeCast S128 (extractStridedSlice S1x128 ![3, 0] b slices_S4x128_S1x128_3_0) shapeCasts_S1x128_S128

/-! ## One layer -/

variable (I : Inp)

def txNext (Wl : FVec Ideal S4x128x128 .f32) (bl : FVec Ideal S4x128 .f32) (Wr : FVec Ideal S4x128x128 .f32)
    (hTx : FVec Ideal S200000x128 .f32) (hCard : FVec Ideal S50000x128 .f32) (hMerch : FVec Ideal S10000x128 .f32) :
    FVec Ideal S200000x128 .f32 :=
  lin3 true (meanTx (takeCard hCard I.a3) I.a4 (invTx I.a4)) (w0 Wl)
    (meanTx (takeMerch hMerch I.a5) I.a6 (invTx I.a6)) (w2 Wl)
    hTx (addf (w0 Wr) (w2 Wr)) (row128 (addf (b0 bl) (b2 bl)))

def cardNext (Wl : FVec Ideal S4x128x128 .f32) (bl : FVec Ideal S4x128 .f32) (Wr : FVec Ideal S4x128x128 .f32)
    (hTx : FVec Ideal S200000x128 .f32) (hCard : FVec Ideal S50000x128 .f32) : FVec Ideal S50000x128 .f32 :=
  lin2 true (meanCard (takeTx hTx I.a4) I.a3 (invCard I.a3)) (w1 Wl) hCard (w1 Wr) (row128 (b1 bl))

def merchNext (Wl : FVec Ideal S4x128x128 .f32) (bl : FVec Ideal S4x128 .f32) (Wr : FVec Ideal S4x128x128 .f32)
    (hTx : FVec Ideal S200000x128 .f32) (hMerch : FVec Ideal S10000x128 .f32) : FVec Ideal S10000x128 .f32 :=
  lin2 true (meanMerch (takeTx hTx I.a6) I.a5 (invMerch I.a5)) (w3 Wl) hMerch (w3 Wr) (row128 (b3 bl))

/-! ## The network -/

def hTx0 : FVec Ideal S200000x128 .f32 := lin1 true I.a0 I.a13 (row128 I.a14)
def hCard0 : FVec Ideal S50000x128 .f32 := lin1 false (takeCardEmb I.a7 I.a1) I.a9 (row128 I.a10)
def hMerch0 : FVec Ideal S10000x128 .f32 := lin1 false (takeMerchEmb I.a8 I.a2) I.a11 (row128 I.a12)

def hTx1 : FVec Ideal S200000x128 .f32 := txNext I (stack0 I.a15) (bstack0 I.a16) (stack0 I.a17) (hTx0 I) (hCard0 I) (hMerch0 I)
def hCard1 : FVec Ideal S50000x128 .f32 := cardNext I (stack0 I.a15) (bstack0 I.a16) (stack0 I.a17) (hTx0 I) (hCard0 I)
def hMerch1 : FVec Ideal S10000x128 .f32 := merchNext I (stack0 I.a15) (bstack0 I.a16) (stack0 I.a17) (hTx0 I) (hMerch0 I)

def hTx2 : FVec Ideal S200000x128 .f32 := txNext I (stack1 I.a15) (bstack1 I.a16) (stack1 I.a17) (hTx1 I) (hCard1 I) (hMerch1 I)

def hidden : FVec Ideal S200000x128 .f32 := lin1 true (hTx2 I) I.a18 (row128 I.a19)
def logits : FVec Ideal S200000x1 .f32 := lin1 false (hidden I) I.a20 (shapeCast S1x1 I.a21 shapeCasts_S1_S1x1)
def result : FVec Ideal S200000 .f32 := shapeCast S200000 (logits I) shapeCasts_S200000x1_S200000

/-- The argument arrays as core `c` holds them at launch. -/
def inp (m : (ℓ : Loc nD τ sig) → Buf (Elt Ideal) ℓ) (c : Dev nD) : Inp where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)
  a9 := m ((c.tc : Thread nD τ).loc main_arg9)
  a10 := m ((c.tc : Thread nD τ).loc main_arg10)
  a11 := m ((c.tc : Thread nD τ).loc main_arg11)
  a12 := m ((c.tc : Thread nD τ).loc main_arg12)
  a13 := m ((c.tc : Thread nD τ).loc main_arg13)
  a14 := m ((c.tc : Thread nD τ).loc main_arg14)
  a15 := m ((c.tc : Thread nD τ).loc main_arg15)
  a16 := m ((c.tc : Thread nD τ).loc main_arg16)
  a17 := m ((c.tc : Thread nD τ).loc main_arg17)
  a18 := m ((c.tc : Thread nD τ).loc main_arg18)
  a19 := m ((c.tc : Thread nD τ).loc main_arg19)
  a20 := m ((c.tc : Thread nD τ).loc main_arg20)
  a21 := m ((c.tc : Thread nD τ).loc main_arg21)

end Cert.KernelIdeal.KS

end
-- ==== Proof.KArgs.lean ====
/-
  The argument arrays are never written: no host operation of @main names one as its result, and a region either reads
  one through an input window (whose array it leaves as it found it) or does not touch it. So at every boundary of the
  run's fold each argument buffer holds its launch contents.
-/
import proofs.«415088_j18769007083672_1_alg».proof.Proof.Gen.KernelIdeal.Frame
import proofs.«415088_j18769007083672_1_alg».proof.Proof.KSpec
import Idealize.ShloMosaic.Lib.StableHlo.Run

set_option maxRecDepth 16384

noncomputable section

namespace Cert.KernelIdeal.KWalk

open Idealize.ShloMosaic Idealize.ShloMosaic.TcCoe Idealize.SL.Sem Idealize.ShloMosaic.StableHlo
open Cert.KernelIdeal Cert.KernelIdeal.Gen Cert.Spec

variable (m : (ℓ : Loc nD τ sig) → Buf (Elt Ideal) ℓ) (ρ : Dev nD → PrngReg)

/-- Every argument buffer holds its launch contents in the valuation `W`. -/
structure ArgsAt (W : Valuation τ sig (Elt Ideal)) (c : Dev nD) : Prop where
  a0 : W (Proc.devRef .tc main_arg0) = (KS.inp m c).a0
  a1 : W (Proc.devRef .tc main_arg1) = (KS.inp m c).a1
  a2 : W (Proc.devRef .tc main_arg2) = (KS.inp m c).a2
  a3 : W (Proc.devRef .tc main_arg3) = (KS.inp m c).a3
  a4 : W (Proc.devRef .tc main_arg4) = (KS.inp m c).a4
  a5 : W (Proc.devRef .tc main_arg5) = (KS.inp m c).a5
  a6 : W (Proc.devRef .tc main_arg6) = (KS.inp m c).a6
  a7 : W (Proc.devRef .tc main_arg7) = (KS.inp m c).a7
  a8 : W (Proc.devRef .tc main_arg8) = (KS.inp m c).a8
  a9 : W (Proc.devRef .tc main_arg9) = (KS.inp m c).a9
  a10 : W (Proc.devRef .tc main_arg10) = (KS.inp m c).a10
  a11 : W (Proc.devRef .tc main_arg11) = (KS.inp m c).a11
  a12 : W (Proc.devRef .tc main_arg12) = (KS.inp m c).a12
  a13 : W (Proc.devRef .tc main_arg13) = (KS.inp m c).a13
  a14 : W (Proc.devRef .tc main_arg14) = (KS.inp m c).a14
  a15 : W (Proc.devRef .tc main_arg15) = (KS.inp m c).a15
  a16 : W (Proc.devRef .tc main_arg16) = (KS.inp m c).a16
  a17 : W (Proc.devRef .tc main_arg17) = (KS.inp m c).a17
  a18 : W (Proc.devRef .tc main_arg18) = (KS.inp m c).a18
  a19 : W (Proc.devRef .tc main_arg19) = (KS.inp m c).a19
  a20 : W (Proc.devRef .tc main_arg20) = (KS.inp m c).a20
  a21 : W (Proc.devRef .tc main_arg21) = (KS.inp m c).a21

/-- The argument references. -/
abbrev argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

/-- A reference outside the arguments names a different buffer from each of them. -/
theorem devRef_ne_of_not_arg {y : Ref sig .tc} (hy : y ∉ argRefs) :
    ∀ r ∈ argRefs, ¬ Proc.devRef (τ := τ) .tc r = Proc.devRef .tc y :=
  fun _ hr e => hy (Proc.devRef_injective _ e ▸ hr)

/-- No operation of the line writes an argument. -/
abbrev KeepsArgs (ops : List (HloOp τ sig (Elt Ideal))) : Prop :=
  ops.Forall fun op => ∀ r ∈ argRefs, Proc.devRef (τ := τ) .tc r ∉ op.writes

/-- A line that writes no argument leaves every argument as it found it. -/
theorem after_keep (ops : List (HloOp τ sig (Elt Ideal))) (V : Valuation τ sig (Elt Ideal)) (h : KeepsArgs ops) :
    argRefs.Forall fun r => StableHlo.after ops V (Proc.devRef .tc r) = V (Proc.devRef .tc r) :=
  List.forall_iff_forall_mem.mpr fun r hr =>
    StableHlo.after_of_forall_not_mem ops V fun op hop => List.forall_iff_forall_mem.mp h op hop r hr

/-- Contents that agree with `W` at every argument hold the launch contents there when `W` does. -/
theorem ArgsAt.of_keep {W W' : Valuation τ sig (Elt Ideal)} {c : Dev nD} (h : ArgsAt m W c)
    (hk : argRefs.Forall fun r => W' (Proc.devRef .tc r) = W (Proc.devRef .tc r)) : ArgsAt m W' c := by
  obtain ⟨k0, k1, k2, k3, k4, k5, k6, k7, k8, k9, k10, k11, k12, k13, k14, k15, k16, k17, k18, k19, k20, k21⟩ := hk
  exact ⟨k0.trans h.a0, k1.trans h.a1, k2.trans h.a2, k3.trans h.a3, k4.trans h.a4, k5.trans h.a5, k6.trans h.a6, k7.trans h.a7, k8.trans h.a8, k9.trans h.a9, k10.trans h.a10, k11.trans h.a11, k12.trans h.a12, k13.trans h.a13, k14.trans h.a14, k15.trans h.a15, k16.trans h.a16, k17.trans h.a17, k18.trans h.a18, k19.trans h.a19, k20.trans h.a20, k21.trans h.a21⟩

/-- Each operation of a literal line writes its one result, which is no argument: the results read off, the memberships
    decided over references. -/
local macro "keeps_args" s:ident : tactic =>
  `(tactic| (simp only [KeepsArgs, $s:ident, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, Finset.mem_singleton]
             repeat' apply And.intro
             all_goals exact devRef_ne_of_not_arg (by decide)))

/-- At a region's exit every argument is as at its entry: an argument that is none of the region's arrays by `ofne`, one
    that is an input array of it by `alts`. -/
local macro "region_keeps" ofne:term " or_else " alts:tacticSeq : tactic =>
  `(tactic| (simp only [argRefs, List.Forall]
             repeat' apply And.intro
             all_goals first | exact $ofne _ (by decide) | $alts))

theorem keeps_hostOps0 : KeepsArgs (hostOps0 : List (HloOp τ sig (Elt Ideal))) := by keeps_args hostOps0
theorem keeps_hostOps1 : KeepsArgs (hostOps1 : List (HloOp τ sig (Elt Ideal))) := by keeps_args hostOps1
theorem keeps_hostOps1_1 : KeepsArgs (hostOps1_1 : List (HloOp τ sig (Elt Ideal))) := by keeps_args hostOps1_1
theorem keeps_hostOps2 : KeepsArgs (hostOps2 : List (HloOp τ sig (Elt Ideal))) := by keeps_args hostOps2
theorem keeps_hostOps2_1 : KeepsArgs (hostOps2_1 : List (HloOp τ sig (Elt Ideal))) := by keeps_args hostOps2_1
theorem keeps_hostOps3 : KeepsArgs (hostOps3 : List (HloOp τ sig (Elt Ideal))) := by keeps_args hostOps3
theorem keeps_hostOps3_1 : KeepsArgs (hostOps3_1 : List (HloOp τ sig (Elt Ideal))) := by keeps_args hostOps3_1
theorem keeps_hostOps3_2 : KeepsArgs (hostOps3_2 : List (HloOp τ sig (Elt Ideal))) := by keeps_args hostOps3_2
theorem keeps_hostOps3_3 : KeepsArgs (hostOps3_3 : List (HloOp τ sig (Elt Ideal))) := by keeps_args hostOps3_3
theorem keeps_hostOps3_4 : KeepsArgs (hostOps3_4 : List (HloOp τ sig (Elt Ideal))) := by keeps_args hostOps3_4
theorem keeps_hostOps3_5 : KeepsArgs (hostOps3_5 : List (HloOp τ sig (Elt Ideal))) := by keeps_args hostOps3_5
theorem keeps_hostOps4 : KeepsArgs (hostOps4 : List (HloOp τ sig (Elt Ideal))) := by keeps_args hostOps4
theorem keeps_hostOps5 : KeepsArgs (hostOps5 : List (HloOp τ sig (Elt Ideal))) := by keeps_args hostOps5
theorem keeps_hostOps6 : KeepsArgs (hostOps6 : List (HloOp τ sig (Elt Ideal))) := by keeps_args hostOps6
theorem keeps_hostOps6_1 : KeepsArgs (hostOps6_1 : List (HloOp τ sig (Elt Ideal))) := by keeps_args hostOps6_1
theorem keeps_hostOps6_2 : KeepsArgs (hostOps6_2 : List (HloOp τ sig (Elt Ideal))) := by keeps_args hostOps6_2
theorem keeps_hostOps6_3 : KeepsArgs (hostOps6_3 : List (HloOp τ sig (Elt Ideal))) := by keeps_args hostOps6_3
theorem keeps_hostOps6_4 : KeepsArgs (hostOps6_4 : List (HloOp τ sig (Elt Ideal))) := by keeps_args hostOps6_4
theorem keeps_hostOps6_5 : KeepsArgs (hostOps6_5 : List (HloOp τ sig (Elt Ideal))) := by keeps_args hostOps6_5
theorem keeps_hostOps7 : KeepsArgs (hostOps7 : List (HloOp τ sig (Elt Ideal))) := by keeps_args hostOps7
theorem keeps_hostOps8 : KeepsArgs (hostOps8 : List (HloOp τ sig (Elt Ideal))) := by keeps_args hostOps8
theorem keeps_hostOps9 : KeepsArgs (hostOps9 : List (HloOp τ sig (Elt Ideal))) := by keeps_args hostOps9
theorem keeps_hostOps10 : KeepsArgs (hostOps10 : List (HloOp τ sig (Elt Ideal))) := by keeps_args hostOps10
theorem keeps_hostOps11 : KeepsArgs (hostOps11 : List (HloOp τ sig (Elt Ideal))) := by keeps_args hostOps11

theorem W0_args (c : Dev nD) : ArgsAt m (W0 m ρ c) c :=
  ⟨rfl, rfl, rfl, rfl, rfl, rfl, rfl, rfl, rfl, rfl, rfl, rfl, rfl, rfl, rfl, rfl, rfl, rfl, rfl, rfl, rfl, rfl⟩

theorem W1_args (c : Dev nD) : ArgsAt m (W1 m ρ c) c :=
  (W0_args m ρ c).of_keep m (after_keep hostOps0 _ keeps_hostOps0)

theorem W2_args (c : Dev nD) : ArgsAt m (W2 m ρ c) c :=
  (W1_args m ρ c).of_keep m (by
    region_keeps W2_of_ne m ρ c or_else first
      | exact (W2_arr m ρ c 0).trans (((dat0 (V1 m ρ) c).arrAt_in 0 rfl _).trans (A_eq0 (V1 m ρ) c 0))
      | exact (W2_arr m ρ c 1).trans (((dat0 (V1 m ρ) c).arrAt_in 1 rfl _).trans (A_eq0 (V1 m ρ) c 1)))

theorem W3_args (c : Dev nD) : ArgsAt m (W3 m ρ c) c :=
  (W2_args m ρ c).of_keep m (after_keep hostOps1 _ keeps_hostOps1)

theorem W4_args (c : Dev nD) : ArgsAt m (W4 m ρ c) c :=
  (W3_args m ρ c).of_keep m (after_keep hostOps1_1 _ keeps_hostOps1_1)

theorem W5_args (c : Dev nD) : ArgsAt m (W5 m ρ c) c :=
  (W4_args m ρ c).of_keep m (by
    region_keeps W5_of_ne m ρ c or_else first
      | exact (W5_arr m ρ c 1).trans (((dat1 (V4 m ρ) c).arrAt_in 1 rfl _).trans (A_eq1 (V4 m ρ) c 1)))

theorem W6_args (c : Dev nD) : ArgsAt m (W6 m ρ c) c :=
  (W5_args m ρ c).of_keep m (after_keep hostOps2 _ keeps_hostOps2)

theorem W7_args (c : Dev nD) : ArgsAt m (W7 m ρ c) c :=
  (W6_args m ρ c).of_keep m (after_keep hostOps2_1 _ keeps_hostOps2_1)

theorem W8_args (c : Dev nD) : ArgsAt m (W8 m ρ c) c :=
  (W7_args m ρ c).of_keep m (by
    region_keeps W8_of_ne m ρ c or_else first
      | exact (W8_arr m ρ c 1).trans (((dat2 (V7 m ρ) c).arrAt_in 1 rfl _).trans (A_eq2 (V7 m ρ) c 1)))

theorem W9_args (c : Dev nD) : ArgsAt m (W9 m ρ c) c :=
  (W8_args m ρ c).of_keep m (after_keep hostOps3 _ keeps_hostOps3)

theorem W10_args (c : Dev nD) : ArgsAt m (W10 m ρ c) c :=
  (W9_args m ρ c).of_keep m (after_keep hostOps3_1 _ keeps_hostOps3_1)

theorem W11_args (c : Dev nD) : ArgsAt m (W11 m ρ c) c :=
  (W10_args m ρ c).of_keep m (after_keep hostOps3_2 _ keeps_hostOps3_2)

theorem W12_args (c : Dev nD) : ArgsAt m (W12 m ρ c) c :=
  (W11_args m ρ c).of_keep m (after_keep hostOps3_3 _ keeps_hostOps3_3)

theorem W13_args (c : Dev nD) : ArgsAt m (W13 m ρ c) c :=
  (W12_args m ρ c).of_keep m (after_keep hostOps3_4 _ keeps_hostOps3_4)

theorem W14_args (c : Dev nD) : ArgsAt m (W14 m ρ c) c :=
  (W13_args m ρ c).of_keep m (after_keep hostOps3_5 _ keeps_hostOps3_5)

theorem W15_args (c : Dev nD) : ArgsAt m (W15 m ρ c) c :=
  (W14_args m ρ c).of_keep m (by
    region_keeps W15_of_ne m ρ c or_else first
      | fail)

theorem W16_args (c : Dev nD) : ArgsAt m (W16 m ρ c) c :=
  (W15_args m ρ c).of_keep m (after_keep hostOps4 _ keeps_hostOps4)

theorem W17_args (c : Dev nD) : ArgsAt m (W17 m ρ c) c :=
  (W16_args m ρ c).of_keep m (by
    region_keeps W17_of_ne m ρ c or_else first
      | fail)

theorem W18_args (c : Dev nD) : ArgsAt m (W18 m ρ c) c :=
  (W17_args m ρ c).of_keep m (after_keep hostOps5 _ keeps_hostOps5)

theorem W19_args (c : Dev nD) : ArgsAt m (W19 m ρ c) c :=
  (W18_args m ρ c).of_keep m (by
    region_keeps W19_of_ne m ρ c or_else first
      | fail)

theorem W20_args (c : Dev nD) : ArgsAt m (W20 m ρ c) c :=
  (W19_args m ρ c).of_keep m (after_keep hostOps6 _ keeps_hostOps6)

theorem W21_args (c : Dev nD) : ArgsAt m (W21 m ρ c) c :=
  (W20_args m ρ c).of_keep m (after_keep hostOps6_1 _ keeps_hostOps6_1)

theorem W22_args (c : Dev nD) : ArgsAt m (W22 m ρ c) c :=
  (W21_args m ρ c).of_keep m (after_keep hostOps6_2 _ keeps_hostOps6_2)

theorem W23_args (c : Dev nD) : ArgsAt m (W23 m ρ c) c :=
  (W22_args m ρ c).of_keep m (after_keep hostOps6_3 _ keeps_hostOps6_3)

theorem W24_args (c : Dev nD) : ArgsAt m (W24 m ρ c) c :=
  (W23_args m ρ c).of_keep m (after_keep hostOps6_4 _ keeps_hostOps6_4)

theorem W25_args (c : Dev nD) : ArgsAt m (W25 m ρ c) c :=
  (W24_args m ρ c).of_keep m (after_keep hostOps6_5 _ keeps_hostOps6_5)

theorem W26_args (c : Dev nD) : ArgsAt m (W26 m ρ c) c :=
  (W25_args m ρ c).of_keep m (by
    region_keeps W26_of_ne m ρ c or_else first
      | fail)

theorem W27_args (c : Dev nD) : ArgsAt m (W27 m ρ c) c :=
  (W26_args m ρ c).of_keep m (after_keep hostOps7 _ keeps_hostOps7)

theorem W28_args (c : Dev nD) : ArgsAt m (W28 m ρ c) c :=
  (W27_args m ρ c).of_keep m (by
    region_keeps W28_of_ne m ρ c or_else first
      | fail)

theorem W29_args (c : Dev nD) : ArgsAt m (W29 m ρ c) c :=
  (W28_args m ρ c).of_keep m (after_keep hostOps8 _ keeps_hostOps8)

theorem W30_args (c : Dev nD) : ArgsAt m (W30 m ρ c) c :=
  (W29_args m ρ c).of_keep m (by
    region_keeps W30_of_ne m ρ c or_else first
      | fail)

theorem W31_args (c : Dev nD) : ArgsAt m (W31 m ρ c) c :=
  (W30_args m ρ c).of_keep m (after_keep hostOps9 _ keeps_hostOps9)

theorem W32_args (c : Dev nD) : ArgsAt m (W32 m ρ c) c :=
  (W31_args m ρ c).of_keep m (by
    region_keeps W32_of_ne m ρ c or_else first
      | exact (W32_arr m ρ c 1).trans (((dat9 (V31 m ρ) c).arrAt_in 1 rfl _).trans (A_eq9 (V31 m ρ) c 1)))

theorem W33_args (c : Dev nD) : ArgsAt m (W33 m ρ c) c :=
  (W32_args m ρ c).of_keep m (after_keep hostOps10 _ keeps_hostOps10)

theorem W34_args (c : Dev nD) : ArgsAt m (W34 m ρ c) c :=
  (W33_args m ρ c).of_keep m (by
    region_keeps W34_of_ne m ρ c or_else first
      | exact (W34_arr m ρ c 1).trans (((dat10 (V33 m ρ) c).arrAt_in 1 rfl _).trans (A_eq10 (V33 m ρ) c 1)))

theorem W35_args (c : Dev nD) : ArgsAt m (W35 m ρ c) c :=
  (W34_args m ρ c).of_keep m (after_keep hostOps11 _ keeps_hostOps11)

end Cert.KernelIdeal.KWalk

end
-- ==== Proof.KRegionA0.lean ====
/-
  The value of a one-product affine region as ONE function of its whole input arrays: the general steps, and
  region 0 (the first stage, on the 200000 node rows).

  Such a region walks the row axis of its left operand and of its result in blocks of 5000 rows. Point t of the
  walk holds rows 5000·t … 5000·t + 4999 of the left operand, the whole weight matrix and the whole bias row, and
  leaves in the result's block the entries
      out[p, q] = clamp? ((0 + Σₖ x[p, k] · w[k, q]) + b[0, q])        (p a row of the block, q a column):
  on extended reals a change of number format is the identity, and a product accumulated into zeros is the plain
  sum over the inner coordinate. Entry (r, q) of the result therefore depends only on row r of the left operand,
  column q of the weight and entry q of the bias row; it is written by point r / 5000, at row r mod 5000 of that
  point's block, and by no other point. The blocks tile the rows, so the result array is the whole-array affine
  map `lin1` of the three input arrays.
-/
import proofs.«415088_j18769007083672_1_alg».proof.Proof.Gen.KernelIdeal.Frame
import proofs.«415088_j18769007083672_1_alg».proof.Proof.Spec
import Idealize.ShloMosaic.Lib.Pipeline.Value
import Idealize.ShloMosaic.Lib.KernelVsHost
import Idealize.ShloMosaic.Lib.StackMember
import Idealize.ShloMosaic.Lib.ValueLayout

set_option maxRecDepth 16384

noncomputable section

namespace Cert.KernelIdeal.Region

open Idealize.ShloMosaic Idealize.ShloMosaic.TcCoe Idealize.ShloMosaic.ValueIdx Idealize.SL.Sem Cert.KernelIdeal Cert.KernelIdeal.Gen Cert.Spec
open Idealize.ShloMosaic.Pipeline (Dat)

/-- The zero offsets of a whole-block access. -/
theorem hz : (![0, 0] : Fin 2 → Nat) = fun _ => 0 := funext fun a => by fin_cases a <;> rfl

/-! ## The three products: rows × inner times inner × columns, no batch axis -/

theorem dotA_eq : dot_S5000x128_S128x128_S5000x128_1_0_0_1_n_n = DotDims.plain 5000 128 128 := rfl
theorem dotB_eq : dot_S5000x64_S64x128_S5000x128_1_0_0_1_n_n = DotDims.plain 5000 64 128 := rfl
theorem dotC_eq : dot_S5000x128_S128x1_S5000x1_1_0_0_1_n_n = DotDims.plain 5000 128 1 := rfl

/-- A 5000×128 by 128×128 product accumulated into zeros, at an entry: the sum over the inner coordinate. -/
theorem mmA (x : FVec Ideal S5000x128 .bf16) (w : FVec Ideal S128x128 .bf16) (p : Fin 5000) (q : Fin 128) :
    matmul dot_S5000x128_S128x128_S5000x128_1_0_0_1_n_n none x w (constant S5000x128 .f32 0x00000000#32) (ix2 p q)
      = ∑ k : Fin 128, x (ix2 p k) * w (ix2 k q) := by
  rw [dotA_eq, matmul_zero_eq_dotGeneral]
  exact StackMember.dotGeneral_plain_apply none x w p q

/-- A 5000×64 by 64×128 product accumulated into zeros, at an entry. -/
theorem mmB (x : FVec Ideal S5000x64 .bf16) (w : FVec Ideal S64x128 .bf16) (p : Fin 5000) (q : Fin 128) :
    matmul dot_S5000x64_S64x128_S5000x128_1_0_0_1_n_n none x w (constant S5000x128 .f32 0x00000000#32) (ix2 p q)
      = ∑ k : Fin 64, x (ix2 p k) * w (ix2 k q) := by
  rw [dotB_eq, matmul_zero_eq_dotGeneral]
  exact StackMember.dotGeneral_plain_apply none x w p q

/-- A 5000×128 by 128×1 product accumulated into zeros, at an entry. -/
theorem mmC (x : FVec Ideal S5000x128 .bf16) (w : FVec Ideal S128x1 .bf16) (p : Fin 5000) (q : Fin 1) :
    matmul dot_S5000x128_S128x1_S5000x1_1_0_0_1_n_n none x w (constant S5000x1 .f32 0x00000000#32) (ix2 p q)
      = ∑ k : Fin 128, x (ix2 p k) * w (ix2 k q) := by
  rw [dotC_eq, matmul_zero_eq_dotGeneral]
  exact StackMember.dotGeneral_plain_apply none x w p q

/-- The zero literal the body splats is the extended real zero. -/
theorem zero_lit : (Scalar.ofBits .f32 0x00000000#32 : Ideal .f32) = 0 := Ideal.ofBits_zero_f32

/-! ## From a block's entry to the whole-array function -/

/-- The block form of an affine stage with one product, read back as the whole-array function at the entry
    the block's entry lands on: the row of the left operand is the array's row, the weight and the bias are whole. -/
theorem lin1_at {M K N : Nat} (r : Bool) (A : (Mat M K).Idx → EReal) (W : (Mat K N).Idx → EReal)
    (B : (Mat 1 N).Idx → EReal) (x0 : (Mat 5000 K).Idx → EReal) (x1 : (Mat K N).Idx → EReal)
    (x2 : (Mat 1 N).Idx → EReal) (p : Fin 5000) (q : Fin N) (i : (Mat M N).Idx)
    (h0 : ∀ k : Fin K, x0 (ix2 p k) = A (ix2 (i 0) k)) (h1 : x1 = W) (h2 : x2 = B) (hq : i 1 = q) :
    clampIf r ((0 + ∑ k : Fin K, x0 (ix2 p k) * x1 (ix2 k q)) + x2 (ix2 0 q)) = lin1 r A W B i := by
  subst h1 h2 hq
  unfold lin1 dotAt
  simp only [h0]

variable (V : (c : Dev nD) → (b : Ref sig .tc) → Buf (Elt Ideal) ((c : Thread nD τ).loc b))

/-! ## Region 0: 200000 rows in 40 blocks, inner size 128, 128 columns, clamped at zero -/

/-- The block the body leaves, entry by entry: the affine map of the block's rows, clamped at zero. -/
theorem pay0 (x0 : Vec Ideal S5000x128 .f32) (x1 : Vec Ideal S128x128 .f32) (x2 : Vec Ideal S1x128 .f32)
    (p : Fin 5000) (q : Fin 128) :
    k0_pay1 x0 x1 x2 (ix2 p q)
      = clampIf true ((0 + ∑ k : Fin 128, x0 (ix2 p k) * x1 (ix2 k q)) + x2 (ix2 0 q)) := by
  unfold k0_pay1
  simp only [shapeCast_self]
  rw [maximumf_apply, addf_apply, addf_apply, mmA, broadcastTo_1b_ab_apply, zero_lit]
  rfl

/-- Where each window's block sits at point `t`: the left operand and the result on row block `t`, the weight
    and the bias row whole. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The left operand's block at point `t` is rows `5000 t … 5000 t + 4999` of its array. -/
theorem xblk0 (c : Dev nD) (t : Fin cfg0.N) (x : S5000x128.Idx) (i : (Mat 200000 128).Idx)
    (h0 : (i 0).val = t.val * 5000 + (x 0).val) (h1 : (i 1).val = (x 1).val) :
    (iblk0 V c 0 t : Vec Ideal S5000x128 .f32) x = (V c main_arg0 : (Mat 200000 128).Idx → EReal) i := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 5000 + 1 * (x 0).val = (i 0).val; rw [e0, h0]; omega
  | ⟨1, _⟩ => show win0_0.index t 1 * 128 + 1 * (x 1).val = (i 1).val; rw [e1, h1]; omega

/-- The weight's block is the whole weight at every point. -/
theorem wblk0 (c : Dev nD) (t : Fin cfg0.N) :
    (iblk0 V c 1 t : Vec Ideal S128x128 .f32) = (V c main_arg13 : (Mat 128 128).Idx → EReal) := by
  obtain ⟨-, -, e0, e1, -⟩ := idx0 t
  funext x
  unfold iblk0
  rw [View.read_apply]
  show V c main_arg13 _ = V c main_arg13 _
  congr 1
  funext a
  apply Fin.ext
  match a with
  | ⟨0, _⟩ => show win0_1.index t 0 * 128 + 1 * (x 0).val = (x 0).val; rw [e0]; omega
  | ⟨1, _⟩ => show win0_1.index t 1 * 128 + 1 * (x 1).val = (x 1).val; rw [e1]; omega

/-- The bias row's block is the whole row at every point. -/
theorem bblk0 (c : Dev nD) (t : Fin cfg0.N) :
    (iblk0 V c 2 t : Vec Ideal S1x128 .f32) = (V c main_v0 : (Mat 1 128).Idx → EReal) := by
  obtain ⟨-, -, -, -, e0, e1, -⟩ := idx0 t
  funext x
  unfold iblk0
  rw [View.read_apply]
  show V c main_v0 _ = V c main_v0 _
  congr 1
  funext a
  apply Fin.ext
  match a with
  | ⟨0, _⟩ => show win0_2.index t 0 * 1 + 1 * (x 0).val = (x 0).val; rw [e0]; omega
  | ⟨1, _⟩ => show win0_2.index t 1 * 128 + 1 * (x 1).val = (x 1).val; rw [e1]; omega

/-- What point `t` writes back is block `t` of the whole-array affine map. -/
theorem flushed0 (c : Dev nD) (t : Fin cfg0.N) :
    (dat0 (F := Ideal) V c).flushed 3 t
      = ((cfg0.win 3).blk t).view.read (Elt Ideal) (lin1 true (V c main_arg0) (V c main_arg13) (V c main_v0)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  obtain ⟨-, -, -, -, -, -, e0, e1⟩ := idx0 t
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (ix2 p q) = _
  refine (pay0 (iblk0 V c 0 t) (iblk0 V c 1 t) (iblk0 V c 2 t) p q).trans ?_
  rw [View.read_apply]
  refine lin1_at true (V c main_arg0) (V c main_arg13) (V c main_v0) (iblk0 V c 0 t) (iblk0 V c 1 t) (iblk0 V c 2 t)
    p q (((cfg0.win 3).blk t).view.emb (ix2 p q)) (fun k => ?_) (wblk0 V c t) (bblk0 V c t) ?_
  · refine xblk0 V c t (ix2 p k) _ ?_ rfl
    show win0_3.index t 0 * 5000 + 1 * p.val = t.val * 5000 + p.val
    rw [e0]; omega
  · apply Fin.ext
    show win0_3.index t 1 * 128 + 1 * q.val = q.val
    rw [e1]; omega

/-- An entry of the result lies in point `t`'s block iff each coordinate lies in the block's range on its axis. -/
theorem mem_blk0 (t : Fin cfg0.N) (i : (Mat 200000 128).Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v1).slice (win0_3.rect t)).set ↔ _
  rw [View.set_slice_whole, Rect.mem_set_unit]
  exact Iff.rfl

/-- Row `r` of the result lies in the block of point `r / 5000`. -/
theorem cover0 (i : (Mat 200000 128).Idx) :
    ∃ t : Fin cfg0.N, (cfg0.win 3).flush t = true ∧ i ∈ ((cfg0.win 3).blk t).view.set := by
  have hi0 : (i 0).val < 200000 := (i 0).isLt
  have hi1 : (i 1).val < 128 := (i 1).isLt
  have hN : grid0.N = 40 := N_0
  have ht : (i 0).val / 5000 < grid0.N := by rw [hN]; omega
  obtain ⟨-, -, -, -, -, -, e0, e1⟩ := idx0 ⟨(i 0).val / 5000, ht⟩
  refine ⟨⟨(i 0).val / 5000, ht⟩, flush0_3 _, ?_⟩
  rw [mem_blk0]
  intro a
  match a with
  | ⟨0, _⟩ =>
    show win0_3.index ⟨(i 0).val / 5000, ht⟩ 0 * 5000 ≤ (i 0).val
      ∧ (i 0).val < win0_3.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win0_3.index ⟨(i 0).val / 5000, ht⟩ 1 * 128 ≤ (i 1).val
      ∧ (i 1).val < win0_3.index ⟨(i 0).val / 5000, ht⟩ 1 * 128 + 128
    rw [e1]; omega

/-- Region 0's result array: the clamped affine map of the node features. -/
theorem out0 (c : Dev nD) :
    (dat0 (F := Ideal) V c).arrAt 3 cfg0.N = lin1 true (V c main_arg0) (V c main_arg13) (V c main_v0) :=
  (dat0 V c).arrAt_eq_of_cover 3 _ (fun t _ => flushed0 V c t) cover0

end Cert.KernelIdeal.Region

end
-- ==== Proof.KRegionA1.lean ====
/-
  The value of the four further one-product affine regions (regions 9, 1, 2 and 10), each as ONE function of its
  whole input arrays, by the steps of region 0 with the region's own sizes: the rows in blocks of 5000, point t
  holding rows 5000·t … 5000·t + 4999 of the left operand with the whole weight and the whole bias row, entry
  (r, q) of the result written by point r / 5000 alone and equal to
      clamp? ((0 + Σₖ x[r, k] · w[k, q]) + b[0, q]).
-/
import proofs.«415088_j18769007083672_1_alg».proof.Proof.KRegionA0

set_option maxRecDepth 16384

noncomputable section

namespace Cert.KernelIdeal.Region

open Idealize.ShloMosaic Idealize.ShloMosaic.TcCoe Idealize.ShloMosaic.ValueIdx Idealize.SL.Sem Cert.KernelIdeal Cert.KernelIdeal.Gen Cert.Spec
open Idealize.ShloMosaic.Pipeline (Dat)

variable (V : (c : Dev nD) → (b : Ref sig .tc) → Buf (Elt Ideal) ((c : Thread nD τ).loc b))
/-! ## Region 9: 200000 rows in 40 blocks, inner size 128, width 128, clamp true -/

/-- The block the body leaves, entry by entry: the affine map of the block's rows, clamped at zero when the
    stage clamps. -/
theorem pay9 (x0 : Vec Ideal S5000x128 .f32) (x1 : Vec Ideal S128x128 .f32) (x2 : Vec Ideal S1x128 .f32)
    (p : Fin 5000) (q : Fin 128) :
    k9_pay1 x0 x1 x2 (ix2 p q)
      = clampIf true ((0 + ∑ k : Fin 128, x0 (ix2 p k) * x1 (ix2 k q)) + x2 (ix2 0 q)) := by
  unfold k9_pay1
  simp only [shapeCast_self]
  try rw [maximumf_apply]
  rw [addf_apply, addf_apply, mmA, broadcastTo_1b_ab_apply, zero_lit]
  rfl

/-- Where each window's block sits at point `t`: the left operand and the result on row block `t`, the weight
    and the bias row whole. -/
theorem idx9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- The left operand's block at point `t` is rows `5000 t … 5000 t + 4999` of its array. -/
theorem xblk9 (c : Dev nD) (t : Fin cfg9.N) (x : S5000x128.Idx) (i : (Mat 200000 128).Idx)
    (h0 : (i 0).val = t.val * 5000 + (x 0).val) (h1 : (i 1).val = (x 1).val) :
    (iblk9 V c 0 t : Vec Ideal S5000x128 .f32) x = (V c main_v148 : (Mat 200000 128).Idx → EReal) i := by
  obtain ⟨e0, e1, -⟩ := idx9 t
  unfold iblk9
  rw [View.read_apply]
  show V c main_v148 _ = V c main_v148 _
  congr 1
  funext a
  apply Fin.ext
  match a with
  | ⟨0, _⟩ => show win9_0.index t 0 * 5000 + 1 * (x 0).val = (i 0).val; rw [e0, h0]; omega
  | ⟨1, _⟩ => show win9_0.index t 1 * 128 + 1 * (x 1).val = (i 1).val; rw [e1, h1]; omega

/-- The weight's block is the whole weight at every point. -/
theorem wblk9 (c : Dev nD) (t : Fin cfg9.N) :
    (iblk9 V c 1 t : Vec Ideal S128x128 .f32) = (V c main_arg18 : (Mat 128 128).Idx → EReal) := by
  obtain ⟨-, -, e0, e1, -⟩ := idx9 t
  funext x
  unfold iblk9
  rw [View.read_apply]
  show V c main_arg18 _ = V c main_arg18 _
  congr 1
  funext a
  apply Fin.ext
  match a with
  | ⟨0, _⟩ => show win9_1.index t 0 * 128 + 1 * (x 0).val = (x 0).val; rw [e0]; omega
  | ⟨1, _⟩ => show win9_1.index t 1 * 128 + 1 * (x 1).val = (x 1).val; rw [e1]; omega

/-- The bias row's block is the whole row at every point. -/
theorem bblk9 (c : Dev nD) (t : Fin cfg9.N) :
    (iblk9 V c 2 t : Vec Ideal S1x128 .f32) = (V c main_v165 : (Mat 1 128).Idx → EReal) := by
  obtain ⟨-, -, -, -, e0, e1, -⟩ := idx9 t
  funext x
  unfold iblk9
  rw [View.read_apply]
  show V c main_v165 _ = V c main_v165 _
  congr 1
  funext a
  apply Fin.ext
  match a with
  | ⟨0, _⟩ => show win9_2.index t 0 * 1 + 1 * (x 0).val = (x 0).val; rw [e0]; omega
  | ⟨1, _⟩ => show win9_2.index t 1 * 128 + 1 * (x 1).val = (x 1).val; rw [e1]; omega

/-- What point `t` writes back is block `t` of the whole-array affine map. -/
theorem flushed9 (c : Dev nD) (t : Fin cfg9.N) :
    (dat9 (F := Ideal) V c).flushed 3 t
      = ((cfg9.win 3).blk t).view.read (Elt Ideal) (lin1 true (V c main_v148) (V c main_arg18) (V c main_v165)) := by
  show (cfg9.win 3).cut (grid9.coords t) ((dat9 V c).after 3 t) = _
  rw [after9_3]
  unfold out9_3
  rw [View.canon_unit_zero hz]
  simp only [View.ld_unit_zero (S := S5000x128) hz, View.ld_unit_zero (S := S128x128) hz,
    View.ld_unit_zero (S := S1x128) hz]
  obtain ⟨-, -, -, -, -, -, e0, e1⟩ := idx9 t
  funext j
  obtain ⟨p, q, rfl⟩ : ∃ (p : Fin 5000) (q : Fin 128), j = ix2 p q := ⟨j 0, j 1, eq_ix2 j⟩
  show k9_pay1 (iblk9 V c 0 t) (iblk9 V c 1 t) (iblk9 V c 2 t) (ix2 p q) = _
  refine (pay9 (iblk9 V c 0 t) (iblk9 V c 1 t) (iblk9 V c 2 t) p q).trans ?_
  rw [View.read_apply]
  refine lin1_at true (V c main_v148) (V c main_arg18) (V c main_v165) (iblk9 V c 0 t) (iblk9 V c 1 t) (iblk9 V c 2 t)
    p q (((cfg9.win 3).blk t).view.emb (ix2 p q)) (fun k => ?_) (wblk9 V c t) (bblk9 V c t) ?_
  · refine xblk9 V c t (ix2 p k) _ ?_ rfl
    show win9_3.index t 0 * 5000 + 1 * p.val = t.val * 5000 + p.val
    rw [e0]; omega
  · apply Fin.ext
    show win9_3.index t 1 * 128 + 1 * q.val = q.val
    rw [e1]; omega

/-- An entry of the result lies in point `t`'s block iff each coordinate lies in the block's range on its axis. -/
theorem mem_blk9 (t : Fin cfg9.N) (i : (Mat 200000 128).Idx) :
    i ∈ ((cfg9.win 3).blk t).view.set ↔ ∀ a : Fin 2, win9_3.index t a * S5000x128.size a ≤ (i a).val
      ∧ (i a).val < win9_3.index t a * S5000x128.size a + S5000x128.size a := by
  show i ∈ ((View.whole main_v166).slice (win9_3.rect t)).set ↔ _
  rw [View.set_slice_whole, Rect.mem_set_unit]
  exact Iff.rfl

/-- Row `r` of the result lies in the block of point `r / 5000`. -/
theorem cover9 (i : (Mat 200000 128).Idx) :
    ∃ t : Fin cfg9.N, (cfg9.win 3).flush t = true ∧ i ∈ ((cfg9.win 3).blk t).view.set := by
  have hi0 : (i 0).val < 200000 := (i 0).isLt
  have hi1 : (i 1).val < 128 := (i 1).isLt
  have hN : grid9.N = 40 := N_9
  have ht : (i 0).val / 5000 < grid9.N := by rw [hN]; omega
  obtain ⟨-, -, -, -, -, -, e0, e1⟩ := idx9 ⟨(i 0).val / 5000, ht⟩
  refine ⟨⟨(i 0).val / 5000, ht⟩, flush9_3 _, ?_⟩
  rw [mem_blk9]
  intro a
  match a with
  | ⟨0, _⟩ =>
    show win9_3.index ⟨(i 0).val / 5000, ht⟩ 0 * 5000 ≤ (i 0).val
      ∧ (i 0).val < win9_3.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win9_3.index ⟨(i 0).val / 5000, ht⟩ 1 * 128 ≤ (i 1).val
      ∧ (i 1).val < win9_3.index ⟨(i 0).val / 5000, ht⟩ 1 * 128 + 128
    rw [e1]; omega

/-- Region 9's result array is the whole-array affine map of its three input arrays. -/
theorem out9 (c : Dev nD) :
    (dat9 (F := Ideal) V c).arrAt 3 cfg9.N = lin1 true (V c main_v148) (V c main_arg18) (V c main_v165) :=
  (dat9 V c).arrAt_eq_of_cover 3 _ (fun t _ => flushed9 V c t) cover9

/-! ## Region 1: 50000 rows in 10 blocks, inner size 64, width 128, clamp false -/

/-- The block the body leaves, entry by entry: the affine map of the block's rows, clamped at zero when the
    stage clamps. -/
theorem pay1 (x0 : Vec Ideal S5000x64 .f32) (x1 : Vec Ideal S64x128 .f32) (x2 : Vec Ideal S1x128 .f32)
    (p : Fin 5000) (q : Fin 128) :
    k1_pay1 x0 x1 x2 (ix2 p q)
      = clampIf false ((0 + ∑ k : Fin 64, x0 (ix2 p k) * x1 (ix2 k q)) + x2 (ix2 0 q)) := by
  unfold k1_pay1
  simp only [shapeCast_self]
  try rw [maximumf_apply]
  rw [addf_apply, addf_apply, mmB, broadcastTo_1b_ab_apply, zero_lit]
  rfl

/-- Where each window's block sits at point `t`: the left operand and the result on row block `t`, the weight
    and the bias row whole. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The left operand's block at point `t` is rows `5000 t … 5000 t + 4999` of its array. -/
theorem xblk1 (c : Dev nD) (t : Fin cfg1.N) (x : S5000x64.Idx) (i : (Mat 50000 64).Idx)
    (h0 : (i 0).val = t.val * 5000 + (x 0).val) (h1 : (i 1).val = (x 1).val) :
    (iblk1 V c 0 t : Vec Ideal S5000x64 .f32) x = (V c main_v2 : (Mat 50000 64).Idx → EReal) i := by
  obtain ⟨e0, e1, -⟩ := idx1 t
  unfold iblk1
  rw [View.read_apply]
  show V c main_v2 _ = V c main_v2 _
  congr 1
  funext a
  apply Fin.ext
  match a with
  | ⟨0, _⟩ => show win1_0.index t 0 * 5000 + 1 * (x 0).val = (i 0).val; rw [e0, h0]; omega
  | ⟨1, _⟩ => show win1_0.index t 1 * 64 + 1 * (x 1).val = (i 1).val; rw [e1, h1]; omega

/-- The weight's block is the whole weight at every point. -/
theorem wblk1 (c : Dev nD) (t : Fin cfg1.N) :
    (iblk1 V c 1 t : Vec Ideal S64x128 .f32) = (V c main_arg9 : (Mat 64 128).Idx → EReal) := by
  obtain ⟨-, -, e0, e1, -⟩ := idx1 t
  funext x
  unfold iblk1
  rw [View.read_apply]
  show V c main_arg9 _ = V c main_arg9 _
  congr 1
  funext a
  apply Fin.ext
  match a with
  | ⟨0, _⟩ => show win1_1.index t 0 * 64 + 1 * (x 0).val = (x 0).val; rw [e0]; omega
  | ⟨1, _⟩ => show win1_1.index t 1 * 128 + 1 * (x 1).val = (x 1).val; rw [e1]; omega

/-- The bias row's block is the whole row at every point. -/
theorem bblk1 (c : Dev nD) (t : Fin cfg1.N) :
    (iblk1 V c 2 t : Vec Ideal S1x128 .f32) = (V c main_v3 : (Mat 1 128).Idx → EReal) := by
  obtain ⟨-, -, -, -, e0, e1, -⟩ := idx1 t
  funext x
  unfold iblk1
  rw [View.read_apply]
  show V c main_v3 _ = V c main_v3 _
  congr 1
  funext a
  apply Fin.ext
  match a with
  | ⟨0, _⟩ => show win1_2.index t 0 * 1 + 1 * (x 0).val = (x 0).val; rw [e0]; omega
  | ⟨1, _⟩ => show win1_2.index t 1 * 128 + 1 * (x 1).val = (x 1).val; rw [e1]; omega

/-- What point `t` writes back is block `t` of the whole-array affine map. -/
theorem flushed1 (c : Dev nD) (t : Fin cfg1.N) :
    (dat1 (F := Ideal) V c).flushed 3 t
      = ((cfg1.win 3).blk t).view.read (Elt Ideal) (lin1 false (V c main_v2) (V c main_arg9) (V c main_v3)) := by
  show (cfg1.win 3).cut (grid1.coords t) ((dat1 V c).after 3 t) = _
  rw [after1_3]
  unfold out1_3
  rw [View.canon_unit_zero hz]
  simp only [View.ld_unit_zero (S := S5000x64) hz, View.ld_unit_zero (S := S64x128) hz,
    View.ld_unit_zero (S := S1x128) hz]
  obtain ⟨-, -, -, -, -, -, e0, e1⟩ := idx1 t
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (ix2 p q) = _
  refine (pay1 (iblk1 V c 0 t) (iblk1 V c 1 t) (iblk1 V c 2 t) p q).trans ?_
  rw [View.read_apply]
  refine lin1_at false (V c main_v2) (V c main_arg9) (V c main_v3) (iblk1 V c 0 t) (iblk1 V c 1 t) (iblk1 V c 2 t)
    p q (((cfg1.win 3).blk t).view.emb (ix2 p q)) (fun k => ?_) (wblk1 V c t) (bblk1 V c t) ?_
  · refine xblk1 V c t (ix2 p k) _ ?_ rfl
    show win1_3.index t 0 * 5000 + 1 * p.val = t.val * 5000 + p.val
    rw [e0]; omega
  · apply Fin.ext
    show win1_3.index t 1 * 128 + 1 * q.val = q.val
    rw [e1]; omega

/-- An entry of the result lies in point `t`'s block iff each coordinate lies in the block's range on its axis. -/
theorem mem_blk1 (t : Fin cfg1.N) (i : (Mat 50000 128).Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v4).slice (win1_3.rect t)).set ↔ _
  rw [View.set_slice_whole, Rect.mem_set_unit]
  exact Iff.rfl

/-- Row `r` of the result lies in the block of point `r / 5000`. -/
theorem cover1 (i : (Mat 50000 128).Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : grid1.N = 10 := N_1
  have ht : (i 0).val / 5000 < grid1.N := by rw [hN]; omega
  obtain ⟨-, -, -, -, -, -, e0, e1⟩ := idx1 ⟨(i 0).val / 5000, ht⟩
  refine ⟨⟨(i 0).val / 5000, ht⟩, flush1_3 _, ?_⟩
  rw [mem_blk1]
  intro a
  match a with
  | ⟨0, _⟩ =>
    show win1_3.index ⟨(i 0).val / 5000, ht⟩ 0 * 5000 ≤ (i 0).val
      ∧ (i 0).val < win1_3.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win1_3.index ⟨(i 0).val / 5000, ht⟩ 1 * 128 ≤ (i 1).val
      ∧ (i 1).val < win1_3.index ⟨(i 0).val / 5000, ht⟩ 1 * 128 + 128
    rw [e1]; omega

/-- Region 1's result array is the whole-array affine map of its three input arrays. -/
theorem out1 (c : Dev nD) :
    (dat1 (F := Ideal) V c).arrAt 3 cfg1.N = lin1 false (V c main_v2) (V c main_arg9) (V c main_v3) :=
  (dat1 V c).arrAt_eq_of_cover 3 _ (fun t _ => flushed1 V c t) cover1

/-! ## Region 2: 10000 rows in 2 blocks, inner size 64, width 128, clamp false -/

/-- The block the body leaves, entry by entry: the affine map of the block's rows, clamped at zero when the
    stage clamps. -/
theorem pay2 (x0 : Vec Ideal S5000x64 .f32) (x1 : Vec Ideal S64x128 .f32) (x2 : Vec Ideal S1x128 .f32)
    (p : Fin 5000) (q : Fin 128) :
    k2_pay1 x0 x1 x2 (ix2 p q)
      = clampIf false ((0 + ∑ k : Fin 64, x0 (ix2 p k) * x1 (ix2 k q)) + x2 (ix2 0 q)) := by
  unfold k2_pay1
  simp only [shapeCast_self]
  try rw [maximumf_apply]
  rw [addf_apply, addf_apply, mmB, broadcastTo_1b_ab_apply, zero_lit]
  rfl

/-- Where each window's block sits at point `t`: the left operand and the result on row block `t`, the weight
    and the bias row whole. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The left operand's block at point `t` is rows `5000 t … 5000 t + 4999` of its array. -/
theorem xblk2 (c : Dev nD) (t : Fin cfg2.N) (x : S5000x64.Idx) (i : (Mat 10000 64).Idx)
    (h0 : (i 0).val = t.val * 5000 + (x 0).val) (h1 : (i 1).val = (x 1).val) :
    (iblk2 V c 0 t : Vec Ideal S5000x64 .f32) x = (V c main_v5 : (Mat 10000 64).Idx → EReal) i := by
  obtain ⟨e0, e1, -⟩ := idx2 t
  unfold iblk2
  rw [View.read_apply]
  show V c main_v5 _ = V c main_v5 _
  congr 1
  funext a
  apply Fin.ext
  match a with
  | ⟨0, _⟩ => show win2_0.index t 0 * 5000 + 1 * (x 0).val = (i 0).val; rw [e0, h0]; omega
  | ⟨1, _⟩ => show win2_0.index t 1 * 64 + 1 * (x 1).val = (i 1).val; rw [e1, h1]; omega

/-- The weight's block is the whole weight at every point. -/
theorem wblk2 (c : Dev nD) (t : Fin cfg2.N) :
    (iblk2 V c 1 t : Vec Ideal S64x128 .f32) = (V c main_arg11 : (Mat 64 128).Idx → EReal) := by
  obtain ⟨-, -, e0, e1, -⟩ := idx2 t
  funext x
  unfold iblk2
  rw [View.read_apply]
  show V c main_arg11 _ = V c main_arg11 _
  congr 1
  funext a
  apply Fin.ext
  match a with
  | ⟨0, _⟩ => show win2_1.index t 0 * 64 + 1 * (x 0).val = (x 0).val; rw [e0]; omega
  | ⟨1, _⟩ => show win2_1.index t 1 * 128 + 1 * (x 1).val = (x 1).val; rw [e1]; omega

/-- The bias row's block is the whole row at every point. -/
theorem bblk2 (c : Dev nD) (t : Fin cfg2.N) :
    (iblk2 V c 2 t : Vec Ideal S1x128 .f32) = (V c main_v6 : (Mat 1 128).Idx → EReal) := by
  obtain ⟨-, -, -, -, e0, e1, -⟩ := idx2 t
  funext x
  unfold iblk2
  rw [View.read_apply]
  show V c main_v6 _ = V c main_v6 _
  congr 1
  funext a
  apply Fin.ext
  match a with
  | ⟨0, _⟩ => show win2_2.index t 0 * 1 + 1 * (x 0).val = (x 0).val; rw [e0]; omega
  | ⟨1, _⟩ => show win2_2.index t 1 * 128 + 1 * (x 1).val = (x 1).val; rw [e1]; omega

/-- What point `t` writes back is block `t` of the whole-array affine map. -/
theorem flushed2 (c : Dev nD) (t : Fin cfg2.N) :
    (dat2 (F := Ideal) V c).flushed 3 t
      = ((cfg2.win 3).blk t).view.read (Elt Ideal) (lin1 false (V c main_v5) (V c main_arg11) (V c main_v6)) := by
  show (cfg2.win 3).cut (grid2.coords t) ((dat2 V c).after 3 t) = _
  rw [after2_3]
  unfold out2_3
  rw [View.canon_unit_zero hz]
  simp only [View.ld_unit_zero (S := S5000x64) hz, View.ld_unit_zero (S := S64x128) hz,
    View.ld_unit_zero (S := S1x128) hz]
  obtain ⟨-, -, -, -, -, -, e0, e1⟩ := idx2 t
  funext j
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (ix2 p q) = _
  refine (pay2 (iblk2 V c 0 t) (iblk2 V c 1 t) (iblk2 V c 2 t) p q).trans ?_
  rw [View.read_apply]
  refine lin1_at false (V c main_v5) (V c main_arg11) (V c main_v6) (iblk2 V c 0 t) (iblk2 V c 1 t) (iblk2 V c 2 t)
    p q (((cfg2.win 3).blk t).view.emb (ix2 p q)) (fun k => ?_) (wblk2 V c t) (bblk2 V c t) ?_
  · refine xblk2 V c t (ix2 p k) _ ?_ rfl
    show win2_3.index t 0 * 5000 + 1 * p.val = t.val * 5000 + p.val
    rw [e0]; omega
  · apply Fin.ext
    show win2_3.index t 1 * 128 + 1 * q.val = q.val
    rw [e1]; omega

/-- An entry of the result lies in point `t`'s block iff each coordinate lies in the block's range on its axis. -/
theorem mem_blk2 (t : Fin cfg2.N) (i : (Mat 10000 128).Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v7).slice (win2_3.rect t)).set ↔ _
  rw [View.set_slice_whole, Rect.mem_set_unit]
  exact Iff.rfl

/-- Row `r` of the result lies in the block of point `r / 5000`. -/
theorem cover2 (i : (Mat 10000 128).Idx) :
    ∃ t : Fin cfg2.N, (cfg2.win 3).flush t = true ∧ i ∈ ((cfg2.win 3).blk t).view.set := by
  have hi0 : (i 0).val < 10000 := (i 0).isLt
  have hi1 : (i 1).val < 128 := (i 1).isLt
  have hN : grid2.N = 2 := N_2
  have ht : (i 0).val / 5000 < grid2.N := by rw [hN]; omega
  obtain ⟨-, -, -, -, -, -, e0, e1⟩ := idx2 ⟨(i 0).val / 5000, ht⟩
  refine ⟨⟨(i 0).val / 5000, ht⟩, flush2_3 _, ?_⟩
  rw [mem_blk2]
  intro a
  match a with
  | ⟨0, _⟩ =>
    show win2_3.index ⟨(i 0).val / 5000, ht⟩ 0 * 5000 ≤ (i 0).val
      ∧ (i 0).val < win2_3.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win2_3.index ⟨(i 0).val / 5000, ht⟩ 1 * 128 ≤ (i 1).val
      ∧ (i 1).val < win2_3.index ⟨(i 0).val / 5000, ht⟩ 1 * 128 + 128
    rw [e1]; omega

/-- Region 2's result array is the whole-array affine map of its three input arrays. -/
theorem out2 (c : Dev nD) :
    (dat2 (F := Ideal) V c).arrAt 3 cfg2.N = lin1 false (V c main_v5) (V c main_arg11) (V c main_v6) :=
  (dat2 V c).arrAt_eq_of_cover 3 _ (fun t _ => flushed2 V c t) cover2

/-! ## Region 10: 200000 rows in 40 blocks, inner size 128, width 1, clamp false -/

/-- The block the body leaves, entry by entry: the affine map of the block's rows, clamped at zero when the
    stage clamps. -/
theorem pay10 (x0 : Vec Ideal S5000x128 .f32) (x1 : Vec Ideal S128x1 .f32) (x2 : Vec Ideal S1x1 .f32)
    (p : Fin 5000) (q : Fin 1) :
    k10_pay1 x0 x1 x2 (ix2 p q)
      = clampIf false ((0 + ∑ k : Fin 128, x0 (ix2 p k) * x1 (ix2 k q)) + x2 (ix2 0 q)) := by
  unfold k10_pay1
  simp only [shapeCast_self]
  try rw [maximumf_apply]
  rw [addf_apply, addf_apply, mmC, broadcastTo_1b_ab_apply, zero_lit]
  rfl

/-- Where each window's block sits at point `t`: the left operand and the result on row block `t`, the weight
    and the bias row whole. -/
theorem idx10 : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0 :=
  (by decide +kernel : ∀ t : Fin grid10.N, _)

/-- The left operand's block at point `t` is rows `5000 t … 5000 t + 4999` of its array. -/
theorem xblk10 (c : Dev nD) (t : Fin cfg10.N) (x : S5000x128.Idx) (i : (Mat 200000 128).Idx)
    (h0 : (i 0).val = t.val * 5000 + (x 0).val) (h1 : (i 1).val = (x 1).val) :
    (iblk10 V c 0 t : Vec Ideal S5000x128 .f32) x = (V c main_v166 : (Mat 200000 128).Idx → EReal) i := by
  obtain ⟨e0, e1, -⟩ := idx10 t
  unfold iblk10
  rw [View.read_apply]
  show V c main_v166 _ = V c main_v166 _
  congr 1
  funext a
  apply Fin.ext
  match a with
  | ⟨0, _⟩ => show win10_0.index t 0 * 5000 + 1 * (x 0).val = (i 0).val; rw [e0, h0]; omega
  | ⟨1, _⟩ => show win10_0.index t 1 * 128 + 1 * (x 1).val = (i 1).val; rw [e1, h1]; omega

/-- The weight's block is the whole weight at every point. -/
theorem wblk10 (c : Dev nD) (t : Fin cfg10.N) :
    (iblk10 V c 1 t : Vec Ideal S128x1 .f32) = (V c main_arg20 : (Mat 128 1).Idx → EReal) := by
  obtain ⟨-, -, e0, e1, -⟩ := idx10 t
  funext x
  unfold iblk10
  rw [View.read_apply]
  show V c main_arg20 _ = V c main_arg20 _
  congr 1
  funext a
  apply Fin.ext
  match a with
  | ⟨0, _⟩ => show win10_1.index t 0 * 128 + 1 * (x 0).val = (x 0).val; rw [e0]; omega
  | ⟨1, _⟩ => show win10_1.index t 1 * 1 + 1 * (x 1).val = (x 1).val; rw [e1]; omega

/-- The bias row's block is the whole row at every point. -/
theorem bblk10 (c : Dev nD) (t : Fin cfg10.N) :
    (iblk10 V c 2 t : Vec Ideal S1x1 .f32) = (V c main_v167 : (Mat 1 1).Idx → EReal) := by
  obtain ⟨-, -, -, -, e0, e1, -⟩ := idx10 t
  funext x
  unfold iblk10
  rw [View.read_apply]
  show V c main_v167 _ = V c main_v167 _
  congr 1
  funext a
  apply Fin.ext
  match a with
  | ⟨0, _⟩ => show win10_2.index t 0 * 1 + 1 * (x 0).val = (x 0).val; rw [e0]; omega
  | ⟨1, _⟩ => show win10_2.index t 1 * 1 + 1 * (x 1).val = (x 1).val; rw [e1]; omega

/-- What point `t` writes back is block `t` of the whole-array affine map. -/
theorem flushed10 (c : Dev nD) (t : Fin cfg10.N) :
    (dat10 (F := Ideal) V c).flushed 3 t
      = ((cfg10.win 3).blk t).view.read (Elt Ideal) (lin1 false (V c main_v166) (V c main_arg20) (V c main_v167)) := by
  show (cfg10.win 3).cut (grid10.coords t) ((dat10 V c).after 3 t) = _
  rw [after10_3]
  unfold out10_3
  rw [View.canon_unit_zero hz]
  simp only [View.ld_unit_zero (S := S5000x128) hz, View.ld_unit_zero (S := S128x1) hz,
    View.ld_unit_zero (S := S1x1) hz]
  obtain ⟨-, -, -, -, -, -, e0, e1⟩ := idx10 t
  funext j
  obtain ⟨p, q, rfl⟩ : ∃ (p : Fin 5000) (q : Fin 1), j = ix2 p q := ⟨j 0, j 1, eq_ix2 j⟩
  show k10_pay1 (iblk10 V c 0 t) (iblk10 V c 1 t) (iblk10 V c 2 t) (ix2 p q) = _
  refine (pay10 (iblk10 V c 0 t) (iblk10 V c 1 t) (iblk10 V c 2 t) p q).trans ?_
  rw [View.read_apply]
  refine lin1_at false (V c main_v166) (V c main_arg20) (V c main_v167) (iblk10 V c 0 t) (iblk10 V c 1 t) (iblk10 V c 2 t)
    p q (((cfg10.win 3).blk t).view.emb (ix2 p q)) (fun k => ?_) (wblk10 V c t) (bblk10 V c t) ?_
  · refine xblk10 V c t (ix2 p k) _ ?_ rfl
    show win10_3.index t 0 * 5000 + 1 * p.val = t.val * 5000 + p.val
    rw [e0]; omega
  · apply Fin.ext
    show win10_3.index t 1 * 1 + 1 * q.val = q.val
    rw [e1]; omega

/-- An entry of the result lies in point `t`'s block iff each coordinate lies in the block's range on its axis. -/
theorem mem_blk10 (t : Fin cfg10.N) (i : (Mat 200000 1).Idx) :
    i ∈ ((cfg10.win 3).blk t).view.set ↔ ∀ a : Fin 2, win10_3.index t a * S5000x1.size a ≤ (i a).val
      ∧ (i a).val < win10_3.index t a * S5000x1.size a + S5000x1.size a := by
  show i ∈ ((View.whole main_v168).slice (win10_3.rect t)).set ↔ _
  rw [View.set_slice_whole, Rect.mem_set_unit]
  exact Iff.rfl

/-- Row `r` of the result lies in the block of point `r / 5000`. -/
theorem cover10 (i : (Mat 200000 1).Idx) :
    ∃ t : Fin cfg10.N, (cfg10.win 3).flush t = true ∧ i ∈ ((cfg10.win 3).blk t).view.set := by
  have hi0 : (i 0).val < 200000 := (i 0).isLt
  have hi1 : (i 1).val < 1 := (i 1).isLt
  have hN : grid10.N = 40 := N_10
  have ht : (i 0).val / 5000 < grid10.N := by rw [hN]; omega
  obtain ⟨-, -, -, -, -, -, e0, e1⟩ := idx10 ⟨(i 0).val / 5000, ht⟩
  refine ⟨⟨(i 0).val / 5000, ht⟩, flush10_3 _, ?_⟩
  rw [mem_blk10]
  intro a
  match a with
  | ⟨0, _⟩ =>
    show win10_3.index ⟨(i 0).val / 5000, ht⟩ 0 * 5000 ≤ (i 0).val
      ∧ (i 0).val < win10_3.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win10_3.index ⟨(i 0).val / 5000, ht⟩ 1 * 1 ≤ (i 1).val
      ∧ (i 1).val < win10_3.index ⟨(i 0).val / 5000, ht⟩ 1 * 1 + 1
    rw [e1]; omega

/-- Region 10's result array is the whole-array affine map of its three input arrays. -/
theorem out10 (c : Dev nD) :
    (dat10 (F := Ideal) V c).arrAt 3 cfg10.N = lin1 false (V c main_v166) (V c main_arg20) (V c main_v167) :=
  (dat10 V c).arrAt_eq_of_cover 3 _ (fun t _ => flushed10 V c t) cover10

end Cert.KernelIdeal.Region

end
-- ==== Proof.KRegionA.lean ====
/- The one-product affine regions (0, 1, 2, 9, 10), each result array as the whole-array affine map of its three input arrays. -/
import proofs.«415088_j18769007083672_1_alg».proof.Proof.KRegionA0
import proofs.«415088_j18769007083672_1_alg».proof.Proof.KRegionA1
-- ==== Proof.KWalk0.lean ====
/-
  The encoders: the transaction, card and merchant features after the three encoder regions, each read off its region's
  output array at the region's exit and carried to the exit of the third.
-/
import proofs.«415088_j18769007083672_1_alg».proof.Proof.Gen.KernelIdeal.Frame
import proofs.«415088_j18769007083672_1_alg».proof.Proof.KSpec
import proofs.«415088_j18769007083672_1_alg».proof.Proof.KArgs
import proofs.«415088_j18769007083672_1_alg».proof.Proof.KRegionA
import Idealize.ShloMosaic.Lib.StableHlo.Run

set_option maxRecDepth 16384

noncomputable section

namespace Cert.KernelIdeal.KWalk

open Idealize.ShloMosaic Idealize.ShloMosaic.TcCoe Idealize.SL.Sem Idealize.ShloMosaic.StableHlo
open Cert.KernelIdeal Cert.KernelIdeal.Gen Cert.Spec

variable (m : (ℓ : Loc nD τ sig) → Buf (Elt Ideal) ℓ) (ρ : Dev nD → PrngReg)

/-! ## The transaction encoder (region 0) -/

set_option maxHeartbeats 4000000 in
/-- The transaction bias, laid out as a row before the region is entered. -/
theorem W1_v0 (c : Dev nD) :
    W1 m ρ c (Proc.devRef .tc main_v0) = KS.row128 (W0 m ρ c (Proc.devRef .tc main_arg14)) := by
  show StableHlo.after hostOps0 (W0 m ρ c) (Proc.devRef .tc main_v0) = _
  after_results_simp
  rfl

theorem W2_v1 (c : Dev nD) : W2 m ρ c (Proc.devRef .tc main_v1) = KS.hTx0 (KS.inp m c) := by
  have h : W2 m ρ c (Proc.devRef .tc main_v1) = (dat0 (V1 m ρ) c).arrAt 3 cfg0.N := W2_arr m ρ c 3
  rw [h, Region.out0 (V1 m ρ) c]
  show lin1 true (W1 m ρ c (Proc.devRef .tc main_arg0)) (W1 m ρ c (Proc.devRef .tc main_arg13))
      (W1 m ρ c (Proc.devRef .tc main_v0)) = _
  rw [(W1_args m ρ c).a0, (W1_args m ρ c).a13, W1_v0, (W0_args m ρ c).a14]
  rfl

/-! ## The card encoder (region 1) -/

set_option maxHeartbeats 4000000 in
/-- The gathered card embeddings: the filling gather of the embedding table through the card ids. -/
theorem W3_v2 (c : Dev nD) :
    W3 m ρ c (Proc.devRef .tc main_v2)
      = KS.takeCardEmb (W2 m ρ c (Proc.devRef .tc main_arg7)) (W2 m ρ c (Proc.devRef .tc main_arg1)) := by
  show StableHlo.after hostOps1 (W2 m ρ c) (Proc.devRef .tc main_v2) = _
  after_results_simp
  simp only [TRef.ofBuf, TRef.toBuf, cast_eq]
  rfl

set_option maxHeartbeats 4000000 in
/-- The bias reshape leaves the gathered embeddings as they were. -/
theorem W4_v2 (c : Dev nD) : W4 m ρ c (Proc.devRef .tc main_v2) = W3 m ρ c (Proc.devRef .tc main_v2) := by
  show StableHlo.after hostOps1_1 (W3 m ρ c) (Proc.devRef .tc main_v2) = _
  after_results_simp

set_option maxHeartbeats 4000000 in
/-- The card bias, laid out as a row before the region is entered. -/
theorem W4_v3 (c : Dev nD) :
    W4 m ρ c (Proc.devRef .tc main_v3) = KS.row128 (W3 m ρ c (Proc.devRef .tc main_arg10)) := by
  show StableHlo.after hostOps1_1 (W3 m ρ c) (Proc.devRef .tc main_v3) = _
  after_results_simp
  rfl

theorem W5_v4 (c : Dev nD) : W5 m ρ c (Proc.devRef .tc main_v4) = KS.hCard0 (KS.inp m c) := by
  have h : W5 m ρ c (Proc.devRef .tc main_v4) = (dat1 (V4 m ρ) c).arrAt 3 cfg1.N := W5_arr m ρ c 3
  rw [h, Region.out1 (V4 m ρ) c]
  show lin1 false (W4 m ρ c (Proc.devRef .tc main_v2)) (W4 m ρ c (Proc.devRef .tc main_arg9))
      (W4 m ρ c (Proc.devRef .tc main_v3)) = _
  rw [W4_v2, W3_v2, (W2_args m ρ c).a7, (W2_args m ρ c).a1, (W4_args m ρ c).a9, W4_v3, (W3_args m ρ c).a10]
  rfl

/-! ## The merchant encoder (region 2) -/

set_option maxHeartbeats 4000000 in
/-- The gathered merchant embeddings: the filling gather of the embedding table through the merchant ids. -/
theorem W6_v5 (c : Dev nD) :
    W6 m ρ c (Proc.devRef .tc main_v5)
      = KS.takeMerchEmb (W5 m ρ c (Proc.devRef .tc main_arg8)) (W5 m ρ c (Proc.devRef .tc main_arg2)) := by
  show StableHlo.after hostOps2 (W5 m ρ c) (Proc.devRef .tc main_v5) = _
  after_results_simp
  simp only [TRef.ofBuf, TRef.toBuf, cast_eq]
  rfl

set_option maxHeartbeats 4000000 in
/-- The bias reshape leaves the gathered embeddings as they were. -/
theorem W7_v5 (c : Dev nD) : W7 m ρ c (Proc.devRef .tc main_v5) = W6 m ρ c (Proc.devRef .tc main_v5) := by
  show StableHlo.after hostOps2_1 (W6 m ρ c) (Proc.devRef .tc main_v5) = _
  after_results_simp

set_option maxHeartbeats 4000000 in
/-- The merchant bias, laid out as a row before the region is entered. -/
theorem W7_v6 (c : Dev nD) :
    W7 m ρ c (Proc.devRef .tc main_v6) = KS.row128 (W6 m ρ c (Proc.devRef .tc main_arg12)) := by
  show StableHlo.after hostOps2_1 (W6 m ρ c) (Proc.devRef .tc main_v6) = _
  after_results_simp
  rfl

theorem W8_v7 (c : Dev nD) : W8 m ρ c (Proc.devRef .tc main_v7) = KS.hMerch0 (KS.inp m c) := by
  have h : W8 m ρ c (Proc.devRef .tc main_v7) = (dat2 (V7 m ρ) c).arrAt 3 cfg2.N := W8_arr m ρ c 3
  rw [h, Region.out2 (V7 m ρ) c]
  show lin1 false (W7 m ρ c (Proc.devRef .tc main_v5)) (W7 m ρ c (Proc.devRef .tc main_arg11))
      (W7 m ρ c (Proc.devRef .tc main_v6)) = _
  rw [W7_v5, W6_v5, (W5_args m ρ c).a8, (W5_args m ρ c).a2, (W7_args m ρ c).a11, W7_v6, (W6_args m ρ c).a12]
  rfl

/-! ## The transaction and card features carried to the exit of region 2 -/

set_option maxHeartbeats 4000000 in
/-- The card take and its bias reshape do not write the transaction features. -/
theorem W4_v1 (c : Dev nD) : W4 m ρ c (Proc.devRef .tc main_v1) = W2 m ρ c (Proc.devRef .tc main_v1) := by
  show StableHlo.after hostOps1_1 (StableHlo.after hostOps1 (W2 m ρ c)) (Proc.devRef .tc main_v1) = _
  after_results_simp

set_option maxHeartbeats 4000000 in
/-- The merchant take and its bias reshape do not write the transaction features. -/
theorem W7_v1 (c : Dev nD) : W7 m ρ c (Proc.devRef .tc main_v1) = W5 m ρ c (Proc.devRef .tc main_v1) := by
  show StableHlo.after hostOps2_1 (StableHlo.after hostOps2 (W5 m ρ c)) (Proc.devRef .tc main_v1) = _
  after_results_simp

set_option maxHeartbeats 4000000 in
/-- The merchant take and its bias reshape do not write the card features. -/
theorem W7_v4 (c : Dev nD) : W7 m ρ c (Proc.devRef .tc main_v4) = W5 m ρ c (Proc.devRef .tc main_v4) := by
  show StableHlo.after hostOps2_1 (StableHlo.after hostOps2 (W5 m ρ c)) (Proc.devRef .tc main_v4) = _
  after_results_simp

theorem W8_v1 (c : Dev nD) : W8 m ρ c (Proc.devRef .tc main_v1) = KS.hTx0 (KS.inp m c) := by
  rw [W8_of_ne m ρ c main_v1 (by decide), W7_v1, W5_of_ne m ρ c main_v1 (by decide), W4_v1]
  exact W2_v1 m ρ c

theorem W8_v4 (c : Dev nD) : W8 m ρ c (Proc.devRef .tc main_v4) = KS.hCard0 (KS.inp m c) := by
  rw [W8_of_ne m ρ c main_v4 (by decide), W7_v4]
  exact W5_v4 m ρ c

end Cert.KernelIdeal.KWalk

end
-- ==== Proof.KRegionB.lean ====
/-
  Regions 3 and 6 of the kernel program: each is an affine stage of three products, a bias row and a clamp at
  zero, computed one block of rows at a time.

  The 200000 × 128 result is cut into forty blocks of 5000 consecutive rows. Block t is computed from rows
  5000·t … 5000·t + 4999 of each of the three 200000 × 128 operands, from the three whole 128 × 128 weights and
  from the whole 1 × 128 bias row. Entry (p, q) of block t is
      max ((((0 + Σₖ x₁[5000t+p, k]·w₁[k, q]) + Σₖ x₂[5000t+p, k]·w₂[k, q]) + Σₖ x₃[5000t+p, k]·w₃[k, q]) + b[0, q]) 0 :
  the narrowing of an operand before a product is the identity on extended reals, each product is accumulated
  into zero, so it is the plain sum over the contracted coordinate, and the bias row is laid along every row.
  An entry of the result therefore depends only on its own row of the three operands, on its own column of the
  three weights and on its own column of the bias; block t is the restriction to rows 5000·t … 5000·t + 4999 of
  ONE function of the whole arrays, the three-product affine stage with its clamp. Row r lies in block r / 5000,
  so the forty blocks cover the result, which ends holding that function.
-/
import proofs.«415088_j18769007083672_1_alg».proof.Proof.Gen.KernelIdeal.Frame
import proofs.«415088_j18769007083672_1_alg».proof.Proof.Spec
import Idealize.ShloMosaic.Lib.Pipeline.Value
import Idealize.ShloMosaic.Lib.KernelVsHost
import Idealize.ShloMosaic.Lib.StackMember

set_option maxRecDepth 16384

noncomputable section

namespace Cert.KernelIdeal.Region.RB

open Idealize.ShloMosaic Idealize.ShloMosaic.TcCoe Idealize.ShloMosaic.ValueIdx Idealize.SL.Sem Cert.KernelIdeal Cert.KernelIdeal.Gen Cert.Spec
open Idealize.ShloMosaic.Pipeline (Dat)

/-! ## The body's arithmetic at one entry (both regions have the same body) -/

/-- The dimension numbers of every product here are the plain ones: rows × inner times inner × columns. -/
theorem dot_eq : dot_S5000x128_S128x128_S5000x128_1_0_0_1_n_n = DotDims.plain 5000 128 128 := rfl

/-- A product of two narrowed operands accumulated into zero, at (p, q): the sum over the inner coordinate. -/
theorem mm_apply (a : FVec Ideal S5000x128 .f32) (b : FVec Ideal S128x128 .f32) (p : Fin 5000) (q : Fin 128) :
    matmul dot_S5000x128_S128x128_S5000x128_1_0_0_1_n_n none (truncf .bf16 a bitsLt_bf16_f32) (truncf .bf16 b bitsLt_bf16_f32)
        (constant (F := Ideal) S5000x128 .f32 0x00000000#32) (ix2 p q)
      = ∑ k : Fin 128, a (ix2 p k) * b (ix2 k q) := by
  rw [dot_eq, matmul_zero_eq_dotGeneral, StackMember.dotGeneral_plain_apply]
  rfl

/-- The bias row laid along every row, at (p, q): the row's entry in column q. -/
theorem bias_apply (x6 : Vec Ideal S1x128 .f32) (p : Fin 5000) (q : Fin 128) :
    broadcastTo S5000x128 x6 broadcasts_S1x128_S5000x128 (ix2 p q) = x6 (ix2 (0 : Fin 1) q) := by
  refine broadcastTo_apply x6 _ (ix2 p q) (ix2 (0 : Fin 1) q) ?_
  intro a
  match a with
  | ⟨0, _⟩ => rfl
  | ⟨1, _⟩ => rfl

theorem hz : (![0, 0] : Fin 2 → Nat) = fun _ => 0 := funext fun a => by fin_cases a <;> rfl

/-! ## Region 3 -/

/-- The body's value at (p, q): three sums over the inner coordinate added to zero in order, the bias entry, the clamp. -/
theorem pay3 (x0 : Vec Ideal S5000x128 .f32) (x1 : Vec Ideal S128x128 .f32) (x2 : Vec Ideal S5000x128 .f32)
    (x3 : Vec Ideal S128x128 .f32) (x4 : Vec Ideal S5000x128 .f32) (x5 : Vec Ideal S128x128 .f32)
    (x6 : Vec Ideal S1x128 .f32) (p : Fin 5000) (q : Fin 128) :
    k3_pay1 x0 x1 x2 x3 x4 x5 x6 (ix2 p q)
      = clampIf true ((((0 + ∑ k : Fin 128, x0 (ix2 p k) * x1 (ix2 k q)) + ∑ k : Fin 128, x2 (ix2 p k) * x3 (ix2 k q))
          + ∑ k : Fin 128, x4 (ix2 p k) * x5 (ix2 k q)) + x6 (ix2 (0 : Fin 1) q)) := by
  unfold k3_pay1
  simp only [shapeCast_self]
  show max ((((Ideal.ofBits .f32 0x00000000#32
        + matmul dot_S5000x128_S128x128_S5000x128_1_0_0_1_n_n none (truncf .bf16 x0 bitsLt_bf16_f32) (truncf .bf16 x1 bitsLt_bf16_f32) (constant (F := Ideal) S5000x128 .f32 0x00000000#32) (ix2 p q))
        + matmul dot_S5000x128_S128x128_S5000x128_1_0_0_1_n_n none (truncf .bf16 x2 bitsLt_bf16_f32) (truncf .bf16 x3 bitsLt_bf16_f32) (constant (F := Ideal) S5000x128 .f32 0x00000000#32) (ix2 p q))
        + matmul dot_S5000x128_S128x128_S5000x128_1_0_0_1_n_n none (truncf .bf16 x4 bitsLt_bf16_f32) (truncf .bf16 x5 bitsLt_bf16_f32) (constant (F := Ideal) S5000x128 .f32 0x00000000#32) (ix2 p q))
        + broadcastTo S5000x128 x6 broadcasts_S1x128_S5000x128 (ix2 p q)) (Ideal.ofBits .f32 0x00000000#32) = _
  rw [mm_apply, mm_apply, mm_apply, bias_apply, Ideal.ofBits_zero_f32]
  rfl

/-- One entry of a block, from what the block's inputs hold on its row and column: when the operand blocks' row p is
    row r of the operands, and the weight and bias blocks are the weights and the bias, entry (p, q) of the body's
    value is entry (r, q) of the three-product stage of the whole arrays. -/
theorem point3 (A0 : (Mat 200000 128).Idx → EReal) (A1 : (Mat 128 128).Idx → EReal) (A2 : (Mat 200000 128).Idx → EReal)
    (A3 : (Mat 128 128).Idx → EReal) (A4 : (Mat 200000 128).Idx → EReal) (A5 : (Mat 128 128).Idx → EReal)
    (A6 : (Mat 1 128).Idx → EReal)
    (x0 : Vec Ideal S5000x128 .f32) (x1 : Vec Ideal S128x128 .f32) (x2 : Vec Ideal S5000x128 .f32)
    (x3 : Vec Ideal S128x128 .f32) (x4 : Vec Ideal S5000x128 .f32) (x5 : Vec Ideal S128x128 .f32)
    (x6 : Vec Ideal S1x128 .f32) (r : Fin 200000) (p : Fin 5000) (q : Fin 128)
    (h0 : ∀ k : Fin 128, x0 (ix2 p k) = A0 (ix2 r k)) (h1 : ∀ k : Fin 128, x1 (ix2 k q) = A1 (ix2 k q))
    (h2 : ∀ k : Fin 128, x2 (ix2 p k) = A2 (ix2 r k)) (h3 : ∀ k : Fin 128, x3 (ix2 k q) = A3 (ix2 k q))
    (h4 : ∀ k : Fin 128, x4 (ix2 p k) = A4 (ix2 r k)) (h5 : ∀ k : Fin 128, x5 (ix2 k q) = A5 (ix2 k q))
    (h6 : x6 (ix2 (0 : Fin 1) q) = A6 (ix2 (0 : Fin 1) q))
    (i : (Mat 200000 128).Idx) (hi : i = ix2 r q) :
    k3_pay1 x0 x1 x2 x3 x4 x5 x6 (ix2 p q) = lin3 true A0 A1 A2 A3 A4 A5 A6 i := by
  subst hi
  rw [pay3]
  unfold lin3 dotAt
  simp only [h0, h1, h2, h3, h4, h5, h6]

/-- The index maps over the grid: a row-blocked operand and the result sit at block (t, 0), a weight or the bias
    row at block (0, 0). -/
theorem idx3 : ∀ t : Fin cfg3.N,
    (win3_0.index t (0 : Fin 2) = t.val ∧ win3_0.index t (1 : Fin 2) = 0)
    ∧ (win3_1.index t (0 : Fin 2) = 0 ∧ win3_1.index t (1 : Fin 2) = 0)
    ∧ (win3_2.index t (0 : Fin 2) = t.val ∧ win3_2.index t (1 : Fin 2) = 0)
    ∧ (win3_3.index t (0 : Fin 2) = 0 ∧ win3_3.index t (1 : Fin 2) = 0)
    ∧ (win3_4.index t (0 : Fin 2) = t.val ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = t.val ∧ win3_7.index t (1 : Fin 2) = 0) :=
  (by decide +kernel : ∀ t : Fin grid3.N, _)

variable (V : (c : Dev nD) → (b : Ref sig .tc) → Buf (Elt Ideal) ((c : Thread nD τ).loc b))

/-- What point t writes back is block t of the three-product stage of the arrays as the region finds them. -/
theorem flushed3_eq (c : Dev nD) (t : Fin cfg3.N) :
    (dat3 (F := Ideal) V c).flushed 7 t = ((cfg3.win 7).blk t).view.read (Elt Ideal)
      (lin3 true (V c main_v55) (V c main_v82) (V c main_v60) (V c main_v84) (V c main_v1) (V c main_v75) (V c main_v85)) := by
  show (cfg3.win 7).cut (grid3.coords t) ((dat3 V c).after 7 t) = _
  rw [after3_7]
  unfold out3_7
  rw [View.canon_unit_zero hz]
  simp only [View.ld_unit_zero (S := S5000x128) hz, View.ld_unit_zero (S := S128x128) hz, View.ld_unit_zero (S := S1x128) hz]
  obtain ⟨⟨a0, b0⟩, ⟨a1, b1⟩, ⟨a2, b2⟩, ⟨a3, b3⟩, ⟨a4, b4⟩, ⟨a5, b5⟩, ⟨a6, b6⟩, ⟨a7, b7⟩⟩ := idx3 t
  have hN : t.val < 40 := lt_of_lt_of_eq t.isLt N_3
  funext j
  obtain ⟨p, q, rfl⟩ : ∃ (p : Fin 5000) (q : Fin 128), j = ix2 p q := ⟨j 0, j 1, eq_ix2 j⟩
  have hp : p.val < 5000 := p.isLt
  show k3_pay1 (iblk3 V c 0 t) (iblk3 V c 1 t) (iblk3 V c 2 t) (iblk3 V c 3 t) (iblk3 V c 4 t) (iblk3 V c 5 t) (iblk3 V c 6 t) (ix2 p q)
    = lin3 true (V c main_v55) (V c main_v82) (V c main_v60) (V c main_v84) (V c main_v1) (V c main_v75) (V c main_v85)
        (((cfg3.win 7).blk t).view.emb (ix2 p q))
  refine point3 _ _ _ _ _ _ _ _ _ _ _ _ _ _ (⟨5000 * t.val + p.val, by omega⟩ : Fin 200000) p q ?_ ?_ ?_ ?_ ?_ ?_ ?_ _ ?_
  · intro k
    show V c main_v55 (((cfg3.win 0).blk t).view.emb (ix2 p k)) = _
    refine congrArg _ (funext fun a => Fin.ext ?_)
    match a with
    | ⟨0, _⟩ => show win3_0.index t (0 : Fin 2) * 5000 + 1 * p.val = 5000 * t.val + p.val; rw [a0]; omega
    | ⟨1, _⟩ => show win3_0.index t (1 : Fin 2) * 128 + 1 * k.val = k.val; rw [b0]; omega
  · intro k
    show V c main_v82 (((cfg3.win 1).blk t).view.emb (ix2 k q)) = _
    refine congrArg _ (funext fun a => Fin.ext ?_)
    match a with
    | ⟨0, _⟩ => show win3_1.index t (0 : Fin 2) * 128 + 1 * k.val = k.val; rw [a1]; omega
    | ⟨1, _⟩ => show win3_1.index t (1 : Fin 2) * 128 + 1 * q.val = q.val; rw [b1]; omega
  · intro k
    show V c main_v60 (((cfg3.win 2).blk t).view.emb (ix2 p k)) = _
    refine congrArg _ (funext fun a => Fin.ext ?_)
    match a with
    | ⟨0, _⟩ => show win3_2.index t (0 : Fin 2) * 5000 + 1 * p.val = 5000 * t.val + p.val; rw [a2]; omega
    | ⟨1, _⟩ => show win3_2.index t (1 : Fin 2) * 128 + 1 * k.val = k.val; rw [b2]; omega
  · intro k
    show V c main_v84 (((cfg3.win 3).blk t).view.emb (ix2 k q)) = _
    refine congrArg _ (funext fun a => Fin.ext ?_)
    match a with
    | ⟨0, _⟩ => show win3_3.index t (0 : Fin 2) * 128 + 1 * k.val = k.val; rw [a3]; omega
    | ⟨1, _⟩ => show win3_3.index t (1 : Fin 2) * 128 + 1 * q.val = q.val; rw [b3]; omega
  · intro k
    show V c main_v1 (((cfg3.win 4).blk t).view.emb (ix2 p k)) = _
    refine congrArg _ (funext fun a => Fin.ext ?_)
    match a with
    | ⟨0, _⟩ => show win3_4.index t (0 : Fin 2) * 5000 + 1 * p.val = 5000 * t.val + p.val; rw [a4]; omega
    | ⟨1, _⟩ => show win3_4.index t (1 : Fin 2) * 128 + 1 * k.val = k.val; rw [b4]; omega
  · intro k
    show V c main_v75 (((cfg3.win 5).blk t).view.emb (ix2 k q)) = _
    refine congrArg _ (funext fun a => Fin.ext ?_)
    match a with
    | ⟨0, _⟩ => show win3_5.index t (0 : Fin 2) * 128 + 1 * k.val = k.val; rw [a5]; omega
    | ⟨1, _⟩ => show win3_5.index t (1 : Fin 2) * 128 + 1 * q.val = q.val; rw [b5]; omega
  · show V c main_v85 (((cfg3.win 6).blk t).view.emb (ix2 (0 : Fin 1) q)) = _
    refine congrArg _ (funext fun a => Fin.ext ?_)
    match a with
    | ⟨0, _⟩ => show win3_6.index t (0 : Fin 2) * 1 + 1 * (0 : Fin 1).val = (0 : Fin 1).val; rw [a6]; rfl
    | ⟨1, _⟩ => show win3_6.index t (1 : Fin 2) * 128 + 1 * q.val = q.val; rw [b6]; omega
  · refine funext fun a => Fin.ext ?_
    match a with
    | ⟨0, _⟩ => show win3_7.index t (0 : Fin 2) * 5000 + 1 * p.val = 5000 * t.val + p.val; rw [a7]; omega
    | ⟨1, _⟩ => show win3_7.index t (1 : Fin 2) * 128 + 1 * q.val = q.val; rw [b7]; omega

/-- An index of the result is in point t's block iff each coordinate is in the block's range on its axis. -/
theorem mem_blk3 (t : Fin cfg3.N) (i : S200000x128.Idx) :
    i ∈ ((cfg3.win 7).blk t).view.set ↔ ∀ a : Fin 2, win3_7.index t a * S5000x128.size a ≤ (i a).val
      ∧ (i a).val < win3_7.index t a * S5000x128.size a + S5000x128.size a := by
  show i ∈ ((View.whole main_v86).slice (win3_7.rect t)).set ↔ _
  rw [View.set_slice_whole, Rect.mem_set_unit]
  exact Iff.rfl

/-- Row r of the result lies in the block of point r / 5000. -/
theorem cover3 (i : S200000x128.Idx) :
    ∃ t : Fin cfg3.N, (cfg3.win 7).flush t = true ∧ i ∈ ((cfg3.win 7).blk t).view.set := by
  have hi0 : (i 0).val < 200000 := (i 0).isLt
  have hi1 : (i 1).val < 128 := (i 1).isLt
  have hN : cfg3.N = 40 := N_3
  refine ⟨⟨(i 0).val / 5000, by rw [hN]; omega⟩, flush3_7 _, ?_⟩
  rw [mem_blk3]
  obtain ⟨-, -, -, -, -, -, -, ⟨a7, b7⟩⟩ := idx3 ⟨(i 0).val / 5000, by rw [hN]; omega⟩
  intro a
  match a with
  | ⟨0, _⟩ =>
    show win3_7.index ⟨(i 0).val / 5000, _⟩ (0 : Fin 2) * 5000 ≤ (i 0).val
      ∧ (i 0).val < win3_7.index ⟨(i 0).val / 5000, _⟩ (0 : Fin 2) * 5000 + 5000
    rw [a7]; show (i 0).val / 5000 * 5000 ≤ (i 0).val ∧ (i 0).val < (i 0).val / 5000 * 5000 + 5000; omega
  | ⟨1, _⟩ =>
    show win3_7.index ⟨(i 0).val / 5000, _⟩ (1 : Fin 2) * 128 ≤ (i 1).val
      ∧ (i 1).val < win3_7.index ⟨(i 0).val / 5000, _⟩ (1 : Fin 2) * 128 + 128
    rw [b7]; omega

/-! ## Region 6 -/

/-- The body's value at (p, q): three sums over the inner coordinate added to zero in order, the bias entry, the clamp. -/
theorem pay6 (x0 : Vec Ideal S5000x128 .f32) (x1 : Vec Ideal S128x128 .f32) (x2 : Vec Ideal S5000x128 .f32)
    (x3 : Vec Ideal S128x128 .f32) (x4 : Vec Ideal S5000x128 .f32) (x5 : Vec Ideal S128x128 .f32)
    (x6 : Vec Ideal S1x128 .f32) (p : Fin 5000) (q : Fin 128) :
    k6_pay1 x0 x1 x2 x3 x4 x5 x6 (ix2 p q)
      = clampIf true ((((0 + ∑ k : Fin 128, x0 (ix2 p k) * x1 (ix2 k q)) + ∑ k : Fin 128, x2 (ix2 p k) * x3 (ix2 k q))
          + ∑ k : Fin 128, x4 (ix2 p k) * x5 (ix2 k q)) + x6 (ix2 (0 : Fin 1) q)) := by
  unfold k6_pay1
  simp only [shapeCast_self]
  show max ((((Ideal.ofBits .f32 0x00000000#32
        + matmul dot_S5000x128_S128x128_S5000x128_1_0_0_1_n_n none (truncf .bf16 x0 bitsLt_bf16_f32) (truncf .bf16 x1 bitsLt_bf16_f32) (constant (F := Ideal) S5000x128 .f32 0x00000000#32) (ix2 p q))
        + matmul dot_S5000x128_S128x128_S5000x128_1_0_0_1_n_n none (truncf .bf16 x2 bitsLt_bf16_f32) (truncf .bf16 x3 bitsLt_bf16_f32) (constant (F := Ideal) S5000x128 .f32 0x00000000#32) (ix2 p q))
        + matmul dot_S5000x128_S128x128_S5000x128_1_0_0_1_n_n none (truncf .bf16 x4 bitsLt_bf16_f32) (truncf .bf16 x5 bitsLt_bf16_f32) (constant (F := Ideal) S5000x128 .f32 0x00000000#32) (ix2 p q))
        + broadcastTo S5000x128 x6 broadcasts_S1x128_S5000x128 (ix2 p q)) (Ideal.ofBits .f32 0x00000000#32) = _
  rw [mm_apply, mm_apply, mm_apply, bias_apply, Ideal.ofBits_zero_f32]
  rfl

/-- One entry of a block, from what the block's inputs hold on its row and column. -/
theorem point6 (A0 : (Mat 200000 128).Idx → EReal) (A1 : (Mat 128 128).Idx → EReal) (A2 : (Mat 200000 128).Idx → EReal)
    (A3 : (Mat 128 128).Idx → EReal) (A4 : (Mat 200000 128).Idx → EReal) (A5 : (Mat 128 128).Idx → EReal)
    (A6 : (Mat 1 128).Idx → EReal)
    (x0 : Vec Ideal S5000x128 .f32) (x1 : Vec Ideal S128x128 .f32) (x2 : Vec Ideal S5000x128 .f32)
    (x3 : Vec Ideal S128x128 .f32) (x4 : Vec Ideal S5000x128 .f32) (x5 : Vec Ideal S128x128 .f32)
    (x6 : Vec Ideal S1x128 .f32) (r : Fin 200000) (p : Fin 5000) (q : Fin 128)
    (h0 : ∀ k : Fin 128, x0 (ix2 p k) = A0 (ix2 r k)) (h1 : ∀ k : Fin 128, x1 (ix2 k q) = A1 (ix2 k q))
    (h2 : ∀ k : Fin 128, x2 (ix2 p k) = A2 (ix2 r k)) (h3 : ∀ k : Fin 128, x3 (ix2 k q) = A3 (ix2 k q))
    (h4 : ∀ k : Fin 128, x4 (ix2 p k) = A4 (ix2 r k)) (h5 : ∀ k : Fin 128, x5 (ix2 k q) = A5 (ix2 k q))
    (h6 : x6 (ix2 (0 : Fin 1) q) = A6 (ix2 (0 : Fin 1) q))
    (i : (Mat 200000 128).Idx) (hi : i = ix2 r q) :
    k6_pay1 x0 x1 x2 x3 x4 x5 x6 (ix2 p q) = lin3 true A0 A1 A2 A3 A4 A5 A6 i := by
  subst hi
  rw [pay6]
  unfold lin3 dotAt
  simp only [h0, h1, h2, h3, h4, h5, h6]

/-- The index maps over the grid: a row-blocked operand and the result sit at block (t, 0), a weight or the bias
    row at block (0, 0). -/
theorem idx6 : ∀ t : Fin cfg6.N,
    (win6_0.index t (0 : Fin 2) = t.val ∧ win6_0.index t (1 : Fin 2) = 0)
    ∧ (win6_1.index t (0 : Fin 2) = 0 ∧ win6_1.index t (1 : Fin 2) = 0)
    ∧ (win6_2.index t (0 : Fin 2) = t.val ∧ win6_2.index t (1 : Fin 2) = 0)
    ∧ (win6_3.index t (0 : Fin 2) = 0 ∧ win6_3.index t (1 : Fin 2) = 0)
    ∧ (win6_4.index t (0 : Fin 2) = t.val ∧ win6_4.index t (1 : Fin 2) = 0)
    ∧ (win6_5.index t (0 : Fin 2) = 0 ∧ win6_5.index t (1 : Fin 2) = 0)
    ∧ (win6_6.index t (0 : Fin 2) = 0 ∧ win6_6.index t (1 : Fin 2) = 0)
    ∧ (win6_7.index t (0 : Fin 2) = t.val ∧ win6_7.index t (1 : Fin 2) = 0) :=
  (by decide +kernel : ∀ t : Fin grid6.N, _)

/-- What point t writes back is block t of the three-product stage of the arrays as the region finds them. -/
theorem flushed6_eq (c : Dev nD) (t : Fin cfg6.N) :
    (dat6 (F := Ideal) V c).flushed 7 t = ((cfg6.win 7).blk t).view.read (Elt Ideal)
      (lin3 true (V c main_v117) (V c main_v144) (V c main_v122) (V c main_v146) (V c main_v86) (V c main_v137) (V c main_v147)) := by
  show (cfg6.win 7).cut (grid6.coords t) ((dat6 V c).after 7 t) = _
  rw [after6_7]
  unfold out6_7
  rw [View.canon_unit_zero hz]
  simp only [View.ld_unit_zero (S := S5000x128) hz, View.ld_unit_zero (S := S128x128) hz, View.ld_unit_zero (S := S1x128) hz]
  obtain ⟨⟨a0, b0⟩, ⟨a1, b1⟩, ⟨a2, b2⟩, ⟨a3, b3⟩, ⟨a4, b4⟩, ⟨a5, b5⟩, ⟨a6, b6⟩, ⟨a7, b7⟩⟩ := idx6 t
  have hN : t.val < 40 := lt_of_lt_of_eq t.isLt N_6
  funext j
  obtain ⟨p, q, rfl⟩ : ∃ (p : Fin 5000) (q : Fin 128), j = ix2 p q := ⟨j 0, j 1, eq_ix2 j⟩
  have hp : p.val < 5000 := p.isLt
  show k6_pay1 (iblk6 V c 0 t) (iblk6 V c 1 t) (iblk6 V c 2 t) (iblk6 V c 3 t) (iblk6 V c 4 t) (iblk6 V c 5 t) (iblk6 V c 6 t) (ix2 p q)
    = lin3 true (V c main_v117) (V c main_v144) (V c main_v122) (V c main_v146) (V c main_v86) (V c main_v137) (V c main_v147)
        (((cfg6.win 7).blk t).view.emb (ix2 p q))
  refine point6 _ _ _ _ _ _ _ _ _ _ _ _ _ _ (⟨5000 * t.val + p.val, by omega⟩ : Fin 200000) p q ?_ ?_ ?_ ?_ ?_ ?_ ?_ _ ?_
  · intro k
    show V c main_v117 (((cfg6.win 0).blk t).view.emb (ix2 p k)) = _
    refine congrArg _ (funext fun a => Fin.ext ?_)
    match a with
    | ⟨0, _⟩ => show win6_0.index t (0 : Fin 2) * 5000 + 1 * p.val = 5000 * t.val + p.val; rw [a0]; omega
    | ⟨1, _⟩ => show win6_0.index t (1 : Fin 2) * 128 + 1 * k.val = k.val; rw [b0]; omega
  · intro k
    show V c main_v144 (((cfg6.win 1).blk t).view.emb (ix2 k q)) = _
    refine congrArg _ (funext fun a => Fin.ext ?_)
    match a with
    | ⟨0, _⟩ => show win6_1.index t (0 : Fin 2) * 128 + 1 * k.val = k.val; rw [a1]; omega
    | ⟨1, _⟩ => show win6_1.index t (1 : Fin 2) * 128 + 1 * q.val = q.val; rw [b1]; omega
  · intro k
    show V c main_v122 (((cfg6.win 2).blk t).view.emb (ix2 p k)) = _
    refine congrArg _ (funext fun a => Fin.ext ?_)
    match a with
    | ⟨0, _⟩ => show win6_2.index t (0 : Fin 2) * 5000 + 1 * p.val = 5000 * t.val + p.val; rw [a2]; omega
    | ⟨1, _⟩ => show win6_2.index t (1 : Fin 2) * 128 + 1 * k.val = k.val; rw [b2]; omega
  · intro k
    show V c main_v146 (((cfg6.win 3).blk t).view.emb (ix2 k q)) = _
    refine congrArg _ (funext fun a => Fin.ext ?_)
    match a with
    | ⟨0, _⟩ => show win6_3.index t (0 : Fin 2) * 128 + 1 * k.val = k.val; rw [a3]; omega
    | ⟨1, _⟩ => show win6_3.index t (1 : Fin 2) * 128 + 1 * q.val = q.val; rw [b3]; omega
  · intro k
    show V c main_v86 (((cfg6.win 4).blk t).view.emb (ix2 p k)) = _
    refine congrArg _ (funext fun a => Fin.ext ?_)
    match a with
    | ⟨0, _⟩ => show win6_4.index t (0 : Fin 2) * 5000 + 1 * p.val = 5000 * t.val + p.val; rw [a4]; omega
    | ⟨1, _⟩ => show win6_4.index t (1 : Fin 2) * 128 + 1 * k.val = k.val; rw [b4]; omega
  · intro k
    show V c main_v137 (((cfg6.win 5).blk t).view.emb (ix2 k q)) = _
    refine congrArg _ (funext fun a => Fin.ext ?_)
    match a with
    | ⟨0, _⟩ => show win6_5.index t (0 : Fin 2) * 128 + 1 * k.val = k.val; rw [a5]; omega
    | ⟨1, _⟩ => show win6_5.index t (1 : Fin 2) * 128 + 1 * q.val = q.val; rw [b5]; omega
  · show V c main_v147 (((cfg6.win 6).blk t).view.emb (ix2 (0 : Fin 1) q)) = _
    refine congrArg _ (funext fun a => Fin.ext ?_)
    match a with
    | ⟨0, _⟩ => show win6_6.index t (0 : Fin 2) * 1 + 1 * (0 : Fin 1).val = (0 : Fin 1).val; rw [a6]; rfl
    | ⟨1, _⟩ => show win6_6.index t (1 : Fin 2) * 128 + 1 * q.val = q.val; rw [b6]; omega
  · refine funext fun a => Fin.ext ?_
    match a with
    | ⟨0, _⟩ => show win6_7.index t (0 : Fin 2) * 5000 + 1 * p.val = 5000 * t.val + p.val; rw [a7]; omega
    | ⟨1, _⟩ => show win6_7.index t (1 : Fin 2) * 128 + 1 * q.val = q.val; rw [b7]; omega

/-- An index of the result is in point t's block iff each coordinate is in the block's range on its axis. -/
theorem mem_blk6 (t : Fin cfg6.N) (i : S200000x128.Idx) :
    i ∈ ((cfg6.win 7).blk t).view.set ↔ ∀ a : Fin 2, win6_7.index t a * S5000x128.size a ≤ (i a).val
      ∧ (i a).val < win6_7.index t a * S5000x128.size a + S5000x128.size a := by
  show i ∈ ((View.whole main_v148).slice (win6_7.rect t)).set ↔ _
  rw [View.set_slice_whole, Rect.mem_set_unit]
  exact Iff.rfl

/-- Row r of the result lies in the block of point r / 5000. -/
theorem cover6 (i : S200000x128.Idx) :
    ∃ t : Fin cfg6.N, (cfg6.win 7).flush t = true ∧ i ∈ ((cfg6.win 7).blk t).view.set := by
  have hi0 : (i 0).val < 200000 := (i 0).isLt
  have hi1 : (i 1).val < 128 := (i 1).isLt
  have hN : cfg6.N = 40 := N_6
  refine ⟨⟨(i 0).val / 5000, by rw [hN]; omega⟩, flush6_7 _, ?_⟩
  rw [mem_blk6]
  obtain ⟨-, -, -, -, -, -, -, ⟨a7, b7⟩⟩ := idx6 ⟨(i 0).val / 5000, by rw [hN]; omega⟩
  intro a
  match a with
  | ⟨0, _⟩ =>
    show win6_7.index ⟨(i 0).val / 5000, _⟩ (0 : Fin 2) * 5000 ≤ (i 0).val
      ∧ (i 0).val < win6_7.index ⟨(i 0).val / 5000, _⟩ (0 : Fin 2) * 5000 + 5000
    rw [a7]; show (i 0).val / 5000 * 5000 ≤ (i 0).val ∧ (i 0).val < (i 0).val / 5000 * 5000 + 5000; omega
  | ⟨1, _⟩ =>
    show win6_7.index ⟨(i 0).val / 5000, _⟩ (1 : Fin 2) * 128 ≤ (i 1).val
      ∧ (i 1).val < win6_7.index ⟨(i 0).val / 5000, _⟩ (1 : Fin 2) * 128 + 128
    rw [b7]; omega

end Cert.KernelIdeal.Region.RB

/-! ## The two regions' results, each as one function of the region's input arrays -/

namespace Cert.KernelIdeal.Region

open Idealize.ShloMosaic Idealize.ShloMosaic.TcCoe Idealize.ShloMosaic.ValueIdx Idealize.SL.Sem Cert.KernelIdeal Cert.KernelIdeal.Gen Cert.Spec
open Idealize.ShloMosaic.Pipeline (Dat)

variable (V : (c : Dev nD) → (b : Ref sig .tc) → Buf (Elt Ideal) ((c : Thread nD τ).loc b))

/-- Region 3 leaves in its result the three-product stage, clamped, of its seven input arrays. -/
theorem out3 (c : Dev nD) : (dat3 (F := Ideal) V c).arrAt 7 cfg3.N
    = lin3 true (V c main_v55) (V c main_v82) (V c main_v60) (V c main_v84) (V c main_v1) (V c main_v75) (V c main_v85) :=
  (dat3 (F := Ideal) V c).arrAt_eq_of_cover 7 _ (fun t _ => RB.flushed3_eq V c t) RB.cover3

/-- Region 6 leaves in its result the three-product stage, clamped, of its seven input arrays. -/
theorem out6 (c : Dev nD) : (dat6 (F := Ideal) V c).arrAt 7 cfg6.N
    = lin3 true (V c main_v117) (V c main_v144) (V c main_v122) (V c main_v146) (V c main_v86) (V c main_v137) (V c main_v147) :=
  (dat6 (F := Ideal) V c).arrAt_eq_of_cover 7 _ (fun t _ => RB.flushed6_eq V c t) RB.cover6

end Cert.KernelIdeal.Region

end
-- ==== Proof.KWalk1a.lean ====
/-
  The first layer up to the transaction update: the inverse degrees, the layer's stacked weights, the four means, the
  fused right-hand weight and bias, then the update region's output; and what later segments still read, carried to
  that region's exit.
-/
import proofs.«415088_j18769007083672_1_alg».proof.Proof.Gen.KernelIdeal.Frame
import proofs.«415088_j18769007083672_1_alg».proof.Proof.KSpec
import proofs.«415088_j18769007083672_1_alg».proof.Proof.KArgs
import proofs.«415088_j18769007083672_1_alg».proof.Proof.KWalk0
import proofs.«415088_j18769007083672_1_alg».proof.Proof.KRegionB
import Idealize.ShloMosaic.Lib.StableHlo.Run

set_option maxRecDepth 16384

noncomputable section

namespace Cert.KernelIdeal.KWalk

open Idealize.ShloMosaic Idealize.ShloMosaic.TcCoe Idealize.SL.Sem Idealize.ShloMosaic.StableHlo
open Cert.KernelIdeal Cert.KernelIdeal.Gen Cert.Spec

variable (m : (ℓ : Loc nD τ sig) → Buf (Elt Ideal) ℓ) (ρ : Dev nD → PrngReg)

/-! ## The degrees and the layer's stacks (the stretch after the encoders) -/

set_option maxHeartbeats 4000000 in
theorem W9_v25 (c : Dev nD) : W9 m ρ c (Proc.devRef .tc main_v25) = KS.invTx (W8 m ρ c (Proc.devRef .tc main_arg4)) := by
  show StableHlo.after hostOps3 (W8 m ρ c) (Proc.devRef .tc main_v25) = _
  after_results_simp
  rfl

set_option maxHeartbeats 4000000 in
theorem W9_v30 (c : Dev nD) : W9 m ρ c (Proc.devRef .tc main_v30) = KS.invTx (W8 m ρ c (Proc.devRef .tc main_arg6)) := by
  show StableHlo.after hostOps3 (W8 m ρ c) (Proc.devRef .tc main_v30) = _
  after_results_simp
  rfl

set_option maxHeartbeats 4000000 in
theorem W9_v35 (c : Dev nD) : W9 m ρ c (Proc.devRef .tc main_v35) = KS.invCard (W8 m ρ c (Proc.devRef .tc main_arg3)) := by
  show StableHlo.after hostOps3 (W8 m ρ c) (Proc.devRef .tc main_v35) = _
  after_results_simp
  rfl

set_option maxHeartbeats 4000000 in
theorem W9_v40 (c : Dev nD) : W9 m ρ c (Proc.devRef .tc main_v40) = KS.invMerch (W8 m ρ c (Proc.devRef .tc main_arg5)) := by
  show StableHlo.after hostOps3 (W8 m ρ c) (Proc.devRef .tc main_v40) = _
  after_results_simp
  rfl

set_option maxHeartbeats 4000000 in
theorem W9_v42 (c : Dev nD) : W9 m ρ c (Proc.devRef .tc main_v42) = KS.stack0 (W8 m ρ c (Proc.devRef .tc main_arg15)) := by
  show StableHlo.after hostOps3 (W8 m ρ c) (Proc.devRef .tc main_v42) = _
  after_results_simp
  rfl

set_option maxHeartbeats 4000000 in
theorem W9_v44 (c : Dev nD) : W9 m ρ c (Proc.devRef .tc main_v44) = KS.bstack0 (W8 m ρ c (Proc.devRef .tc main_arg16)) := by
  show StableHlo.after hostOps3 (W8 m ρ c) (Proc.devRef .tc main_v44) = _
  after_results_simp
  rfl

set_option maxHeartbeats 4000000 in
theorem W9_v46 (c : Dev nD) : W9 m ρ c (Proc.devRef .tc main_v46) = KS.stack0 (W8 m ρ c (Proc.devRef .tc main_arg17)) := by
  show StableHlo.after hostOps3 (W8 m ρ c) (Proc.devRef .tc main_v46) = _
  after_results_simp
  rfl

/-! ## The four takes -/

set_option maxHeartbeats 4000000 in
theorem W9_v4_of_W8 (c : Dev nD) : W9 m ρ c (Proc.devRef .tc main_v4) = W8 m ρ c (Proc.devRef .tc main_v4) := by
  show StableHlo.after hostOps3 (W8 m ρ c) (Proc.devRef .tc main_v4) = _
  after_results_simp

set_option maxHeartbeats 4000000 in
theorem W10_v47 (c : Dev nD) : W10 m ρ c (Proc.devRef .tc main_v47) = KS.takeCard (W9 m ρ c (Proc.devRef .tc main_v4)) (W9 m ρ c (Proc.devRef .tc main_arg3)) := by
  show StableHlo.after hostOps3_1 (W9 m ρ c) (Proc.devRef .tc main_v47) = _
  after_results_simp
  simp only [TRef.ofBuf, TRef.toBuf, cast_eq]
  rfl

set_option maxHeartbeats 4000000 in
theorem W10_v7_of_W8 (c : Dev nD) : W10 m ρ c (Proc.devRef .tc main_v7) = W8 m ρ c (Proc.devRef .tc main_v7) := by
  show StableHlo.after hostOps3_1 (StableHlo.after hostOps3 (W8 m ρ c)) (Proc.devRef .tc main_v7) = _
  after_results_simp

set_option maxHeartbeats 4000000 in
theorem W11_v48 (c : Dev nD) : W11 m ρ c (Proc.devRef .tc main_v48) = KS.takeMerch (W10 m ρ c (Proc.devRef .tc main_v7)) (W10 m ρ c (Proc.devRef .tc main_arg5)) := by
  show StableHlo.after hostOps3_2 (W10 m ρ c) (Proc.devRef .tc main_v48) = _
  after_results_simp
  simp only [TRef.ofBuf, TRef.toBuf, cast_eq]
  rfl

set_option maxHeartbeats 4000000 in
theorem W11_v1_of_W8 (c : Dev nD) : W11 m ρ c (Proc.devRef .tc main_v1) = W8 m ρ c (Proc.devRef .tc main_v1) := by
  show StableHlo.after hostOps3_2 (StableHlo.after hostOps3_1 (StableHlo.after hostOps3 (W8 m ρ c))) (Proc.devRef .tc main_v1) = _
  after_results_simp

set_option maxHeartbeats 4000000 in
theorem W12_v49 (c : Dev nD) : W12 m ρ c (Proc.devRef .tc main_v49) = KS.takeTx (W11 m ρ c (Proc.devRef .tc main_v1)) (W11 m ρ c (Proc.devRef .tc main_arg4)) := by
  show StableHlo.after hostOps3_3 (W11 m ρ c) (Proc.devRef .tc main_v49) = _
  after_results_simp
  simp only [TRef.ofBuf, TRef.toBuf, cast_eq]
  rfl

set_option maxHeartbeats 4000000 in
theorem W12_v1_of_W8 (c : Dev nD) : W12 m ρ c (Proc.devRef .tc main_v1) = W8 m ρ c (Proc.devRef .tc main_v1) := by
  show StableHlo.after hostOps3_3 (StableHlo.after hostOps3_2 (StableHlo.after hostOps3_1 (StableHlo.after hostOps3 (W8 m ρ c)))) (Proc.devRef .tc main_v1) = _
  after_results_simp

set_option maxHeartbeats 4000000 in
theorem W13_v50 (c : Dev nD) : W13 m ρ c (Proc.devRef .tc main_v50) = KS.takeTx (W12 m ρ c (Proc.devRef .tc main_v1)) (W12 m ρ c (Proc.devRef .tc main_arg6)) := by
  show StableHlo.after hostOps3_4 (W12 m ρ c) (Proc.devRef .tc main_v50) = _
  after_results_simp
  simp only [TRef.ofBuf, TRef.toBuf, cast_eq]
  rfl

/-! ## What the last stretch before the update reads, carried to it -/

set_option maxHeartbeats 4000000 in
theorem W13_v25_of_W9 (c : Dev nD) : W13 m ρ c (Proc.devRef .tc main_v25) = W9 m ρ c (Proc.devRef .tc main_v25) := by
  show StableHlo.after hostOps3_4 (StableHlo.after hostOps3_3 (StableHlo.after hostOps3_2 (StableHlo.after hostOps3_1 (W9 m ρ c)))) (Proc.devRef .tc main_v25) = _
  after_results_simp

set_option maxHeartbeats 4000000 in
theorem W13_v30_of_W9 (c : Dev nD) : W13 m ρ c (Proc.devRef .tc main_v30) = W9 m ρ c (Proc.devRef .tc main_v30) := by
  show StableHlo.after hostOps3_4 (StableHlo.after hostOps3_3 (StableHlo.after hostOps3_2 (StableHlo.after hostOps3_1 (W9 m ρ c)))) (Proc.devRef .tc main_v30) = _
  after_results_simp

set_option maxHeartbeats 4000000 in
theorem W13_v35_of_W9 (c : Dev nD) : W13 m ρ c (Proc.devRef .tc main_v35) = W9 m ρ c (Proc.devRef .tc main_v35) := by
  show StableHlo.after hostOps3_4 (StableHlo.after hostOps3_3 (StableHlo.after hostOps3_2 (StableHlo.after hostOps3_1 (W9 m ρ c)))) (Proc.devRef .tc main_v35) = _
  after_results_simp

set_option maxHeartbeats 4000000 in
theorem W13_v40_of_W9 (c : Dev nD) : W13 m ρ c (Proc.devRef .tc main_v40) = W9 m ρ c (Proc.devRef .tc main_v40) := by
  show StableHlo.after hostOps3_4 (StableHlo.after hostOps3_3 (StableHlo.after hostOps3_2 (StableHlo.after hostOps3_1 (W9 m ρ c)))) (Proc.devRef .tc main_v40) = _
  after_results_simp

set_option maxHeartbeats 4000000 in
theorem W13_v42_of_W9 (c : Dev nD) : W13 m ρ c (Proc.devRef .tc main_v42) = W9 m ρ c (Proc.devRef .tc main_v42) := by
  show StableHlo.after hostOps3_4 (StableHlo.after hostOps3_3 (StableHlo.after hostOps3_2 (StableHlo.after hostOps3_1 (W9 m ρ c)))) (Proc.devRef .tc main_v42) = _
  after_results_simp

set_option maxHeartbeats 4000000 in
theorem W13_v44_of_W9 (c : Dev nD) : W13 m ρ c (Proc.devRef .tc main_v44) = W9 m ρ c (Proc.devRef .tc main_v44) := by
  show StableHlo.after hostOps3_4 (StableHlo.after hostOps3_3 (StableHlo.after hostOps3_2 (StableHlo.after hostOps3_1 (W9 m ρ c)))) (Proc.devRef .tc main_v44) = _
  after_results_simp

set_option maxHeartbeats 4000000 in
theorem W13_v46_of_W9 (c : Dev nD) : W13 m ρ c (Proc.devRef .tc main_v46) = W9 m ρ c (Proc.devRef .tc main_v46) := by
  show StableHlo.after hostOps3_4 (StableHlo.after hostOps3_3 (StableHlo.after hostOps3_2 (StableHlo.after hostOps3_1 (W9 m ρ c)))) (Proc.devRef .tc main_v46) = _
  after_results_simp

set_option maxHeartbeats 4000000 in
theorem W13_v47_of_W10 (c : Dev nD) : W13 m ρ c (Proc.devRef .tc main_v47) = W10 m ρ c (Proc.devRef .tc main_v47) := by
  show StableHlo.after hostOps3_4 (StableHlo.after hostOps3_3 (StableHlo.after hostOps3_2 (W10 m ρ c))) (Proc.devRef .tc main_v47) = _
  after_results_simp

set_option maxHeartbeats 4000000 in
theorem W13_v48_of_W11 (c : Dev nD) : W13 m ρ c (Proc.devRef .tc main_v48) = W11 m ρ c (Proc.devRef .tc main_v48) := by
  show StableHlo.after hostOps3_4 (StableHlo.after hostOps3_3 (W11 m ρ c)) (Proc.devRef .tc main_v48) = _
  after_results_simp

set_option maxHeartbeats 4000000 in
theorem W13_v49_of_W12 (c : Dev nD) : W13 m ρ c (Proc.devRef .tc main_v49) = W12 m ρ c (Proc.devRef .tc main_v49) := by
  show StableHlo.after hostOps3_4 (W12 m ρ c) (Proc.devRef .tc main_v49) = _
  after_results_simp

/-! ## The means, the edge-type slices, the fused right-hand weight and bias -/

set_option maxHeartbeats 4000000 in
theorem W14_v55 (c : Dev nD) : W14 m ρ c (Proc.devRef .tc main_v55) = KS.meanTx (W13 m ρ c (Proc.devRef .tc main_v47)) (W13 m ρ c (Proc.devRef .tc main_arg4)) (W13 m ρ c (Proc.devRef .tc main_v25)) := by
  show StableHlo.after hostOps3_5 (W13 m ρ c) (Proc.devRef .tc main_v55) = _
  after_results_simp
  rfl

set_option maxHeartbeats 4000000 in
theorem W14_v60 (c : Dev nD) : W14 m ρ c (Proc.devRef .tc main_v60) = KS.meanTx (W13 m ρ c (Proc.devRef .tc main_v48)) (W13 m ρ c (Proc.devRef .tc main_arg6)) (W13 m ρ c (Proc.devRef .tc main_v30)) := by
  show StableHlo.after hostOps3_5 (W13 m ρ c) (Proc.devRef .tc main_v60) = _
  after_results_simp
  rfl

set_option maxHeartbeats 4000000 in
theorem W14_v65 (c : Dev nD) : W14 m ρ c (Proc.devRef .tc main_v65) = KS.meanCard (W13 m ρ c (Proc.devRef .tc main_v49)) (W13 m ρ c (Proc.devRef .tc main_arg3)) (W13 m ρ c (Proc.devRef .tc main_v35)) := by
  show StableHlo.after hostOps3_5 (W13 m ρ c) (Proc.devRef .tc main_v65) = _
  after_results_simp
  rfl

set_option maxHeartbeats 4000000 in
theorem W14_v70 (c : Dev nD) : W14 m ρ c (Proc.devRef .tc main_v70) = KS.meanMerch (W13 m ρ c (Proc.devRef .tc main_v50)) (W13 m ρ c (Proc.devRef .tc main_arg5)) (W13 m ρ c (Proc.devRef .tc main_v40)) := by
  show StableHlo.after hostOps3_5 (W13 m ρ c) (Proc.devRef .tc main_v70) = _
  after_results_simp
  rfl

set_option maxHeartbeats 4000000 in
theorem W14_v82 (c : Dev nD) : W14 m ρ c (Proc.devRef .tc main_v82) = KS.w0 (W13 m ρ c (Proc.devRef .tc main_v42)) := by
  show StableHlo.after hostOps3_5 (W13 m ρ c) (Proc.devRef .tc main_v82) = _
  after_results_simp
  rfl

set_option maxHeartbeats 4000000 in
theorem W14_v84 (c : Dev nD) : W14 m ρ c (Proc.devRef .tc main_v84) = KS.w2 (W13 m ρ c (Proc.devRef .tc main_v42)) := by
  show StableHlo.after hostOps3_5 (W13 m ρ c) (Proc.devRef .tc main_v84) = _
  after_results_simp
  rfl

set_option maxHeartbeats 4000000 in
theorem W14_v75 (c : Dev nD) : W14 m ρ c (Proc.devRef .tc main_v75) = addf (KS.w0 (W13 m ρ c (Proc.devRef .tc main_v46))) (KS.w2 (W13 m ρ c (Proc.devRef .tc main_v46))) := by
  show StableHlo.after hostOps3_5 (W13 m ρ c) (Proc.devRef .tc main_v75) = _
  after_results_simp
  rfl

set_option maxHeartbeats 4000000 in
theorem W14_v85 (c : Dev nD) : W14 m ρ c (Proc.devRef .tc main_v85) = KS.row128 (addf (KS.b0 (W13 m ρ c (Proc.devRef .tc main_v44))) (KS.b2 (W13 m ρ c (Proc.devRef .tc main_v44)))) := by
  show StableHlo.after hostOps3_5 (W13 m ρ c) (Proc.devRef .tc main_v85) = _
  after_results_simp
  rfl

/-! ## What outlives the update's entry, carried to it -/

set_option maxHeartbeats 4000000 in
theorem W14_v1_of_W8 (c : Dev nD) : W14 m ρ c (Proc.devRef .tc main_v1) = W8 m ρ c (Proc.devRef .tc main_v1) := by
  show StableHlo.after hostOps3_5 (StableHlo.after hostOps3_4 (StableHlo.after hostOps3_3 (StableHlo.after hostOps3_2 (StableHlo.after hostOps3_1 (StableHlo.after hostOps3 (W8 m ρ c)))))) (Proc.devRef .tc main_v1) = _
  after_results_simp

set_option maxHeartbeats 4000000 in
theorem W14_v4_of_W8 (c : Dev nD) : W14 m ρ c (Proc.devRef .tc main_v4) = W8 m ρ c (Proc.devRef .tc main_v4) := by
  show StableHlo.after hostOps3_5 (StableHlo.after hostOps3_4 (StableHlo.after hostOps3_3 (StableHlo.after hostOps3_2 (StableHlo.after hostOps3_1 (StableHlo.after hostOps3 (W8 m ρ c)))))) (Proc.devRef .tc main_v4) = _
  after_results_simp

set_option maxHeartbeats 4000000 in
theorem W14_v7_of_W8 (c : Dev nD) : W14 m ρ c (Proc.devRef .tc main_v7) = W8 m ρ c (Proc.devRef .tc main_v7) := by
  show StableHlo.after hostOps3_5 (StableHlo.after hostOps3_4 (StableHlo.after hostOps3_3 (StableHlo.after hostOps3_2 (StableHlo.after hostOps3_1 (StableHlo.after hostOps3 (W8 m ρ c)))))) (Proc.devRef .tc main_v7) = _
  after_results_simp

set_option maxHeartbeats 4000000 in
theorem W14_v25_of_W9 (c : Dev nD) : W14 m ρ c (Proc.devRef .tc main_v25) = W9 m ρ c (Proc.devRef .tc main_v25) := by
  show StableHlo.after hostOps3_5 (StableHlo.after hostOps3_4 (StableHlo.after hostOps3_3 (StableHlo.after hostOps3_2 (StableHlo.after hostOps3_1 (W9 m ρ c))))) (Proc.devRef .tc main_v25) = _
  after_results_simp

set_option maxHeartbeats 4000000 in
theorem W14_v30_of_W9 (c : Dev nD) : W14 m ρ c (Proc.devRef .tc main_v30) = W9 m ρ c (Proc.devRef .tc main_v30) := by
  show StableHlo.after hostOps3_5 (StableHlo.after hostOps3_4 (StableHlo.after hostOps3_3 (StableHlo.after hostOps3_2 (StableHlo.after hostOps3_1 (W9 m ρ c))))) (Proc.devRef .tc main_v30) = _
  after_results_simp

set_option maxHeartbeats 4000000 in
theorem W14_v42_of_W9 (c : Dev nD) : W14 m ρ c (Proc.devRef .tc main_v42) = W9 m ρ c (Proc.devRef .tc main_v42) := by
  show StableHlo.after hostOps3_5 (StableHlo.after hostOps3_4 (StableHlo.after hostOps3_3 (StableHlo.after hostOps3_2 (StableHlo.after hostOps3_1 (W9 m ρ c))))) (Proc.devRef .tc main_v42) = _
  after_results_simp

set_option maxHeartbeats 4000000 in
theorem W14_v44_of_W9 (c : Dev nD) : W14 m ρ c (Proc.devRef .tc main_v44) = W9 m ρ c (Proc.devRef .tc main_v44) := by
  show StableHlo.after hostOps3_5 (StableHlo.after hostOps3_4 (StableHlo.after hostOps3_3 (StableHlo.after hostOps3_2 (StableHlo.after hostOps3_1 (W9 m ρ c))))) (Proc.devRef .tc main_v44) = _
  after_results_simp

set_option maxHeartbeats 4000000 in
theorem W14_v46_of_W9 (c : Dev nD) : W14 m ρ c (Proc.devRef .tc main_v46) = W9 m ρ c (Proc.devRef .tc main_v46) := by
  show StableHlo.after hostOps3_5 (StableHlo.after hostOps3_4 (StableHlo.after hostOps3_3 (StableHlo.after hostOps3_2 (StableHlo.after hostOps3_1 (W9 m ρ c))))) (Proc.devRef .tc main_v46) = _
  after_results_simp

/-! ## The update's seven entries and the two other means, as functions of the launch contents -/

theorem W14_v55_inp (c : Dev nD) : W14 m ρ c (Proc.devRef .tc main_v55) = KS.meanTx (KS.takeCard (KS.hCard0 (KS.inp m c)) (KS.inp m c).a3) (KS.inp m c).a4 (KS.invTx (KS.inp m c).a4) := by
  rw [W14_v55, W13_v47_of_W10, W10_v47, W9_v4_of_W8, W8_v4, (W9_args m ρ c).a3, (W13_args m ρ c).a4, W13_v25_of_W9, W9_v25, (W8_args m ρ c).a4]

theorem W14_v60_inp (c : Dev nD) : W14 m ρ c (Proc.devRef .tc main_v60) = KS.meanTx (KS.takeMerch (KS.hMerch0 (KS.inp m c)) (KS.inp m c).a5) (KS.inp m c).a6 (KS.invTx (KS.inp m c).a6) := by
  rw [W14_v60, W13_v48_of_W11, W11_v48, W10_v7_of_W8, W8_v7, (W10_args m ρ c).a5, (W13_args m ρ c).a6, W13_v30_of_W9, W9_v30, (W8_args m ρ c).a6]

theorem W14_v65_inp (c : Dev nD) : W14 m ρ c (Proc.devRef .tc main_v65) = KS.meanCard (KS.takeTx (KS.hTx0 (KS.inp m c)) (KS.inp m c).a4) (KS.inp m c).a3 (KS.invCard (KS.inp m c).a3) := by
  rw [W14_v65, W13_v49_of_W12, W12_v49, W11_v1_of_W8, W8_v1, (W11_args m ρ c).a4, (W13_args m ρ c).a3, W13_v35_of_W9, W9_v35, (W8_args m ρ c).a3]

theorem W14_v70_inp (c : Dev nD) : W14 m ρ c (Proc.devRef .tc main_v70) = KS.meanMerch (KS.takeTx (KS.hTx0 (KS.inp m c)) (KS.inp m c).a6) (KS.inp m c).a5 (KS.invMerch (KS.inp m c).a5) := by
  rw [W14_v70, W13_v50, W12_v1_of_W8, W8_v1, (W12_args m ρ c).a6, (W13_args m ρ c).a5, W13_v40_of_W9, W9_v40, (W8_args m ρ c).a5]

theorem W14_v82_inp (c : Dev nD) : W14 m ρ c (Proc.devRef .tc main_v82) = KS.w0 (KS.stack0 (KS.inp m c).a15) := by
  rw [W14_v82, W13_v42_of_W9, W9_v42, (W8_args m ρ c).a15]

theorem W14_v84_inp (c : Dev nD) : W14 m ρ c (Proc.devRef .tc main_v84) = KS.w2 (KS.stack0 (KS.inp m c).a15) := by
  rw [W14_v84, W13_v42_of_W9, W9_v42, (W8_args m ρ c).a15]

theorem W14_v75_inp (c : Dev nD) : W14 m ρ c (Proc.devRef .tc main_v75) = addf (KS.w0 (KS.stack0 (KS.inp m c).a17)) (KS.w2 (KS.stack0 (KS.inp m c).a17)) := by
  rw [W14_v75, W13_v46_of_W9, W9_v46, (W8_args m ρ c).a17]

theorem W14_v85_inp (c : Dev nD) : W14 m ρ c (Proc.devRef .tc main_v85) = KS.row128 (addf (KS.b0 (KS.bstack0 (KS.inp m c).a16)) (KS.b2 (KS.bstack0 (KS.inp m c).a16))) := by
  rw [W14_v85, W13_v44_of_W9, W9_v44, (W8_args m ρ c).a16]

theorem W14_v1_inp (c : Dev nD) : W14 m ρ c (Proc.devRef .tc main_v1) = KS.hTx0 (KS.inp m c) := by
  rw [W14_v1_of_W8, W8_v1]

/-! ## The update region's exit -/

theorem W15_v86 (c : Dev nD) : W15 m ρ c (Proc.devRef .tc main_v86) = KS.hTx1 (KS.inp m c) := by
  have h : W15 m ρ c (Proc.devRef .tc main_v86) = lin3 true (W14 m ρ c (Proc.devRef .tc main_v55)) (W14 m ρ c (Proc.devRef .tc main_v82)) (W14 m ρ c (Proc.devRef .tc main_v60)) (W14 m ρ c (Proc.devRef .tc main_v84))
      (W14 m ρ c (Proc.devRef .tc main_v1)) (W14 m ρ c (Proc.devRef .tc main_v75)) (W14 m ρ c (Proc.devRef .tc main_v85)) :=
    (W15_arr m ρ c 7).trans (Region.out3 (V14 m ρ) c)
  rw [h, W14_v55_inp, W14_v82_inp, W14_v60_inp, W14_v84_inp, W14_v1_inp, W14_v75_inp, W14_v85_inp]
  unfold KS.hTx1 KS.txNext
  rfl

theorem W15_v65 (c : Dev nD) : W15 m ρ c (Proc.devRef .tc main_v65) = KS.meanCard (KS.takeTx (KS.hTx0 (KS.inp m c)) (KS.inp m c).a4) (KS.inp m c).a3 (KS.invCard (KS.inp m c).a3) :=
  (W15_of_ne m ρ c main_v65 (by decide)).trans (W14_v65_inp m ρ c)

theorem W15_v70 (c : Dev nD) : W15 m ρ c (Proc.devRef .tc main_v70) = KS.meanMerch (KS.takeTx (KS.hTx0 (KS.inp m c)) (KS.inp m c).a6) (KS.inp m c).a5 (KS.invMerch (KS.inp m c).a5) :=
  (W15_of_ne m ρ c main_v70 (by decide)).trans (W14_v70_inp m ρ c)

theorem W15_v42 (c : Dev nD) : W15 m ρ c (Proc.devRef .tc main_v42) = KS.stack0 (KS.inp m c).a15 := by
  rw [W15_of_ne m ρ c main_v42 (by decide), W14_v42_of_W9, W9_v42, (W8_args m ρ c).a15]

theorem W15_v44 (c : Dev nD) : W15 m ρ c (Proc.devRef .tc main_v44) = KS.bstack0 (KS.inp m c).a16 := by
  rw [W15_of_ne m ρ c main_v44 (by decide), W14_v44_of_W9, W9_v44, (W8_args m ρ c).a16]

theorem W15_v46 (c : Dev nD) : W15 m ρ c (Proc.devRef .tc main_v46) = KS.stack0 (KS.inp m c).a17 := by
  rw [W15_of_ne m ρ c main_v46 (by decide), W14_v46_of_W9, W9_v46, (W8_args m ρ c).a17]

theorem W15_v4 (c : Dev nD) : W15 m ρ c (Proc.devRef .tc main_v4) = KS.hCard0 (KS.inp m c) := by
  rw [W15_of_ne m ρ c main_v4 (by decide), W14_v4_of_W8, W8_v4]

theorem W15_v7 (c : Dev nD) : W15 m ρ c (Proc.devRef .tc main_v7) = KS.hMerch0 (KS.inp m c) := by
  rw [W15_of_ne m ρ c main_v7 (by decide), W14_v7_of_W8, W8_v7]

theorem W15_v25 (c : Dev nD) : W15 m ρ c (Proc.devRef .tc main_v25) = KS.invTx (KS.inp m c).a4 := by
  rw [W15_of_ne m ρ c main_v25 (by decide), W14_v25_of_W9, W9_v25, (W8_args m ρ c).a4]

theorem W15_v30 (c : Dev nD) : W15 m ρ c (Proc.devRef .tc main_v30) = KS.invTx (KS.inp m c).a6 := by
  rw [W15_of_ne m ρ c main_v30 (by decide), W14_v30_of_W9, W9_v30, (W8_args m ρ c).a6]

end Cert.KernelIdeal.KWalk

end
-- ==== Proof.KRegionC0.lean ====
/-
  Region 4 of the kernel program read as ONE function of its input arrays, with the facts about one 5000 × 128 by
  128 × 128 product accumulated onto zero that region 5 shares.

  The region is an affine stage with two products and a clamp at zero. With row-blocked inputs x₁, x₂ (M × 128),
  weights w₁, w₂ (128 × 128) and a bias row b (1 × 128), the output is
      out[r, q] = max (((0 + Σₖ x₁[r,k]·w₁[k,q]) + Σₖ x₂[r,k]·w₂[k,q]) + b[0,q]) 0,
  with M = 50000 here (region 5 is the same stage with M = 10000).

  The row axis is cut into blocks of 5000 rows. At grid point t the body is given rows 5000·t … 5000·t + 4999 of x₁
  and of x₂ (entry (p, k) of such a block is entry (5000·t + p, k) of the array), the whole of w₁, w₂ and b, and it
  writes rows 5000·t … 5000·t + 4999 of the output. Entry (p, q) of the block it writes depends only on row p of the
  two input blocks, on column q of the two weights and on entry q of the bias row; so it is entry (5000·t + p, q) of
  the whole-array function above. Row r of the output lies in block r / 5000, so the blocks cover the output, and the
  output array after the region is that function of the region's input arrays.
-/
import proofs.«415088_j18769007083672_1_alg».proof.Proof.Gen.KernelIdeal.Frame
import proofs.«415088_j18769007083672_1_alg».proof.Proof.Spec
import Idealize.ShloMosaic.Lib.Pipeline.Value
import Idealize.ShloMosaic.Lib.KernelVsHost
import Idealize.ShloMosaic.Lib.StackMember

set_option maxRecDepth 16384

noncomputable section

namespace Cert.KernelIdeal.Region

open Idealize.ShloMosaic Idealize.ShloMosaic.TcCoe Idealize.ShloMosaic.ValueIdx Idealize.SL.Sem Cert.KernelIdeal Cert.KernelIdeal.Gen Cert.Spec
open Idealize.ShloMosaic.Pipeline (Dat)

variable (V : (c : Dev nD) → (b : Ref sig .tc) → Buf (Elt Ideal) ((c : Thread nD τ).loc b))

namespace RC

/-! ## One product, one entry -/

/-- The products of both regions contract axis 1 of a 5000 × 128 matrix with axis 0 of a 128 × 128 matrix. -/
theorem dotC_eq : dot_S5000x128_S128x128_S5000x128_1_0_0_1_n_n = DotDims.plain 5000 128 128 := rfl

/-- A product accumulated onto zero, read at (p, q): Σₖ x[p,k]·w[k,q]. -/
theorem mmC (x : FVec Ideal S5000x128 .bf16) (w : FVec Ideal S128x128 .bf16) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  rw [matmul_zero_eq_dotGeneral, dotC_eq]
  exact StackMember.dotGeneral_plain_apply none x w p q

/-- The zero offsets of a whole block. -/
theorem hzC : (![0, 0] : Fin 2 → Nat) = fun _ => 0 := funext fun a => by fin_cases a <;> rfl

/-- The two-product stage read at an index whose row is P and whose column is q. -/
theorem lin2_atC {M : Nat} (a0 : (Mat M 128).Idx → EReal) (a1 : (Mat 128 128).Idx → EReal) (a2 : (Mat M 128).Idx → EReal)
    (a3 : (Mat 128 128).Idx → EReal) (a4 : (Mat 1 128).Idx → EReal) (y : (Mat M 128).Idx) (P : Fin M) (q : Fin 128)
    (h0 : y 0 = P) (h1 : y 1 = q) :
    lin2 true a0 a1 a2 a3 a4 y
      = clampIf true (((0 + ∑ k : Fin 128, a0 (ix2 P k) * a1 (ix2 k q)) + ∑ k : Fin 128, a2 (ix2 P k) * a3 (ix2 k q))
          + a4 (ix2 0 q)) := by
  subst h0 h1; rfl

/-! ## Region 4: 50000 rows, 10 blocks of 5000 rows -/

/-- Entry (p, q) of the block the body writes, from the blocks it is given: the two products added in order onto zero,
    the bias entry of column q, the clamp at zero. -/
theorem pay4 (x0 : Vec Ideal S5000x128 .f32) (x1 : Vec Ideal S128x128 .f32) (x2 : Vec Ideal S5000x128 .f32)
    (x3 : Vec Ideal S128x128 .f32) (x4 : Vec Ideal S1x128 .f32) (p : Fin 5000) (q : Fin 128) :
    k4_pay1 x0 x1 x2 x3 x4 (ix2 p q)
      = clampIf true (((0 + ∑ k : Fin 128, x0 (ix2 p k) * x1 (ix2 k q)) + ∑ k : Fin 128, x2 (ix2 p k) * x3 (ix2 k q))
          + x4 (ix2 0 q)) := by
  unfold k4_pay1
  simp only [shapeCast_self]
  rw [maximumf_apply, addf_apply, addf_apply, addf_apply, broadcast_apply, mmC, mmC]
  have hb : broadcastTo S5000x128 x4 broadcasts_S1x128_S5000x128 (ix2 p q) = x4 (ix2 0 q) :=
    broadcastTo_apply x4 broadcasts_S1x128_S5000x128 (ix2 p q) (ix2 (0 : Fin 1) q) (by
      intro a
      match a with
      | ⟨0, _⟩ => rfl
      | ⟨1, _⟩ => rfl)
  rw [hb]
  simp only [truncf_apply]
  show max (((Ideal.ofBits .f32 0x00000000#32 + _) + _) + _) (Ideal.ofBits .f32 0x00000000#32) = _
  rw [Ideal.ofBits_zero_f32]
  simp only [clampIf, if_true]

/-- The block indices at point t: the row-blocked inputs and the output are at block (t, 0), the weights and the bias
    row at block (0, 0). -/
theorem idx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Entry (p, k) of the first input's block at point t is entry (5000·t + p, k) of the array. -/
theorem blk4_0 (c : Dev nD) (t : Fin cfg4.N) (x : S5000x128.Idx) (k : S50000x128.Idx)
    (hk0 : (k 0).val = t.val * 5000 + (x 0).val) (hk1 : (k 1).val = (x 1).val) :
    (iblk4 V c 0 t : Vec Ideal S5000x128 .f32) x = (V c main_v65 : S50000x128.Idx → Elt Ideal .f32) k := by
  obtain ⟨e0, e1, -⟩ := idx4 t
  unfold iblk4
  rw [View.read_apply]
  show V c main_v65 _ = V c main_v65 _
  congr 1
  funext a
  apply Fin.ext
  match a with
  | ⟨0, _⟩ => show win4_0.index t (0 : Fin 2) * 5000 + 1 * (x 0).val = (k 0).val; rw [e0, hk0]; omega
  | ⟨1, _⟩ => show win4_0.index t (1 : Fin 2) * 128 + 1 * (x 1).val = (k 1).val; rw [e1, hk1]; omega

/-- The first weight's block is the whole weight, at every point. -/
theorem blk4_1 (c : Dev nD) (t : Fin cfg4.N) :
    (iblk4 V c 1 t : Vec Ideal S128x128 .f32) = (V c main_v88 : S128x128.Idx → Elt Ideal .f32) := by
  obtain ⟨-, -, e0, e1, -⟩ := idx4 t
  funext x
  unfold iblk4
  rw [View.read_apply]
  show V c main_v88 _ = V c main_v88 _
  congr 1
  funext a
  apply Fin.ext
  match a with
  | ⟨0, _⟩ => show win4_1.index t (0 : Fin 2) * 128 + 1 * (x 0).val = (x 0).val; rw [e0]; omega
  | ⟨1, _⟩ => show win4_1.index t (1 : Fin 2) * 128 + 1 * (x 1).val = (x 1).val; rw [e1]; omega

/-- Entry (p, k) of the second input's block at point t is entry (5000·t + p, k) of the array. -/
theorem blk4_2 (c : Dev nD) (t : Fin cfg4.N) (x : S5000x128.Idx) (k : S50000x128.Idx)
    (hk0 : (k 0).val = t.val * 5000 + (x 0).val) (hk1 : (k 1).val = (x 1).val) :
    (iblk4 V c 2 t : Vec Ideal S5000x128 .f32) x = (V c main_v4 : S50000x128.Idx → Elt Ideal .f32) k := by
  obtain ⟨-, -, -, -, e0, e1, -⟩ := idx4 t
  unfold iblk4
  rw [View.read_apply]
  show V c main_v4 _ = V c main_v4 _
  congr 1
  funext a
  apply Fin.ext
  match a with
  | ⟨0, _⟩ => show win4_2.index t (0 : Fin 2) * 5000 + 1 * (x 0).val = (k 0).val; rw [e0, hk0]; omega
  | ⟨1, _⟩ => show win4_2.index t (1 : Fin 2) * 128 + 1 * (x 1).val = (k 1).val; rw [e1, hk1]; omega

/-- The second weight's block is the whole weight, at every point. -/
theorem blk4_3 (c : Dev nD) (t : Fin cfg4.N) :
    (iblk4 V c 3 t : Vec Ideal S128x128 .f32) = (V c main_v90 : S128x128.Idx → Elt Ideal .f32) := by
  obtain ⟨-, -, -, -, -, -, e0, e1, -⟩ := idx4 t
  funext x
  unfold iblk4
  rw [View.read_apply]
  show V c main_v90 _ = V c main_v90 _
  congr 1
  funext a
  apply Fin.ext
  match a with
  | ⟨0, _⟩ => show win4_3.index t (0 : Fin 2) * 128 + 1 * (x 0).val = (x 0).val; rw [e0]; omega
  | ⟨1, _⟩ => show win4_3.index t (1 : Fin 2) * 128 + 1 * (x 1).val = (x 1).val; rw [e1]; omega

/-- The bias row's block is the whole row, at every point. -/
theorem blk4_4 (c : Dev nD) (t : Fin cfg4.N) :
    (iblk4 V c 4 t : Vec Ideal S1x128 .f32) = (V c main_v93 : S1x128.Idx → Elt Ideal .f32) := by
  obtain ⟨-, -, -, -, -, -, -, -, e0, e1, -⟩ := idx4 t
  funext x
  unfold iblk4
  rw [View.read_apply]
  show V c main_v93 _ = V c main_v93 _
  congr 1
  funext a
  apply Fin.ext
  match a with
  | ⟨0, _⟩ => show win4_4.index t (0 : Fin 2) * 1 + 1 * (x 0).val = (x 0).val; rw [e0]; omega
  | ⟨1, _⟩ => show win4_4.index t (1 : Fin 2) * 128 + 1 * (x 1).val = (x 1).val; rw [e1]; omega

/-- What point t writes back is rows 5000·t … 5000·t + 4999 of the two-product stage of the region's input arrays. -/
theorem flushed4 (c : Dev nD) (t : Fin cfg4.N) :
    (dat4 (F := Ideal) V c).flushed 5 t
      = ((cfg4.win 5).blk t).view.read (Elt Ideal)
          (lin2 true (V c main_v65) (V c main_v88) (V c main_v4) (V c main_v90) (V c main_v93)) := by
  show (cfg4.win 5).cut (grid4.coords t) ((dat4 V c).after 5 t) = _
  rw [after4_5]
  unfold out4_5
  rw [View.canon_unit_zero hzC]
  simp only [View.ld_unit_zero (S := S5000x128) hzC, View.ld_unit_zero (S := S128x128) hzC,
    View.ld_unit_zero (S := S1x128) hzC]
  have hN : cfg4.N = 10 := N_4
  have ht : t.val < 10 := by have := t.isLt; omega
  obtain ⟨-, -, -, -, -, -, -, -, -, -, e0, e1⟩ := idx4 t
  funext j
  obtain ⟨p, q, rfl⟩ : ∃ (p : Fin 5000) (q : Fin 128), j = ix2 p q := ⟨j 0, j 1, eq_ix2 j⟩
  show k4_pay1 (iblk4 V c 0 t) (iblk4 V c 1 t) (iblk4 V c 2 t) (iblk4 V c 3 t) (iblk4 V c 4 t) (ix2 p q)
    = lin2 true (V c main_v65) (V c main_v88) (V c main_v4) (V c main_v90) (V c main_v93) (((cfg4.win 5).blk t).view.emb (ix2 p q))
  refine (pay4 (iblk4 V c 0 t) (iblk4 V c 1 t) (iblk4 V c 2 t) (iblk4 V c 3 t) (iblk4 V c 4 t) p q).trans ?_
  refine Eq.trans ?_ (lin2_atC (V c main_v65) (V c main_v88) (V c main_v4) (V c main_v90) (V c main_v93)
    (((cfg4.win 5).blk t).view.emb (ix2 p q)) ⟨t.val * 5000 + p.val, by omega⟩ q
    (Fin.ext (by show win4_5.index t (0 : Fin 2) * 5000 + 1 * p.val = t.val * 5000 + p.val; rw [e0]; omega))
    (Fin.ext (by show win4_5.index t (1 : Fin 2) * 128 + 1 * q.val = q.val; rw [e1]; omega))).symm
  rw [blk4_1 V c t, blk4_3 V c t, blk4_4 V c t]
  have s0 : ∀ k : Fin 128, (iblk4 V c 0 t : Vec Ideal S5000x128 .f32) (ix2 p k)
      = (V c main_v65 : S50000x128.Idx → Elt Ideal .f32) (ix2 ⟨t.val * 5000 + p.val, by omega⟩ k) :=
    fun k => blk4_0 V c t (ix2 p k) (ix2 ⟨t.val * 5000 + p.val, by omega⟩ k) rfl rfl
  have s2 : ∀ k : Fin 128, (iblk4 V c 2 t : Vec Ideal S5000x128 .f32) (ix2 p k)
      = (V c main_v4 : S50000x128.Idx → Elt Ideal .f32) (ix2 ⟨t.val * 5000 + p.val, by omega⟩ k) :=
    fun k => blk4_2 V c t (ix2 p k) (ix2 ⟨t.val * 5000 + p.val, by omega⟩ k) rfl rfl
  simp only [s0, s2]

/-- An index of the output lies in point t's block iff each coordinate lies in the block's range on its axis. -/
theorem mem_blk4 (t : Fin cfg4.N) (i : S50000x128.Idx) :
    i ∈ ((cfg4.win 5).blk t).view.set
      ↔ ∀ a : Fin 2, win4_5.index t a * S5000x128.size a ≤ (i a).val
          ∧ (i a).val < win4_5.index t a * S5000x128.size a + S5000x128.size a := by
  show i ∈ ((View.whole main_v94).slice (win4_5.rect t)).set ↔ _
  rw [View.set_slice_whole, Rect.mem_set_unit]
  exact Iff.rfl

/-- Row r of the output lies in the block of point r / 5000, which is written back. -/
theorem cover4 (i : S50000x128.Idx) :
    ∃ t : Fin cfg4.N, (cfg4.win 5).flush t = true ∧ i ∈ ((cfg4.win 5).blk t).view.set := by
  have hi0 : (i 0).val < 50000 := (i 0).isLt
  have hi1 : (i 1).val < 128 := (i 1).isLt
  have hN : cfg4.N = 10 := N_4
  obtain ⟨t, ht⟩ : ∃ t : Fin cfg4.N, t.val = (i 0).val / 5000 := ⟨⟨(i 0).val / 5000, by omega⟩, rfl⟩
  obtain ⟨-, -, -, -, -, -, -, -, -, -, e0, e1⟩ := idx4 t
  refine ⟨t, flush4_5 t, ?_⟩
  rw [mem_blk4]
  intro a
  match a with
  | ⟨0, _⟩ =>
    show win4_5.index t (0 : Fin 2) * 5000 ≤ (i 0).val ∧ (i 0).val < win4_5.index t (0 : Fin 2) * 5000 + 5000
    rw [e0, ht]; omega
  | ⟨1, _⟩ =>
    show win4_5.index t (1 : Fin 2) * 128 ≤ (i 1).val ∧ (i 1).val < win4_5.index t (1 : Fin 2) * 128 + 128
    rw [e1]; omega

end RC

/-- The output array after region 4 is the two-product stage, clamped at zero, of the region's input arrays. -/
theorem out4 (c : Dev nD) :
    (dat4 (F := Ideal) V c).arrAt 5 cfg4.N
      = lin2 true (V c main_v65) (V c main_v88) (V c main_v4) (V c main_v90) (V c main_v93) :=
  (dat4 V c).arrAt_eq_of_cover 5 _ (fun t _ => RC.flushed4 V c t) RC.cover4

end Cert.KernelIdeal.Region

end
-- ==== Proof.KRegionC1.lean ====
import proofs.«415088_j18769007083672_1_alg».proof.Proof.KRegionC0

set_option maxRecDepth 16384

noncomputable section

namespace Cert.KernelIdeal.Region

open Idealize.ShloMosaic Idealize.ShloMosaic.TcCoe Idealize.ShloMosaic.ValueIdx Idealize.SL.Sem Cert.KernelIdeal Cert.KernelIdeal.Gen Cert.Spec
open Idealize.ShloMosaic.Pipeline (Dat)

variable (V : (c : Dev nD) → (b : Ref sig .tc) → Buf (Elt Ideal) ((c : Thread nD τ).loc b))

namespace RC

/-! ## Region 5: 10000 rows, 2 blocks of 5000 rows -/

/-- Entry (p, q) of the block the body writes, from the blocks it is given: the two products added in order onto zero,
    the bias entry of column q, the clamp at zero. -/
theorem pay5 (x0 : Vec Ideal S5000x128 .f32) (x1 : Vec Ideal S128x128 .f32) (x2 : Vec Ideal S5000x128 .f32)
    (x3 : Vec Ideal S128x128 .f32) (x4 : Vec Ideal S1x128 .f32) (p : Fin 5000) (q : Fin 128) :
    k5_pay1 x0 x1 x2 x3 x4 (ix2 p q)
      = clampIf true (((0 + ∑ k : Fin 128, x0 (ix2 p k) * x1 (ix2 k q)) + ∑ k : Fin 128, x2 (ix2 p k) * x3 (ix2 k q))
          + x4 (ix2 0 q)) := by
  unfold k5_pay1
  simp only [shapeCast_self]
  rw [maximumf_apply, addf_apply, addf_apply, addf_apply, broadcast_apply, mmC, mmC]
  have hb : broadcastTo S5000x128 x4 broadcasts_S1x128_S5000x128 (ix2 p q) = x4 (ix2 0 q) :=
    broadcastTo_apply x4 broadcasts_S1x128_S5000x128 (ix2 p q) (ix2 (0 : Fin 1) q) (by
      intro a
      match a with
      | ⟨0, _⟩ => rfl
      | ⟨1, _⟩ => rfl)
  rw [hb]
  simp only [truncf_apply]
  show max (((Ideal.ofBits .f32 0x00000000#32 + _) + _) + _) (Ideal.ofBits .f32 0x00000000#32) = _
  rw [Ideal.ofBits_zero_f32]
  simp only [clampIf, if_true]

/-- The block indices at point t: the row-blocked inputs and the output are at block (t, 0), the weights and the bias
    row at block (0, 0). -/
theorem idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Entry (p, k) of the first input's block at point t is entry (5000·t + p, k) of the array. -/
theorem blk5_0 (c : Dev nD) (t : Fin cfg5.N) (x : S5000x128.Idx) (k : S10000x128.Idx)
    (hk0 : (k 0).val = t.val * 5000 + (x 0).val) (hk1 : (k 1).val = (x 1).val) :
    (iblk5 V c 0 t : Vec Ideal S5000x128 .f32) x = (V c main_v70 : S10000x128.Idx → Elt Ideal .f32) k := by
  obtain ⟨e0, e1, -⟩ := idx5 t
  unfold iblk5
  rw [View.read_apply]
  show V c main_v70 _ = V c main_v70 _
  congr 1
  funext a
  apply Fin.ext
  match a with
  | ⟨0, _⟩ => show win5_0.index t (0 : Fin 2) * 5000 + 1 * (x 0).val = (k 0).val; rw [e0, hk0]; omega
  | ⟨1, _⟩ => show win5_0.index t (1 : Fin 2) * 128 + 1 * (x 1).val = (k 1).val; rw [e1, hk1]; omega

/-- The first weight's block is the whole weight, at every point. -/
theorem blk5_1 (c : Dev nD) (t : Fin cfg5.N) :
    (iblk5 V c 1 t : Vec Ideal S128x128 .f32) = (V c main_v96 : S128x128.Idx → Elt Ideal .f32) := by
  obtain ⟨-, -, e0, e1, -⟩ := idx5 t
  funext x
  unfold iblk5
  rw [View.read_apply]
  show V c main_v96 _ = V c main_v96 _
  congr 1
  funext a
  apply Fin.ext
  match a with
  | ⟨0, _⟩ => show win5_1.index t (0 : Fin 2) * 128 + 1 * (x 0).val = (x 0).val; rw [e0]; omega
  | ⟨1, _⟩ => show win5_1.index t (1 : Fin 2) * 128 + 1 * (x 1).val = (x 1).val; rw [e1]; omega

/-- Entry (p, k) of the second input's block at point t is entry (5000·t + p, k) of the array. -/
theorem blk5_2 (c : Dev nD) (t : Fin cfg5.N) (x : S5000x128.Idx) (k : S10000x128.Idx)
    (hk0 : (k 0).val = t.val * 5000 + (x 0).val) (hk1 : (k 1).val = (x 1).val) :
    (iblk5 V c 2 t : Vec Ideal S5000x128 .f32) x = (V c main_v7 : S10000x128.Idx → Elt Ideal .f32) k := by
  obtain ⟨-, -, -, -, e0, e1, -⟩ := idx5 t
  unfold iblk5
  rw [View.read_apply]
  show V c main_v7 _ = V c main_v7 _
  congr 1
  funext a
  apply Fin.ext
  match a with
  | ⟨0, _⟩ => show win5_2.index t (0 : Fin 2) * 5000 + 1 * (x 0).val = (k 0).val; rw [e0, hk0]; omega
  | ⟨1, _⟩ => show win5_2.index t (1 : Fin 2) * 128 + 1 * (x 1).val = (k 1).val; rw [e1, hk1]; omega

/-- The second weight's block is the whole weight, at every point. -/
theorem blk5_3 (c : Dev nD) (t : Fin cfg5.N) :
    (iblk5 V c 3 t : Vec Ideal S128x128 .f32) = (V c main_v98 : S128x128.Idx → Elt Ideal .f32) := by
  obtain ⟨-, -, -, -, -, -, e0, e1, -⟩ := idx5 t
  funext x
  unfold iblk5
  rw [View.read_apply]
  show V c main_v98 _ = V c main_v98 _
  congr 1
  funext a
  apply Fin.ext
  match a with
  | ⟨0, _⟩ => show win5_3.index t (0 : Fin 2) * 128 + 1 * (x 0).val = (x 0).val; rw [e0]; omega
  | ⟨1, _⟩ => show win5_3.index t (1 : Fin 2) * 128 + 1 * (x 1).val = (x 1).val; rw [e1]; omega

/-- The bias row's block is the whole row, at every point. -/
theorem blk5_4 (c : Dev nD) (t : Fin cfg5.N) :
    (iblk5 V c 4 t : Vec Ideal S1x128 .f32) = (V c main_v101 : S1x128.Idx → Elt Ideal .f32) := by
  obtain ⟨-, -, -, -, -, -, -, -, e0, e1, -⟩ := idx5 t
  funext x
  unfold iblk5
  rw [View.read_apply]
  show V c main_v101 _ = V c main_v101 _
  congr 1
  funext a
  apply Fin.ext
  match a with
  | ⟨0, _⟩ => show win5_4.index t (0 : Fin 2) * 1 + 1 * (x 0).val = (x 0).val; rw [e0]; omega
  | ⟨1, _⟩ => show win5_4.index t (1 : Fin 2) * 128 + 1 * (x 1).val = (x 1).val; rw [e1]; omega

/-- What point t writes back is rows 5000·t … 5000·t + 4999 of the two-product stage of the region's input arrays. -/
theorem flushed5 (c : Dev nD) (t : Fin cfg5.N) :
    (dat5 (F := Ideal) V c).flushed 5 t
      = ((cfg5.win 5).blk t).view.read (Elt Ideal)
          (lin2 true (V c main_v70) (V c main_v96) (V c main_v7) (V c main_v98) (V c main_v101)) := by
  show (cfg5.win 5).cut (grid5.coords t) ((dat5 V c).after 5 t) = _
  rw [after5_5]
  unfold out5_5
  rw [View.canon_unit_zero hzC]
  simp only [View.ld_unit_zero (S := S5000x128) hzC, View.ld_unit_zero (S := S128x128) hzC,
    View.ld_unit_zero (S := S1x128) hzC]
  have hN : cfg5.N = 2 := N_5
  have ht : t.val < 2 := by have := t.isLt; omega
  obtain ⟨-, -, -, -, -, -, -, -, -, -, e0, e1⟩ := idx5 t
  funext j
  obtain ⟨p, q, rfl⟩ : ∃ (p : Fin 5000) (q : Fin 128), j = ix2 p q := ⟨j 0, j 1, eq_ix2 j⟩
  show k5_pay1 (iblk5 V c 0 t) (iblk5 V c 1 t) (iblk5 V c 2 t) (iblk5 V c 3 t) (iblk5 V c 4 t) (ix2 p q)
    = lin2 true (V c main_v70) (V c main_v96) (V c main_v7) (V c main_v98) (V c main_v101) (((cfg5.win 5).blk t).view.emb (ix2 p q))
  refine (pay5 (iblk5 V c 0 t) (iblk5 V c 1 t) (iblk5 V c 2 t) (iblk5 V c 3 t) (iblk5 V c 4 t) p q).trans ?_
  refine Eq.trans ?_ (lin2_atC (V c main_v70) (V c main_v96) (V c main_v7) (V c main_v98) (V c main_v101)
    (((cfg5.win 5).blk t).view.emb (ix2 p q)) ⟨t.val * 5000 + p.val, by omega⟩ q
    (Fin.ext (by show win5_5.index t (0 : Fin 2) * 5000 + 1 * p.val = t.val * 5000 + p.val; rw [e0]; omega))
    (Fin.ext (by show win5_5.index t (1 : Fin 2) * 128 + 1 * q.val = q.val; rw [e1]; omega))).symm
  rw [blk5_1 V c t, blk5_3 V c t, blk5_4 V c t]
  have s0 : ∀ k : Fin 128, (iblk5 V c 0 t : Vec Ideal S5000x128 .f32) (ix2 p k)
      = (V c main_v70 : S10000x128.Idx → Elt Ideal .f32) (ix2 ⟨t.val * 5000 + p.val, by omega⟩ k) :=
    fun k => blk5_0 V c t (ix2 p k) (ix2 ⟨t.val * 5000 + p.val, by omega⟩ k) rfl rfl
  have s2 : ∀ k : Fin 128, (iblk5 V c 2 t : Vec Ideal S5000x128 .f32) (ix2 p k)
      = (V c main_v7 : S10000x128.Idx → Elt Ideal .f32) (ix2 ⟨t.val * 5000 + p.val, by omega⟩ k) :=
    fun k => blk5_2 V c t (ix2 p k) (ix2 ⟨t.val * 5000 + p.val, by omega⟩ k) rfl rfl
  simp only [s0, s2]

/-- An index of the output lies in point t's block iff each coordinate lies in the block's range on its axis. -/
theorem mem_blk5 (t : Fin cfg5.N) (i : S10000x128.Idx) :
    i ∈ ((cfg5.win 5).blk t).view.set
      ↔ ∀ a : Fin 2, win5_5.index t a * S5000x128.size a ≤ (i a).val
          ∧ (i a).val < win5_5.index t a * S5000x128.size a + S5000x128.size a := by
  show i ∈ ((View.whole main_v102).slice (win5_5.rect t)).set ↔ _
  rw [View.set_slice_whole, Rect.mem_set_unit]
  exact Iff.rfl

/-- Row r of the output lies in the block of point r / 5000, which is written back. -/
theorem cover5 (i : S10000x128.Idx) :
    ∃ t : Fin cfg5.N, (cfg5.win 5).flush t = true ∧ i ∈ ((cfg5.win 5).blk t).view.set := by
  have hi0 : (i 0).val < 10000 := (i 0).isLt
  have hi1 : (i 1).val < 128 := (i 1).isLt
  have hN : cfg5.N = 2 := N_5
  obtain ⟨t, ht⟩ : ∃ t : Fin cfg5.N, t.val = (i 0).val / 5000 := ⟨⟨(i 0).val / 5000, by omega⟩, rfl⟩
  obtain ⟨-, -, -, -, -, -, -, -, -, -, e0, e1⟩ := idx5 t
  refine ⟨t, flush5_5 t, ?_⟩
  rw [mem_blk5]
  intro a
  match a with
  | ⟨0, _⟩ =>
    show win5_5.index t (0 : Fin 2) * 5000 ≤ (i 0).val ∧ (i 0).val < win5_5.index t (0 : Fin 2) * 5000 + 5000
    rw [e0, ht]; omega
  | ⟨1, _⟩ =>
    show win5_5.index t (1 : Fin 2) * 128 ≤ (i 1).val ∧ (i 1).val < win5_5.index t (1 : Fin 2) * 128 + 128
    rw [e1]; omega

end RC

/-- The output array after region 5 is the two-product stage, clamped at zero, of the region's input arrays. -/
theorem out5 (c : Dev nD) :
    (dat5 (F := Ideal) V c).arrAt 5 cfg5.N
      = lin2 true (V c main_v70) (V c main_v96) (V c main_v7) (V c main_v98) (V c main_v101) :=
  (dat5 V c).arrAt_eq_of_cover 5 _ (fun t _ => RC.flushed5 V c t) RC.cover5

end Cert.KernelIdeal.Region

end
-- ==== Proof.KRegionC.lean ====
/- Regions 4 and 5 each leave in their output array the two-product stage, clamped at zero, of their input arrays: `Region.out4` (50000 rows) and `Region.out5` (10000 rows). -/
import proofs.«415088_j18769007083672_1_alg».proof.Proof.KRegionC0
import proofs.«415088_j18769007083672_1_alg».proof.Proof.KRegionC1
-- ==== Proof.KWalk1b.lean ====
/-
  The first layer's card and merchant updates, and what the second layer reads, carried to the exit of the merchant
  update's region.
-/
import proofs.«415088_j18769007083672_1_alg».proof.Proof.Gen.KernelIdeal.Frame
import proofs.«415088_j18769007083672_1_alg».proof.Proof.KSpec
import proofs.«415088_j18769007083672_1_alg».proof.Proof.KArgs
import proofs.«415088_j18769007083672_1_alg».proof.Proof.KWalk1a
import proofs.«415088_j18769007083672_1_alg».proof.Proof.KRegionC
import Idealize.ShloMosaic.Lib.StableHlo.Run

set_option maxRecDepth 16384

noncomputable section

namespace Cert.KernelIdeal.KWalk

open Idealize.ShloMosaic Idealize.ShloMosaic.TcCoe Idealize.SL.Sem Idealize.ShloMosaic.StableHlo
open Cert.KernelIdeal Cert.KernelIdeal.Gen Cert.Spec

variable (m : (ℓ : Loc nD τ sig) → Buf (Elt Ideal) ℓ) (ρ : Dev nD → PrngReg)

/-! ## Across the slices of the layer's stacks taken for the card update -/

/-- The card update's left weight: edge type 1 of the left stack. -/
theorem W16_v88_raw (c : Dev nD) : W16 m ρ c (Proc.devRef .tc main_v88) = KS.w1 (W15 m ρ c (Proc.devRef .tc main_v42)) := by
  show StableHlo.after hostOps4 (W15 m ρ c) (Proc.devRef .tc main_v88) = _
  after_results_simp
  rfl

/-- The card update's right weight: edge type 1 of the right stack. -/
theorem W16_v90_raw (c : Dev nD) : W16 m ρ c (Proc.devRef .tc main_v90) = KS.w1 (W15 m ρ c (Proc.devRef .tc main_v46)) := by
  show StableHlo.after hostOps4 (W15 m ρ c) (Proc.devRef .tc main_v90) = _
  after_results_simp
  rfl

/-- The card update's bias, as one row: edge type 1 of the bias stack. -/
theorem W16_v93_raw (c : Dev nD) : W16 m ρ c (Proc.devRef .tc main_v93) = KS.row128 (KS.b1 (W15 m ρ c (Proc.devRef .tc main_v44))) := by
  show StableHlo.after hostOps4 (W15 m ρ c) (Proc.devRef .tc main_v93) = _
  after_results_simp
  rfl

theorem W16_v88 (c : Dev nD) : W16 m ρ c (Proc.devRef .tc main_v88) = KS.w1 (KS.stack0 (KS.inp m c).a15) :=
  (W16_v88_raw m ρ c).trans (congrArg KS.w1 (W15_v42 m ρ c))

theorem W16_v90 (c : Dev nD) : W16 m ρ c (Proc.devRef .tc main_v90) = KS.w1 (KS.stack0 (KS.inp m c).a17) :=
  (W16_v90_raw m ρ c).trans (congrArg KS.w1 (W15_v46 m ρ c))

theorem W16_v93 (c : Dev nD) : W16 m ρ c (Proc.devRef .tc main_v93) = KS.row128 (KS.b1 (KS.bstack0 (KS.inp m c).a16)) :=
  (W16_v93_raw m ρ c).trans (congrArg (fun b => KS.row128 (KS.b1 b)) (W15_v44 m ρ c))

/-- The mean over each card's transactions is not written by the slices. -/
theorem W16_v65 (c : Dev nD) : W16 m ρ c (Proc.devRef .tc main_v65) = KS.meanCard (KS.takeTx (KS.hTx0 (KS.inp m c)) (KS.inp m c).a4) (KS.inp m c).a3 (KS.invCard (KS.inp m c).a3) := by
  refine Eq.trans ?_ (W15_v65 m ρ c)
  show StableHlo.after hostOps4 (W15 m ρ c) (Proc.devRef .tc main_v65) = _
  after_results_simp

/-- The encoded cards are not written by the slices. -/
theorem W16_v4 (c : Dev nD) : W16 m ρ c (Proc.devRef .tc main_v4) = KS.hCard0 (KS.inp m c) := by
  refine Eq.trans ?_ (W15_v4 m ρ c)
  show StableHlo.after hostOps4 (W15 m ρ c) (Proc.devRef .tc main_v4) = _
  after_results_simp

/-! ## What the card update's region and the slices before it leave alone -/

theorem W17_keep_v70 (c : Dev nD) : W17 m ρ c (Proc.devRef .tc main_v70) = W15 m ρ c (Proc.devRef .tc main_v70) := by
  refine (W17_of_ne m ρ c main_v70 (by decide)).trans ?_
  show StableHlo.after hostOps4 (W15 m ρ c) (Proc.devRef .tc main_v70) = _
  after_results_simp

theorem W17_keep_v7 (c : Dev nD) : W17 m ρ c (Proc.devRef .tc main_v7) = W15 m ρ c (Proc.devRef .tc main_v7) := by
  refine (W17_of_ne m ρ c main_v7 (by decide)).trans ?_
  show StableHlo.after hostOps4 (W15 m ρ c) (Proc.devRef .tc main_v7) = _
  after_results_simp

theorem W17_keep_v42 (c : Dev nD) : W17 m ρ c (Proc.devRef .tc main_v42) = W15 m ρ c (Proc.devRef .tc main_v42) := by
  refine (W17_of_ne m ρ c main_v42 (by decide)).trans ?_
  show StableHlo.after hostOps4 (W15 m ρ c) (Proc.devRef .tc main_v42) = _
  after_results_simp

theorem W17_keep_v44 (c : Dev nD) : W17 m ρ c (Proc.devRef .tc main_v44) = W15 m ρ c (Proc.devRef .tc main_v44) := by
  refine (W17_of_ne m ρ c main_v44 (by decide)).trans ?_
  show StableHlo.after hostOps4 (W15 m ρ c) (Proc.devRef .tc main_v44) = _
  after_results_simp

theorem W17_keep_v46 (c : Dev nD) : W17 m ρ c (Proc.devRef .tc main_v46) = W15 m ρ c (Proc.devRef .tc main_v46) := by
  refine (W17_of_ne m ρ c main_v46 (by decide)).trans ?_
  show StableHlo.after hostOps4 (W15 m ρ c) (Proc.devRef .tc main_v46) = _
  after_results_simp

theorem W17_keep_v86 (c : Dev nD) : W17 m ρ c (Proc.devRef .tc main_v86) = W15 m ρ c (Proc.devRef .tc main_v86) := by
  refine (W17_of_ne m ρ c main_v86 (by decide)).trans ?_
  show StableHlo.after hostOps4 (W15 m ρ c) (Proc.devRef .tc main_v86) = _
  after_results_simp

theorem W17_keep_v25 (c : Dev nD) : W17 m ρ c (Proc.devRef .tc main_v25) = W15 m ρ c (Proc.devRef .tc main_v25) := by
  refine (W17_of_ne m ρ c main_v25 (by decide)).trans ?_
  show StableHlo.after hostOps4 (W15 m ρ c) (Proc.devRef .tc main_v25) = _
  after_results_simp

theorem W17_keep_v30 (c : Dev nD) : W17 m ρ c (Proc.devRef .tc main_v30) = W15 m ρ c (Proc.devRef .tc main_v30) := by
  refine (W17_of_ne m ρ c main_v30 (by decide)).trans ?_
  show StableHlo.after hostOps4 (W15 m ρ c) (Proc.devRef .tc main_v30) = _
  after_results_simp

/-! ## The card update -/

theorem W17_v94 (c : Dev nD) : W17 m ρ c (Proc.devRef .tc main_v94) = KS.hCard1 (KS.inp m c) := by
  have h : W17 m ρ c (Proc.devRef .tc main_v94) = (dat4 (V16 m ρ) c).arrAt 5 cfg4.N := W17_arr m ρ c 5
  have h65 : V16 m ρ c main_v65 = _ := W16_v65 m ρ c
  have h88 : V16 m ρ c main_v88 = _ := W16_v88 m ρ c
  have h4 : V16 m ρ c main_v4 = _ := W16_v4 m ρ c
  have h90 : V16 m ρ c main_v90 = _ := W16_v90 m ρ c
  have h93 : V16 m ρ c main_v93 = _ := W16_v93 m ρ c
  rw [h, Region.out4 (V16 m ρ) c, h65, h88, h4, h90, h93]
  rfl

/-! ## Across the slices of the layer's stacks taken for the merchant update -/

/-- The merchant update's left weight: edge type 3 of the left stack. -/
theorem W18_v96_raw (c : Dev nD) : W18 m ρ c (Proc.devRef .tc main_v96) = KS.w3 (W17 m ρ c (Proc.devRef .tc main_v42)) := by
  show StableHlo.after hostOps5 (W17 m ρ c) (Proc.devRef .tc main_v96) = _
  after_results_simp
  rfl

/-- The merchant update's right weight: edge type 3 of the right stack. -/
theorem W18_v98_raw (c : Dev nD) : W18 m ρ c (Proc.devRef .tc main_v98) = KS.w3 (W17 m ρ c (Proc.devRef .tc main_v46)) := by
  show StableHlo.after hostOps5 (W17 m ρ c) (Proc.devRef .tc main_v98) = _
  after_results_simp
  rfl

/-- The merchant update's bias, as one row: edge type 3 of the bias stack. -/
theorem W18_v101_raw (c : Dev nD) : W18 m ρ c (Proc.devRef .tc main_v101) = KS.row128 (KS.b3 (W17 m ρ c (Proc.devRef .tc main_v44))) := by
  show StableHlo.after hostOps5 (W17 m ρ c) (Proc.devRef .tc main_v101) = _
  after_results_simp
  rfl

theorem W18_v96 (c : Dev nD) : W18 m ρ c (Proc.devRef .tc main_v96) = KS.w3 (KS.stack0 (KS.inp m c).a15) :=
  (W18_v96_raw m ρ c).trans (congrArg KS.w3 ((W17_keep_v42 m ρ c).trans (W15_v42 m ρ c)))

theorem W18_v98 (c : Dev nD) : W18 m ρ c (Proc.devRef .tc main_v98) = KS.w3 (KS.stack0 (KS.inp m c).a17) :=
  (W18_v98_raw m ρ c).trans (congrArg KS.w3 ((W17_keep_v46 m ρ c).trans (W15_v46 m ρ c)))

theorem W18_v101 (c : Dev nD) : W18 m ρ c (Proc.devRef .tc main_v101) = KS.row128 (KS.b3 (KS.bstack0 (KS.inp m c).a16)) :=
  (W18_v101_raw m ρ c).trans (congrArg (fun b => KS.row128 (KS.b3 b)) ((W17_keep_v44 m ρ c).trans (W15_v44 m ρ c)))

theorem W18_keep_v70 (c : Dev nD) : W18 m ρ c (Proc.devRef .tc main_v70) = W17 m ρ c (Proc.devRef .tc main_v70) := by
  show StableHlo.after hostOps5 (W17 m ρ c) (Proc.devRef .tc main_v70) = _
  after_results_simp

theorem W18_keep_v7 (c : Dev nD) : W18 m ρ c (Proc.devRef .tc main_v7) = W17 m ρ c (Proc.devRef .tc main_v7) := by
  show StableHlo.after hostOps5 (W17 m ρ c) (Proc.devRef .tc main_v7) = _
  after_results_simp

theorem W18_v70 (c : Dev nD) : W18 m ρ c (Proc.devRef .tc main_v70) = KS.meanMerch (KS.takeTx (KS.hTx0 (KS.inp m c)) (KS.inp m c).a6) (KS.inp m c).a5 (KS.invMerch (KS.inp m c).a5) :=
  (W18_keep_v70 m ρ c).trans ((W17_keep_v70 m ρ c).trans (W15_v70 m ρ c))

theorem W18_v7 (c : Dev nD) : W18 m ρ c (Proc.devRef .tc main_v7) = KS.hMerch0 (KS.inp m c) :=
  (W18_keep_v7 m ρ c).trans ((W17_keep_v7 m ρ c).trans (W15_v7 m ρ c))

/-! ## What the merchant update's region and the slices before it leave alone -/

theorem W19_keep_v86 (c : Dev nD) : W19 m ρ c (Proc.devRef .tc main_v86) = W17 m ρ c (Proc.devRef .tc main_v86) := by
  refine (W19_of_ne m ρ c main_v86 (by decide)).trans ?_
  show StableHlo.after hostOps5 (W17 m ρ c) (Proc.devRef .tc main_v86) = _
  after_results_simp

theorem W19_keep_v94 (c : Dev nD) : W19 m ρ c (Proc.devRef .tc main_v94) = W17 m ρ c (Proc.devRef .tc main_v94) := by
  refine (W19_of_ne m ρ c main_v94 (by decide)).trans ?_
  show StableHlo.after hostOps5 (W17 m ρ c) (Proc.devRef .tc main_v94) = _
  after_results_simp

theorem W19_keep_v25 (c : Dev nD) : W19 m ρ c (Proc.devRef .tc main_v25) = W17 m ρ c (Proc.devRef .tc main_v25) := by
  refine (W19_of_ne m ρ c main_v25 (by decide)).trans ?_
  show StableHlo.after hostOps5 (W17 m ρ c) (Proc.devRef .tc main_v25) = _
  after_results_simp

theorem W19_keep_v30 (c : Dev nD) : W19 m ρ c (Proc.devRef .tc main_v30) = W17 m ρ c (Proc.devRef .tc main_v30) := by
  refine (W19_of_ne m ρ c main_v30 (by decide)).trans ?_
  show StableHlo.after hostOps5 (W17 m ρ c) (Proc.devRef .tc main_v30) = _
  after_results_simp

/-! ## The merchant update, and what the second layer reads -/

theorem W19_v102 (c : Dev nD) : W19 m ρ c (Proc.devRef .tc main_v102) = KS.hMerch1 (KS.inp m c) := by
  have h : W19 m ρ c (Proc.devRef .tc main_v102) = (dat5 (V18 m ρ) c).arrAt 5 cfg5.N := W19_arr m ρ c 5
  have h70 : V18 m ρ c main_v70 = _ := W18_v70 m ρ c
  have h96 : V18 m ρ c main_v96 = _ := W18_v96 m ρ c
  have h7 : V18 m ρ c main_v7 = _ := W18_v7 m ρ c
  have h98 : V18 m ρ c main_v98 = _ := W18_v98 m ρ c
  have h101 : V18 m ρ c main_v101 = _ := W18_v101 m ρ c
  rw [h, Region.out5 (V18 m ρ) c, h70, h96, h7, h98, h101]
  rfl

theorem W19_v86 (c : Dev nD) : W19 m ρ c (Proc.devRef .tc main_v86) = KS.hTx1 (KS.inp m c) :=
  (W19_keep_v86 m ρ c).trans ((W17_keep_v86 m ρ c).trans (W15_v86 m ρ c))

theorem W19_v94 (c : Dev nD) : W19 m ρ c (Proc.devRef .tc main_v94) = KS.hCard1 (KS.inp m c) :=
  (W19_keep_v94 m ρ c).trans (W17_v94 m ρ c)

theorem W19_v25 (c : Dev nD) : W19 m ρ c (Proc.devRef .tc main_v25) = KS.invTx (KS.inp m c).a4 :=
  (W19_keep_v25 m ρ c).trans ((W17_keep_v25 m ρ c).trans (W15_v25 m ρ c))

theorem W19_v30 (c : Dev nD) : W19 m ρ c (Proc.devRef .tc main_v30) = KS.invTx (KS.inp m c).a6 :=
  (W19_keep_v30 m ρ c).trans ((W17_keep_v30 m ρ c).trans (W15_v30 m ρ c))

end Cert.KernelIdeal.KWalk

end
-- ==== Proof.KWalk2.lean ====
/-
  The second layer's transaction update (its card and merchant updates reach no result and are passed over), the two
  head regions, and the result buffer at the end of the run.
-/
import proofs.«415088_j18769007083672_1_alg».proof.Proof.Gen.KernelIdeal.Frame
import proofs.«415088_j18769007083672_1_alg».proof.Proof.KSpec
import proofs.«415088_j18769007083672_1_alg».proof.Proof.KArgs
import proofs.«415088_j18769007083672_1_alg».proof.Proof.KWalk1b
import proofs.«415088_j18769007083672_1_alg».proof.Proof.KRegionA
import proofs.«415088_j18769007083672_1_alg».proof.Proof.KRegionB
import Idealize.ShloMosaic.Lib.StableHlo.Run

set_option maxRecDepth 16384

noncomputable section

namespace Cert.KernelIdeal.KWalk

open Idealize.ShloMosaic Idealize.ShloMosaic.TcCoe Idealize.SL.Sem Idealize.ShloMosaic.StableHlo
open Cert.KernelIdeal Cert.KernelIdeal.Gen Cert.Spec

variable (m : (ℓ : Loc nD τ sig) → Buf (Elt Ideal) ℓ) (ρ : Dev nD → PrngReg)

/-! ## The second layer's stacked weights: slice 1 of each of the three stacks -/

set_option maxHeartbeats 4000000 in
theorem W20_v104 (c : Dev nD) : W20 m ρ c (Proc.devRef .tc main_v104) = KS.stack1 (KS.inp m c).a15 := by
  have h : W20 m ρ c (Proc.devRef .tc main_v104) = KS.stack1 (W19 m ρ c (Proc.devRef .tc main_arg15)) := by
    show StableHlo.after hostOps6 (W19 m ρ c) (Proc.devRef .tc main_v104) = _
    after_results_simp
    rfl
  rw [h, (W19_args m ρ c).a15]

set_option maxHeartbeats 4000000 in
theorem W20_v106 (c : Dev nD) : W20 m ρ c (Proc.devRef .tc main_v106) = KS.bstack1 (KS.inp m c).a16 := by
  have h : W20 m ρ c (Proc.devRef .tc main_v106) = KS.bstack1 (W19 m ρ c (Proc.devRef .tc main_arg16)) := by
    show StableHlo.after hostOps6 (W19 m ρ c) (Proc.devRef .tc main_v106) = _
    after_results_simp
    rfl
  rw [h, (W19_args m ρ c).a16]

set_option maxHeartbeats 4000000 in
theorem W20_v108 (c : Dev nD) : W20 m ρ c (Proc.devRef .tc main_v108) = KS.stack1 (KS.inp m c).a17 := by
  have h : W20 m ρ c (Proc.devRef .tc main_v108) = KS.stack1 (W19 m ρ c (Proc.devRef .tc main_arg17)) := by
    show StableHlo.after hostOps6 (W19 m ρ c) (Proc.devRef .tc main_v108) = _
    after_results_simp
    rfl
  rw [h, (W19_args m ρ c).a17]

/-! ## The two takes the transaction update reads -/

set_option maxHeartbeats 4000000 in
theorem W20_v94 (c : Dev nD) : W20 m ρ c (Proc.devRef .tc main_v94) = W19 m ρ c (Proc.devRef .tc main_v94) := by
  show StableHlo.after hostOps6 (W19 m ρ c) (Proc.devRef .tc main_v94) = _
  after_results_simp

set_option maxHeartbeats 4000000 in
theorem W21_v109 (c : Dev nD) : W21 m ρ c (Proc.devRef .tc main_v109) = KS.takeCard (KS.hCard1 (KS.inp m c)) (KS.inp m c).a3 := by
  have h : W21 m ρ c (Proc.devRef .tc main_v109) = KS.takeCard (W20 m ρ c (Proc.devRef .tc main_v94)) (W20 m ρ c (Proc.devRef .tc main_arg3)) := by
    show StableHlo.after hostOps6_1 (W20 m ρ c) (Proc.devRef .tc main_v109) = _
    after_results_simp
    simp only [TRef.ofBuf, TRef.toBuf, cast_eq]
    rfl
  rw [h, W20_v94, W19_v94, (W20_args m ρ c).a3]

set_option maxHeartbeats 4000000 in
theorem W21_v102 (c : Dev nD) : W21 m ρ c (Proc.devRef .tc main_v102) = W19 m ρ c (Proc.devRef .tc main_v102) := by
  show StableHlo.after hostOps6_1 (StableHlo.after hostOps6 (W19 m ρ c)) (Proc.devRef .tc main_v102) = _
  after_results_simp

set_option maxHeartbeats 4000000 in
theorem W22_v110 (c : Dev nD) : W22 m ρ c (Proc.devRef .tc main_v110) = KS.takeMerch (KS.hMerch1 (KS.inp m c)) (KS.inp m c).a5 := by
  have h : W22 m ρ c (Proc.devRef .tc main_v110) = KS.takeMerch (W21 m ρ c (Proc.devRef .tc main_v102)) (W21 m ρ c (Proc.devRef .tc main_arg5)) := by
    show StableHlo.after hostOps6_2 (W21 m ρ c) (Proc.devRef .tc main_v110) = _
    after_results_simp
    simp only [TRef.ofBuf, TRef.toBuf, cast_eq]
    rfl
  rw [h, W21_v102, W19_v102, (W21_args m ρ c).a5]

/-! ## What the stretch before the transaction update leaves untouched -/

set_option maxHeartbeats 4000000 in
theorem W24_v109 (c : Dev nD) : W24 m ρ c (Proc.devRef .tc main_v109) = W21 m ρ c (Proc.devRef .tc main_v109) := by
  show StableHlo.after hostOps6_4 (StableHlo.after hostOps6_3 (StableHlo.after hostOps6_2 (W21 m ρ c))) (Proc.devRef .tc main_v109) = _
  after_results_simp

set_option maxHeartbeats 4000000 in
theorem W24_v110 (c : Dev nD) : W24 m ρ c (Proc.devRef .tc main_v110) = W22 m ρ c (Proc.devRef .tc main_v110) := by
  show StableHlo.after hostOps6_4 (StableHlo.after hostOps6_3 (W22 m ρ c)) (Proc.devRef .tc main_v110) = _
  after_results_simp

set_option maxHeartbeats 4000000 in
theorem W24_v25 (c : Dev nD) : W24 m ρ c (Proc.devRef .tc main_v25) = W19 m ρ c (Proc.devRef .tc main_v25) := by
  show StableHlo.after hostOps6_4 (StableHlo.after hostOps6_3 (StableHlo.after hostOps6_2 (StableHlo.after hostOps6_1 (StableHlo.after hostOps6 (W19 m ρ c))))) (Proc.devRef .tc main_v25) = _
  after_results_simp

set_option maxHeartbeats 4000000 in
theorem W24_v30 (c : Dev nD) : W24 m ρ c (Proc.devRef .tc main_v30) = W19 m ρ c (Proc.devRef .tc main_v30) := by
  show StableHlo.after hostOps6_4 (StableHlo.after hostOps6_3 (StableHlo.after hostOps6_2 (StableHlo.after hostOps6_1 (StableHlo.after hostOps6 (W19 m ρ c))))) (Proc.devRef .tc main_v30) = _
  after_results_simp

set_option maxHeartbeats 4000000 in
theorem W24_v104 (c : Dev nD) : W24 m ρ c (Proc.devRef .tc main_v104) = W20 m ρ c (Proc.devRef .tc main_v104) := by
  show StableHlo.after hostOps6_4 (StableHlo.after hostOps6_3 (StableHlo.after hostOps6_2 (StableHlo.after hostOps6_1 (W20 m ρ c)))) (Proc.devRef .tc main_v104) = _
  after_results_simp

set_option maxHeartbeats 4000000 in
theorem W24_v106 (c : Dev nD) : W24 m ρ c (Proc.devRef .tc main_v106) = W20 m ρ c (Proc.devRef .tc main_v106) := by
  show StableHlo.after hostOps6_4 (StableHlo.after hostOps6_3 (StableHlo.after hostOps6_2 (StableHlo.after hostOps6_1 (W20 m ρ c)))) (Proc.devRef .tc main_v106) = _
  after_results_simp

set_option maxHeartbeats 4000000 in
theorem W24_v108 (c : Dev nD) : W24 m ρ c (Proc.devRef .tc main_v108) = W20 m ρ c (Proc.devRef .tc main_v108) := by
  show StableHlo.after hostOps6_4 (StableHlo.after hostOps6_3 (StableHlo.after hostOps6_2 (StableHlo.after hostOps6_1 (W20 m ρ c)))) (Proc.devRef .tc main_v108) = _
  after_results_simp

set_option maxHeartbeats 4000000 in
theorem W25_v86c (c : Dev nD) : W25 m ρ c (Proc.devRef .tc main_v86) = W19 m ρ c (Proc.devRef .tc main_v86) := by
  show StableHlo.after hostOps6_5 (StableHlo.after hostOps6_4 (StableHlo.after hostOps6_3 (StableHlo.after hostOps6_2 (StableHlo.after hostOps6_1 (StableHlo.after hostOps6 (W19 m ρ c)))))) (Proc.devRef .tc main_v86) = _
  after_results_simp

/-! ## The seven arrays the transaction update reads, at its entry -/

set_option maxHeartbeats 4000000 in
theorem W25_v117 (c : Dev nD) : W25 m ρ c (Proc.devRef .tc main_v117) = KS.meanTx (KS.takeCard (KS.hCard1 (KS.inp m c)) (KS.inp m c).a3) (KS.inp m c).a4 (KS.invTx (KS.inp m c).a4) := by
  have h : W25 m ρ c (Proc.devRef .tc main_v117) = KS.meanTx (W24 m ρ c (Proc.devRef .tc main_v109)) (W24 m ρ c (Proc.devRef .tc main_arg4)) (W24 m ρ c (Proc.devRef .tc main_v25)) := by
    show StableHlo.after hostOps6_5 (W24 m ρ c) (Proc.devRef .tc main_v117) = _
    after_results_simp
    rfl
  rw [h, W24_v109, W21_v109, (W24_args m ρ c).a4, W24_v25, W19_v25]

set_option maxHeartbeats 4000000 in
theorem W25_v122 (c : Dev nD) : W25 m ρ c (Proc.devRef .tc main_v122) = KS.meanTx (KS.takeMerch (KS.hMerch1 (KS.inp m c)) (KS.inp m c).a5) (KS.inp m c).a6 (KS.invTx (KS.inp m c).a6) := by
  have h : W25 m ρ c (Proc.devRef .tc main_v122) = KS.meanTx (W24 m ρ c (Proc.devRef .tc main_v110)) (W24 m ρ c (Proc.devRef .tc main_arg6)) (W24 m ρ c (Proc.devRef .tc main_v30)) := by
    show StableHlo.after hostOps6_5 (W24 m ρ c) (Proc.devRef .tc main_v122) = _
    after_results_simp
    rfl
  rw [h, W24_v110, W22_v110, (W24_args m ρ c).a6, W24_v30, W19_v30]

set_option maxHeartbeats 4000000 in
theorem W25_v144 (c : Dev nD) : W25 m ρ c (Proc.devRef .tc main_v144) = KS.w0 (KS.stack1 (KS.inp m c).a15) := by
  have h : W25 m ρ c (Proc.devRef .tc main_v144) = KS.w0 (W24 m ρ c (Proc.devRef .tc main_v104)) := by
    show StableHlo.after hostOps6_5 (W24 m ρ c) (Proc.devRef .tc main_v144) = _
    after_results_simp
    rfl
  rw [h, W24_v104, W20_v104]

set_option maxHeartbeats 4000000 in
theorem W25_v146 (c : Dev nD) : W25 m ρ c (Proc.devRef .tc main_v146) = KS.w2 (KS.stack1 (KS.inp m c).a15) := by
  have h : W25 m ρ c (Proc.devRef .tc main_v146) = KS.w2 (W24 m ρ c (Proc.devRef .tc main_v104)) := by
    show StableHlo.after hostOps6_5 (W24 m ρ c) (Proc.devRef .tc main_v146) = _
    after_results_simp
    rfl
  rw [h, W24_v104, W20_v104]

set_option maxHeartbeats 4000000 in
theorem W25_v137 (c : Dev nD) : W25 m ρ c (Proc.devRef .tc main_v137) = addf (KS.w0 (KS.stack1 (KS.inp m c).a17)) (KS.w2 (KS.stack1 (KS.inp m c).a17)) := by
  have h : W25 m ρ c (Proc.devRef .tc main_v137) = addf (KS.w0 (W24 m ρ c (Proc.devRef .tc main_v108))) (KS.w2 (W24 m ρ c (Proc.devRef .tc main_v108))) := by
    show StableHlo.after hostOps6_5 (W24 m ρ c) (Proc.devRef .tc main_v137) = _
    after_results_simp
    rfl
  rw [h, W24_v108, W20_v108]

set_option maxHeartbeats 4000000 in
theorem W25_v147 (c : Dev nD) : W25 m ρ c (Proc.devRef .tc main_v147) = KS.row128 (addf (KS.b0 (KS.bstack1 (KS.inp m c).a16)) (KS.b2 (KS.bstack1 (KS.inp m c).a16))) := by
  have h : W25 m ρ c (Proc.devRef .tc main_v147) = KS.row128 (addf (KS.b0 (W24 m ρ c (Proc.devRef .tc main_v106))) (KS.b2 (W24 m ρ c (Proc.devRef .tc main_v106)))) := by
    show StableHlo.after hostOps6_5 (W24 m ρ c) (Proc.devRef .tc main_v147) = _
    after_results_simp
    rfl
  rw [h, W24_v106, W20_v106]

theorem W25_v86 (c : Dev nD) : W25 m ρ c (Proc.devRef .tc main_v86) = KS.hTx1 (KS.inp m c) := by
  rw [W25_v86c, W19_v86]

/-! ## The transaction update's output -/

theorem W26_v148 (c : Dev nD) : W26 m ρ c (Proc.devRef .tc main_v148) = KS.hTx2 (KS.inp m c) := by
  refine (W26_arr m ρ c 7).trans ?_
  refine (Region.out6 (V25 m ρ) c).trans ?_
  show lin3 true (W25 m ρ c (Proc.devRef .tc main_v117)) (W25 m ρ c (Proc.devRef .tc main_v144)) (W25 m ρ c (Proc.devRef .tc main_v122)) (W25 m ρ c (Proc.devRef .tc main_v146))
    (W25 m ρ c (Proc.devRef .tc main_v86)) (W25 m ρ c (Proc.devRef .tc main_v137)) (W25 m ρ c (Proc.devRef .tc main_v147)) = _
  rw [W25_v117, W25_v144, W25_v122, W25_v146, W25_v86, W25_v137, W25_v147]
  rfl

/-! ## The transaction features carried over the two updates that reach no result, and the first head region -/

set_option maxHeartbeats 4000000 in
theorem W27_v148c (c : Dev nD) : W27 m ρ c (Proc.devRef .tc main_v148) = W26 m ρ c (Proc.devRef .tc main_v148) := by
  show StableHlo.after hostOps7 (W26 m ρ c) (Proc.devRef .tc main_v148) = _
  after_results_simp

set_option maxHeartbeats 4000000 in
theorem W29_v148c (c : Dev nD) : W29 m ρ c (Proc.devRef .tc main_v148) = W28 m ρ c (Proc.devRef .tc main_v148) := by
  show StableHlo.after hostOps8 (W28 m ρ c) (Proc.devRef .tc main_v148) = _
  after_results_simp

set_option maxHeartbeats 4000000 in
theorem W31_v148c (c : Dev nD) : W31 m ρ c (Proc.devRef .tc main_v148) = W30 m ρ c (Proc.devRef .tc main_v148) := by
  show StableHlo.after hostOps9 (W30 m ρ c) (Proc.devRef .tc main_v148) = _
  after_results_simp

theorem W31_v148 (c : Dev nD) : W31 m ρ c (Proc.devRef .tc main_v148) = KS.hTx2 (KS.inp m c) := by
  rw [W31_v148c, W30_of_ne m ρ c main_v148 (by decide), W29_v148c, W28_of_ne m ρ c main_v148 (by decide), W27_v148c, W26_v148]

set_option maxHeartbeats 4000000 in
theorem W31_v165 (c : Dev nD) : W31 m ρ c (Proc.devRef .tc main_v165) = KS.row128 (KS.inp m c).a19 := by
  have h : W31 m ρ c (Proc.devRef .tc main_v165) = KS.row128 (W30 m ρ c (Proc.devRef .tc main_arg19)) := by
    show StableHlo.after hostOps9 (W30 m ρ c) (Proc.devRef .tc main_v165) = _
    after_results_simp
    rfl
  rw [h, (W30_args m ρ c).a19]

theorem W32_v166 (c : Dev nD) : W32 m ρ c (Proc.devRef .tc main_v166) = KS.hidden (KS.inp m c) := by
  refine (W32_arr m ρ c 3).trans ?_
  refine (Region.out9 (V31 m ρ) c).trans ?_
  show lin1 true (W31 m ρ c (Proc.devRef .tc main_v148)) (W31 m ρ c (Proc.devRef .tc main_arg18)) (W31 m ρ c (Proc.devRef .tc main_v165)) = _
  rw [W31_v148, (W31_args m ρ c).a18, W31_v165]
  rfl

/-! ## The second head region -/

set_option maxHeartbeats 4000000 in
theorem W33_v166c (c : Dev nD) : W33 m ρ c (Proc.devRef .tc main_v166) = W32 m ρ c (Proc.devRef .tc main_v166) := by
  show StableHlo.after hostOps10 (W32 m ρ c) (Proc.devRef .tc main_v166) = _
  after_results_simp

set_option maxHeartbeats 4000000 in
theorem W33_v167 (c : Dev nD) : W33 m ρ c (Proc.devRef .tc main_v167) = shapeCast S1x1 (KS.inp m c).a21 shapeCasts_S1_S1x1 := by
  have h : W33 m ρ c (Proc.devRef .tc main_v167) = shapeCast S1x1 (W32 m ρ c (Proc.devRef .tc main_arg21)) shapeCasts_S1_S1x1 := by
    show StableHlo.after hostOps10 (W32 m ρ c) (Proc.devRef .tc main_v167) = _
    after_results_simp
    rfl
  rw [h, (W32_args m ρ c).a21]

theorem W34_v168 (c : Dev nD) : W34 m ρ c (Proc.devRef .tc main_v168) = KS.logits (KS.inp m c) := by
  refine (W34_arr m ρ c 3).trans ?_
  refine (Region.out10 (V33 m ρ) c).trans ?_
  show lin1 false (W33 m ρ c (Proc.devRef .tc main_v166)) (W33 m ρ c (Proc.devRef .tc main_arg20)) (W33 m ρ c (Proc.devRef .tc main_v167)) = _
  rw [W33_v166c, W32_v166, (W33_args m ρ c).a20, W33_v167]
  rfl

/-! ## The result buffer at the end of the run -/

set_option maxHeartbeats 4000000 in
theorem W35_v169 (c : Dev nD) : W35 m ρ c (Proc.devRef .tc main_v169) = KS.result (KS.inp m c) := by
  have h : W35 m ρ c (Proc.devRef .tc main_v169) = shapeCast S200000 (W34 m ρ c (Proc.devRef .tc main_v168)) shapeCasts_S200000x1_S200000 := by
    show StableHlo.after hostOps11 (W34 m ρ c) (Proc.devRef .tc main_v169) = _
    after_results_simp
    rfl
  rw [h, W34_v168]
  rfl

end Cert.KernelIdeal.KWalk

end
-- ==== Proof.RSpec.lean ====
/-
  The reference program's dataflow as pure functions of the twenty-two argument arrays, at the extended reals.

  Encoders:  hTx0 = relu(tx_x·tx_W + tx_b);  hCard0 = card_emb[card_ids]·W + b;  hMerch0 likewise (a plain
  gather through the wrapped column of row numbers).
  One SAGE aggregation into a destination type:  sage = (scatter-sum(src rows gathered by src ids, by dst ids)
    / max(degree, 1))·Wl + bl + x_dst·Wr, the degree a scatter-sum of ones by the same dst ids.
  One layer: hTx' = relu(sage(card→tx) + sage(merch→tx)), hCard' = relu(sage(tx→card)), hMerch' = relu(sage(tx→merch)).
  Head: result = flatten(relu(hTx2·h1_W + h1_b)·h2_W + h2_b).
-/
import proofs.«415088_j18769007083672_1_alg».proof.ReferenceIdeal
import proofs.«415088_j18769007083672_1_alg».proof.Proof.Spec

noncomputable section

namespace Cert.ReferenceIdeal.RS

open Idealize.ShloMosaic Cert.Spec Cert.LibTakeFill Cert.ReferenceIdeal Cert.ReferenceIdeal.Facts₀ Cert.ReferenceIdeal.Facts

variable [Facts]

/-! ## Bias rows broadcast over the node axis, and the clamp at zero -/

def biasTx (b : FVec Ideal S128 .f32) : FVec Ideal S200000x128 .f32 :=
  broadcastInDim S200000x128 ![0, 1] bcast_S1x128_S200000x128_0_1 (broadcastInDim S1x128 ![1] bcast_S128_S1x128_1 b)
def biasCard (b : FVec Ideal S128 .f32) : FVec Ideal S50000x128 .f32 :=
  broadcastInDim S50000x128 ![0, 1] bcast_S1x128_S50000x128_0_1 (broadcastInDim S1x128 ![1] bcast_S128_S1x128_1 b)
def biasMerch (b : FVec Ideal S128 .f32) : FVec Ideal S10000x128 .f32 :=
  broadcastInDim S10000x128 ![0, 1] bcast_S1x128_S10000x128_0_1 (broadcastInDim S1x128 ![1] bcast_S128_S1x128_1 b)

def reluTx (x : FVec Ideal S200000x128 .f32) : FVec Ideal S200000x128 .f32 :=
  maximumf x (broadcastInDim S200000x128 ![] bcast_S_S200000x128 (constant (F := Ideal) S_ .f32 0x00000000#32))
def reluCard (x : FVec Ideal S50000x128 .f32) : FVec Ideal S50000x128 .f32 :=
  maximumf x (broadcastInDim S50000x128 ![] bcast_S_S50000x128 (constant (F := Ideal) S_ .f32 0x00000000#32))
def reluMerch (x : FVec Ideal S10000x128 .f32) : FVec Ideal S10000x128 .f32 :=
  maximumf x (broadcastInDim S10000x128 ![] bcast_S_S10000x128 (constant (F := Ideal) S_ .f32 0x00000000#32))

/-! ## Matrix products -/

abbrev dotTx (l : FVec Ideal S200000x128 .f32) (r : FVec Ideal S128x128 .f32) : FVec Ideal S200000x128 .f32 :=
  Host.dotGeneral dot_S200000x128_S128x128_S200000x128_1_0_0_1_n_n none l r
abbrev dotCard (l : FVec Ideal S50000x128 .f32) (r : FVec Ideal S128x128 .f32) : FVec Ideal S50000x128 .f32 :=
  Host.dotGeneral dot_S50000x128_S128x128_S50000x128_1_0_0_1_n_n none l r
abbrev dotMerch (l : FVec Ideal S10000x128 .f32) (r : FVec Ideal S128x128 .f32) : FVec Ideal S10000x128 .f32 :=
  Host.dotGeneral dot_S10000x128_S128x128_S10000x128_1_0_0_1_n_n none l r

/-! ## Gathers through the wrapped column of row numbers -/

def gatherCardEmb (x : FVec Ideal S50000x64 .f32) (idx : IVec S50000 32) : FVec Ideal S50000x64 .f32 :=
  Host.gather gather_S50000x64_S50000x1_S50000x64_1_0_n_n_0_1_164 x (wrapCol bcast_S_S50000 bcast_S50000_S50000x1_0 50000#32 idx)
def gatherMerchEmb (x : FVec Ideal S10000x64 .f32) (idx : IVec S10000 32) : FVec Ideal S10000x64 .f32 :=
  Host.gather gather_S10000x64_S10000x1_S10000x64_1_0_n_n_0_1_164 x (wrapCol bcast_S_S10000 bcast_S10000_S10000x1_0 10000#32 idx)
def gatherCard (x : FVec Ideal S50000x128 .f32) (idx : IVec S200000 32) : FVec Ideal S200000x128 .f32 :=
  Host.gather gather_S50000x128_S200000x1_S200000x128_1_0_n_n_0_1_1128 x (wrapCol bcast_S_S200000 bcast_S200000_S200000x1_0 50000#32 idx)
def gatherMerch (x : FVec Ideal S10000x128 .f32) (idx : IVec S200000 32) : FVec Ideal S200000x128 .f32 :=
  Host.gather gather_S10000x128_S200000x1_S200000x128_1_0_n_n_0_1_1128 x (wrapCol bcast_S_S200000 bcast_S200000_S200000x1_0 10000#32 idx)
def gatherTx (x : FVec Ideal S200000x128 .f32) (idx : IVec S200000 32) : FVec Ideal S200000x128 .f32 :=
  Host.gather gather_S200000x128_S200000x1_S200000x128_1_0_n_n_0_1_1128 x (wrapCol bcast_S_S200000 bcast_S200000_S200000x1_0 200000#32 idx)

/-- An edge list's ids as a column. -/
abbrev col (idx : IVec S200000 32) : IVec S200000x1 32 := broadcastInDim S200000x1 ![0] bcast_S200000_S200000x1_0 idx

/-- One per edge. -/
abbrev onesE : FVec Ideal S200000 .f32 := broadcastInDim S200000 ![] bcast_S_S200000 (constant (F := Ideal) S_ .f32 0x3F800000#32)

/-! ## Means: the scatter-sum over the degree clamped below at one -/

def meanTx (feat : FVec Ideal S200000x128 .f32) (dst : IVec S200000 32) : FVec Ideal S200000x128 .f32 :=
  Host.divf (Host.scatterAdd scatter_S200000x128_S200000x1_S200000x128_1_0_0_1
      (broadcastInDim S200000x128 ![] bcast_S_S200000x128 (constant (F := Ideal) S_ .f32 0x00000000#32)) (col dst) feat)
    (broadcastInDim S200000x128 ![0, 1] bcast_S200000x1_S200000x128_0_1
      (broadcastInDim S200000x1 ![0] bcast_S200000_S200000x1_0
        (maximumf (Host.scatterAdd scatter_S200000_S200000x1_S200000_n_0_0_1
            (broadcastInDim S200000 ![] bcast_S_S200000 (constant (F := Ideal) S_ .f32 0x00000000#32)) (col dst) onesE)
          (broadcastInDim S200000 ![] bcast_S_S200000 (constant (F := Ideal) S_ .f32 0x3F800000#32)))))

def meanCard (feat : FVec Ideal S200000x128 .f32) (dst : IVec S200000 32) : FVec Ideal S50000x128 .f32 :=
  Host.divf (Host.scatterAdd scatter_S50000x128_S200000x1_S200000x128_1_0_0_1
      (broadcastInDim S50000x128 ![] bcast_S_S50000x128 (constant (F := Ideal) S_ .f32 0x00000000#32)) (col dst) feat)
    (broadcastInDim S50000x128 ![0, 1] bcast_S50000x1_S50000x128_0_1
      (broadcastInDim S50000x1 ![0] bcast_S50000_S50000x1_0
        (maximumf (Host.scatterAdd scatter_S50000_S200000x1_S200000_n_0_0_1
            (broadcastInDim S50000 ![] bcast_S_S50000 (constant (F := Ideal) S_ .f32 0x00000000#32)) (col dst) onesE)
          (broadcastInDim S50000 ![] bcast_S_S50000 (constant (F := Ideal) S_ .f32 0x3F800000#32)))))

def meanMerch (feat : FVec Ideal S200000x128 .f32) (dst : IVec S200000 32) : FVec Ideal S10000x128 .f32 :=
  Host.divf (Host.scatterAdd scatter_S10000x128_S200000x1_S200000x128_1_0_0_1
      (broadcastInDim S10000x128 ![] bcast_S_S10000x128 (constant (F := Ideal) S_ .f32 0x00000000#32)) (col dst) feat)
    (broadcastInDim S10000x128 ![0, 1] bcast_S10000x1_S10000x128_0_1
      (broadcastInDim S10000x1 ![0] bcast_S10000_S10000x1_0
        (maximumf (Host.scatterAdd scatter_S10000_S200000x1_S200000_n_0_0_1
            (broadcastInDim S10000 ![] bcast_S_S10000 (constant (F := Ideal) S_ .f32 0x00000000#32)) (col dst) onesE)
          (broadcastInDim S10000 ![] bcast_S_S10000 (constant (F := Ideal) S_ .f32 0x3F800000#32)))))

/-! ## A layer's stacked weights, and one edge type's slice of them -/

def stack0 (w : FVec Ideal S2x4x128x128 .f32) : FVec Ideal S4x128x128 .f32 :=
  shapeCast S4x128x128 (extractStridedSlice S1x4x128x128 ![0, 0, 0, 0] w slices_S2x4x128x128_S1x4x128x128_0_0_0_0) shapeCasts_S1x4x128x128_S4x128x128
def stack1 (w : FVec Ideal S2x4x128x128 .f32) : FVec Ideal S4x128x128 .f32 :=
  shapeCast S4x128x128 (extractStridedSlice S1x4x128x128 ![1, 0, 0, 0] w slices_S2x4x128x128_S1x4x128x128_1_0_0_0) shapeCasts_S1x4x128x128_S4x128x128
def bstack0 (b : FVec Ideal S2x4x128 .f32) : FVec Ideal S4x128 .f32 :=
  shapeCast S4x128 (extractStridedSlice S1x4x128 ![0, 0, 0] b slices_S2x4x128_S1x4x128_0_0_0) shapeCasts_S1x4x128_S4x128
def bstack1 (b : FVec Ideal S2x4x128 .f32) : FVec Ideal S4x128 .f32 :=
  shapeCast S4x128 (extractStridedSlice S1x4x128 ![1, 0, 0] b slices_S2x4x128_S1x4x128_1_0_0) shapeCasts_S1x4x128_S4x128

def w0 (w : FVec Ideal S4x128x128 .f32) : FVec Ideal S128x128 .f32 :=
  shapeCast S128x128 (extractStridedSlice S1x128x128 ![0, 0, 0] w slices_S4x128x128_S1x128x128_0_0_0) shapeCasts_S1x128x128_S128x128
def w1 (w : FVec Ideal S4x128x128 .f32) : FVec Ideal S128x128 .f32 :=
  shapeCast S128x128 (extractStridedSlice S1x128x128 ![1, 0, 0] w slices_S4x128x128_S1x128x128_1_0_0) shapeCasts_S1x128x128_S128x128
def w2 (w : FVec Ideal S4x128x128 .f32) : FVec Ideal S128x128 .f32 :=
  shapeCast S128x128 (extractStridedSlice S1x128x128 ![2, 0, 0] w slices_S4x128x128_S1x128x128_2_0_0) shapeCasts_S1x128x128_S128x128
def w3 (w : FVec Ideal S4x128x128 .f32) : FVec Ideal S128x128 .f32 :=
  shapeCast S128x128 (extractStridedSlice S1x128x128 ![3, 0, 0] w slices_S4x128x128_S1x128x128_3_0_0) shapeCasts_S1x128x128_S128x128
def b0 (b : FVec Ideal S4x128 .f32) : FVec Ideal S128 .f32 :=
  shapeCast S128 (extractStridedSlice S1x128 ![0, 0] b slices_S4x128_S1x128_0_0) shapeCasts_S1x128_S128
def b1 (b : FVec Ideal S4x128 .f32) : FVec Ideal S128 .f32 :=
  shapeCast S128 (extractStridedSlice S1x128 ![1, 0] b slices_S4x128_S1x128_1_0) shapeCasts_S1x128_S128
def b2 (b : FVec Ideal S4x128 .f32) : FVec Ideal S128 .f32 :=
  shapeCast S128 (extractStridedSlice S1x128 ![2, 0] b slices_S4x128_S1x128_2_0) shapeCasts_S1x128_S128
def b3 (b : FVec Ideal S4x128 .f32) : FVec Ideal S128 .f32 :=
  shapeCast S128 (extractStridedSlice S1x128 ![3, 0] b slices_S4x128_S1x128_3_0) shapeCasts_S1x128_S128

/-! ## One layer -/

variable (I : Inp)

/-- The two aggregations into the transaction nodes, summed, before the clamp. -/
def txPre (Wl : FVec Ideal S4x128x128 .f32) (bl : FVec Ideal S4x128 .f32) (Wr : FVec Ideal S4x128x128 .f32)
    (hTx : FVec Ideal S200000x128 .f32) (hCard : FVec Ideal S50000x128 .f32) (hMerch : FVec Ideal S10000x128 .f32) :
    FVec Ideal S200000x128 .f32 :=
  addf
    (addf (addf (dotTx (meanTx (gatherCard hCard I.a3) I.a4) (w0 Wl)) (biasTx (b0 bl))) (dotTx hTx (w0 Wr)))
    (addf (addf (dotTx (meanTx (gatherMerch hMerch I.a5) I.a6) (w2 Wl)) (biasTx (b2 bl))) (dotTx hTx (w2 Wr)))

def cardPre (Wl : FVec Ideal S4x128x128 .f32) (bl : FVec Ideal S4x128 .f32) (Wr : FVec Ideal S4x128x128 .f32)
    (hTx : FVec Ideal S200000x128 .f32) (hCard : FVec Ideal S50000x128 .f32) : FVec Ideal S50000x128 .f32 :=
  addf (addf (dotCard (meanCard (gatherTx hTx I.a4) I.a3) (w1 Wl)) (biasCard (b1 bl))) (dotCard hCard (w1 Wr))

def merchPre (Wl : FVec Ideal S4x128x128 .f32) (bl : FVec Ideal S4x128 .f32) (Wr : FVec Ideal S4x128x128 .f32)
    (hTx : FVec Ideal S200000x128 .f32) (hMerch : FVec Ideal S10000x128 .f32) : FVec Ideal S10000x128 .f32 :=
  addf (addf (dotMerch (meanMerch (gatherTx hTx I.a6) I.a5) (w3 Wl)) (biasMerch (b3 bl))) (dotMerch hMerch (w3 Wr))

/-! ## The network -/

def hTx0 : FVec Ideal S200000x128 .f32 := reluTx (addf (dotTx I.a0 I.a13) (biasTx I.a14))
def hCard0 : FVec Ideal S50000x128 .f32 :=
  addf (Host.dotGeneral (φ₁ := .f32) (φ₂ := .f32) dot_S50000x64_S64x128_S50000x128_1_0_0_1_n_n none (gatherCardEmb I.a7 I.a1) I.a9) (biasCard I.a10)
def hMerch0 : FVec Ideal S10000x128 .f32 :=
  addf (Host.dotGeneral (φ₁ := .f32) (φ₂ := .f32) dot_S10000x64_S64x128_S10000x128_1_0_0_1_n_n none (gatherMerchEmb I.a8 I.a2) I.a11) (biasMerch I.a12)

def hTx1 : FVec Ideal S200000x128 .f32 := reluTx (txPre I (stack0 I.a15) (bstack0 I.a16) (stack0 I.a17) (hTx0 I) (hCard0 I) (hMerch0 I))
def hCard1 : FVec Ideal S50000x128 .f32 := reluCard (cardPre I (stack0 I.a15) (bstack0 I.a16) (stack0 I.a17) (hTx0 I) (hCard0 I))
def hMerch1 : FVec Ideal S10000x128 .f32 := reluMerch (merchPre I (stack0 I.a15) (bstack0 I.a16) (stack0 I.a17) (hTx0 I) (hMerch0 I))

def hTx2 : FVec Ideal S200000x128 .f32 := reluTx (txPre I (stack1 I.a15) (bstack1 I.a16) (stack1 I.a17) (hTx1 I) (hCard1 I) (hMerch1 I))

def hidden : FVec Ideal S200000x128 .f32 := reluTx (addf (dotTx (hTx2 I) I.a18) (biasTx I.a19))
def logits : FVec Ideal S200000x1 .f32 :=
  addf (Host.dotGeneral (φ₁ := .f32) (φ₂ := .f32) dot_S200000x128_S128x1_S200000x1_1_0_0_1_n_n none (hidden I) I.a20)
    (broadcastInDim S200000x1 ![0, 1] bcast_S1x1_S200000x1_0_1 (broadcastInDim S1x1 ![1] bcast_S1_S1x1_1 I.a21))
def result : FVec Ideal S200000 .f32 := shapeCast S200000 (logits I) shapeCasts_S200000x1_S200000

/-- The argument arrays as core `c` holds them at launch. -/
def inp (m : (ℓ : Loc nD τ sig) → Buf (Elt Ideal) ℓ) (c : Dev nD) : Inp where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)
  a9 := m ((c.tc : Thread nD τ).loc main_arg9)
  a10 := m ((c.tc : Thread nD τ).loc main_arg10)
  a11 := m ((c.tc : Thread nD τ).loc main_arg11)
  a12 := m ((c.tc : Thread nD τ).loc main_arg12)
  a13 := m ((c.tc : Thread nD τ).loc main_arg13)
  a14 := m ((c.tc : Thread nD τ).loc main_arg14)
  a15 := m ((c.tc : Thread nD τ).loc main_arg15)
  a16 := m ((c.tc : Thread nD τ).loc main_arg16)
  a17 := m ((c.tc : Thread nD τ).loc main_arg17)
  a18 := m ((c.tc : Thread nD τ).loc main_arg18)
  a19 := m ((c.tc : Thread nD τ).loc main_arg19)
  a20 := m ((c.tc : Thread nD τ).loc main_arg20)
  a21 := m ((c.tc : Thread nD τ).loc main_arg21)

end Cert.ReferenceIdeal.RS

end
-- ==== Proof.RefWalk.lean ====
/-
  The reference program's run, read back: after @main the result buffer holds the reference dataflow of the launch
  contents of the arguments, and every argument buffer holds what it held at launch (no operation writes one).

  The run is a fold of six windows of operations. For each window: the list of the buffers its operations write (a
  buffer outside the list keeps its contents through the window), and, for each buffer that a later window or the
  result reads, what it holds after the window, as a term of the reference dataflow over the launch contents.
-/
import proofs.«415088_j18769007083672_1_alg».proof.Proof.RefRun
import proofs.«415088_j18769007083672_1_alg».proof.Proof.RSpec

set_option maxRecDepth 16384

noncomputable section

namespace Cert.ReferenceIdeal.RefWalk

open Idealize.ShloMosaic Idealize.ShloMosaic.TcCoe Idealize.SL.Sem Idealize.ShloMosaic.StableHlo
open Cert.ReferenceIdeal Cert.ReferenceIdeal.Gen Cert.ReferenceIdeal.RunW Cert.Spec

/-! ## What each window writes, and what it therefore keeps -/

/-- The buffers that window 0's operations write. -/
abbrev ops0_W : List (Ref sig .tc) := [main_v0, main_v1, main_v2, main_v3, main_call0_cst, main_call0_v0, main_v4, main_c, main_v5, main_v6, main_c_0, main_v7, main_v8, main_v9, main_v10, main_v11, main_v12, main_v13, main_v14, main_v15, main_c_1, main_v16, main_v17, main_c_2, main_v18, main_v19, main_v20, main_v21, main_v22, main_v23, main_v24, main_v25, main_v26, main_v27, main_v28, main_v29, main_v30, main_v31, main_v32, main_v33, main_v34, main_v35, main_v36, main_v37, main_v38, main_c_3, main_v39, main_v40, main_c_4, main_v41, main_v42, main_v43, main_v44, main_v45, main_cst, main_v46, main_v47, main_v48, main_cst_5, main_v49, main_cst_6, main_v50]

set_option maxHeartbeats 4000000 in
theorem ops0_writes : (ops0 : List (HloOp τ sig (Elt Ideal))).Forall fun op => op.writes ⊆ (ops0_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer that window 0 does not write keeps its contents through it. -/
theorem keep0 (W : Valuation τ sig (Elt Ideal)) (r : Ref sig .tc) (h : r ∉ ops0_W) :
    after ops0 W (Proc.devRef .tc r) = W (Proc.devRef .tc r) := after_of_writes_sub ops0 W ops0_writes h

/-- The buffers that window 1's operations write. -/
abbrev ops1_W : List (Ref sig .tc) := [main_v51, main_v52, main_cst_7, main_v53, main_v54, main_v55, main_v56, main_v57, main_v58, main_v59, main_v60, main_v61, main_v62, main_v63, main_v64, main_v65, main_v66, main_v67, main_v68, main_v69, main_c_8, main_v70, main_v71, main_c_9, main_v72, main_v73, main_v74, main_v75, main_v76, main_cst_10, main_v77, main_v78, main_v79, main_cst_11, main_v80, main_cst_12, main_v81, main_v82, main_v83, main_cst_13, main_v84, main_v85, main_v86, main_v87, main_v88, main_v89, main_v90, main_v91, main_v92, main_v93, main_v94, main_v95, main_v96, main_v97, main_v98, main_v99, main_v100, main_v101, main_c_14, main_v102]

set_option maxHeartbeats 4000000 in
theorem ops1_writes : (ops1 : List (HloOp τ sig (Elt Ideal))).Forall fun op => op.writes ⊆ (ops1_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer that window 1 does not write keeps its contents through it. -/
theorem keep1 (W : Valuation τ sig (Elt Ideal)) (r : Ref sig .tc) (h : r ∉ ops1_W) :
    after ops1 W (Proc.devRef .tc r) = W (Proc.devRef .tc r) := after_of_writes_sub ops1 W ops1_writes h

/-- The buffers that window 2's operations write. -/
abbrev ops2_W : List (Ref sig .tc) := [main_v103, main_c_15, main_v104, main_v105, main_v106, main_v107, main_v108, main_cst_16, main_v109, main_v110, main_v111, main_cst_17, main_v112, main_cst_18, main_v113, main_v114, main_v115, main_cst_19, main_v116, main_v117, main_v118, main_v119, main_v120, main_v121, main_v122, main_v123, main_v124, main_v125, main_v126, main_v127, main_v128, main_v129, main_v130, main_v131, main_v132, main_c_20, main_v133, main_v134, main_c_21, main_v135, main_v136, main_v137, main_v138, main_v139, main_cst_22, main_v140, main_v141, main_v142, main_cst_23, main_v143, main_cst_24, main_v144, main_v145, main_v146, main_cst_25, main_v147, main_v148, main_v149, main_v150, main_v151]

set_option maxHeartbeats 4000000 in
theorem ops2_writes : (ops2 : List (HloOp τ sig (Elt Ideal))).Forall fun op => op.writes ⊆ (ops2_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer that window 2 does not write keeps its contents through it. -/
theorem keep2 (W : Valuation τ sig (Elt Ideal)) (r : Ref sig .tc) (h : r ∉ ops2_W) :
    after ops2 W (Proc.devRef .tc r) = W (Proc.devRef .tc r) := after_of_writes_sub ops2 W ops2_writes h

/-- The buffers that window 3's operations write. -/
abbrev ops3_W : List (Ref sig .tc) := [main_v152, main_v153, main_v154, main_v155, main_v156, main_v157, main_call1_cst, main_call1_v0, main_v158, main_call2_cst, main_call2_v0, main_v159, main_call3_cst, main_call3_v0, main_v160, main_v161, main_v162, main_v163, main_v164, main_v165, main_v166, main_v167, main_v168, main_v169, main_v170, main_v171, main_v172, main_c_26, main_v173, main_v174, main_c_27, main_v175, main_v176, main_v177, main_v178, main_v179, main_cst_28, main_v180, main_v181, main_v182, main_cst_29, main_v183, main_cst_30, main_v184, main_v185, main_v186, main_cst_31, main_v187, main_v188, main_v189, main_v190, main_v191, main_v192, main_v193, main_v194, main_v195, main_v196, main_v197, main_v198, main_v199, main_v200, main_v201, main_v202, main_v203, main_c_32, main_v204]

set_option maxHeartbeats 4000000 in
theorem ops3_writes : (ops3 : List (HloOp τ sig (Elt Ideal))).Forall fun op => op.writes ⊆ (ops3_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer that window 3 does not write keeps its contents through it. -/
theorem keep3 (W : Valuation τ sig (Elt Ideal)) (r : Ref sig .tc) (h : r ∉ ops3_W) :
    after ops3 W (Proc.devRef .tc r) = W (Proc.devRef .tc r) := after_of_writes_sub ops3 W ops3_writes h

/-- The buffers that window 4's operations write. -/
abbrev ops4_W : List (Ref sig .tc) := [main_v205, main_c_33, main_v206, main_v207, main_v208, main_v209, main_v210, main_cst_34, main_v211, main_v212, main_v213, main_cst_35, main_v214, main_cst_36, main_v215, main_v216, main_v217, main_cst_37, main_v218, main_v219, main_v220, main_v221, main_v222, main_v223, main_v224, main_v225, main_v226, main_v227, main_v228, main_v229, main_v230, main_v231, main_v232, main_v233, main_v234, main_v235, main_c_38, main_v236, main_v237, main_c_39, main_v238, main_v239, main_v240, main_v241, main_v242, main_cst_40, main_v243, main_v244, main_v245, main_cst_41, main_v246, main_cst_42, main_v247, main_v248, main_v249, main_cst_43, main_v250, main_v251, main_v252, main_v253]

set_option maxHeartbeats 4000000 in
theorem ops4_writes : (ops4 : List (HloOp τ sig (Elt Ideal))).Forall fun op => op.writes ⊆ (ops4_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer that window 4 does not write keeps its contents through it. -/
theorem keep4 (W : Valuation τ sig (Elt Ideal)) (r : Ref sig .tc) (h : r ∉ ops4_W) :
    after ops4 W (Proc.devRef .tc r) = W (Proc.devRef .tc r) := after_of_writes_sub ops4 W ops4_writes h

/-- The buffers that window 5's operations write. -/
abbrev ops5_W : List (Ref sig .tc) := [main_v254, main_v255, main_v256, main_v257, main_v258, main_v259, main_v260, main_v261, main_v262, main_v263, main_v264, main_v265, main_v266, main_c_44, main_v267, main_v268, main_c_45, main_v269, main_v270, main_v271, main_v272, main_v273, main_cst_46, main_v274, main_v275, main_v276, main_cst_47, main_v277, main_cst_48, main_v278, main_v279, main_v280, main_cst_49, main_v281, main_v282, main_v283, main_v284, main_v285, main_v286, main_v287, main_v288, main_v289, main_v290, main_v291, main_call4_cst, main_call4_v0, main_v292, main_call5_cst, main_call5_v0, main_v293, main_call6_cst, main_call6_v0, main_v294, main_v295, main_v296, main_v297, main_v298, main_call7_cst, main_call7_v0, main_v299, main_v300, main_v301, main_v302, main_v303, main_v304]

set_option maxHeartbeats 4000000 in
theorem ops5_writes : (ops5 : List (HloOp τ sig (Elt Ideal))).Forall fun op => op.writes ⊆ (ops5_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer that window 5 does not write keeps its contents through it. -/
theorem keep5 (W : Valuation τ sig (Elt Ideal)) (r : Ref sig .tc) (h : r ∉ ops5_W) :
    after ops5 W (Proc.devRef .tc r) = W (Proc.devRef .tc r) := after_of_writes_sub ops5 W ops5_writes h

variable (m : (ℓ : Loc nD τ sig) → Buf (Elt Ideal) ℓ)

/-! ## The buffers after each window -/

/-- Core `c`'s buffers after window 0. -/
def F0 (c : Dev nD) : Valuation τ sig (Elt Ideal) := after ops0 (launchContents m c)
/-- After window 1. -/
def F1 (c : Dev nD) : Valuation τ sig (Elt Ideal) := after ops1 (F0 m c)
/-- After window 2. -/
def F2 (c : Dev nD) : Valuation τ sig (Elt Ideal) := after ops2 (F1 m c)
/-- After window 3. -/
def F3 (c : Dev nD) : Valuation τ sig (Elt Ideal) := after ops3 (F2 m c)
/-- After window 4. -/
def F4 (c : Dev nD) : Valuation τ sig (Elt Ideal) := after ops4 (F3 m c)

theorem final_eq (c : Dev nD) : final (F := Ideal) m c = after ops5 (F4 m c) := rfl

/-- A buffer that no window writes holds after @main what it held at launch. -/
theorem final_keep (c : Dev nD) (r : Ref sig .tc) (h0 : r ∉ ops0_W) (h1 : r ∉ ops1_W) (h2 : r ∉ ops2_W) (h3 : r ∉ ops3_W)
    (h4 : r ∉ ops4_W) (h5 : r ∉ ops5_W) :
    final (F := Ideal) m c (Proc.devRef .tc r) = launchContents m c (Proc.devRef .tc r) :=
  (keep5 _ r h5).trans ((keep4 _ r h4).trans ((keep3 _ r h3).trans ((keep2 _ r h2).trans ((keep1 _ r h1).trans (keep0 _ r h0)))))

/-! ### Window 0: the three encoders, layer 1's stacked weights, and the first scatter-sum -/

theorem f0_arg3 (c : Dev nD) : F0 m c (Proc.devRef .tc main_arg3) = (RS.inp m c).a3 := keep0 _ _ (by decide)
theorem f0_arg4 (c : Dev nD) : F0 m c (Proc.devRef .tc main_arg4) = (RS.inp m c).a4 := keep0 _ _ (by decide)
theorem f0_arg5 (c : Dev nD) : F0 m c (Proc.devRef .tc main_arg5) = (RS.inp m c).a5 := keep0 _ _ (by decide)
theorem f0_arg6 (c : Dev nD) : F0 m c (Proc.devRef .tc main_arg6) = (RS.inp m c).a6 := keep0 _ _ (by decide)
theorem f0_arg15 (c : Dev nD) : F0 m c (Proc.devRef .tc main_arg15) = (RS.inp m c).a15 := keep0 _ _ (by decide)
theorem f0_arg16 (c : Dev nD) : F0 m c (Proc.devRef .tc main_arg16) = (RS.inp m c).a16 := keep0 _ _ (by decide)
theorem f0_arg17 (c : Dev nD) : F0 m c (Proc.devRef .tc main_arg17) = (RS.inp m c).a17 := keep0 _ _ (by decide)
theorem f0_arg18 (c : Dev nD) : F0 m c (Proc.devRef .tc main_arg18) = (RS.inp m c).a18 := keep0 _ _ (by decide)
theorem f0_arg19 (c : Dev nD) : F0 m c (Proc.devRef .tc main_arg19) = (RS.inp m c).a19 := keep0 _ _ (by decide)
theorem f0_arg20 (c : Dev nD) : F0 m c (Proc.devRef .tc main_arg20) = (RS.inp m c).a20 := keep0 _ _ (by decide)
theorem f0_arg21 (c : Dev nD) : F0 m c (Proc.devRef .tc main_arg21) = (RS.inp m c).a21 := keep0 _ _ (by decide)

set_option maxHeartbeats 4000000 in
theorem f0_v4 (c : Dev nD) : F0 m c (Proc.devRef .tc main_v4) = RS.hTx0 (RS.inp m c) := by
  show after ops0 (launchContents m c) _ = _
  after_results_simp
  simp only [TRef.ofBuf, TRef.toBuf, cast_eq]
  rfl
set_option maxHeartbeats 4000000 in
theorem f0_v15 (c : Dev nD) : F0 m c (Proc.devRef .tc main_v15) = RS.hCard0 (RS.inp m c) := by
  show after ops0 (launchContents m c) _ = _
  after_results_simp
  rfl
set_option maxHeartbeats 4000000 in
theorem f0_v26 (c : Dev nD) : F0 m c (Proc.devRef .tc main_v26) = RS.hMerch0 (RS.inp m c) := by
  show after ops0 (launchContents m c) _ = _
  after_results_simp
  rfl
theorem f0_v28 (c : Dev nD) : F0 m c (Proc.devRef .tc main_v28) = RS.stack0 (RS.inp m c).a15 := by
  show after ops0 (launchContents m c) _ = _
  after_results_simp
  rfl
theorem f0_v30 (c : Dev nD) : F0 m c (Proc.devRef .tc main_v30) = RS.bstack0 (RS.inp m c).a16 := by
  show after ops0 (launchContents m c) _ = _
  after_results_simp
  rfl
theorem f0_v32 (c : Dev nD) : F0 m c (Proc.devRef .tc main_v32) = RS.stack0 (RS.inp m c).a17 := by
  show after ops0 (launchContents m c) _ = _
  after_results_simp
  rfl
theorem f0_v34 (c : Dev nD) : F0 m c (Proc.devRef .tc main_v34) = RS.w0 (RS.stack0 (RS.inp m c).a15) := by
  show after ops0 (launchContents m c) _ = _
  after_results_simp
  rfl
theorem f0_v36 (c : Dev nD) : F0 m c (Proc.devRef .tc main_v36) = RS.b0 (RS.bstack0 (RS.inp m c).a16) := by
  show after ops0 (launchContents m c) _ = _
  after_results_simp
  rfl
theorem f0_v38 (c : Dev nD) : F0 m c (Proc.devRef .tc main_v38) = RS.w0 (RS.stack0 (RS.inp m c).a17) := by
  show after ops0 (launchContents m c) _ = _
  after_results_simp
  rfl
set_option maxHeartbeats 4000000 in
/-- The scatter-sum of the card rows over the transactions: the numerator of the mean. -/
theorem f0_v48 (c : Dev nD) : F0 m c (Proc.devRef .tc main_v48) = Host.scatterAdd scatter_S200000x128_S200000x1_S200000x128_1_0_0_1 (broadcastInDim S200000x128 ![] bcast_S_S200000x128 (constant (F := Ideal) S_ .f32 0x00000000#32)) (RS.col (RS.inp m c).a4) (RS.gatherCard (RS.hCard0 (RS.inp m c)) (RS.inp m c).a3) := by
  show after ops0 (launchContents m c) _ = _
  after_results_simp
  rfl
theorem f0_v49 (c : Dev nD) : F0 m c (Proc.devRef .tc main_v49) = RS.onesE := by
  show after ops0 (launchContents m c) _ = _
  after_results_simp
theorem f0_v50 (c : Dev nD) : F0 m c (Proc.devRef .tc main_v50) = (broadcastInDim S200000 ![] bcast_S_S200000 (constant (F := Ideal) S_ .f32 0x00000000#32)) := by
  show after ops0 (launchContents m c) _ = _
  after_results_simp

/-! ### Window 1: layer 1's update of the transaction nodes, before the clamp -/

theorem f1_arg3 (c : Dev nD) : F1 m c (Proc.devRef .tc main_arg3) = (RS.inp m c).a3 := (keep1 _ _ (by decide)).trans (f0_arg3 m c)
theorem f1_arg4 (c : Dev nD) : F1 m c (Proc.devRef .tc main_arg4) = (RS.inp m c).a4 := (keep1 _ _ (by decide)).trans (f0_arg4 m c)
theorem f1_arg5 (c : Dev nD) : F1 m c (Proc.devRef .tc main_arg5) = (RS.inp m c).a5 := (keep1 _ _ (by decide)).trans (f0_arg5 m c)
theorem f1_arg6 (c : Dev nD) : F1 m c (Proc.devRef .tc main_arg6) = (RS.inp m c).a6 := (keep1 _ _ (by decide)).trans (f0_arg6 m c)
theorem f1_arg15 (c : Dev nD) : F1 m c (Proc.devRef .tc main_arg15) = (RS.inp m c).a15 := (keep1 _ _ (by decide)).trans (f0_arg15 m c)
theorem f1_arg16 (c : Dev nD) : F1 m c (Proc.devRef .tc main_arg16) = (RS.inp m c).a16 := (keep1 _ _ (by decide)).trans (f0_arg16 m c)
theorem f1_arg17 (c : Dev nD) : F1 m c (Proc.devRef .tc main_arg17) = (RS.inp m c).a17 := (keep1 _ _ (by decide)).trans (f0_arg17 m c)
theorem f1_arg18 (c : Dev nD) : F1 m c (Proc.devRef .tc main_arg18) = (RS.inp m c).a18 := (keep1 _ _ (by decide)).trans (f0_arg18 m c)
theorem f1_arg19 (c : Dev nD) : F1 m c (Proc.devRef .tc main_arg19) = (RS.inp m c).a19 := (keep1 _ _ (by decide)).trans (f0_arg19 m c)
theorem f1_arg20 (c : Dev nD) : F1 m c (Proc.devRef .tc main_arg20) = (RS.inp m c).a20 := (keep1 _ _ (by decide)).trans (f0_arg20 m c)
theorem f1_arg21 (c : Dev nD) : F1 m c (Proc.devRef .tc main_arg21) = (RS.inp m c).a21 := (keep1 _ _ (by decide)).trans (f0_arg21 m c)

theorem f1_v4 (c : Dev nD) : F1 m c (Proc.devRef .tc main_v4) = RS.hTx0 (RS.inp m c) := (keep1 _ _ (by decide)).trans (f0_v4 m c)
theorem f1_v15 (c : Dev nD) : F1 m c (Proc.devRef .tc main_v15) = RS.hCard0 (RS.inp m c) := (keep1 _ _ (by decide)).trans (f0_v15 m c)
theorem f1_v26 (c : Dev nD) : F1 m c (Proc.devRef .tc main_v26) = RS.hMerch0 (RS.inp m c) := (keep1 _ _ (by decide)).trans (f0_v26 m c)
theorem f1_v28 (c : Dev nD) : F1 m c (Proc.devRef .tc main_v28) = RS.stack0 (RS.inp m c).a15 := (keep1 _ _ (by decide)).trans (f0_v28 m c)
theorem f1_v30 (c : Dev nD) : F1 m c (Proc.devRef .tc main_v30) = RS.bstack0 (RS.inp m c).a16 := (keep1 _ _ (by decide)).trans (f0_v30 m c)
theorem f1_v32 (c : Dev nD) : F1 m c (Proc.devRef .tc main_v32) = RS.stack0 (RS.inp m c).a17 := (keep1 _ _ (by decide)).trans (f0_v32 m c)
set_option maxHeartbeats 4000000 in
theorem f1_v95 (c : Dev nD) : F1 m c (Proc.devRef .tc main_v95) = RS.txPre (RS.inp m c) (RS.stack0 (RS.inp m c).a15) (RS.bstack0 (RS.inp m c).a16) (RS.stack0 (RS.inp m c).a17) (RS.hTx0 (RS.inp m c)) (RS.hCard0 (RS.inp m c)) (RS.hMerch0 (RS.inp m c)) := by
  show after ops1 (F0 m c) _ = _
  after_results_simp
  rw [f0_v48 m c, f0_v50 m c, f0_v49 m c, f0_arg4 m c, f0_v34 m c, f0_v36 m c, f0_v4 m c, f0_v38 m c, f0_v28 m c, f0_v30 m c, f0_v32 m c, f0_arg5 m c, f0_v26 m c, f0_arg6 m c]
  rfl
theorem f1_v97 (c : Dev nD) : F1 m c (Proc.devRef .tc main_v97) = RS.w1 (RS.stack0 (RS.inp m c).a15) := by
  show after ops1 (F0 m c) _ = _
  after_results_simp
  rw [f0_v28 m c]
  rfl
theorem f1_v99 (c : Dev nD) : F1 m c (Proc.devRef .tc main_v99) = RS.b1 (RS.bstack0 (RS.inp m c).a16) := by
  show after ops1 (F0 m c) _ = _
  after_results_simp
  rw [f0_v30 m c]
  rfl
theorem f1_v101 (c : Dev nD) : F1 m c (Proc.devRef .tc main_v101) = RS.w1 (RS.stack0 (RS.inp m c).a17) := by
  show after ops1 (F0 m c) _ = _
  after_results_simp
  rw [f0_v32 m c]
  rfl
theorem f1_v102 (c : Dev nD) : F1 m c (Proc.devRef .tc main_v102) = (broadcastInDim S200000 ![] bcast_S_S200000 (constantI S_ 32 0#32) : IVec S200000 32) := by
  show after ops1 (F0 m c) _ = _
  after_results_simp

/-! ### Window 2: layer 1's update of the card nodes before the clamp, and the mean over the merchants -/

theorem f2_arg3 (c : Dev nD) : F2 m c (Proc.devRef .tc main_arg3) = (RS.inp m c).a3 := (keep2 _ _ (by decide)).trans (f1_arg3 m c)
theorem f2_arg4 (c : Dev nD) : F2 m c (Proc.devRef .tc main_arg4) = (RS.inp m c).a4 := (keep2 _ _ (by decide)).trans (f1_arg4 m c)
theorem f2_arg5 (c : Dev nD) : F2 m c (Proc.devRef .tc main_arg5) = (RS.inp m c).a5 := (keep2 _ _ (by decide)).trans (f1_arg5 m c)
theorem f2_arg6 (c : Dev nD) : F2 m c (Proc.devRef .tc main_arg6) = (RS.inp m c).a6 := (keep2 _ _ (by decide)).trans (f1_arg6 m c)
theorem f2_arg15 (c : Dev nD) : F2 m c (Proc.devRef .tc main_arg15) = (RS.inp m c).a15 := (keep2 _ _ (by decide)).trans (f1_arg15 m c)
theorem f2_arg16 (c : Dev nD) : F2 m c (Proc.devRef .tc main_arg16) = (RS.inp m c).a16 := (keep2 _ _ (by decide)).trans (f1_arg16 m c)
theorem f2_arg17 (c : Dev nD) : F2 m c (Proc.devRef .tc main_arg17) = (RS.inp m c).a17 := (keep2 _ _ (by decide)).trans (f1_arg17 m c)
theorem f2_arg18 (c : Dev nD) : F2 m c (Proc.devRef .tc main_arg18) = (RS.inp m c).a18 := (keep2 _ _ (by decide)).trans (f1_arg18 m c)
theorem f2_arg19 (c : Dev nD) : F2 m c (Proc.devRef .tc main_arg19) = (RS.inp m c).a19 := (keep2 _ _ (by decide)).trans (f1_arg19 m c)
theorem f2_arg20 (c : Dev nD) : F2 m c (Proc.devRef .tc main_arg20) = (RS.inp m c).a20 := (keep2 _ _ (by decide)).trans (f1_arg20 m c)
theorem f2_arg21 (c : Dev nD) : F2 m c (Proc.devRef .tc main_arg21) = (RS.inp m c).a21 := (keep2 _ _ (by decide)).trans (f1_arg21 m c)

theorem f2_v26 (c : Dev nD) : F2 m c (Proc.devRef .tc main_v26) = RS.hMerch0 (RS.inp m c) := (keep2 _ _ (by decide)).trans (f1_v26 m c)
theorem f2_v95 (c : Dev nD) : F2 m c (Proc.devRef .tc main_v95) = RS.txPre (RS.inp m c) (RS.stack0 (RS.inp m c).a15) (RS.bstack0 (RS.inp m c).a16) (RS.stack0 (RS.inp m c).a17) (RS.hTx0 (RS.inp m c)) (RS.hCard0 (RS.inp m c)) (RS.hMerch0 (RS.inp m c)) := (keep2 _ _ (by decide)).trans (f1_v95 m c)
set_option maxHeartbeats 4000000 in
theorem f2_v126 (c : Dev nD) : F2 m c (Proc.devRef .tc main_v126) = RS.cardPre (RS.inp m c) (RS.stack0 (RS.inp m c).a15) (RS.bstack0 (RS.inp m c).a16) (RS.stack0 (RS.inp m c).a17) (RS.hTx0 (RS.inp m c)) (RS.hCard0 (RS.inp m c)) := by
  show after ops2 (F1 m c) _ = _
  after_results_simp
  rw [f1_arg4 m c, f1_v102 m c, f1_v4 m c, f1_arg3 m c, f1_v97 m c, f1_v99 m c, f1_v15 m c, f1_v101 m c]
  rfl
theorem f2_v128 (c : Dev nD) : F2 m c (Proc.devRef .tc main_v128) = RS.w3 (RS.stack0 (RS.inp m c).a15) := by
  show after ops2 (F1 m c) _ = _
  after_results_simp
  rw [f1_v28 m c]
  rfl
theorem f2_v130 (c : Dev nD) : F2 m c (Proc.devRef .tc main_v130) = RS.b3 (RS.bstack0 (RS.inp m c).a16) := by
  show after ops2 (F1 m c) _ = _
  after_results_simp
  rw [f1_v30 m c]
  rfl
theorem f2_v132 (c : Dev nD) : F2 m c (Proc.devRef .tc main_v132) = RS.w3 (RS.stack0 (RS.inp m c).a17) := by
  show after ops2 (F1 m c) _ = _
  after_results_simp
  rw [f1_v32 m c]
  rfl
set_option maxHeartbeats 4000000 in
theorem f2_v151 (c : Dev nD) : F2 m c (Proc.devRef .tc main_v151) = RS.meanMerch (RS.gatherTx (RS.hTx0 (RS.inp m c)) (RS.inp m c).a6) (RS.inp m c).a5 := by
  show after ops2 (F1 m c) _ = _
  after_results_simp
  rw [f1_arg6 m c, f1_v4 m c, f1_arg5 m c]
  rfl

/-! ### Window 3: layer 1's three clamps, layer 2's stacked weights, and the card half of layer 2's update of the transaction nodes -/

theorem f3_arg3 (c : Dev nD) : F3 m c (Proc.devRef .tc main_arg3) = (RS.inp m c).a3 := (keep3 _ _ (by decide)).trans (f2_arg3 m c)
theorem f3_arg4 (c : Dev nD) : F3 m c (Proc.devRef .tc main_arg4) = (RS.inp m c).a4 := (keep3 _ _ (by decide)).trans (f2_arg4 m c)
theorem f3_arg5 (c : Dev nD) : F3 m c (Proc.devRef .tc main_arg5) = (RS.inp m c).a5 := (keep3 _ _ (by decide)).trans (f2_arg5 m c)
theorem f3_arg6 (c : Dev nD) : F3 m c (Proc.devRef .tc main_arg6) = (RS.inp m c).a6 := (keep3 _ _ (by decide)).trans (f2_arg6 m c)
theorem f3_arg18 (c : Dev nD) : F3 m c (Proc.devRef .tc main_arg18) = (RS.inp m c).a18 := (keep3 _ _ (by decide)).trans (f2_arg18 m c)
theorem f3_arg19 (c : Dev nD) : F3 m c (Proc.devRef .tc main_arg19) = (RS.inp m c).a19 := (keep3 _ _ (by decide)).trans (f2_arg19 m c)
theorem f3_arg20 (c : Dev nD) : F3 m c (Proc.devRef .tc main_arg20) = (RS.inp m c).a20 := (keep3 _ _ (by decide)).trans (f2_arg20 m c)
theorem f3_arg21 (c : Dev nD) : F3 m c (Proc.devRef .tc main_arg21) = (RS.inp m c).a21 := (keep3 _ _ (by decide)).trans (f2_arg21 m c)

set_option maxHeartbeats 4000000 in
theorem f3_v158 (c : Dev nD) : F3 m c (Proc.devRef .tc main_v158) = RS.hTx1 (RS.inp m c) := by
  show after ops3 (F2 m c) _ = _
  after_results_simp
  simp only [TRef.ofBuf, TRef.toBuf, cast_eq]
  rw [f2_v95 m c]
  rfl
set_option maxHeartbeats 4000000 in
theorem f3_v159 (c : Dev nD) : F3 m c (Proc.devRef .tc main_v159) = RS.hCard1 (RS.inp m c) := by
  show after ops3 (F2 m c) _ = _
  after_results_simp
  simp only [TRef.ofBuf, TRef.toBuf, cast_eq]
  rw [f2_v126 m c]
  rfl
set_option maxHeartbeats 4000000 in
theorem f3_v160 (c : Dev nD) : F3 m c (Proc.devRef .tc main_v160) = RS.hMerch1 (RS.inp m c) := by
  show after ops3 (F2 m c) _ = _
  after_results_simp
  simp only [TRef.ofBuf, TRef.toBuf, cast_eq]
  rw [f2_v151 m c, f2_v128 m c, f2_v130 m c, f2_v26 m c, f2_v132 m c]
  rfl
theorem f3_v162 (c : Dev nD) : F3 m c (Proc.devRef .tc main_v162) = RS.stack1 (RS.inp m c).a15 := by
  show after ops3 (F2 m c) _ = _
  after_results_simp
  rw [f2_arg15 m c]
  rfl
theorem f3_v164 (c : Dev nD) : F3 m c (Proc.devRef .tc main_v164) = RS.bstack1 (RS.inp m c).a16 := by
  show after ops3 (F2 m c) _ = _
  after_results_simp
  rw [f2_arg16 m c]
  rfl
theorem f3_v166 (c : Dev nD) : F3 m c (Proc.devRef .tc main_v166) = RS.stack1 (RS.inp m c).a17 := by
  show after ops3 (F2 m c) _ = _
  after_results_simp
  rw [f2_arg17 m c]
  rfl
set_option maxHeartbeats 4000000 in
/-- The aggregation of the card rows into the transaction nodes, layer 2. -/
theorem f3_v197 (c : Dev nD) : F3 m c (Proc.devRef .tc main_v197) = addf (addf (RS.dotTx (RS.meanTx (RS.gatherCard (RS.hCard1 (RS.inp m c)) (RS.inp m c).a3) (RS.inp m c).a4) (RS.w0 (RS.stack1 (RS.inp m c).a15))) (RS.biasTx (RS.b0 (RS.bstack1 (RS.inp m c).a16)))) (RS.dotTx (RS.hTx1 (RS.inp m c)) (RS.w0 (RS.stack1 (RS.inp m c).a17))) := by
  show after ops3 (F2 m c) _ = _
  after_results_simp
  simp only [TRef.ofBuf, TRef.toBuf, cast_eq]
  rw [f2_v126 m c, f2_v95 m c, f2_arg3 m c, f2_arg4 m c, f2_arg15 m c, f2_arg16 m c, f2_arg17 m c]
  rfl
theorem f3_v199 (c : Dev nD) : F3 m c (Proc.devRef .tc main_v199) = RS.w2 (RS.stack1 (RS.inp m c).a15) := by
  show after ops3 (F2 m c) _ = _
  after_results_simp
  rw [f2_arg15 m c]
  rfl
theorem f3_v201 (c : Dev nD) : F3 m c (Proc.devRef .tc main_v201) = RS.b2 (RS.bstack1 (RS.inp m c).a16) := by
  show after ops3 (F2 m c) _ = _
  after_results_simp
  rw [f2_arg16 m c]
  rfl
theorem f3_v203 (c : Dev nD) : F3 m c (Proc.devRef .tc main_v203) = RS.w2 (RS.stack1 (RS.inp m c).a17) := by
  show after ops3 (F2 m c) _ = _
  after_results_simp
  rw [f2_arg17 m c]
  rfl
theorem f3_v204 (c : Dev nD) : F3 m c (Proc.devRef .tc main_v204) = (broadcastInDim S200000 ![] bcast_S_S200000 (constantI S_ 32 0#32) : IVec S200000 32) := by
  show after ops3 (F2 m c) _ = _
  after_results_simp

/-! ### Window 4: layer 2's update of the transaction nodes, before the clamp -/

theorem f4_arg18 (c : Dev nD) : F4 m c (Proc.devRef .tc main_arg18) = (RS.inp m c).a18 := (keep4 _ _ (by decide)).trans (f3_arg18 m c)
theorem f4_arg19 (c : Dev nD) : F4 m c (Proc.devRef .tc main_arg19) = (RS.inp m c).a19 := (keep4 _ _ (by decide)).trans (f3_arg19 m c)
theorem f4_arg20 (c : Dev nD) : F4 m c (Proc.devRef .tc main_arg20) = (RS.inp m c).a20 := (keep4 _ _ (by decide)).trans (f3_arg20 m c)
theorem f4_arg21 (c : Dev nD) : F4 m c (Proc.devRef .tc main_arg21) = (RS.inp m c).a21 := (keep4 _ _ (by decide)).trans (f3_arg21 m c)

set_option maxHeartbeats 4000000 in
theorem f4_v229 (c : Dev nD) : F4 m c (Proc.devRef .tc main_v229) = RS.txPre (RS.inp m c) (RS.stack1 (RS.inp m c).a15) (RS.bstack1 (RS.inp m c).a16) (RS.stack1 (RS.inp m c).a17) (RS.hTx1 (RS.inp m c)) (RS.hCard1 (RS.inp m c)) (RS.hMerch1 (RS.inp m c)) := by
  show after ops4 (F3 m c) _ = _
  after_results_simp
  rw [f3_arg5 m c, f3_v204 m c, f3_v160 m c, f3_arg6 m c, f3_v199 m c, f3_v201 m c, f3_v158 m c, f3_v203 m c, f3_v197 m c]
  rfl

/-! ### Window 5: the clamp, the head, and the result -/

set_option maxHeartbeats 4000000 in
/-- The result buffer after the six windows is the reference dataflow of the launch contents. -/
theorem final_result (c : Dev nD) : final (F := Ideal) m c (Proc.devRef .tc main_v304) = RS.result (RS.inp m c) := by
  show after ops5 (F4 m c) _ = _
  after_results_simp
  simp only [TRef.ofBuf, TRef.toBuf, cast_eq]
  rw [f4_v229 m c, f4_arg18 m c, f4_arg19 m c, f4_arg20 m c, f4_arg21 m c]
  rfl

theorem final_arg0 (c : Dev nD) : final (F := Ideal) m c (Proc.devRef .tc main_arg0) = m ((c.tc : Thread nD τ).loc main_arg0) :=
  final_keep m c main_arg0 (by decide) (by decide) (by decide) (by decide) (by decide) (by decide)

theorem final_arg1 (c : Dev nD) : final (F := Ideal) m c (Proc.devRef .tc main_arg1) = m ((c.tc : Thread nD τ).loc main_arg1) :=
  final_keep m c main_arg1 (by decide) (by decide) (by decide) (by decide) (by decide) (by decide)

theorem final_arg2 (c : Dev nD) : final (F := Ideal) m c (Proc.devRef .tc main_arg2) = m ((c.tc : Thread nD τ).loc main_arg2) :=
  final_keep m c main_arg2 (by decide) (by decide) (by decide) (by decide) (by decide) (by decide)

theorem final_arg3 (c : Dev nD) : final (F := Ideal) m c (Proc.devRef .tc main_arg3) = m ((c.tc : Thread nD τ).loc main_arg3) :=
  final_keep m c main_arg3 (by decide) (by decide) (by decide) (by decide) (by decide) (by decide)

theorem final_arg4 (c : Dev nD) : final (F := Ideal) m c (Proc.devRef .tc main_arg4) = m ((c.tc : Thread nD τ).loc main_arg4) :=
  final_keep m c main_arg4 (by decide) (by decide) (by decide) (by decide) (by decide) (by decide)

theorem final_arg5 (c : Dev nD) : final (F := Ideal) m c (Proc.devRef .tc main_arg5) = m ((c.tc : Thread nD τ).loc main_arg5) :=
  final_keep m c main_arg5 (by decide) (by decide) (by decide) (by decide) (by decide) (by decide)

theorem final_arg6 (c : Dev nD) : final (F := Ideal) m c (Proc.devRef .tc main_arg6) = m ((c.tc : Thread nD τ).loc main_arg6) :=
  final_keep m c main_arg6 (by decide) (by decide) (by decide) (by decide) (by decide) (by decide)

theorem final_arg7 (c : Dev nD) : final (F := Ideal) m c (Proc.devRef .tc main_arg7) = m ((c.tc : Thread nD τ).loc main_arg7) :=
  final_keep m c main_arg7 (by decide) (by decide) (by decide) (by decide) (by decide) (by decide)

theorem final_arg8 (c : Dev nD) : final (F := Ideal) m c (Proc.devRef .tc main_arg8) = m ((c.tc : Thread nD τ).loc main_arg8) :=
  final_keep m c main_arg8 (by decide) (by decide) (by decide) (by decide) (by decide) (by decide)

theorem final_arg9 (c : Dev nD) : final (F := Ideal) m c (Proc.devRef .tc main_arg9) = m ((c.tc : Thread nD τ).loc main_arg9) :=
  final_keep m c main_arg9 (by decide) (by decide) (by decide) (by decide) (by decide) (by decide)

theorem final_arg10 (c : Dev nD) : final (F := Ideal) m c (Proc.devRef .tc main_arg10) = m ((c.tc : Thread nD τ).loc main_arg10) :=
  final_keep m c main_arg10 (by decide) (by decide) (by decide) (by decide) (by decide) (by decide)

theorem final_arg11 (c : Dev nD) : final (F := Ideal) m c (Proc.devRef .tc main_arg11) = m ((c.tc : Thread nD τ).loc main_arg11) :=
  final_keep m c main_arg11 (by decide) (by decide) (by decide) (by decide) (by decide) (by decide)

theorem final_arg12 (c : Dev nD) : final (F := Ideal) m c (Proc.devRef .tc main_arg12) = m ((c.tc : Thread nD τ).loc main_arg12) :=
  final_keep m c main_arg12 (by decide) (by decide) (by decide) (by decide) (by decide) (by decide)

theorem final_arg13 (c : Dev nD) : final (F := Ideal) m c (Proc.devRef .tc main_arg13) = m ((c.tc : Thread nD τ).loc main_arg13) :=
  final_keep m c main_arg13 (by decide) (by decide) (by decide) (by decide) (by decide) (by decide)

theorem final_arg14 (c : Dev nD) : final (F := Ideal) m c (Proc.devRef .tc main_arg14) = m ((c.tc : Thread nD τ).loc main_arg14) :=
  final_keep m c main_arg14 (by decide) (by decide) (by decide) (by decide) (by decide) (by decide)

theorem final_arg15 (c : Dev nD) : final (F := Ideal) m c (Proc.devRef .tc main_arg15) = m ((c.tc : Thread nD τ).loc main_arg15) :=
  final_keep m c main_arg15 (by decide) (by decide) (by decide) (by decide) (by decide) (by decide)

theorem final_arg16 (c : Dev nD) : final (F := Ideal) m c (Proc.devRef .tc main_arg16) = m ((c.tc : Thread nD τ).loc main_arg16) :=
  final_keep m c main_arg16 (by decide) (by decide) (by decide) (by decide) (by decide) (by decide)

theorem final_arg17 (c : Dev nD) : final (F := Ideal) m c (Proc.devRef .tc main_arg17) = m ((c.tc : Thread nD τ).loc main_arg17) :=
  final_keep m c main_arg17 (by decide) (by decide) (by decide) (by decide) (by decide) (by decide)

theorem final_arg18 (c : Dev nD) : final (F := Ideal) m c (Proc.devRef .tc main_arg18) = m ((c.tc : Thread nD τ).loc main_arg18) :=
  final_keep m c main_arg18 (by decide) (by decide) (by decide) (by decide) (by decide) (by decide)

theorem final_arg19 (c : Dev nD) : final (F := Ideal) m c (Proc.devRef .tc main_arg19) = m ((c.tc : Thread nD τ).loc main_arg19) :=
  final_keep m c main_arg19 (by decide) (by decide) (by decide) (by decide) (by decide) (by decide)

theorem final_arg20 (c : Dev nD) : final (F := Ideal) m c (Proc.devRef .tc main_arg20) = m ((c.tc : Thread nD τ).loc main_arg20) :=
  final_keep m c main_arg20 (by decide) (by decide) (by decide) (by decide) (by decide) (by decide)

theorem final_arg21 (c : Dev nD) : final (F := Ideal) m c (Proc.devRef .tc main_arg21) = m ((c.tc : Thread nD τ).loc main_arg21) :=
  final_keep m c main_arg21 (by decide) (by decide) (by decide) (by decide) (by decide) (by decide)

end Cert.ReferenceIdeal.RefWalk

end
-- ==== Proof.LibIdealReal.lean ====
/-
  General lemmas: the extended-real operations of the ideal float instance on REAL operands give the real result.
  A finite sum of real numbers embedded in the extended reals is the embedded sum; the ideal quotient of two reals with
  a nonzero divisor is the real quotient; the ideal logarithm of a positive real is the real logarithm; an ordered
  compare of two reals is the bit of the real order; a one-bit word widened to 32 bits and converted to a float is the
  real 1 or 0; a maximum over a nonempty finite family of reals starting from minus infinity is the real maximum.
-/
import Idealize.ShloMosaic.PureOps.Ideal
import Idealize.ShloMosaic.PureOps.Ideal.Laws

noncomputable section

namespace Idealize.ShloMosaic.IdealReal

open Idealize.ShloMosaic

/-- A finite sum of embedded reals is the embedded sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The ideal quotient of two reals, the divisor nonzero, is the real quotient. -/
theorem div_coe_coe (x y : ℝ) (hy : y ≠ 0) : Ideal.div (x : EReal) (y : EReal) = ((x / y : ℝ) : EReal) := by
  rw [Ideal.div_coe hy, ← EReal.coe_mul]
  congr 1
  field_simp

/-- The ideal logarithm of a positive real is the real logarithm. -/
theorem log_coe_pos {x : ℝ} (hx : 0 < x) : Ideal.log (x : EReal) = ((Real.log x : ℝ) : EReal) := by
  rw [Ideal.log_coe, if_neg (not_le.mpr hx)]

/-- The ideal exponential of a real is the real exponential. -/
theorem exp_coe' (x : ℝ) : Ideal.exp (x : EReal) = ((Real.exp x : ℝ) : EReal) := Ideal.exp_coe x

theorem cmp_ogt_coe (x y : ℝ) : Ideal.cmp .ogt (x : EReal) (y : EReal) = if y < x then 1#1 else 0#1 := by
  unfold Ideal.cmp
  by_cases h : y < x
  · simp [h, EReal.coe_lt_coe_iff]
  · simp [h, EReal.coe_lt_coe_iff]

theorem cmp_oge_coe (x y : ℝ) : Ideal.cmp .oge (x : EReal) (y : EReal) = if y ≤ x then 1#1 else 0#1 := by
  unfold Ideal.cmp
  by_cases h : y ≤ x
  · simp [h, EReal.coe_le_coe_iff]
  · simp [h, EReal.coe_le_coe_iff]

/-- A one-bit word widened to 32 bits and converted (signed) to a float is the real 1 or 0. -/
theorem sitofp_setWidth_bit (b : BitVec 1) :
    (FloatOps.sitofp (F := Ideal) .f32 (b.setWidth 32) : EReal) = if b = 1#1 then ((1 : ℝ) : EReal) else ((0 : ℝ) : EReal) := by
  have hb : b = 0#1 ∨ b = 1#1 := by
    have := b.isLt
    rcases Nat.lt_or_ge b.toNat 1 with h | h
    · left; apply BitVec.eq_of_toNat_eq; simp; omega
    · right; apply BitVec.eq_of_toNat_eq; simp; omega
  rcases hb with rfl | rfl
  · show ((((0#1 : BitVec 1).setWidth 32).toInt : ℝ) : EReal) = _
    simp
  · show ((((1#1 : BitVec 1).setWidth 32).toInt : ℝ) : EReal) = _
    norm_num [BitVec.toInt]

/-- The maximum of embedded reals is the embedded maximum. -/
theorem max_coe (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- A product with an embedded 1-or-0 selects. -/
theorem coe_ite {p : Prop} [Decidable p] (a b : ℝ) :
    (if p then ((a : ℝ) : EReal) else ((b : ℝ) : EReal)) = (((if p then a else b) : ℝ) : EReal) := by
  split <;> rfl

end Idealize.ShloMosaic.IdealReal

end
-- ==== Proof.LibSegmentSum.lean ====
/-
  A row scatter-add read at an index. A `stablehlo.scatter` with an `add` body whose scatter indices are one column
  `[E, 1]` of row numbers, whose updates are `E` rows of width `D` and whose operand has `M` rows of width `D`
  (what `jax.ops.segment_sum` of a rank-2 array lowers to) adds update row `e` onto operand row `idx e`: the element
  `(r, k)` of the result is the operand's plus the sum, over the update rows `e` whose index is `r`, of the update's
  element `(e, k)`. An index outside `[0, M)` names no row and its update row is dropped. The column `k` plays no part
  in which rows land, so a scatter of a wide update array restricted to some columns is the scatter of those columns.
-/
import Idealize.ShloMosaic.PureOps.Ideal
import Idealize.ShloMosaic.PureOps.Contract
import Idealize.ShloMosaic.Lib.ValueIdx

noncomputable section

open scoped BigOperators

namespace Cert.LibSegmentSum

open Idealize.ShloMosaic Idealize.ShloMosaic.ValueIdx

/-- The dimension numbers of a row scatter: update axis 1 is the window (operand axis 1), operand axis 0 is the
    inserted one and the one the single index component names, the index vector lies along axis 1 of the indices. -/
abbrev rowScatterDims (M D E : Nat)
    (wf : ScatterDims.WF (⟨2, ![M, D]⟩ : Shape) (⟨2, ![E, 1]⟩ : Shape) (⟨2, ![E, D]⟩ : Shape) [1] [0] [0] 1) :
    ScatterDims (⟨2, ![M, D]⟩ : Shape) (⟨2, ![E, 1]⟩ : Shape) (⟨2, ![E, D]⟩ : Shape) where
  updateWindowDims := [1]
  insertedWindowDims := [0]
  scatterDimsToOperandDims := [0]
  indexVectorDim := 1
  wf := wf

/-- On operand axis 0 the window starts at row `e`'s index word, read signed. -/
private theorem start_zero {M D E w : Nat}
    (wf : ScatterDims.WF (⟨2, ![M, D]⟩ : Shape) (⟨2, ![E, 1]⟩ : Shape) (⟨2, ![E, D]⟩ : Shape) [1] [0] [0] 1)
    (idx : IVec (⟨2, ![E, 1]⟩ : Shape) w) (e : Fin E) (k' : Fin D) :
    (rowScatterDims M D E wf).start (ix2 e k') idx 0 = (idx (ix2 e (0 : Fin 1))).toInt := by
  unfold ScatterDims.start
  rw [dif_pos (show (0 : Fin 2) ∈ (rowScatterDims M D E wf).scatterDimsToOperandDims from List.mem_singleton.mpr rfl)]
  have hsi : (rowScatterDims M D E wf).siIdx (ix2 e k') ⟨List.idxOf (0 : Fin 2) (rowScatterDims M D E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Operand axis 1 is not named by the index vector: the window starts at 0 there. -/
private theorem start_one {M D E w : Nat}
    (wf : ScatterDims.WF (⟨2, ![M, D]⟩ : Shape) (⟨2, ![E, 1]⟩ : Shape) (⟨2, ![E, D]⟩ : Shape) [1] [0] [0] 1)
    (idx : IVec (⟨2, ![E, 1]⟩ : Shape) w) (j : (⟨2, ![E, D]⟩ : Shape).Idx) :
    (rowScatterDims M D E wf).start j idx 1 = 0 := by
  unfold ScatterDims.start
  rw [dif_neg (show ¬ (1 : Fin 2) ∈ (rowScatterDims M D E wf).scatterDimsToOperandDims from (by decide : ¬ (1 : Fin 2) ∈ ([0] : List (Fin 2))))]

/-- Operand axis 0 is inserted: the window coordinate there is 0. -/
private theorem window_zero {M D E : Nat}
    (wf : ScatterDims.WF (⟨2, ![M, D]⟩ : Shape) (⟨2, ![E, 1]⟩ : Shape) (⟨2, ![E, D]⟩ : Shape) [1] [0] [0] 1)
    (j : (⟨2, ![E, D]⟩ : Shape).Idx) :
    (rowScatterDims M D E wf).window j 0 = 0 := by
  unfold ScatterDims.window
  rw [dif_neg (show ¬ (0 : Fin 2) ∈ (rowScatterDims M D E wf).sKept from (by decide : ¬ (0 : Fin 2) ∈ (List.finRange 2).filter (· ∉ [(0 : Fin 2)])))]

/-- On operand axis 1 the window coordinate is the update's column. -/
private theorem window_one {M D E : Nat}
    (wf : ScatterDims.WF (⟨2, ![M, D]⟩ : Shape) (⟨2, ![E, 1]⟩ : Shape) (⟨2, ![E, D]⟩ : Shape) [1] [0] [0] 1)
    (e : Fin E) (k' : Fin D) :
    (rowScatterDims M D E wf).window (ix2 e k') 1 = k'.val := by
  unfold ScatterDims.window
  rw [dif_pos (show (1 : Fin 2) ∈ (rowScatterDims M D E wf).sKept from (by decide : (1 : Fin 2) ∈ (List.finRange 2).filter (· ∉ [(0 : Fin 2)])))]
  rfl

/-- Update element `(e, k')` lands on operand element `(r, k)` exactly when row `e`'s index is `r` and the columns agree. -/
theorem resultIdx?_eq_some_iff {M D E w : Nat}
    (wf : ScatterDims.WF (⟨2, ![M, D]⟩ : Shape) (⟨2, ![E, 1]⟩ : Shape) (⟨2, ![E, D]⟩ : Shape) [1] [0] [0] 1)
    (idx : IVec (⟨2, ![E, 1]⟩ : Shape) w) (e : Fin E) (k' : Fin D) (r : Fin M) (k : Fin D) :
    (rowScatterDims M D E wf).resultIdx? (ix2 e k') idx = some (ix2 r k)
      ↔ (idx (ix2 e (0 : Fin 1))).toInt = (r.val : ℤ) ∧ k' = k := by
  have hs0 := start_zero wf idx e k'
  have hs1 := start_one wf idx (ix2 e k')
  have hw0 := window_zero wf (ix2 e k')
  have hw1 := window_one wf e k'
  have hr := r.isLt
  have hk := k.isLt
  have hk' := k'.isLt
  constructor
  · intro hres
    unfold ScatterDims.resultIdx? at hres
    split_ifs at hres with h
    rw [Option.some.injEq] at hres
    have e0 : ((rowScatterDims M D E wf).start (ix2 e k') idx 0 + (rowScatterDims M D E wf).window (ix2 e k') 0).toNat = r.val :=
      congrArg Fin.val (congrFun hres 0)
    have e1 : ((rowScatterDims M D E wf).start (ix2 e k') idx 1 + (rowScatterDims M D E wf).window (ix2 e k') 1).toNat = k.val :=
      congrArg Fin.val (congrFun hres 1)
    have h0 := (h 0).1
    rw [hs0, hw0] at e0 h0
    rw [hs1, hw1] at e1
    exact ⟨by omega, Fin.ext (by omega)⟩
  · rintro ⟨hidx, rfl⟩
    unfold ScatterDims.resultIdx?
    have h : ∀ a, 0 ≤ (rowScatterDims M D E wf).start (ix2 e k') idx a + (rowScatterDims M D E wf).window (ix2 e k') a
        ∧ (rowScatterDims M D E wf).start (ix2 e k') idx a + (rowScatterDims M D E wf).window (ix2 e k') a
          < (⟨2, ![M, D]⟩ : Shape).size a := by
      refine Fin.forall_fin_two.2 ⟨?_, ?_⟩
      · rw [hs0, hw0]
        show 0 ≤ _ ∧ _ < (M : ℤ)
        omega
      · rw [hs1, hw1]
        show 0 ≤ _ ∧ _ < (D : ℤ)
        omega
    rw [dif_pos h, Option.some.injEq]
    funext a
    refine Fin.ext ?_
    revert a
    refine Fin.forall_fin_two.2 ⟨?_, ?_⟩
    · show ((rowScatterDims M D E wf).start (ix2 e k') idx 0 + (rowScatterDims M D E wf).window (ix2 e k') 0).toNat = r.val
      rw [hs0, hw0]; omega
    · show ((rowScatterDims M D E wf).start (ix2 e k') idx 1 + (rowScatterDims M D E wf).window (ix2 e k') 1).toNat = k'.val
      rw [hs1, hw1]; omega

/-- THE ROW SCATTER-ADD AT `(r, k)`: the operand's element plus the update rows whose index is `r`, at column `k`. -/
theorem rowScatterAdd_apply {M D E w : Nat}
    (wf : ScatterDims.WF (⟨2, ![M, D]⟩ : Shape) (⟨2, ![E, 1]⟩ : Shape) (⟨2, ![E, D]⟩ : Shape) [1] [0] [0] 1)
    (x : (⟨2, ![M, D]⟩ : Shape).Idx → EReal) (idx : IVec (⟨2, ![E, 1]⟩ : Shape) w)
    (u : (⟨2, ![E, D]⟩ : Shape).Idx → EReal) (r : Fin M) (k : Fin D) :
    Ideal.hostScatterAdd (rowScatterDims M D E wf) x idx u (ix2 r k)
      = x (ix2 r k) + ∑ e : Fin E, if (idx (ix2 e (0 : Fin 1))).toInt = (r.val : ℤ) then u (ix2 e k) else 0 := by
  unfold Ideal.hostScatterAdd
  congr 1
  rw [Finset.sum_filter, sum_idx2]
  refine Finset.sum_congr rfl fun e _ => ?_
  simp only [resultIdx?_eq_some_iff]
  by_cases hi : (idx (ix2 e (0 : Fin 1))).toInt = (r.val : ℤ)
  · simp only [hi, true_and, if_true]
    rw [Finset.sum_ite_eq']
    simp
  · simp only [hi, false_and, if_false, Finset.sum_const_zero]

end Cert.LibSegmentSum

end
-- ==== Proof.LibScatterVec.lean ====
/-
  A vector scatter-add read at an index. A `stablehlo.scatter` with an `add` body whose operand is a vector of
  length `M`, whose scatter indices are one column `[E, 1]` of positions and whose updates are a vector of length `E`
  (a segment sum of a vector) adds update `e` onto the operand position that index word `e` names, the word read
  signed: position `r` of the result is the operand's plus the sum of the updates whose word reads `r`. A word outside
  `[0, M)` names no position and its update is dropped.
-/
import Idealize.ShloMosaic.PureOps.Ideal
import Idealize.ShloMosaic.PureOps.Contract
import Idealize.ShloMosaic.Lib.ValueIdx
import Idealize.ShloMosaic.Lib.ValueIdxRank1

noncomputable section

open scoped BigOperators

namespace Cert.LibScatterVec

open Idealize.ShloMosaic Idealize.ShloMosaic.ValueIdx

/-- The dimension numbers of a vector scatter: the updates have no window axis, the operand's one axis is inserted
    and is the axis the single index component names, the index vector lies along axis 1 of the indices. -/
abbrev vecScatterDims (M E : Nat)
    (wf : ScatterDims.WF (⟨1, ![M]⟩ : Shape) (⟨2, ![E, 1]⟩ : Shape) (⟨1, ![E]⟩ : Shape) [] [0] [0] 1) :
    ScatterDims (⟨1, ![M]⟩ : Shape) (⟨2, ![E, 1]⟩ : Shape) (⟨1, ![E]⟩ : Shape) where
  updateWindowDims := []
  insertedWindowDims := [0]
  scatterDimsToOperandDims := [0]
  indexVectorDim := 1
  wf := wf

/-- Update `e` reads its start index at row `e` of the index column. -/
private theorem siIdx_eq {M E : Nat}
    (wf : ScatterDims.WF (⟨1, ![M]⟩ : Shape) (⟨2, ![E, 1]⟩ : Shape) (⟨1, ![E]⟩ : Shape) [] [0] [0] 1)
    (e : Fin E) (c : Fin (vecScatterDims M E wf).scatterDimsToOperandDims.length) :
    (vecScatterDims M E wf).siIdx (ix1 e) c = ix2 e (0 : Fin 1) := by
  have hc : c.val = 0 := by have := c.isLt; simpa using this
  funext b
  refine Fin.ext ?_
  match b with
  | ⟨0, _⟩ => rfl
  | ⟨1, _⟩ => exact hc

/-- The window on the operand's axis starts at update `e`'s index word, read signed. -/
private theorem start_eq {M E w : Nat}
    (wf : ScatterDims.WF (⟨1, ![M]⟩ : Shape) (⟨2, ![E, 1]⟩ : Shape) (⟨1, ![E]⟩ : Shape) [] [0] [0] 1)
    (idx : IVec (⟨2, ![E, 1]⟩ : Shape) w) (e : Fin E) :
    (vecScatterDims M E wf).start (ix1 e) idx 0 = (idx (ix2 e (0 : Fin 1))).toInt := by
  unfold ScatterDims.start
  rw [dif_pos (show (0 : Fin 1) ∈ (vecScatterDims M E wf).scatterDimsToOperandDims from List.mem_singleton.mpr rfl),
    siIdx_eq]

/-- The operand's axis is inserted: the window coordinate there is 0. -/
private theorem window_eq {M E : Nat}
    (wf : ScatterDims.WF (⟨1, ![M]⟩ : Shape) (⟨2, ![E, 1]⟩ : Shape) (⟨1, ![E]⟩ : Shape) [] [0] [0] 1)
    (j : (⟨1, ![E]⟩ : Shape).Idx) :
    (vecScatterDims M E wf).window j 0 = 0 := by
  unfold ScatterDims.window
  rw [dif_neg (show ¬ (0 : Fin 1) ∈ (vecScatterDims M E wf).sKept from
    (by decide : ¬ (0 : Fin 1) ∈ (List.finRange 1).filter (· ∉ [(0 : Fin 1)])))]

/-- Update `e` lands on operand position `r` exactly when its index word reads `r`. -/
theorem resultIdx?_eq_some_iff {M E w : Nat}
    (wf : ScatterDims.WF (⟨1, ![M]⟩ : Shape) (⟨2, ![E, 1]⟩ : Shape) (⟨1, ![E]⟩ : Shape) [] [0] [0] 1)
    (idx : IVec (⟨2, ![E, 1]⟩ : Shape) w) (e : Fin E) (r : Fin M) :
    (vecScatterDims M E wf).resultIdx? (ix1 e) idx = some (ix1 r)
      ↔ (idx (ix2 e (0 : Fin 1))).toInt = (r.val : ℤ) := by
  have hs := start_eq wf idx e
  have hw := window_eq wf (ix1 e)
  have hr := r.isLt
  constructor
  · intro hres
    unfold ScatterDims.resultIdx? at hres
    split_ifs at hres with h
    rw [Option.some.injEq] at hres
    have e0 : ((vecScatterDims M E wf).start (ix1 e) idx 0 + (vecScatterDims M E wf).window (ix1 e) 0).toNat = r.val :=
      congrArg Fin.val (congrFun hres 0)
    have h0 := (h 0).1
    rw [hs, hw] at e0 h0
    omega
  · intro hidx
    unfold ScatterDims.resultIdx?
    have h : ∀ a, 0 ≤ (vecScatterDims M E wf).start (ix1 e) idx a + (vecScatterDims M E wf).window (ix1 e) a
        ∧ (vecScatterDims M E wf).start (ix1 e) idx a + (vecScatterDims M E wf).window (ix1 e) a
          < (⟨1, ![M]⟩ : Shape).size a := by
      refine Fin.forall_fin_one.2 ?_
      rw [hs, hw]
      show 0 ≤ _ ∧ _ < (M : ℤ)
      omega
    rw [dif_pos h, Option.some.injEq]
    funext a
    refine Fin.ext ?_
    revert a
    refine Fin.forall_fin_one.2 ?_
    show ((vecScatterDims M E wf).start (ix1 e) idx 0 + (vecScatterDims M E wf).window (ix1 e) 0).toNat = r.val
    rw [hs, hw]; omega

/-- THE VECTOR SCATTER-ADD AT `r`: the operand's element plus the updates whose index word reads `r`. -/
theorem vecScatterAdd_apply {M E w : Nat}
    (wf : ScatterDims.WF (⟨1, ![M]⟩ : Shape) (⟨2, ![E, 1]⟩ : Shape) (⟨1, ![E]⟩ : Shape) [] [0] [0] 1)
    (x : (⟨1, ![M]⟩ : Shape).Idx → EReal) (idx : IVec (⟨2, ![E, 1]⟩ : Shape) w)
    (u : (⟨1, ![E]⟩ : Shape).Idx → EReal) (r : Fin M) :
    Ideal.hostScatterAdd (vecScatterDims M E wf) x idx u (ix1 r)
      = x (ix1 r) + ∑ e : Fin E, if (idx (ix2 e (0 : Fin 1))).toInt = (r.val : ℤ) then u (ix1 e) else 0 := by
  unfold Ideal.hostScatterAdd
  congr 1
  rw [Finset.sum_filter]
  refine Fintype.sum_equiv idxEquiv1 _ _ fun j => ?_
  obtain ⟨e, rfl⟩ : ∃ e, j = ix1 e := ⟨j 0, eq_ix1 j⟩
  exact if_congr (resultIdx?_eq_some_iff wf idx e r) rfl rfl

end Cert.LibScatterVec

end
-- ==== Proof.LibGather.lean ====
/-
  Two gathers read at an index, and the words of a wrapped row number. What `x[idx]` lowers to when `idx` is a flat
  array of `E` row numbers reshaped to one column `[E, 1]`: a `stablehlo.gather` whose start index map names operand
  axis 0, whose index vector lies along axis 1 of the start indices and whose slice is one element of a flat operand
  `[N]` (result `[E]`) or one whole row of a matrix `[N, D]` (result `[E, D]`, the row along the one offset axis). Result
  element `e` (or `(e, k)`) is the operand at the row number `idx[e, 0]`, read as a signed integer and clamped into
  `[0, N − 1]` as StableHLO clamps every start index: a negative word reads row 0, a word past the end reads row
  `N − 1`. The column `k` passes through untouched. Then the words: the index wrap `x < 0 ? x + n : x` leaves a
  non-negative word alone, and a 32-bit word reads as the natural number `g < 2³¹` exactly when it is `g`'s word.
-/
import Idealize.ShloMosaic.PureOps.Ideal
import Idealize.ShloMosaic.PureOps.Contract
import Idealize.ShloMosaic.Lib.ValueIdx

noncomputable section

namespace Cert.LibGather

open Idealize.ShloMosaic Idealize.ShloMosaic.ValueIdx

/-! ## A flat operand: one element per row number -/

section Vec
variable {α : Type}

/-- The dimension numbers of an element gather: no offset axes, operand axis 0 collapsed and the one the single index
    component names, the index vector along axis 1 of the start indices, slices of one element. -/
abbrev vecGatherDims (N E : Nat)
    (wf : GatherDims.WF (⟨1, ![N]⟩ : Shape) (⟨2, ![E, 1]⟩ : Shape) (⟨1, ![E]⟩ : Shape) [] [0] [] [0] [] 1 ![1]) :
    GatherDims (⟨1, ![N]⟩ : Shape) (⟨2, ![E, 1]⟩ : Shape) (⟨1, ![E]⟩ : Shape) where
  offsetDims := []
  collapsedSliceDims := [0]
  operandBatchingDims := []
  startIndicesBatchingDims := []
  startIndexMap := [0]
  indexVectorDim := 1
  sliceSizes := ![1]
  wf := wf

/-- Result element `e` reads its start index at `[e, 0]`: its batch coordinate, and component 0 of the index vector. -/
private theorem vec_siIdx {N E : Nat}
    (wf : GatherDims.WF (⟨1, ![N]⟩ : Shape) (⟨2, ![E, 1]⟩ : Shape) (⟨1, ![E]⟩ : Shape) [] [0] [] [0] [] 1 ![1])
    (e : Fin E) (c : Fin (vecGatherDims N E wf).startIndexMap.length) :
    (vecGatherDims N E wf).siIdx (ix1 e) c = ix2 e (0 : Fin 1) := by
  have hc : c.val = 0 := Nat.lt_one_iff.mp c.isLt
  funext b; refine Fin.ext ?_
  match b with
  | ⟨0, _⟩ => rfl
  | ⟨1, _⟩ => exact hc

/-- On the operand's one axis the slice starts at row `e`'s index word, read signed and clamped into `[0, N − 1]`. -/
private theorem vec_start {N E w : Nat}
    (wf : GatherDims.WF (⟨1, ![N]⟩ : Shape) (⟨2, ![E, 1]⟩ : Shape) (⟨1, ![E]⟩ : Shape) [] [0] [] [0] [] 1 ![1])
    (idx : IVec (⟨2, ![E, 1]⟩ : Shape) w) (e : Fin E) :
    (vecGatherDims N E wf).start (ix1 e) idx 0 = min (idx (ix2 e (0 : Fin 1))).toInt.toNat (N - 1) := by
  unfold GatherDims.start
  rw [dif_pos (show (0 : Fin 1) ∈ (vecGatherDims N E wf).startIndexMap from List.mem_singleton.mpr rfl), vec_siIdx]
  rfl

/-- THE ELEMENT GATHER AT `e`: the operand at the row number `idx[e, 0]`, read signed and clamped into `[0, N − 1]`. -/
theorem vecGather_apply {N E w : Nat} (hN : 0 < N)
    (wf : GatherDims.WF (⟨1, ![N]⟩ : Shape) (⟨2, ![E, 1]⟩ : Shape) (⟨1, ![E]⟩ : Shape) [] [0] [] [0] [] 1 ![1])
    (x : (⟨1, ![N]⟩ : Shape).Idx → α) (idx : IVec (⟨2, ![E, 1]⟩ : Shape) w) (e : Fin E) :
    Host.gather (vecGatherDims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl)),
    vec_start]
  rfl

end Vec

/-! ## A matrix operand: one whole row per row number -/

section Row
variable {α : Type}

/-- The dimension numbers of a row gather: result axis 1 is the offset axis (operand axis 1, taken whole), operand axis 0
    is collapsed and the one the single index component names, the index vector lies along axis 1 of the start indices,
    slices of one row. -/
abbrev rowGatherDims (N D E : Nat)
    (wf : GatherDims.WF (⟨2, ![N, D]⟩ : Shape) (⟨2, ![E, 1]⟩ : Shape) (⟨2, ![E, D]⟩ : Shape) [1] [0] [] [0] [] 1 ![1, D]) :
    GatherDims (⟨2, ![N, D]⟩ : Shape) (⟨2, ![E, 1]⟩ : Shape) (⟨2, ![E, D]⟩ : Shape) where
  offsetDims := [1]
  collapsedSliceDims := [0]
  operandBatchingDims := []
  startIndicesBatchingDims := []
  startIndexMap := [0]
  indexVectorDim := 1
  sliceSizes := ![1, D]
  wf := wf

/-- Result element `(e, k)` reads its start index at `[e, 0]`: its one batch coordinate `e`, and component 0 of the index
    vector; the column `k` plays no part. -/
private theorem row_siIdx {N D E : Nat}
    (wf : GatherDims.WF (⟨2, ![N, D]⟩ : Shape) (⟨2, ![E, 1]⟩ : Shape) (⟨2, ![E, D]⟩ : Shape) [1] [0] [] [0] [] 1 ![1, D])
    (e : Fin E) (k : Fin D) (c : Fin (rowGatherDims N D E wf).startIndexMap.length) :
    (rowGatherDims N D E wf).siIdx (ix2 e k) c = ix2 e (0 : Fin 1) := by
  have hc : c.val = 0 := Nat.lt_one_iff.mp c.isLt
  funext b; refine Fin.ext ?_
  match b with
  | ⟨0, _⟩ => rfl
  | ⟨1, _⟩ => exact hc

/-- On operand axis 0 the slice starts at row `e`'s index word, read signed and clamped into `[0, N − 1]`. -/
private theorem row_start_zero {N D E w : Nat}
    (wf : GatherDims.WF (⟨2, ![N, D]⟩ : Shape) (⟨2, ![E, 1]⟩ : Shape) (⟨2, ![E, D]⟩ : Shape) [1] [0] [] [0] [] 1 ![1, D])
    (idx : IVec (⟨2, ![E, 1]⟩ : Shape) w) (e : Fin E) (k : Fin D) :
    (rowGatherDims N D E wf).start (ix2 e k) idx 0 = min (idx (ix2 e (0 : Fin 1))).toInt.toNat (N - 1) := by
  unfold GatherDims.start
  rw [dif_pos (show (0 : Fin 2) ∈ (rowGatherDims N D E wf).startIndexMap from List.mem_singleton.mpr rfl), row_siIdx]
  rfl

/-- Operand axis 1 is not named by the index vector: the slice starts at 0 there. -/
private theorem row_start_one {N D E w : Nat}
    (wf : GatherDims.WF (⟨2, ![N, D]⟩ : Shape) (⟨2, ![E, 1]⟩ : Shape) (⟨2, ![E, D]⟩ : Shape) [1] [0] [] [0] [] 1 ![1, D])
    (idx : IVec (⟨2, ![E, 1]⟩ : Shape) w) (j : (⟨2, ![E, D]⟩ : Shape).Idx) :
    (rowGatherDims N D E wf).start j idx 1 = 0 := by
  unfold GatherDims.start
  rw [dif_neg (show ¬ (1 : Fin 2) ∈ (rowGatherDims N D E wf).startIndexMap from
    (by decide : ¬ (1 : Fin 2) ∈ ([0] : List (Fin 2))))]

/-- Operand axis 1 is the one kept axis, read by the result's one offset axis: the offset coordinate there is the
    result's column. -/
private theorem row_off_one {N D E : Nat}
    (wf : GatherDims.WF (⟨2, ![N, D]⟩ : Shape) (⟨2, ![E, 1]⟩ : Shape) (⟨2, ![E, D]⟩ : Shape) [1] [0] [] [0] [] 1 ![1, D])
    (e : Fin E) (k : Fin D) :
    (rowGatherDims N D E wf).offCoord (ix2 e k) 1 = k.val := by
  unfold GatherDims.offCoord
  rw [dif_pos ((GatherDims.mem_sKept _ _).mpr
    ⟨(by decide : ¬ (1 : Fin 2) ∈ ([0] : List (Fin 2))), List.not_mem_nil⟩)]
  rfl

/-- THE ROW GATHER AT `(e, k)`: column `k` of the operand's row `idx[e, 0]`, the row number read signed and clamped into
    `[0, N − 1]`. -/
theorem rowGather_apply {N D E w : Nat} (hN : 0 < N)
    (wf : GatherDims.WF (⟨2, ![N, D]⟩ : Shape) (⟨2, ![E, 1]⟩ : Shape) (⟨2, ![E, D]⟩ : Shape) [1] [0] [] [0] [] 1 ![1, D])
    (x : (⟨2, ![N, D]⟩ : Shape).Idx → α) (idx : IVec (⟨2, ![E, 1]⟩ : Shape) w) (e : Fin E) (k : Fin D) :
    Host.gather (rowGatherDims N D E wf) x idx (ix2 e k)
      = x (ix2 ⟨min (idx (ix2 e (0 : Fin 1))).toInt.toNat (N - 1), by omega⟩ k) := by
  unfold Host.gather
  congr 1
  funext a
  refine Fin.ext ?_
  revert a
  refine Fin.forall_fin_two.2 ⟨?_, ?_⟩
  · show (rowGatherDims N D E wf).start (ix2 e k) idx 0 + (rowGatherDims N D E wf).batchCoord (ix2 e k) 0
        + (rowGatherDims N D E wf).offCoord (ix2 e k) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl)),
      row_start_zero]
    rfl
  · show (rowGatherDims N D E wf).start (ix2 e k) idx 1 + (rowGatherDims N D E wf).batchCoord (ix2 e k) 1
        + (rowGatherDims N D E wf).offCoord (ix2 e k) 1 = k.val
    rw [GatherDims.batchCoord_eq_zero _ _ _ List.not_mem_nil, row_start_one, row_off_one]
    omega

end Row

/-! ## Words: the index wrap on a non-negative word, and a word read as a natural number -/

section Words

/-- A signed "less than zero" test on a word that reads non-negative answers the bit `0`, so a select on it is its
    second operand. -/
theorem select_slt_zero_of_nonneg {α : Type} (x : BitVec 32) (hx : 0 ≤ x.toInt) (a b : α) :
    Scalar.select (IntOp.cmpi .slt x 0#32) a b = b := by
  have h : x.slt 0#32 = false := by
    simp only [BitVec.slt, BitVec.toInt_zero, decide_eq_false_iff_not, not_lt]
    exact hx
  show Scalar.select (BitVec.ofBool (x.slt 0#32)) a b = b
  rw [h]
  exact select_zero a b

/-- The index wrap `x < 0 ? x + 50000 : x` leaves a word that reads non-negative alone. -/
theorem wrap_nonneg (x : BitVec 32) (hx : 0 ≤ x.toInt) :
    Scalar.select (IntOp.cmpi .slt x 0#32) (IntOp.addi x 50000#32) x = x :=
  select_slt_zero_of_nonneg x hx _ _

/-- The same on vectors, read at an index: where `v`'s word reads non-negative, `select (v < z) (v + c) v` with `z` the
    zero vector is `v`'s word, whatever the addend `c`. -/
theorem wrap_apply_of_nonneg {s : Shape} (v : IVec s 32) (z c : IVec s 32) (hz : ∀ i, z i = 0#32) (i : s.Idx)
    (hx : 0 ≤ (v i).toInt) : select (cmpi .slt v z) (addi v c) v i = v i := by
  show Scalar.select (IntOp.cmpi .slt (v i) (z i)) (IntOp.addi (v i) (c i)) (v i) = v i
  rw [hz i]
  exact select_slt_zero_of_nonneg (v i) hx _ _

/-- A 32-bit word reads, signed, as the natural number `g < 2³¹` exactly when it is `g`'s word. -/
theorem toInt_eq_iff_eq_ofNat (x : BitVec 32) (g : Nat) (hg : g < 2 ^ 31) :
    x.toInt = (g : ℤ) ↔ x = BitVec.ofNat 32 g := by
  have hgi : (BitVec.ofNat 32 g).toInt = (g : ℤ) := by
    rw [BitVec.toInt_eq_toNat_cond, BitVec.toNat_ofNat]
    have hm : g % 2 ^ 32 = g := Nat.mod_eq_of_lt (by omega)
    rw [hm, if_pos (by omega)]
  constructor
  · intro h
    exact BitVec.eq_of_toInt_eq (h.trans hgi.symm)
  · rintro rfl
    exact hgi

end Words

end Cert.LibGather

end
-- ==== Proof.Real.lean ====
/-
  Real-valuedness of arrays of extended reals, and its closure under the operations of the network: an affine stage
  of real matrices is real (finite sums of products of reals, a real bias, a maximum with zero), a row gather of a
  real table is real (each result row is some table row), a row scatter-sum of real rows into a real array is real
  (each entry is the old entry plus finitely many update entries), and so are products, quotients by a nonzero real,
  and broadcasts. The distributive law x·(a + b) = x·a + x·b, false at the infinities, holds of real values.
-/
import proofs.«415088_j18769007083672_1_alg».proof.Proof.Spec
import proofs.«415088_j18769007083672_1_alg».proof.Proof.LibIdealReal
import proofs.«415088_j18769007083672_1_alg».proof.Proof.LibSegmentSum
import proofs.«415088_j18769007083672_1_alg».proof.Proof.LibScatterVec
import proofs.«415088_j18769007083672_1_alg».proof.Proof.LibGather

noncomputable section

namespace Cert.Spec

open Idealize.ShloMosaic Idealize.ShloMosaic.ValueIdx

/-- Every entry is (the embedding of) a real number. -/
def IsReal {s : Shape} (v : s.Idx → EReal) : Prop := ∀ i, ∃ r : ℝ, v i = (r : EReal)

/-! ## Real scalars: zero, sums, products, maxima, finite sums, the optional clamp -/

theorem real_zero : ∃ r : ℝ, (0 : EReal) = (r : EReal) := ⟨0, EReal.coe_zero.symm⟩

theorem real_one : ∃ r : ℝ, (1 : EReal) = (r : EReal) := ⟨1, EReal.coe_one.symm⟩

theorem real_add {a b : EReal} (ha : ∃ r : ℝ, a = (r : EReal)) (hb : ∃ r : ℝ, b = (r : EReal)) :
    ∃ r : ℝ, a + b = (r : EReal) := by
  obtain ⟨r, rfl⟩ := ha
  obtain ⟨t, rfl⟩ := hb
  exact ⟨r + t, (EReal.coe_add r t).symm⟩

theorem real_mul {a b : EReal} (ha : ∃ r : ℝ, a = (r : EReal)) (hb : ∃ r : ℝ, b = (r : EReal)) :
    ∃ r : ℝ, a * b = (r : EReal) := by
  obtain ⟨r, rfl⟩ := ha
  obtain ⟨t, rfl⟩ := hb
  exact ⟨r * t, (EReal.coe_mul r t).symm⟩

theorem real_max {a b : EReal} (ha : ∃ r : ℝ, a = (r : EReal)) (hb : ∃ r : ℝ, b = (r : EReal)) :
    ∃ r : ℝ, max a b = (r : EReal) := by
  obtain ⟨r, rfl⟩ := ha
  obtain ⟨t, rfl⟩ := hb
  exact ⟨max r t, IdealReal.max_coe r t⟩

/-- A finite sum of reals is a real. -/
theorem real_sum {ι : Type*} (s : Finset ι) {f : ι → EReal} (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (hf a (Finset.mem_insert_self a s)) (ih fun i hi => hf i (Finset.mem_insert_of_mem hi))

/-- The quotient of a real by a nonzero real is a real. -/
theorem real_div {a b : EReal} (ha : ∃ r : ℝ, a = (r : EReal)) (hb : ∃ r : ℝ, b = (r : EReal)) (hb0 : b ≠ 0) :
    ∃ r : ℝ, Ideal.div a b = (r : EReal) := by
  obtain ⟨r, rfl⟩ := ha
  obtain ⟨t, rfl⟩ := hb
  have ht : t ≠ 0 := fun h => hb0 (by rw [h, EReal.coe_zero])
  exact ⟨r / t, IdealReal.div_coe_coe r t ht⟩

theorem real_clampIf (c : Bool) {v : EReal} (hv : ∃ r : ℝ, v = (r : EReal)) : ∃ r : ℝ, clampIf c v = (r : EReal) := by
  cases c
  · exact hv
  · exact real_max hv real_zero

/-! ## The affine stages -/

theorem isReal_dotAt {M K N : Nat} {x : (Mat M K).Idx → EReal} {w : (Mat K N).Idx → EReal} (hx : IsReal x) (hw : IsReal w)
    (p : Fin M) (q : Fin N) : ∃ r : ℝ, dotAt x w p q = (r : EReal) :=
  real_sum _ fun k _ => real_mul (hx (ix2 p k)) (hw (ix2 k q))

theorem isReal_lin1 {M K N : Nat} (r : Bool) {x : (Mat M K).Idx → EReal} {w : (Mat K N).Idx → EReal}
    {b : (Mat 1 N).Idx → EReal} (hx : IsReal x) (hw : IsReal w) (hb : IsReal b) : IsReal (lin1 r x w b) :=
  fun y => real_clampIf r (real_add (real_add real_zero (isReal_dotAt hx hw (y 0) (y 1))) (hb (ix2 0 (y 1))))

theorem isReal_lin2 {M K₁ K₂ N : Nat} (r : Bool) {x₁ : (Mat M K₁).Idx → EReal} {w₁ : (Mat K₁ N).Idx → EReal}
    {x₂ : (Mat M K₂).Idx → EReal} {w₂ : (Mat K₂ N).Idx → EReal} {b : (Mat 1 N).Idx → EReal}
    (hx₁ : IsReal x₁) (hw₁ : IsReal w₁) (hx₂ : IsReal x₂) (hw₂ : IsReal w₂) (hb : IsReal b) :
    IsReal (lin2 r x₁ w₁ x₂ w₂ b) :=
  fun y => real_clampIf r (real_add (real_add (real_add real_zero (isReal_dotAt hx₁ hw₁ (y 0) (y 1)))
    (isReal_dotAt hx₂ hw₂ (y 0) (y 1))) (hb (ix2 0 (y 1))))

theorem isReal_lin3 {M K₁ K₂ K₃ N : Nat} (r : Bool) {x₁ : (Mat M K₁).Idx → EReal} {w₁ : (Mat K₁ N).Idx → EReal}
    {x₂ : (Mat M K₂).Idx → EReal} {w₂ : (Mat K₂ N).Idx → EReal} {x₃ : (Mat M K₃).Idx → EReal} {w₃ : (Mat K₃ N).Idx → EReal}
    {b : (Mat 1 N).Idx → EReal}
    (hx₁ : IsReal x₁) (hw₁ : IsReal w₁) (hx₂ : IsReal x₂) (hw₂ : IsReal w₂) (hx₃ : IsReal x₃) (hw₃ : IsReal w₃) (hb : IsReal b) :
    IsReal (lin3 r x₁ w₁ x₂ w₂ x₃ w₃ b) :=
  fun y => real_clampIf r (real_add (real_add (real_add (real_add real_zero (isReal_dotAt hx₁ hw₁ (y 0) (y 1)))
    (isReal_dotAt hx₂ hw₂ (y 0) (y 1))) (isReal_dotAt hx₃ hw₃ (y 0) (y 1))) (hb (ix2 0 (y 1))))

/-- The distributive law on real values: a row against the sum of two weight matrices. -/
theorem dotAt_add_right {M K N : Nat} {x : (Mat M K).Idx → EReal} {w w' : (Mat K N).Idx → EReal}
    (hx : IsReal x) (hw : IsReal w) (hw' : IsReal w') (p : Fin M) (q : Fin N) :
    dotAt x (fun i => w i + w' i) p q = dotAt x w p q + dotAt x w' p q := by
  simp only [dotAt]
  rw [← Finset.sum_add_distrib]
  refine Finset.sum_congr rfl fun k _ => ?_
  obtain ⟨a, ha⟩ := hx (ix2 p k)
  obtain ⟨b, hb⟩ := hw (ix2 k q)
  obtain ⟨c, hc⟩ := hw' (ix2 k q)
  rw [ha, hb, hc, ← EReal.coe_add, ← EReal.coe_mul, ← EReal.coe_mul, ← EReal.coe_mul, ← EReal.coe_add, mul_add]

/-! ## Re-indexings: every entry of the result is an entry of the operand -/

/-- Reading a real array through any map of indices gives a real array. -/
theorem isReal_comp {s t : Shape} {x : s.Idx → EReal} (hx : IsReal x) (f : t.Idx → s.Idx) : IsReal (fun i => x (f i)) :=
  fun i => hx (f i)

/-- A constant real array. -/
theorem isReal_const {s : Shape} (r : ℝ) : IsReal (fun _ : s.Idx => (r : EReal)) := fun _ => ⟨r, rfl⟩

/-- A broadcast of a real array is real: each entry of the result is an entry of the operand. -/
theorem isReal_broadcastInDim {s t : Shape} (dims : Fin s.rank → Fin t.rank) (h : s.BroadcastsInDim t dims)
    {x : s.Idx → EReal} (hx : IsReal x) : IsReal (broadcastInDim t dims h x) :=
  fun _ => hx _

/-- A shape cast of a real array is real. -/
theorem isReal_shapeCast {s t : Shape} (h : s.ShapeCasts t) {x : s.Idx → EReal} (hx : IsReal x) :
    IsReal (shapeCast t x h) :=
  fun _ => hx _

/-- A slice of a real array is real. -/
theorem isReal_extractStridedSlice {s t : Shape} (off : Fin s.rank → Nat) (h : s.Slices off t)
    {x : s.Idx → EReal} (hx : IsReal x) : IsReal (extractStridedSlice t off x h) :=
  fun _ => hx _

/-- Any gather of a real table is real: each entry of the result is an entry of the table. -/
theorem isReal_gather {s si t : Shape} {w : Nat} (d : GatherDims s si t) {x : s.Idx → EReal} (hx : IsReal x)
    (idx : IVec si w) : IsReal (Host.gather d x idx) :=
  fun _ => hx _

/-- A row gather of a real table is real. -/
theorem isReal_rowGather {N D E w : Nat} (hN : 0 < N)
    (wf : GatherDims.WF (⟨2, ![N, D]⟩ : Shape) (⟨2, ![E, 1]⟩ : Shape) (⟨2, ![E, D]⟩ : Shape) [1] [0] [] [0] [] 1 ![1, D])
    {x : (Mat N D).Idx → EReal} (hx : IsReal x) (idx : IVec (⟨2, ![E, 1]⟩ : Shape) w) :
    IsReal (Host.gather (Cert.LibGather.rowGatherDims N D E wf) x idx) := by
  intro j
  obtain ⟨e, k, rfl⟩ : ∃ (e : Fin E) (k : Fin D), j = ix2 e k := ⟨j 0, j 1, eq_ix2 j⟩
  rw [Cert.LibGather.rowGather_apply hN]
  exact hx _

/-! ## Scatter-sums: each entry is the old entry plus finitely many update entries -/

/-- Any scatter-sum of real updates into a real array is real. -/
theorem isReal_hostScatterAdd {s si su : Shape} (d : ScatterDims s si su) {w : Nat} {x : s.Idx → EReal}
    {u : su.Idx → EReal} (hx : IsReal x) (hu : IsReal u) (idx : IVec si w) : IsReal (Ideal.hostScatterAdd d x idx u) :=
  fun i => real_add (hx i) (real_sum _ fun j _ => hu j)

/-- A row scatter-sum of real rows into a real array is real. -/
theorem isReal_rowScatterAdd {M D E w : Nat}
    (wf : ScatterDims.WF (⟨2, ![M, D]⟩ : Shape) (⟨2, ![E, 1]⟩ : Shape) (⟨2, ![E, D]⟩ : Shape) [1] [0] [0] 1)
    {x : (Mat M D).Idx → EReal} {u : (Mat E D).Idx → EReal} (hx : IsReal x) (hu : IsReal u)
    (idx : IVec (⟨2, ![E, 1]⟩ : Shape) w) :
    IsReal (Host.scatterAdd (F := Ideal) (φ := .f32) (Cert.LibSegmentSum.rowScatterDims M D E wf) x idx u) :=
  isReal_hostScatterAdd _ hx hu idx

/-- A vector scatter-sum of real entries into a real vector is real. -/
theorem isReal_vecScatterAdd {M E w : Nat}
    (wf : ScatterDims.WF (⟨1, ![M]⟩ : Shape) (⟨2, ![E, 1]⟩ : Shape) (⟨1, ![E]⟩ : Shape) [] [0] [0] 1)
    {x : (⟨1, ![M]⟩ : Shape).Idx → EReal} {u : (⟨1, ![E]⟩ : Shape).Idx → EReal} (hx : IsReal x) (hu : IsReal u)
    (idx : IVec (⟨2, ![E, 1]⟩ : Shape) w) :
    IsReal (Host.scatterAdd (F := Ideal) (φ := .f32) (Cert.LibScatterVec.vecScatterDims M E wf) x idx u) :=
  isReal_hostScatterAdd _ hx hu idx

/-! ## Entrywise arithmetic -/

theorem isReal_mulf {s : Shape} {a b : s.Idx → EReal} (ha : IsReal a) (hb : IsReal b) :
    IsReal (mulf (F := Ideal) (φ := .f32) a b) :=
  fun i => real_mul (ha i) (hb i)

theorem isReal_addf {s : Shape} {a b : s.Idx → EReal} (ha : IsReal a) (hb : IsReal b) :
    IsReal (addf (F := Ideal) (φ := .f32) a b) :=
  fun i => real_add (ha i) (hb i)

theorem isReal_maximumf {s : Shape} {a b : s.Idx → EReal} (ha : IsReal a) (hb : IsReal b) :
    IsReal (maximumf (F := Ideal) (φ := .f32) a b) :=
  fun i => real_max (ha i) (hb i)

/-- The quotient by a real array that is nowhere zero is real. -/
theorem isReal_divf_of_ne_zero {s : Shape} {a b : s.Idx → EReal} (ha : IsReal a) (hb : IsReal b) (hb0 : ∀ i, b i ≠ 0) :
    IsReal (Host.divf (F := Ideal) (φ := .f32) a b) :=
  fun i => real_div (ha i) (hb i) (hb0 i)

end Cert.Spec

end
-- ==== Proof.Bridge0.lean ====
/-
  The precondition as facts about the argument arrays (every float argument real-valued, every row number inside
  [−N, N) of the table it indexes), and short names for the two dataflows.
-/
import proofs.«415088_j18769007083672_1_alg».proof.Proof.KSpec
import proofs.«415088_j18769007083672_1_alg».proof.Proof.RSpec
import proofs.«415088_j18769007083672_1_alg».proof.Proof.Real

noncomputable section

namespace Cert.Bridge

open Idealize.ShloMosaic Idealize.ShloMosaic.ValueIdx Cert.Spec Cert.LibTakeFill

variable [hK : Cert.KernelIdeal.Facts] [hR : Cert.ReferenceIdeal.Facts]

/-- Row numbers inside `[−N, N)`. -/
def InRange (N : ℤ) {E : Nat} (idx : (V1 E).Idx → BitVec 32) : Prop := ∀ e, -N ≤ (idx e).toInt ∧ (idx e).toInt < N

/-- The precondition, read off the arguments: the float arrays real-valued, the row numbers in range. -/
structure Good (I : Inp) : Prop where
  f0 : IsReal I.a0
  f7 : IsReal I.a7
  f8 : IsReal I.a8
  f9 : IsReal I.a9
  f10 : IsReal I.a10
  f11 : IsReal I.a11
  f12 : IsReal I.a12
  f13 : IsReal I.a13
  f14 : IsReal I.a14
  f15 : IsReal I.a15
  f16 : IsReal I.a16
  f17 : IsReal I.a17
  f18 : IsReal I.a18
  f19 : IsReal I.a19
  f20 : IsReal I.a20
  f21 : IsReal I.a21
  r1 : InRange 50000 I.a1
  r2 : InRange 10000 I.a2
  r3 : InRange 50000 I.a3
  r4 : InRange 200000 I.a4
  r5 : InRange 10000 I.a5
  r6 : InRange 200000 I.a6

namespace KS
export Cert.KernelIdeal.KS (row128 takeCardEmb takeMerchEmb takeCard takeMerch takeTx invTx invCard invMerch meanTx meanCard meanMerch
  stack0 stack1 bstack0 bstack1 w0 w1 w2 w3 b0 b1 b2 b3 txNext cardNext merchNext hTx0 hCard0 hMerch0 hTx1 hCard1 hMerch1 hTx2 hidden logits result)
end KS
namespace RS
export Cert.ReferenceIdeal.RS (biasTx biasCard biasMerch reluTx reluCard reluMerch dotTx dotCard dotMerch gatherCardEmb gatherMerchEmb gatherCard
  gatherMerch gatherTx meanTx meanCard meanMerch stack0 stack1 bstack0 bstack1 w0 w1 w2 w3 b0 b1 b2 b3 txPre cardPre merchPre
  hTx0 hCard0 hMerch0 hTx1 hCard1 hMerch1 hTx2 hidden logits result)
end RS

end Cert.Bridge

end
-- ==== Proof.BridgeTake.lean ====
/-
  Takes and means, and their real-valuedness.
  • With every row number in [−N, N) a filling take fills nothing: it is the gather through the wrapped column.
  • A degree is a count of edges, a real number ≥ 0; max(degree, 1) is a real ≥ 1, so the quotient by it is the product
    with its reciprocal: sum · (1 / max(deg, 1)) = sum / max(deg, 1), entry by entry.
  • Every row of a gather is a row of the table, every entry of a scatter-sum a finite sum of update entries: real in,
    real out.
-/
import proofs.«415088_j18769007083672_1_alg».proof.Proof.Bridge0
import Idealize.ShloMosaic.Lib.IdealHost
import Idealize.ShloMosaic.Lib.Pipeline.Value

noncomputable section

namespace Cert.Bridge

open Idealize.ShloMosaic Idealize.ShloMosaic.ValueIdx Cert.Spec Cert.LibTakeFill

variable [hK : Cert.KernelIdeal.Facts] [hR : Cert.ReferenceIdeal.Facts]

/-! ## Takes -/

theorem takeCardEmb_eq (x : (Mat 50000 64).Idx → EReal) (idx : (V1 50000).Idx → BitVec 32) (h : InRange 50000 idx) :
    KS.takeCardEmb x idx = RS.gatherCardEmb x idx := by
  unfold KS.takeCardEmb RS.gatherCardEmb
  exact Cert.Spec.takeFill_eq _ _ _ _ _ _ _ _ _ _ _ x idx _ (by norm_num) (by norm_num) rfl rfl h

theorem takeMerchEmb_eq (x : (Mat 10000 64).Idx → EReal) (idx : (V1 10000).Idx → BitVec 32) (h : InRange 10000 idx) :
    KS.takeMerchEmb x idx = RS.gatherMerchEmb x idx := by
  unfold KS.takeMerchEmb RS.gatherMerchEmb
  exact Cert.Spec.takeFill_eq _ _ _ _ _ _ _ _ _ _ _ x idx _ (by norm_num) (by norm_num) rfl rfl h

theorem takeCard_eq (x : (Mat 50000 128).Idx → EReal) (idx : (V1 200000).Idx → BitVec 32) (h : InRange 50000 idx) :
    KS.takeCard x idx = RS.gatherCard x idx := by
  unfold KS.takeCard RS.gatherCard
  exact Cert.Spec.takeFill_eq _ _ _ _ _ _ _ _ _ _ _ x idx _ (by norm_num) (by norm_num) rfl rfl h

theorem takeMerch_eq (x : (Mat 10000 128).Idx → EReal) (idx : (V1 200000).Idx → BitVec 32) (h : InRange 10000 idx) :
    KS.takeMerch x idx = RS.gatherMerch x idx := by
  unfold KS.takeMerch RS.gatherMerch
  exact Cert.Spec.takeFill_eq _ _ _ _ _ _ _ _ _ _ _ x idx _ (by norm_num) (by norm_num) rfl rfl h

theorem takeTx_eq (x : (Mat 200000 128).Idx → EReal) (idx : (V1 200000).Idx → BitVec 32) (h : InRange 200000 idx) :
    KS.takeTx x idx = RS.gatherTx x idx := by
  unfold KS.takeTx RS.gatherTx
  exact Cert.Spec.takeFill_eq _ _ _ _ _ _ _ _ _ _ _ x idx _ (by norm_num) (by norm_num) rfl rfl h

/-! ## Means -/

/-- A vector laid out as a column and then spread over `D` columns reads, at `(r, k)`, the vector at `r`. -/
theorem colBroadcast_apply {α : Type} {M D : Nat} (hb1 : (V1 M).BroadcastsInDim (Col M) (![0] : Fin 1 → Fin 2))
    (hb2 : (Col M).BroadcastsInDim (Mat M D) (![0, 1] : Fin 2 → Fin 2)) (c : (V1 M).Idx → α) (r : Fin M) (k : Fin D) :
    broadcastInDim (Mat M D) ![0, 1] hb2 (broadcastInDim (Col M) ![0] hb1 c) (ix2 r k) = c (ix1 r) := by
  have e1 : broadcastInDim (Mat M D) ![0, 1] hb2 (broadcastInDim (Col M) ![0] hb1 c) (ix2 r k)
      = broadcastInDim (Col M) ![0] hb1 c (ix2 r (0 : Fin 1)) := by
    refine broadcastInDim_apply ![0, 1] hb2 _ (ix2 r k) (ix2 r (0 : Fin 1)) ?_
    intro a
    fin_cases a
    · show r.val = if M = 1 then 0 else r.val
      split_ifs with hM
      · have := r.isLt; omega
      · rfl
    · show (0 : ℕ) = if (1 : ℕ) = 1 then 0 else _
      simp
  have e2 : broadcastInDim (Col M) ![0] hb1 c (ix2 r (0 : Fin 1)) = c (ix1 r) := by
    refine broadcastInDim_apply ![0] hb1 c (ix2 r (0 : Fin 1)) (ix1 r) ?_
    intro a
    fin_cases a
    show r.val = if M = 1 then 0 else r.val
    split_ifs with hM
    · have := r.isLt; omega
    · rfl
  exact e1.trans e2

/-- A degree — the scatter-sum of ones onto a zero start — is a real number at every position. -/
theorem degree_real {M E : Nat} (wf : ScatterDims.WF (V1 M) (Col E) (V1 E) [] [0] [0] 1)
    (hz : Sc.BroadcastsInDim (V1 M) (![] : Fin 0 → Fin 1)) (ho : Sc.BroadcastsInDim (V1 E) (![] : Fin 0 → Fin 1))
    (idx : IVec (Col E) 32) (r : Fin M) :
    ∃ n : ℝ, Host.scatterAdd (F := Ideal) (φ := .f32) (Cert.LibScatterVec.vecScatterDims M E wf)
        (broadcastInDim (V1 M) ![] hz (constant (F := Ideal) Sc .f32 0x00000000#32)) idx
        (broadcastInDim (V1 E) ![] ho (constant (F := Ideal) Sc .f32 0x3F800000#32)) (ix1 r) = (n : EReal) := by
  refine ⟨0 + ∑ e : Fin E, if (idx (ix2 e (0 : Fin 1))).toInt = (r.val : ℤ) then (1 : ℝ) else 0, ?_⟩
  refine (Cert.LibScatterVec.vecScatterAdd_apply wf _ idx _ r).trans ?_
  show Ideal.ofBits .f32 0x00000000#32
      + ∑ e : Fin E, (if (idx (ix2 e (0 : Fin 1))).toInt = (r.val : ℤ) then Ideal.ofBits .f32 0x3F800000#32 else 0) = _
  rw [Ideal.ofBits_zero_f32, Ideal.ofBits_one_f32, EReal.coe_add, ← IdealReal.coe_sum, EReal.coe_zero]
  congr 1
  refine Finset.sum_congr rfl fun e _ => ?_
  rw [← IdealReal.coe_ite, EReal.coe_one, EReal.coe_zero]

/-- The sum times the reciprocal of the clamped degree is the sum over the clamped degree: the degree is real, its
    maximum with one is a real ≥ 1, and a quotient by a nonzero real is the product with its reciprocal. -/
theorem mean_eq {M D : Nat} (S : FVec Ideal (Mat M D) .f32) (cnt : FVec Ideal (V1 M) .f32)
    (hcnt : ∀ r : Fin M, ∃ n : ℝ, cnt (ix1 r) = (n : EReal))
    (hb0 : Sc.BroadcastsInDim (V1 M) (![] : Fin 0 → Fin 1))
    (hb1 : (V1 M).BroadcastsInDim (Col M) (![0] : Fin 1 → Fin 2))
    (hb2 : (Col M).BroadcastsInDim (Mat M D) (![0, 1] : Fin 2 → Fin 2)) :
    mulf S (broadcastInDim (Mat M D) ![0, 1] hb2 (broadcastInDim (Col M) ![0] hb1
        (Host.divf (broadcastInDim (V1 M) ![] hb0 (constant (F := Ideal) Sc .f32 0x3F800000#32))
          (maximumf cnt (broadcastInDim (V1 M) ![] hb0 (constant (F := Ideal) Sc .f32 0x3F800000#32))))))
      = Host.divf S (broadcastInDim (Mat M D) ![0, 1] hb2 (broadcastInDim (Col M) ![0] hb1
          (maximumf cnt (broadcastInDim (V1 M) ![] hb0 (constant (F := Ideal) Sc .f32 0x3F800000#32))))) := by
  funext j
  obtain ⟨r, k, rfl⟩ : ∃ (r : Fin M) (k : Fin D), j = ix2 r k := ⟨j 0, j 1, eq_ix2 j⟩
  rw [mulf_apply, hostDivf_apply, colBroadcast_apply, colBroadcast_apply, hostDivf_apply, maximumf_apply]
  obtain ⟨n, hn⟩ := hcnt r
  have h1 : broadcastInDim (V1 M) ![] hb0 (constant (F := Ideal) Sc .f32 0x3F800000#32) (ix1 r) = ((1 : ℝ) : EReal) := by
    show Ideal.ofBits .f32 0x3F800000#32 = _
    rw [Ideal.ofBits_one_f32, EReal.coe_one]
  rw [hn, h1, IdealReal.max_coe]
  have hc : max n 1 ≠ 0 := ne_of_gt (lt_of_lt_of_le one_pos (le_max_right n 1))
  rw [IdealReal.div_coe_coe 1 _ hc, Ideal.div_coe hc]

theorem meanTx_eq (feat : (Mat 200000 128).Idx → EReal) (dst : (V1 200000).Idx → BitVec 32) :
    KS.meanTx feat dst (KS.invTx dst) = RS.meanTx feat dst := by
  unfold KS.meanTx KS.invTx RS.meanTx
  exact mean_eq _ _ (fun r => degree_real _ _ _ _ r) _ _ _

theorem meanCard_eq (feat : (Mat 200000 128).Idx → EReal) (dst : (V1 200000).Idx → BitVec 32) :
    KS.meanCard feat dst (KS.invCard dst) = RS.meanCard feat dst := by
  unfold KS.meanCard KS.invCard RS.meanCard
  exact mean_eq _ _ (fun r => degree_real _ _ _ _ r) _ _ _

theorem meanMerch_eq (feat : (Mat 200000 128).Idx → EReal) (dst : (V1 200000).Idx → BitVec 32) :
    KS.meanMerch feat dst (KS.invMerch dst) = RS.meanMerch feat dst := by
  unfold KS.meanMerch KS.invMerch RS.meanMerch
  exact mean_eq _ _ (fun r => degree_real _ _ _ _ r) _ _ _

/-! ## Real-valuedness of the pieces -/

/-- A row scatter-sum of real rows onto a zero start is real: each entry is a finite sum of update entries. -/
theorem rowScatterAdd_isReal {M D E : Nat}
    (wf : ScatterDims.WF (Mat M D) (Col E) (Mat E D) [1] [0] [0] 1)
    (hz : Sc.BroadcastsInDim (Mat M D) (![] : Fin 0 → Fin 2)) (idx : IVec (Col E) 32)
    {u : FVec Ideal (Mat E D) .f32} (hu : IsReal u) :
    IsReal (Host.scatterAdd (F := Ideal) (φ := .f32) (Cert.LibSegmentSum.rowScatterDims M D E wf)
      (broadcastInDim (Mat M D) ![] hz (constant (F := Ideal) Sc .f32 0x00000000#32)) idx u) := by
  intro j
  obtain ⟨r, k, rfl⟩ : ∃ (r : Fin M) (k : Fin D), j = ix2 r k := ⟨j 0, j 1, eq_ix2 j⟩
  choose f hf using hu
  refine ⟨0 + ∑ e : Fin E, if (idx (ix2 e (0 : Fin 1))).toInt = (r.val : ℤ) then f (ix2 e k) else 0, ?_⟩
  refine (Cert.LibSegmentSum.rowScatterAdd_apply wf _ idx _ r k).trans ?_
  show Ideal.ofBits .f32 0x00000000#32
      + ∑ e : Fin E, (if (idx (ix2 e (0 : Fin 1))).toInt = (r.val : ℤ) then u (ix2 e k) else 0) = _
  rw [Ideal.ofBits_zero_f32, EReal.coe_add, ← IdealReal.coe_sum, EReal.coe_zero]
  congr 1
  refine Finset.sum_congr rfl fun e _ => ?_
  rw [← IdealReal.coe_ite, EReal.coe_zero, hf]

/-- A real sum over a degree clamped below at one is real. -/
theorem mean_isReal {M D : Nat} {S : FVec Ideal (Mat M D) .f32} {cnt : FVec Ideal (V1 M) .f32}
    (hS : IsReal S) (hcnt : ∀ r : Fin M, ∃ n : ℝ, cnt (ix1 r) = (n : EReal))
    (hb0 : Sc.BroadcastsInDim (V1 M) (![] : Fin 0 → Fin 1))
    (hb1 : (V1 M).BroadcastsInDim (Col M) (![0] : Fin 1 → Fin 2))
    (hb2 : (Col M).BroadcastsInDim (Mat M D) (![0, 1] : Fin 2 → Fin 2)) :
    IsReal (Host.divf S (broadcastInDim (Mat M D) ![0, 1] hb2 (broadcastInDim (Col M) ![0] hb1
      (maximumf cnt (broadcastInDim (V1 M) ![] hb0 (constant (F := Ideal) Sc .f32 0x3F800000#32)))))) := by
  intro j
  obtain ⟨r, k, rfl⟩ : ∃ (r : Fin M) (k : Fin D), j = ix2 r k := ⟨j 0, j 1, eq_ix2 j⟩
  obtain ⟨s, hs⟩ := hS (ix2 r k)
  obtain ⟨n, hn⟩ := hcnt r
  have h1 : broadcastInDim (V1 M) ![] hb0 (constant (F := Ideal) Sc .f32 0x3F800000#32) (ix1 r) = ((1 : ℝ) : EReal) := by
    show Ideal.ofBits .f32 0x3F800000#32 = _
    rw [Ideal.ofBits_one_f32, EReal.coe_one]
  have hc : max n 1 ≠ 0 := ne_of_gt (lt_of_lt_of_le one_pos (le_max_right n 1))
  refine ⟨s / max n 1, ?_⟩
  rw [hostDivf_apply, colBroadcast_apply, maximumf_apply, hs, hn, h1, IdealReal.max_coe, IdealReal.div_coe_coe _ _ hc]

theorem isReal_gatherCardEmb {x : (Mat 50000 64).Idx → EReal} (hx : IsReal x) (idx : (V1 50000).Idx → BitVec 32) :
    IsReal (RS.gatherCardEmb x idx) := by
  intro j
  unfold RS.gatherCardEmb Host.gather
  exact hx _
theorem isReal_gatherMerchEmb {x : (Mat 10000 64).Idx → EReal} (hx : IsReal x) (idx : (V1 10000).Idx → BitVec 32) :
    IsReal (RS.gatherMerchEmb x idx) := by
  intro j
  unfold RS.gatherMerchEmb Host.gather
  exact hx _
theorem isReal_gatherCard {x : (Mat 50000 128).Idx → EReal} (hx : IsReal x) (idx : (V1 200000).Idx → BitVec 32) :
    IsReal (RS.gatherCard x idx) := by
  intro j
  unfold RS.gatherCard Host.gather
  exact hx _
theorem isReal_gatherMerch {x : (Mat 10000 128).Idx → EReal} (hx : IsReal x) (idx : (V1 200000).Idx → BitVec 32) :
    IsReal (RS.gatherMerch x idx) := by
  intro j
  unfold RS.gatherMerch Host.gather
  exact hx _
theorem isReal_meanTx {feat : (Mat 200000 128).Idx → EReal} (hf : IsReal feat) (dst : (V1 200000).Idx → BitVec 32) :
    IsReal (RS.meanTx feat dst) := by
  unfold RS.meanTx
  exact mean_isReal (rowScatterAdd_isReal _ _ _ hf) (fun r => degree_real _ _ _ _ r) _ _ _
theorem isReal_row128 {b : (V1 128).Idx → EReal} (hb : IsReal b) : IsReal (KS.row128 b) := by
  intro j
  unfold KS.row128 shapeCast
  exact hb _
theorem isReal_stack0 {w : (⟨4, ![2, 4, 128, 128]⟩ : Shape).Idx → EReal} (hw : IsReal w) : IsReal (KS.stack0 w) := by
  intro j
  unfold KS.stack0 shapeCast extractStridedSlice
  exact hw _
theorem isReal_stack1 {w : (⟨4, ![2, 4, 128, 128]⟩ : Shape).Idx → EReal} (hw : IsReal w) : IsReal (KS.stack1 w) := by
  intro j
  unfold KS.stack1 shapeCast extractStridedSlice
  exact hw _
theorem isReal_bstack0 {b : (⟨3, ![2, 4, 128]⟩ : Shape).Idx → EReal} (hb : IsReal b) : IsReal (KS.bstack0 b) := by
  intro j
  unfold KS.bstack0 shapeCast extractStridedSlice
  exact hb _
theorem isReal_w0 {w : (⟨3, ![4, 128, 128]⟩ : Shape).Idx → EReal} (hw : IsReal w) : IsReal (KS.w0 w) := by
  intro j
  unfold KS.w0 shapeCast extractStridedSlice
  exact hw _
theorem isReal_w2 {w : (⟨3, ![4, 128, 128]⟩ : Shape).Idx → EReal} (hw : IsReal w) : IsReal (KS.w2 w) := by
  intro j
  unfold KS.w2 shapeCast extractStridedSlice
  exact hw _
theorem isReal_b0 {b : (Mat 4 128).Idx → EReal} (hb : IsReal b) : IsReal (KS.b0 b) := by
  intro j
  unfold KS.b0 shapeCast extractStridedSlice
  exact hb _
theorem isReal_b2 {b : (Mat 4 128).Idx → EReal} (hb : IsReal b) : IsReal (KS.b2 b) := by
  intro j
  unfold KS.b2 shapeCast extractStridedSlice
  exact hb _

end Cert.Bridge

end
-- ==== Proof.BridgeLin.lean ====
/-
  The affine stages. Entry by entry, 0 + Σₖ x[p,k]·w[k,q] + b[q], clamped at zero or not, is the reference's
  relu(x·w + b): a host product is that sum of products, the bias row broadcast down the rows is b[q], and the
  clamp is the maximum with zero. The transaction update fuses two right-hand weights and two biases:
  hTx·(Wr₀ + Wr₂) = hTx·Wr₀ + hTx·Wr₂ is the distributive law, which holds because hTx and the weights are
  real-valued; what is left is a reassociation of a sum of extended reals, which is always allowed.
-/
import Idealize.ShloMosaic.Lib.KernelVsHost
import Idealize.ShloMosaic.Lib.StackMember
import Idealize.ShloMosaic.Lib.ValueLayout
import proofs.«415088_j18769007083672_1_alg».proof.Proof.Bridge0
import proofs.«415088_j18769007083672_1_alg».proof.Proof.BridgeTake

noncomputable section

namespace Cert.Bridge

open Idealize.ShloMosaic Idealize.ShloMosaic.ValueIdx Idealize.ShloMosaic.StackMember Cert.Spec Cert.LibTakeFill

/-! ## Entry-by-entry readings, over any sizes -/

section Generic

variable {M K K₂ K₃ N : Nat}

/-- A bias vector broadcast to one row and then down the rows, read at (p, q), is its q-th entry. -/
theorem biasRows_apply (b : (V1 N).Idx → EReal) (h1 : (V1 N).BroadcastsInDim (Mat 1 N) ![1])
    (h2 : (Mat 1 N).BroadcastsInDim (Mat M N) ![0, 1]) (p : Fin M) (q : Fin N) :
    broadcastInDim (Mat M N) ![0, 1] h2 (broadcastInDim (Mat 1 N) ![1] h1 b) (ix2 p q) = b (ix1 q) := by
  rw [broadcastInDim_oneRow_apply]
  refine broadcastInDim_apply ![1] h1 b (ix2 (0 : Fin 1) q) (ix1 q) ?_
  intro a
  match a with
  | ⟨0, _⟩ =>
    show q.val = if N = 1 then 0 else q.val
    split
    · have := q.isLt; omega
    · rfl

/-- A host product of an M×K by a K×N matrix, read at (p, q), is the row against the column. -/
theorem hostDot_apply (d : DotDims (Mat M K) (Mat K N) (Mat M N)) (hd : d = DotDims.plain M K N)
    (x : (Mat M K).Idx → EReal) (w : (Mat K N).Idx → EReal) (p : Fin M) (q : Fin N) :
    Host.dotGeneral (F := Ideal) (φ₁ := .f32) (φ₂ := .f32) d none x w (ix2 p q) = dotAt x w p q := by
  subst hd
  exact dotGeneral_plain_apply none x w p q

/-- The maximum with a splat of the zero word, read at an index. -/
theorem reluSplat_apply {s : Shape} (v : s.Idx → EReal) (h : Sc.BroadcastsInDim s (![] : Fin 0 → Fin s.rank)) (i : s.Idx) :
    maximumf (F := Ideal) (φ := .f32) v (broadcastInDim s ![] h (constant (F := Ideal) Sc .f32 0x00000000#32)) i = max (v i) 0 := by
  show max (v i) (Ideal.ofBits .f32 0x00000000#32) = max (v i) 0
  rw [Ideal.ofBits_zero_f32]

/-- One product and a bias, unclamped. -/
theorem lin1_false_eq (d : DotDims (Mat M K) (Mat K N) (Mat M N)) (hd : d = DotDims.plain M K N)
    (x : (Mat M K).Idx → EReal) (w : (Mat K N).Idx → EReal) (b : (V1 N).Idx → EReal)
    (hc : (V1 N).ShapeCasts (Mat 1 N)) (h1 : (V1 N).BroadcastsInDim (Mat 1 N) ![1])
    (h2 : (Mat 1 N).BroadcastsInDim (Mat M N) ![0, 1]) :
    lin1 false x w (shapeCast (Mat 1 N) b hc)
      = addf (F := Ideal) (φ := .f32) (Host.dotGeneral (F := Ideal) (φ₁ := .f32) (φ₂ := .f32) d none x w)
          (broadcastInDim (Mat M N) ![0, 1] h2 (broadcastInDim (Mat 1 N) ![1] h1 b)) := by
  funext j
  obtain ⟨p, q, rfl⟩ : ∃ (p : Fin M) (q : Fin N), j = ix2 p q := ⟨j 0, j 1, eq_ix2 j⟩
  rw [addf_apply, hostDot_apply d hd, biasRows_apply]
  show (0 + dotAt x w p q) + shapeCast (Mat 1 N) b hc (ix2 (0 : Fin 1) q) = _
  rw [shapeCast_a_1a_apply, zero_add]

/-- One product and a bias, clamped at zero. -/
theorem lin1_true_eq (d : DotDims (Mat M K) (Mat K N) (Mat M N)) (hd : d = DotDims.plain M K N)
    (x : (Mat M K).Idx → EReal) (w : (Mat K N).Idx → EReal) (b : (V1 N).Idx → EReal)
    (hc : (V1 N).ShapeCasts (Mat 1 N)) (h1 : (V1 N).BroadcastsInDim (Mat 1 N) ![1])
    (h2 : (Mat 1 N).BroadcastsInDim (Mat M N) ![0, 1]) (h0 : Sc.BroadcastsInDim (Mat M N) (![] : Fin 0 → Fin 2)) :
    lin1 true x w (shapeCast (Mat 1 N) b hc)
      = maximumf (F := Ideal) (φ := .f32)
          (addf (F := Ideal) (φ := .f32) (Host.dotGeneral (F := Ideal) (φ₁ := .f32) (φ₂ := .f32) d none x w)
            (broadcastInDim (Mat M N) ![0, 1] h2 (broadcastInDim (Mat 1 N) ![1] h1 b)))
          (broadcastInDim (Mat M N) ![] h0 (constant (F := Ideal) Sc .f32 0x00000000#32)) := by
  funext j
  obtain ⟨p, q, rfl⟩ : ∃ (p : Fin M) (q : Fin N), j = ix2 p q := ⟨j 0, j 1, eq_ix2 j⟩
  rw [reluSplat_apply, addf_apply, hostDot_apply d hd, biasRows_apply]
  show max ((0 + dotAt x w p q) + shapeCast (Mat 1 N) b hc (ix2 (0 : Fin 1) q)) 0 = _
  rw [shapeCast_a_1a_apply, zero_add]

/-- Two products and a bias, clamped at zero: the kernel adds the bias last, the reference after the first product. -/
theorem lin2_true_eq (d₁ : DotDims (Mat M K) (Mat K N) (Mat M N)) (hd₁ : d₁ = DotDims.plain M K N)
    (d₂ : DotDims (Mat M K₂) (Mat K₂ N) (Mat M N)) (hd₂ : d₂ = DotDims.plain M K₂ N)
    (x₁ : (Mat M K).Idx → EReal) (w₁ : (Mat K N).Idx → EReal) (x₂ : (Mat M K₂).Idx → EReal) (w₂ : (Mat K₂ N).Idx → EReal)
    (b : (V1 N).Idx → EReal)
    (hc : (V1 N).ShapeCasts (Mat 1 N)) (h1 : (V1 N).BroadcastsInDim (Mat 1 N) ![1])
    (h2 : (Mat 1 N).BroadcastsInDim (Mat M N) ![0, 1]) (h0 : Sc.BroadcastsInDim (Mat M N) (![] : Fin 0 → Fin 2)) :
    lin2 true x₁ w₁ x₂ w₂ (shapeCast (Mat 1 N) b hc)
      = maximumf (F := Ideal) (φ := .f32)
          (addf (F := Ideal) (φ := .f32)
            (addf (F := Ideal) (φ := .f32) (Host.dotGeneral (F := Ideal) (φ₁ := .f32) (φ₂ := .f32) d₁ none x₁ w₁)
              (broadcastInDim (Mat M N) ![0, 1] h2 (broadcastInDim (Mat 1 N) ![1] h1 b)))
            (Host.dotGeneral (F := Ideal) (φ₁ := .f32) (φ₂ := .f32) d₂ none x₂ w₂))
          (broadcastInDim (Mat M N) ![] h0 (constant (F := Ideal) Sc .f32 0x00000000#32)) := by
  funext j
  obtain ⟨p, q, rfl⟩ : ∃ (p : Fin M) (q : Fin N), j = ix2 p q := ⟨j 0, j 1, eq_ix2 j⟩
  rw [reluSplat_apply, addf_apply, addf_apply, hostDot_apply d₁ hd₁, hostDot_apply d₂ hd₂, biasRows_apply]
  show max (((0 + dotAt x₁ w₁ p q) + dotAt x₂ w₂ p q) + shapeCast (Mat 1 N) b hc (ix2 (0 : Fin 1) q)) 0 = _
  rw [shapeCast_a_1a_apply, zero_add, add_right_comm]

/-- Three products and a bias, clamped at zero, the third weight and the bias each a sum of two: against the sum of
    two two-product stages sharing the third operand. The third operand and its two weights are real-valued, which
    is what splits the fused product. -/
theorem lin3_true_eq (d₁ : DotDims (Mat M K) (Mat K N) (Mat M N)) (hd₁ : d₁ = DotDims.plain M K N)
    (d₂ : DotDims (Mat M K₂) (Mat K₂ N) (Mat M N)) (hd₂ : d₂ = DotDims.plain M K₂ N)
    (d₃ : DotDims (Mat M K₃) (Mat K₃ N) (Mat M N)) (hd₃ : d₃ = DotDims.plain M K₃ N)
    (x₁ : (Mat M K).Idx → EReal) (w₁ : (Mat K N).Idx → EReal) (x₂ : (Mat M K₂).Idx → EReal) (w₂ : (Mat K₂ N).Idx → EReal)
    (x₃ : (Mat M K₃).Idx → EReal) (w₃ w₃' : (Mat K₃ N).Idx → EReal) (b b' : (V1 N).Idx → EReal)
    (hx₃ : IsReal x₃) (hw₃ : IsReal w₃) (hw₃' : IsReal w₃')
    (hc : (V1 N).ShapeCasts (Mat 1 N)) (h1 : (V1 N).BroadcastsInDim (Mat 1 N) ![1])
    (h2 : (Mat 1 N).BroadcastsInDim (Mat M N) ![0, 1]) (h0 : Sc.BroadcastsInDim (Mat M N) (![] : Fin 0 → Fin 2)) :
    lin3 true x₁ w₁ x₂ w₂ x₃ (addf (F := Ideal) (φ := .f32) w₃ w₃') (shapeCast (Mat 1 N) (addf (F := Ideal) (φ := .f32) b b') hc)
      = maximumf (F := Ideal) (φ := .f32)
          (addf (F := Ideal) (φ := .f32)
            (addf (F := Ideal) (φ := .f32)
              (addf (F := Ideal) (φ := .f32) (Host.dotGeneral (F := Ideal) (φ₁ := .f32) (φ₂ := .f32) d₁ none x₁ w₁)
                (broadcastInDim (Mat M N) ![0, 1] h2 (broadcastInDim (Mat 1 N) ![1] h1 b)))
              (Host.dotGeneral (F := Ideal) (φ₁ := .f32) (φ₂ := .f32) d₃ none x₃ w₃))
            (addf (F := Ideal) (φ := .f32)
              (addf (F := Ideal) (φ := .f32) (Host.dotGeneral (F := Ideal) (φ₁ := .f32) (φ₂ := .f32) d₂ none x₂ w₂)
                (broadcastInDim (Mat M N) ![0, 1] h2 (broadcastInDim (Mat 1 N) ![1] h1 b')))
              (Host.dotGeneral (F := Ideal) (φ₁ := .f32) (φ₂ := .f32) d₃ none x₃ w₃')))
          (broadcastInDim (Mat M N) ![] h0 (constant (F := Ideal) Sc .f32 0x00000000#32)) := by
  funext j
  obtain ⟨p, q, rfl⟩ : ∃ (p : Fin M) (q : Fin N), j = ix2 p q := ⟨j 0, j 1, eq_ix2 j⟩
  rw [reluSplat_apply, addf_apply, addf_apply, addf_apply, addf_apply, addf_apply,
    hostDot_apply d₁ hd₁, hostDot_apply d₂ hd₂, hostDot_apply d₃ hd₃, hostDot_apply d₃ hd₃, biasRows_apply, biasRows_apply]
  have e : dotAt x₃ (addf (F := Ideal) (φ := .f32) w₃ w₃') p q = dotAt x₃ w₃ p q + dotAt x₃ w₃' p q :=
    dotAt_add_right hx₃ hw₃ hw₃' p q
  show max ((((0 + dotAt x₁ w₁ p q) + dotAt x₂ w₂ p q) + dotAt x₃ (addf (F := Ideal) (φ := .f32) w₃ w₃') p q)
      + shapeCast (Mat 1 N) (addf (F := Ideal) (φ := .f32) b b') hc (ix2 (0 : Fin 1) q)) 0 = _
  rw [shapeCast_a_1a_apply, addf_apply, e, zero_add]
  congr 1
  ac_rfl

end Generic

variable [hK : Cert.KernelIdeal.Facts] [hR : Cert.ReferenceIdeal.Facts]

/-! ## Affine stages -/

theorem hTx0_eq (I : Inp) : KS.hTx0 I = RS.hTx0 I :=
  lin1_true_eq _ rfl I.a0 I.a13 I.a14 _ _ _ _

theorem hCard0_eq (I : Inp) (g : Good I) : KS.hCard0 I = RS.hCard0 I := by
  show lin1 false (KS.takeCardEmb I.a7 I.a1) I.a9 (KS.row128 I.a10) = _
  rw [takeCardEmb_eq _ _ g.r1]
  exact lin1_false_eq _ rfl _ I.a9 I.a10 _ _ _

theorem hMerch0_eq (I : Inp) (g : Good I) : KS.hMerch0 I = RS.hMerch0 I := by
  show lin1 false (KS.takeMerchEmb I.a8 I.a2) I.a11 (KS.row128 I.a12) = _
  rw [takeMerchEmb_eq _ _ g.r2]
  exact lin1_false_eq _ rfl _ I.a11 I.a12 _ _ _

/-- The transaction update: the fused right-hand weights and biases against the two aggregations summed. -/
theorem txNext_eq (I : Inp) (g : Good I) (Wl : (⟨3, ![4, 128, 128]⟩ : Shape).Idx → EReal) (bl : (Mat 4 128).Idx → EReal)
    (Wr : (⟨3, ![4, 128, 128]⟩ : Shape).Idx → EReal) (hTx : (Mat 200000 128).Idx → EReal) (hCard : (Mat 50000 128).Idx → EReal)
    (hMerch : (Mat 10000 128).Idx → EReal) (hTxR : IsReal hTx) (hWr : IsReal Wr) :
    KS.txNext I Wl bl Wr hTx hCard hMerch = RS.reluTx (RS.txPre I Wl bl Wr hTx hCard hMerch) := by
  show lin3 true (KS.meanTx (KS.takeCard hCard I.a3) I.a4 (KS.invTx I.a4)) (KS.w0 Wl)
    (KS.meanTx (KS.takeMerch hMerch I.a5) I.a6 (KS.invTx I.a6)) (KS.w2 Wl)
    hTx (addf (KS.w0 Wr) (KS.w2 Wr)) (KS.row128 (addf (KS.b0 bl) (KS.b2 bl))) = _
  rw [takeCard_eq _ _ g.r3, takeMerch_eq _ _ g.r5, meanTx_eq, meanTx_eq]
  exact lin3_true_eq _ rfl _ rfl _ rfl _ (KS.w0 Wl) _ (KS.w2 Wl) hTx (KS.w0 Wr) (KS.w2 Wr) (KS.b0 bl) (KS.b2 bl)
    hTxR (isReal_w0 hWr) (isReal_w2 hWr) _ _ _ _

theorem cardNext_eq (I : Inp) (g : Good I) (Wl : (⟨3, ![4, 128, 128]⟩ : Shape).Idx → EReal) (bl : (Mat 4 128).Idx → EReal)
    (Wr : (⟨3, ![4, 128, 128]⟩ : Shape).Idx → EReal) (hTx : (Mat 200000 128).Idx → EReal) (hCard : (Mat 50000 128).Idx → EReal) :
    KS.cardNext I Wl bl Wr hTx hCard = RS.reluCard (RS.cardPre I Wl bl Wr hTx hCard) := by
  show lin2 true (KS.meanCard (KS.takeTx hTx I.a4) I.a3 (KS.invCard I.a3)) (KS.w1 Wl) hCard (KS.w1 Wr) (KS.row128 (KS.b1 bl)) = _
  rw [takeTx_eq _ _ g.r4, meanCard_eq]
  exact lin2_true_eq _ rfl _ rfl _ (KS.w1 Wl) hCard (KS.w1 Wr) (KS.b1 bl) _ _ _ _

theorem merchNext_eq (I : Inp) (g : Good I) (Wl : (⟨3, ![4, 128, 128]⟩ : Shape).Idx → EReal) (bl : (Mat 4 128).Idx → EReal)
    (Wr : (⟨3, ![4, 128, 128]⟩ : Shape).Idx → EReal) (hTx : (Mat 200000 128).Idx → EReal) (hMerch : (Mat 10000 128).Idx → EReal) :
    KS.merchNext I Wl bl Wr hTx hMerch = RS.reluMerch (RS.merchPre I Wl bl Wr hTx hMerch) := by
  show lin2 true (KS.meanMerch (KS.takeTx hTx I.a6) I.a5 (KS.invMerch I.a5)) (KS.w3 Wl) hMerch (KS.w3 Wr) (KS.row128 (KS.b3 bl)) = _
  rw [takeTx_eq _ _ g.r6, meanMerch_eq]
  exact lin2_true_eq _ rfl _ rfl _ (KS.w3 Wl) hMerch (KS.w3 Wr) (KS.b3 bl) _ _ _ _

theorem hidden_eq (I : Inp) (hTx2 : (Mat 200000 128).Idx → EReal) :
    lin1 true hTx2 I.a18 (KS.row128 I.a19) = RS.reluTx (addf (RS.dotTx hTx2 I.a18) (RS.biasTx I.a19)) :=
  lin1_true_eq _ rfl hTx2 I.a18 I.a19 _ _ _ _

theorem logits_eq (I : Inp) (hid : (Mat 200000 128).Idx → EReal) :
    lin1 false hid I.a20 (shapeCast (Mat 1 1) I.a21 Cert.KernelIdeal.Facts₀.shapeCasts_S1_S1x1)
      = addf (F := Ideal) (φ := .f32) (Host.dotGeneral (F := Ideal) (φ₁ := .f32) (φ₂ := .f32) Cert.ReferenceIdeal.dot_S200000x128_S128x1_S200000x1_1_0_0_1_n_n none hid I.a20)
          (broadcastInDim (Mat 200000 1) ![0, 1] Cert.ReferenceIdeal.Facts₀.bcast_S1x1_S200000x1_0_1
            (broadcastInDim (Mat 1 1) ![1] Cert.ReferenceIdeal.Facts₀.bcast_S1_S1x1_1 I.a21)) :=
  lin1_false_eq _ rfl hid I.a20 I.a21 _ _ _

end Cert.Bridge

end
-- ==== Proof.Bridge.lean ====
/-
  The two dataflows are one function of the arguments under the precondition: stage by stage from the encoders to
  the head, carrying the real-valuedness of the transaction features (which the fused update's distributive law
  needs) through the encoders and the first layer.
-/
import proofs.«415088_j18769007083672_1_alg».proof.Proof.Bridge0
import proofs.«415088_j18769007083672_1_alg».proof.Proof.BridgeTake
import proofs.«415088_j18769007083672_1_alg».proof.Proof.BridgeLin

noncomputable section

namespace Cert.Bridge

open Idealize.ShloMosaic Idealize.ShloMosaic.ValueIdx Cert.Spec Cert.LibTakeFill

variable [hK : Cert.KernelIdeal.Facts] [hR : Cert.ReferenceIdeal.Facts]

/-! ## Auxiliary facts -/

/-- The entrywise sum of two real-valued arrays is real-valued. -/
private theorem isReal_sum2 {s : Shape} {a b : s.Idx → EReal} (ha : IsReal a) (hb : IsReal b) :
    IsReal (addf (F := Ideal) (φ := .f32) a b) := by
  intro i
  obtain ⟨x, hx⟩ := ha i
  obtain ⟨y, hy⟩ := hb i
  refine ⟨x + y, ?_⟩
  rw [addf_apply, hx, hy, EReal.coe_add]

/-- The two programs slice the stacked weights alike. -/
private theorem stack0_eq (w : (⟨4, ![2, 4, 128, 128]⟩ : Shape).Idx → EReal) : KS.stack0 w = RS.stack0 w := rfl
private theorem stack1_eq (w : (⟨4, ![2, 4, 128, 128]⟩ : Shape).Idx → EReal) : KS.stack1 w = RS.stack1 w := rfl
private theorem bstack0_eq (b : (⟨3, ![2, 4, 128]⟩ : Shape).Idx → EReal) : KS.bstack0 b = RS.bstack0 b := rfl
private theorem bstack1_eq (b : (⟨3, ![2, 4, 128]⟩ : Shape).Idx → EReal) : KS.bstack1 b = RS.bstack1 b := rfl

/-! ## Real-valuedness along the network -/

theorem isReal_hTx0 (I : Inp) (g : Good I) : IsReal (KS.hTx0 I) := by
  show IsReal (lin1 true I.a0 I.a13 (KS.row128 I.a14))
  exact isReal_lin1 true g.f0 g.f13 (isReal_row128 g.f14)
theorem isReal_hCard0 (I : Inp) (g : Good I) : IsReal (KS.hCard0 I) := by
  show IsReal (lin1 false (KS.takeCardEmb I.a7 I.a1) I.a9 (KS.row128 I.a10))
  rw [takeCardEmb_eq _ _ g.r1]
  exact isReal_lin1 false (isReal_gatherCardEmb g.f7 _) g.f9 (isReal_row128 g.f10)
theorem isReal_hMerch0 (I : Inp) (g : Good I) : IsReal (KS.hMerch0 I) := by
  show IsReal (lin1 false (KS.takeMerchEmb I.a8 I.a2) I.a11 (KS.row128 I.a12))
  rw [takeMerchEmb_eq _ _ g.r2]
  exact isReal_lin1 false (isReal_gatherMerchEmb g.f8 _) g.f11 (isReal_row128 g.f12)
theorem isReal_hTx1 (I : Inp) (g : Good I) : IsReal (KS.hTx1 I) := by
  have m1 : IsReal (KS.meanTx (KS.takeCard (KS.hCard0 I) I.a3) I.a4 (KS.invTx I.a4)) := by
    rw [takeCard_eq _ _ g.r3, meanTx_eq]
    exact isReal_meanTx (isReal_gatherCard (isReal_hCard0 I g) _) _
  have m2 : IsReal (KS.meanTx (KS.takeMerch (KS.hMerch0 I) I.a5) I.a6 (KS.invTx I.a6)) := by
    rw [takeMerch_eq _ _ g.r5, meanTx_eq]
    exact isReal_meanTx (isReal_gatherMerch (isReal_hMerch0 I g) _) _
  have hl : IsReal (KS.stack0 I.a15) := isReal_stack0 g.f15
  have hr : IsReal (KS.stack0 I.a17) := isReal_stack0 g.f17
  have hb : IsReal (KS.bstack0 I.a16) := isReal_bstack0 g.f16
  show IsReal (lin3 true (KS.meanTx (KS.takeCard (KS.hCard0 I) I.a3) I.a4 (KS.invTx I.a4)) (KS.w0 (KS.stack0 I.a15))
    (KS.meanTx (KS.takeMerch (KS.hMerch0 I) I.a5) I.a6 (KS.invTx I.a6)) (KS.w2 (KS.stack0 I.a15))
    (KS.hTx0 I) (addf (KS.w0 (KS.stack0 I.a17)) (KS.w2 (KS.stack0 I.a17)))
    (KS.row128 (addf (KS.b0 (KS.bstack0 I.a16)) (KS.b2 (KS.bstack0 I.a16)))))
  exact isReal_lin3 true m1 (isReal_w0 hl) m2 (isReal_w2 hl) (isReal_hTx0 I g)
    (isReal_sum2 (isReal_w0 hr) (isReal_w2 hr)) (isReal_row128 (isReal_sum2 (isReal_b0 hb) (isReal_b2 hb)))

/-! ## The network -/

/-- The first layer's transaction features. -/
theorem hTx1_eq (I : Inp) (g : Good I) : KS.hTx1 I = RS.hTx1 I := by
  show KS.txNext I (KS.stack0 I.a15) (KS.bstack0 I.a16) (KS.stack0 I.a17) (KS.hTx0 I) (KS.hCard0 I) (KS.hMerch0 I)
    = RS.reluTx (RS.txPre I (RS.stack0 I.a15) (RS.bstack0 I.a16) (RS.stack0 I.a17) (RS.hTx0 I) (RS.hCard0 I) (RS.hMerch0 I))
  rw [txNext_eq I g _ _ _ _ _ _ (isReal_hTx0 I g) (isReal_stack0 g.f17), hTx0_eq I, hCard0_eq I g, hMerch0_eq I g,
    stack0_eq, stack0_eq, bstack0_eq]

/-- The first layer's card features. -/
theorem hCard1_eq (I : Inp) (g : Good I) : KS.hCard1 I = RS.hCard1 I := by
  show KS.cardNext I (KS.stack0 I.a15) (KS.bstack0 I.a16) (KS.stack0 I.a17) (KS.hTx0 I) (KS.hCard0 I)
    = RS.reluCard (RS.cardPre I (RS.stack0 I.a15) (RS.bstack0 I.a16) (RS.stack0 I.a17) (RS.hTx0 I) (RS.hCard0 I))
  rw [cardNext_eq I g, hTx0_eq I, hCard0_eq I g, stack0_eq, stack0_eq, bstack0_eq]

/-- The first layer's merchant features. -/
theorem hMerch1_eq (I : Inp) (g : Good I) : KS.hMerch1 I = RS.hMerch1 I := by
  show KS.merchNext I (KS.stack0 I.a15) (KS.bstack0 I.a16) (KS.stack0 I.a17) (KS.hTx0 I) (KS.hMerch0 I)
    = RS.reluMerch (RS.merchPre I (RS.stack0 I.a15) (RS.bstack0 I.a16) (RS.stack0 I.a17) (RS.hTx0 I) (RS.hMerch0 I))
  rw [merchNext_eq I g, hTx0_eq I, hMerch0_eq I g, stack0_eq, stack0_eq, bstack0_eq]

/-- The second layer's transaction features. -/
theorem hTx2_eq (I : Inp) (g : Good I) : KS.hTx2 I = RS.hTx2 I := by
  show KS.txNext I (KS.stack1 I.a15) (KS.bstack1 I.a16) (KS.stack1 I.a17) (KS.hTx1 I) (KS.hCard1 I) (KS.hMerch1 I)
    = RS.reluTx (RS.txPre I (RS.stack1 I.a15) (RS.bstack1 I.a16) (RS.stack1 I.a17) (RS.hTx1 I) (RS.hCard1 I) (RS.hMerch1 I))
  rw [txNext_eq I g _ _ _ _ _ _ (isReal_hTx1 I g) (isReal_stack1 g.f17), hTx1_eq I g, hCard1_eq I g, hMerch1_eq I g,
    stack1_eq, stack1_eq, bstack1_eq]

/-- The head's hidden stage. -/
theorem hiddenNet_eq (I : Inp) (g : Good I) : KS.hidden I = RS.hidden I := by
  show lin1 true (KS.hTx2 I) I.a18 (KS.row128 I.a19) = RS.reluTx (addf (RS.dotTx (RS.hTx2 I) I.a18) (RS.biasTx I.a19))
  rw [hidden_eq I, hTx2_eq I g]

/-- The head's output column. -/
theorem logitsNet_eq (I : Inp) (g : Good I) : KS.logits I = RS.logits I := by
  show lin1 false (KS.hidden I) I.a20 (shapeCast (Mat 1 1) I.a21 Cert.KernelIdeal.Facts₀.shapeCasts_S1_S1x1) = RS.logits I
  rw [logits_eq I, hiddenNet_eq I g]
  rfl

theorem result_eq (I : Inp) (g : Good I) : KS.result I = RS.result I := by
  show shapeCast (V1 200000) (KS.logits I) Cert.KernelIdeal.Facts₀.shapeCasts_S200000x1_S200000
    = shapeCast (V1 200000) (RS.logits I) Cert.ReferenceIdeal.Facts₀.shapeCasts_S200000x1_S200000
  rw [logitsNet_eq I g]

end Cert.Bridge

end
-- ==== Proof.PreDecode.lean ====
/-
  The precondition, decoded: a memory of which the printed predicate holds has every float argument real-valued
  (|x| < +∞ excludes both infinities) and every row number inside [−N, N) of the table it indexes.
-/
import proofs.«415088_j18769007083672_1_alg».proof.Defs
import proofs.«415088_j18769007083672_1_alg».proof.Proof.Gen.Pre_finite_inputs
import proofs.«415088_j18769007083672_1_alg».proof.Proof.Bridge0
import Idealize.ShloMosaic.Lib.ReduceAll
import Idealize.ShloMosaic.Lib.StableHlo.Predicate

noncomputable section

namespace Cert.PreDecode

open Idealize.ShloMosaic Idealize.SL.Sem Cert.Spec Cert.Bridge
open Cert.LibTakeFill (V1)

/-- The scalar shape has one index. -/
instance : Subsingleton (⟨0, ![]⟩ : Shape).Idx := ⟨fun a b => funext fun d => d.elim0⟩

/-- The pattern 0x7F800000 denotes +∞. -/
theorem inf_bits : Ideal.ofBits .f32 0x7F800000#32 = (⊤ : EReal) := by
  simp [Ideal.ofBits, Ideal.ieee]

/-- An extended real whose absolute value (the larger of x and −x) is below +∞ is a real number. -/
theorem real_of_abs_lt_top (a : EReal) (h : Ideal.cmp .olt (max a (-a)) ⊤ = 1#1) : ∃ r : ℝ, a = (r : EReal) := by
  induction a using EReal.rec with
  | bot => simp [Ideal.cmp] at h
  | top => simp [Ideal.cmp] at h
  | coe r => exact ⟨r, rfl⟩

/-- A float array all of whose entries pass the test |x| < +∞ is real-valued. -/
theorem isReal_of_all {s : Shape} {axes : List (Fin s.rank)}
    (hb : (⟨0, ![]⟩ : Shape).BroadcastsInDim s (![] : Fin 0 → Fin s.rank)) (hr : s.ReducesTo axes ⟨0, ![]⟩)
    (h0 : 0 < (⟨0, ![]⟩ : Shape).numel) (x : FVec Ideal s .f32) (j : (⟨0, ![]⟩ : Shape).Idx)
    (e : Host.reduce IntOp.andi
        (cmpf .olt (Host.absf x) (broadcastInDim s ![] hb (constant (F := Ideal) ⟨0, ![]⟩ .f32 0x7F800000#32)))
        (constantI ⟨0, ![]⟩ 1 1#1) hr h0 j = 1#1) : IsReal x := by
  intro i
  have hi := Host.reduce_andi_all _ _ hr h0 j e i
  refine real_of_abs_lt_top (x i) ?_
  rw [← inf_bits]
  exact hi

/-- A vector of row numbers all of which pass the two tests idx ≥ −N and idx < N (signed) lies inside [−N, N). -/
theorem inRange_of_all {E : Nat} {axes : List (Fin (V1 E).rank)} (lo hi : BitVec 32) (N : ℤ)
    (hlo : lo.toInt = -N) (hhi : hi.toInt = N)
    (hb : (⟨0, ![]⟩ : Shape).BroadcastsInDim (V1 E) (![] : Fin 0 → Fin (V1 E).rank)) (hr : (V1 E).ReducesTo axes ⟨0, ![]⟩)
    (h0 : 0 < (⟨0, ![]⟩ : Shape).numel) (idx : IVec (V1 E) 32) (j : (⟨0, ![]⟩ : Shape).Idx)
    (e : Host.reduce IntOp.andi
        (andi (cmpi .sge idx (broadcastInDim (V1 E) ![] hb (constantI ⟨0, ![]⟩ 32 lo)))
          (cmpi .slt idx (broadcastInDim (V1 E) ![] hb (constantI ⟨0, ![]⟩ 32 hi))))
        (constantI ⟨0, ![]⟩ 1 1#1) hr h0 j = 1#1) : InRange N idx := by
  intro i
  have hi := Host.reduce_andi_all _ _ hr h0 j e i
  obtain ⟨h1, h2⟩ := IntOp.andi_eq_one.1 hi
  have h1' := IntOp.cmpi_sge.1 h1
  have h2' := IntOp.cmpi_slt.1 h2
  refine ⟨?_, ?_⟩
  · rw [← hlo]; exact h1'
  · rw [← hhi]; exact h2'

/-- A conjunction of two scalar truth words that is 1 has both conjuncts 1. -/
theorem andi_ix {x y : IVec ⟨0, ![]⟩ 1} {j : (⟨0, ![]⟩ : Shape).Idx} (h : andi x y j = 1#1) : x j = 1#1 ∧ y j = 1#1 :=
  IntOp.andi_eq_one.1 h

/-- Under the printed precondition the argument arrays of every core are good: real-valued floats, row numbers in range. -/
theorem good_of_pre [hK : Cert.KernelIdeal.Facts] [hR : Cert.ReferenceIdeal.Facts] [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) : Good (Cert.KernelIdeal.KS.inp m c) := by
  have h0 := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, Cert.Pre_finite_inputs.fn_part7] at h0
  obtain ⟨h0, r6⟩ := andi_ix h0
  obtain ⟨h0, r5⟩ := andi_ix h0
  obtain ⟨h0, r4⟩ := andi_ix h0
  obtain ⟨h0, r3⟩ := andi_ix h0
  obtain ⟨h0, r2⟩ := andi_ix h0
  obtain ⟨h0, r1⟩ := andi_ix h0
  obtain ⟨h0, f21⟩ := andi_ix h0
  obtain ⟨h0, f20⟩ := andi_ix h0
  obtain ⟨h0, f19⟩ := andi_ix h0
  obtain ⟨h0, f18⟩ := andi_ix h0
  obtain ⟨h0, f17⟩ := andi_ix h0
  obtain ⟨h0, f16⟩ := andi_ix h0
  obtain ⟨h0, f15⟩ := andi_ix h0
  obtain ⟨h0, f14⟩ := andi_ix h0
  obtain ⟨h0, f13⟩ := andi_ix h0
  obtain ⟨h0, f12⟩ := andi_ix h0
  obtain ⟨h0, f11⟩ := andi_ix h0
  obtain ⟨h0, f10⟩ := andi_ix h0
  obtain ⟨h0, f9⟩ := andi_ix h0
  obtain ⟨h0, f8⟩ := andi_ix h0
  obtain ⟨f0, f7⟩ := andi_ix h0
  exact
    { f0 := isReal_of_all _ _ _ _ _ f0
      f7 := isReal_of_all _ _ _ _ _ f7
      f8 := isReal_of_all _ _ _ _ _ f8
      f9 := isReal_of_all _ _ _ _ _ f9
      f10 := isReal_of_all _ _ _ _ _ f10
      f11 := isReal_of_all _ _ _ _ _ f11
      f12 := isReal_of_all _ _ _ _ _ f12
      f13 := isReal_of_all _ _ _ _ _ f13
      f14 := isReal_of_all _ _ _ _ _ f14
      f15 := isReal_of_all _ _ _ _ _ f15
      f16 := isReal_of_all _ _ _ _ _ f16
      f17 := isReal_of_all _ _ _ _ _ f17
      f18 := isReal_of_all _ _ _ _ _ f18
      f19 := isReal_of_all _ _ _ _ _ f19
      f20 := isReal_of_all _ _ _ _ _ f20
      f21 := isReal_of_all _ _ _ _ _ f21
      r1 := inRange_of_all _ _ 50000 (by decide) (by decide) _ _ _ _ _ r1
      r2 := inRange_of_all _ _ 10000 (by decide) (by decide) _ _ _ _ _ r2
      r3 := inRange_of_all _ _ 50000 (by decide) (by decide) _ _ _ _ _ r3
      r4 := inRange_of_all _ _ 200000 (by decide) (by decide) _ _ _ _ _ r4
      r5 := inRange_of_all _ _ 10000 (by decide) (by decide) _ _ _ _ _ r5
      r6 := inRange_of_all _ _ 200000 (by decide) (by decide) _ _ _ _ _ r6 }

end Cert.PreDecode

end
-- ==== Proof.lean ====
/-
  The certificate of a heterogeneous GraphSAGE network: two layers of mean aggregation over four edge types between
  transaction, card and merchant nodes, encoders in front and a two-layer head behind, every affine stage a Pallas
  region that tiles the node axis, against the plain jnp reference.

  Frames. The kernel program's two frames are the generated whole-program frame. The reference has no kernel: its frame is
  its run — the operation list cut at @main's six windows — with every argument buffer read back unchanged.

  Value, over the extended reals. The kernel program's result buffer ends at the last boundary of the run's fold; walking
  the fold segment by segment — a host stretch computes what its operations say, a region leaves in its output array
  the affine stage of the arrays it read — gives the kernel dataflow KS.result of the launch contents. The reference's
  run, window by window, gives the reference dataflow RS.result. The two dataflows differ in three places, and agree
  under the precondition: a filling take is the plain gather when every row number lies inside the table; a mean
  written sum · (1 / max(deg, 1)) is sum / max(deg, 1) because a degree is a count; and the transaction update's fused
  right-hand weights need x·(a + b) = x·a + x·b, which holds of real values — the transaction features are real because
  every input is finite and every stage keeps real values real. The precondition's six index conjuncts say exactly
  that every gather index addresses a row of its table (counting from either end), outside which the reference itself
  indexes out of range.
-/
import proofs.«415088_j18769007083672_1_alg».proof.Defs
import proofs.«415088_j18769007083672_1_alg».proof.Proof.Gen.Kernel
import proofs.«415088_j18769007083672_1_alg».proof.Proof.Gen.Kernel.Skeleton
import proofs.«415088_j18769007083672_1_alg».proof.Proof.Gen.Kernel.Launch
import proofs.«415088_j18769007083672_1_alg».proof.Proof.Gen.Kernel.Points
import proofs.«415088_j18769007083672_1_alg».proof.Proof.Gen.Kernel.Frame
import proofs.«415088_j18769007083672_1_alg».proof.Proof.Gen.KernelIdeal
import proofs.«415088_j18769007083672_1_alg».proof.Proof.Gen.KernelIdeal.Skeleton
import proofs.«415088_j18769007083672_1_alg».proof.Proof.Gen.KernelIdeal.Launch
import proofs.«415088_j18769007083672_1_alg».proof.Proof.Gen.KernelIdeal.Points
import proofs.«415088_j18769007083672_1_alg».proof.Proof.Gen.KernelIdeal.Frame
import proofs.«415088_j18769007083672_1_alg».proof.Proof.Gen.ReferenceIdeal
import proofs.«415088_j18769007083672_1_alg».proof.Proof.Gen.Pre_finite_inputs
import proofs.«415088_j18769007083672_1_alg».proof.Proof.KRun
import proofs.«415088_j18769007083672_1_alg».proof.Proof.KWalk2
import proofs.«415088_j18769007083672_1_alg».proof.Proof.RefWalk
import proofs.«415088_j18769007083672_1_alg».proof.Proof.Bridge
import proofs.«415088_j18769007083672_1_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, every argument buffer read back through the six windows. -/
theorem frame_ri : Cert.frame_ReferenceIdeal := fun m ρ _ =>
  (θ_run Cert.ReferenceIdeal.defs _ _).mono (fun _ h c =>
    ⟨(h c _).trans (Cert.ReferenceIdeal.RefWalk.final_arg0 m c),
     (h c _).trans (Cert.ReferenceIdeal.RefWalk.final_arg1 m c),
     (h c _).trans (Cert.ReferenceIdeal.RefWalk.final_arg2 m c),
     (h c _).trans (Cert.ReferenceIdeal.RefWalk.final_arg3 m c),
     (h c _).trans (Cert.ReferenceIdeal.RefWalk.final_arg4 m c),
     (h c _).trans (Cert.ReferenceIdeal.RefWalk.final_arg5 m c),
     (h c _).trans (Cert.ReferenceIdeal.RefWalk.final_arg6 m c),
     (h c _).trans (Cert.ReferenceIdeal.RefWalk.final_arg7 m c),
     (h c _).trans (Cert.ReferenceIdeal.RefWalk.final_arg8 m c),
     (h c _).trans (Cert.ReferenceIdeal.RefWalk.final_arg9 m c),
     (h c _).trans (Cert.ReferenceIdeal.RefWalk.final_arg10 m c),
     (h c _).trans (Cert.ReferenceIdeal.RefWalk.final_arg11 m c),
     (h c _).trans (Cert.ReferenceIdeal.RefWalk.final_arg12 m c),
     (h c _).trans (Cert.ReferenceIdeal.RefWalk.final_arg13 m c),
     (h c _).trans (Cert.ReferenceIdeal.RefWalk.final_arg14 m c),
     (h c _).trans (Cert.ReferenceIdeal.RefWalk.final_arg15 m c),
     (h c _).trans (Cert.ReferenceIdeal.RefWalk.final_arg16 m c),
     (h c _).trans (Cert.ReferenceIdeal.RefWalk.final_arg17 m c),
     (h c _).trans (Cert.ReferenceIdeal.RefWalk.final_arg18 m c),
     (h c _).trans (Cert.ReferenceIdeal.RefWalk.final_arg19 m c),
     (h c _).trans (Cert.ReferenceIdeal.RefWalk.final_arg20 m c),
     (h c _).trans (Cert.ReferenceIdeal.RefWalk.final_arg21 m c)⟩)
    (Cert.ReferenceIdeal.RunW.run (F := Ideal) m ρ)

/-- Memories that agree on the arguments hand the two dataflows the same arrays. -/
theorem inp_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) :
    Cert.ReferenceIdeal.RS.inp m' c = Cert.KernelIdeal.KS.inp m c := by
  obtain ⟨h0, h1, h2, h3, h4, h5, h6, h7, h8, h9, h10, h11, h12, h13, h14, h15, h16, h17, h18, h19, h20, h21⟩ := h
  unfold Cert.ReferenceIdeal.RS.inp Cert.KernelIdeal.KS.inp
  rw [h0, h1, h2, h3, h4, h5, h6, h7, h8, h9, h10, h11, h12, h13, h14, h15, h16, h17, h18, h19, h20, h21]

/-- Both programs end with the same result array: the kernel dataflow of the launch contents. -/
theorem algebraic : Cert.algebraic_KernelIdeal_ReferenceIdeal := by
  intro m ρ m' ρ' hpre hagree
  refine ⟨fun c => Cert.KernelIdeal.KS.result (Cert.KernelIdeal.KS.inp m c), ?_, ?_⟩
  · exact (θ_run Cert.KernelIdeal.defs _ _).mono
      (fun _ h c => ⟨(h c).1.trans (Cert.KernelIdeal.KWalk.W35_v169 m ρ c), (h c).2⟩)
      (Cert.KernelIdeal.Gen.run_value (F := Ideal) m ρ)
  · refine (θ_run Cert.ReferenceIdeal.defs _ _).mono (fun _ h c => ⟨?_,
     (h c _).trans (Cert.ReferenceIdeal.RefWalk.final_arg0 m' c),
     (h c _).trans (Cert.ReferenceIdeal.RefWalk.final_arg1 m' c),
     (h c _).trans (Cert.ReferenceIdeal.RefWalk.final_arg2 m' c),
     (h c _).trans (Cert.ReferenceIdeal.RefWalk.final_arg3 m' c),
     (h c _).trans (Cert.ReferenceIdeal.RefWalk.final_arg4 m' c),
     (h c _).trans (Cert.ReferenceIdeal.RefWalk.final_arg5 m' c),
     (h c _).trans (Cert.ReferenceIdeal.RefWalk.final_arg6 m' c),
     (h c _).trans (Cert.ReferenceIdeal.RefWalk.final_arg7 m' c),
     (h c _).trans (Cert.ReferenceIdeal.RefWalk.final_arg8 m' c),
     (h c _).trans (Cert.ReferenceIdeal.RefWalk.final_arg9 m' c),
     (h c _).trans (Cert.ReferenceIdeal.RefWalk.final_arg10 m' c),
     (h c _).trans (Cert.ReferenceIdeal.RefWalk.final_arg11 m' c),
     (h c _).trans (Cert.ReferenceIdeal.RefWalk.final_arg12 m' c),
     (h c _).trans (Cert.ReferenceIdeal.RefWalk.final_arg13 m' c),
     (h c _).trans (Cert.ReferenceIdeal.RefWalk.final_arg14 m' c),
     (h c _).trans (Cert.ReferenceIdeal.RefWalk.final_arg15 m' c),
     (h c _).trans (Cert.ReferenceIdeal.RefWalk.final_arg16 m' c),
     (h c _).trans (Cert.ReferenceIdeal.RefWalk.final_arg17 m' c),
     (h c _).trans (Cert.ReferenceIdeal.RefWalk.final_arg18 m' c),
     (h c _).trans (Cert.ReferenceIdeal.RefWalk.final_arg19 m' c),
     (h c _).trans (Cert.ReferenceIdeal.RefWalk.final_arg20 m' c),
     (h c _).trans (Cert.ReferenceIdeal.RefWalk.final_arg21 m' c)⟩)
      (Cert.ReferenceIdeal.RunW.run (F := Ideal) m' ρ')
    rw [h c Cert.ReferenceIdeal.main_v304, Cert.ReferenceIdeal.RefWalk.final_result m' c, inp_eq m m' c (hagree c)]
    exact (Cert.Bridge.result_eq _ (Cert.PreDecode.good_of_pre m hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
